-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v539) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x40 : Shape := ⟨2, ![100000, 40]⟩
abbrev S2x3200000 : Shape := ⟨2, ![2, 3200000]⟩
abbrev S32x40 : Shape := ⟨2, ![32, 40]⟩
abbrev S32 : Shape := ⟨1, ![32]⟩
abbrev S3x3x32x32 : Shape := ⟨4, ![3, 3, 32, 32]⟩
abbrev S3x96x32 : Shape := ⟨3, ![3, 96, 32]⟩
abbrev S3x96 : Shape := ⟨2, ![3, 96]⟩
abbrev S_ : Shape := ⟨0, ![]⟩

class Facts : Prop where
  bcast_S_S100000x40 : S_.BroadcastsInDim S100000x40 (![] : Fin 0 → Fin S100000x40.rank)
  reducesTo_S100000x40_S_d0_1 : S100000x40.ReducesTo [0, 1] S_
  h_S_ : 0 < S_.numel
  bcast_S_S32x40 : S_.BroadcastsInDim S32x40 (![] : Fin 0 → Fin S32x40.rank)
  reducesTo_S32x40_S_d0_1 : S32x40.ReducesTo [0, 1] S_
  bcast_S_S32 : S_.BroadcastsInDim S32 (![] : Fin 0 → Fin S32.rank)
  reducesTo_S32_S_d0 : S32.ReducesTo [0] S_
  bcast_S_S3x3x32x32 : S_.BroadcastsInDim S3x3x32x32 (![] : Fin 0 → Fin S3x3x32x32.rank)
  reducesTo_S3x3x32x32_S_d0_1_2_3 : S3x3x32x32.ReducesTo [0, 1, 2, 3] S_
  bcast_S_S3x96x32 : S_.BroadcastsInDim S3x96x32 (![] : Fin 0 → Fin S3x96x32.rank)
  reducesTo_S3x96x32_S_d0_1_2 : S3x96x32.ReducesTo [0, 1, 2] S_
  bcast_S_S3x96 : S_.BroadcastsInDim S3x96 (![] : Fin 0 → Fin S3x96.rank)
  reducesTo_S3x96_S_d0_1 : S3x96.ReducesTo [0, 1] S_

variable [Facts]

def fn_part2 {F : FTy → Type} [FloatOps F] (main_arg8 : FVec F S3x96 .f32) (main_v33 : IVec S_ 1) : IVec S_ 1 :=
  let main_v34 : FVec F S3x96 .f32 := Host.absf main_arg8
  let main_cst_12 : FVec F S_ .f32 := constant S_ .f32 0x7F800000#32
  let main_v35 : FVec F S3x96 .f32 := broadcastInDim S3x96 ![] bcast_S_S3x96 main_cst_12
  let main_v36 : IVec S3x96 1 := cmpf .olt main_v34 main_v35
  let main_c_13 : IVec S_ 1 := constantI S_ 1 1#1
  let main_v37 : IVec S_ 1 := (fun x v => Host.reduce IntOp.andi x v reducesTo_S3x96_S_d0_1 h_S_) main_v36 main_c_13
  let main_v38 : IVec S_ 1 := andi main_v33 main_v37
  main_v38

def fn_part1 {F : FTy → Type} [FloatOps F] (main_arg5 : FVec F S3x96x32 .f32) (main_arg6 : FVec F S3x96x32 .f32) (main_arg7 : FVec F S3x96 .f32) (main_arg8 : FVec F S3x96 .f32) (main_v13 : IVec S_ 1) (main_v16 : IVec S3x3x32x32 1) : IVec S_ 1 :=
  let main_c_5 : IVec S_ 1 := constantI S_ 1 1#1
  let main_v17 : IVec S_ 1 := (fun x v => Host.reduce IntOp.andi x v reducesTo_S3x3x32x32_S_d0_1_2_3 h_S_) main_v16 main_c_5
  let main_v18 : IVec S_ 1 := andi main_v13 main_v17
  let main_v19 : FVec F S3x96x32 .f32 := Host.absf main_arg5
  let main_cst_6 : FVec F S_ .f32 := constant S_ .f32 0x7F800000#32
  let main_v20 : FVec F S3x96x32 .f32 := broadcastInDim S3x96x32 ![] bcast_S_S3x96x32 main_cst_6
  let main_v21 : IVec S3x96x32 1 := cmpf .olt main_v19 main_v20
  let main_c_7 : IVec S_ 1 := constantI S_ 1 1#1
  let main_v22 : IVec S_ 1 := (fun x v => Host.reduce IntOp.andi x v reducesTo_S3x96x32_S_d0_1_2 h_S_) main_v21 main_c_7
  let main_v23 : IVec S_ 1 := andi main_v18 main_v22
  let main_v24 : FVec F S3x96x32 .f32 := Host.absf main_arg6
  let main_cst_8 : FVec F S_ .f32 := constant S_ .f32 0x7F800000#32
  let main_v25 : FVec F S3x96x32 .f32 := broadcastInDim S3x96x32 ![] bcast_S_S3x96x32 main_cst_8
  let main_v26 : IVec S3x96x32 1 := cmpf .olt main_v24 main_v25
  let main_c_9 : IVec S_ 1 := constantI S_ 1 1#1
  let main_v27 : IVec S_ 1 := (fun x v => Host.reduce IntOp.andi x v reducesTo_S3x96x32_S_d0_1_2 h_S_) main_v26 main_c_9
  let main_v28 : IVec S_ 1 := andi main_v23 main_v27
  let main_v29 : FVec F S3x96 .f32 := Host.absf main_arg7
  let main_cst_10 : FVec F S_ .f32 := constant S_ .f32 0x7F800000#32
  let main_v30 : FVec F S3x96 .f32 := broadcastInDim S3x96 ![] bcast_S_S3x96 main_cst_10
  let main_v31 : IVec S3x96 1 := cmpf .olt main_v29 main_v30
  let main_c_11 : IVec S_ 1 := constantI S_ 1 1#1
  let main_v32 : IVec S_ 1 := (fun x v => Host.reduce IntOp.andi x v reducesTo_S3x96_S_d0_1 h_S_) main_v31 main_c_11
  let main_v33 : IVec S_ 1 := andi main_v28 main_v32
  fn_part2 (F := F) main_arg8 main_v33

def fn {F : FTy → Type} [FloatOps F] (main_arg0 : FVec F S100000x40 .f32) (main_arg1 : IVec S2x3200000 32) (main_arg2 : FVec F S32x40 .f32) (main_arg3 : FVec F S32 .f32) (main_arg4 : FVec F S3x3x32x32 .f32) (main_arg5 : FVec F S3x96x32 .f32) (main_arg6 : FVec F S3x96x32 .f32) (main_arg7 : FVec F S3x96 .f32) (main_arg8 : FVec F S3x96 .f32) : IVec S_ 1 :=
  let main_v0 : FVec F S100000x40 .f32 := Host.absf main_arg0
  let main_cst : FVec F S_ .f32 := constant S_ .f32 0x7F800000#32
  let main_v1 : FVec F S100000x40 .f32 := broadcastInDim S100000x40 ![] bcast_S_S100000x40 main_cst
  let main_v2 : IVec S100000x40 1 := cmpf .olt main_v0 main_v1
  let main_c : IVec S_ 1 := constantI S_ 1 1#1
  let main_v3 : IVec S_ 1 := (fun x v => Host.reduce IntOp.andi x v reducesTo_S100000x40_S_d0_1 h_S_) main_v2 main_c
  let main_v4 : FVec F S32x40 .f32 := Host.absf main_arg2
  let main_cst_0 : FVec F S_ .f32 := constant S_ .f32 0x7F800000#32
  let main_v5 : FVec F S32x40 .f32 := broadcastInDim S32x40 ![] bcast_S_S32x40 main_cst_0
  let main_v6 : IVec S32x40 1 := cmpf .olt main_v4 main_v5
  let main_c_1 : IVec S_ 1 := constantI S_ 1 1#1
  let main_v7 : IVec S_ 1 := (fun x v => Host.reduce IntOp.andi x v reducesTo_S32x40_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S3x3x32x32 .f32 := Host.absf main_arg4
  let main_cst_4 : FVec F S_ .f32 := constant S_ .f32 0x7F800000#32
  let main_v15 : FVec F S3x3x32x32 .f32 := broadcastInDim S3x3x32x32 ![] bcast_S_S3x3x32x32 main_cst_4
  let main_v16 : IVec S3x3x32x32 1 := cmpf .olt main_v14 main_v15
  fn_part1 (F := F) main_arg5 main_arg6 main_arg7 main_arg8 main_v13 main_v16
-- ==== Kernel.lean ====
abbrev S100000x40 : Shape := ⟨2, ![100000, 40]⟩
abbrev S2x3200000 : Shape := ⟨2, ![2, 3200000]⟩
abbrev S32x40 : Shape := ⟨2, ![32, 40]⟩
abbrev S32 : Shape := ⟨1, ![32]⟩
abbrev S3x3x32x32 : Shape := ⟨4, ![3, 3, 32, 32]⟩
abbrev S3x96x32 : Shape := ⟨3, ![3, 96, 32]⟩
abbrev S3x96 : Shape := ⟨2, ![3, 96]⟩
abbrev S1x3200000 : Shape := ⟨2, ![1, 3200000]⟩
abbrev S3200000 : Shape := ⟨1, ![3200000]⟩
abbrev S40x32 : Shape := ⟨2, ![40, 32]⟩
abbrev S1x32 : Shape := ⟨2, ![1, 32]⟩
abbrev S100000x32 : Shape := ⟨2, ![100000, 32]⟩
abbrev S2000x40 : Shape := ⟨2, ![2000, 40]⟩
abbrev S2000x32 : Shape := ⟨2, ![2000, 32]⟩
abbrev S3x32x96 : Shape := ⟨3, ![3, 32, 96]⟩
abbrev S1x32x96 : Shape := ⟨3, ![1, 32, 96]⟩
abbrev S32x96 : Shape := ⟨2, ![32, 96]⟩
abbrev S1x96 : Shape := ⟨2, ![1, 96]⟩
abbrev S96 : Shape := ⟨1, ![96]⟩
abbrev S1x1x32x32 : Shape := ⟨4, ![1, 1, 32, 32]⟩
abbrev S32x32 : Shape := ⟨2, ![32, 32]⟩
abbrev S100000x96 : Shape := ⟨2, ![100000, 96]⟩
abbrev S2000x96 : Shape := ⟨2, ![2000, 96]⟩
abbrev S_ : Shape := ⟨0, ![]⟩
abbrev S3200000x1 : Shape := ⟨2, ![3200000, 1]⟩
abbrev S3200000x32 : Shape := ⟨2, ![3200000, 32]⟩

abbrev nBuf : Space → Nat
  | .hbm => 210
  | .vmem => 177
  | .smem => 0
  | _ => 0

abbrev hbmTy0_0 (i : Nat) : BufTy := match i % 128 with
  | 0 => ⟨S100000x40, .f32⟩
  | 1 => ⟨S2x3200000, .i32⟩
  | 2 => ⟨S32x40, .f32⟩
  | 3 => ⟨S32, .f32⟩
  | 4 => ⟨S3x3x32x32, .f32⟩
  | 5 => ⟨S3x96x32, .f32⟩
  | 6 => ⟨S3x96x32, .f32⟩
  | 7 => ⟨S3x96, .f32⟩
  | 8 => ⟨S3x96, .f32⟩
  | 9 => ⟨S1x3200000, .i32⟩
  | 10 => ⟨S3200000, .i32⟩
  | 11 => ⟨S1x3200000, .i32⟩
  | 12 => ⟨S3200000, .i32⟩
  | 13 => ⟨S40x32, .f32⟩
  | 14 => ⟨S1x32, .f32⟩
  | 15 => ⟨S100000x32, .f32⟩
  | 16 => ⟨S3x32x96, .f32⟩
  | 17 => ⟨S3x32x96, .f32⟩
  | 18 => ⟨S1x32x96, .f32⟩
  | 19 => ⟨S32x96, .f32⟩
  | 20 => ⟨S1x32x96, .f32⟩
  | 21 => ⟨S32x96, .f32⟩
  | 22 => ⟨S1x96, .f32⟩
  | 23 => ⟨S96, .f32⟩
  | 24 => ⟨S1x96, .f32⟩
  | 25 => ⟨S1x96, .f32⟩
  | 26 => ⟨S96, .f32⟩
  | 27 => ⟨S1x96, .f32⟩
  | 28 => ⟨S1x1x32x32, .f32⟩
  | 29 => ⟨S32x32, .f32⟩
  | 30 => ⟨S100000x32, .f32⟩
  | 31 => ⟨S100000x96, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000x32, .f32⟩
  | 41 => ⟨S_, .f32⟩
  | 42 => ⟨S100000x32, .f32⟩
  | 43 => ⟨S3200000x1, .i32⟩
  | 44 => ⟨S100000x32, .f32⟩
  | 45 => ⟨S100000x32, .f32⟩
  | 46 => ⟨S1x1x32x32, .f32⟩
  | 47 => ⟨S32x32, .f32⟩
  | 48 => ⟨S100000x32, .f32⟩
  | 49 => ⟨S100000x96, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S3200000x32, .f32⟩
  | 59 => ⟨S_, .f32⟩
  | 60 => ⟨S100000x32, .f32⟩
  | 61 => ⟨S3200000x1, .i32⟩
  | 62 => ⟨S100000x32, .f32⟩
  | 63 => ⟨S100000x32, .f32⟩
  | 64 => ⟨S1x1x32x32, .f32⟩
  | 65 => ⟨S32x32, .f32⟩
  | 66 => ⟨S100000x32, .f32⟩
  | 67 => ⟨S100000x96, .f32⟩
  | 68 => ⟨S_, .i32⟩
  | 69 => ⟨S3200000, .i32⟩
  | 70 => ⟨S3200000, .i1⟩
  | 71 => ⟨S_, .i32⟩
  | 72 => ⟨S3200000, .i32⟩
  | 73 => ⟨S3200000, .i32⟩
  | 74 => ⟨S3200000, .i32⟩
  | 75 => ⟨S3200000x1, .i32⟩
  | 76 => ⟨S3200000x32, .f32⟩
  | 77 => ⟨S_, .f32⟩
  | 78 => ⟨S100000x32, .f32⟩
  | 79 => ⟨S3200000x1, .i32⟩
  | 80 => ⟨S100000x32, .f32⟩
  | 81 => ⟨S100000x32, .f32⟩
  | 82 => ⟨S1x32x96, .f32⟩
  | 83 => ⟨S32x96, .f32⟩
  | 84 => ⟨S1x32x96, .f32⟩
  | 85 => ⟨S32x96, .f32⟩
  | 86 => ⟨S1x96, .f32⟩
  | 87 => ⟨S96, .f32⟩
  | 88 => ⟨S1x96, .f32⟩
  | 89 => ⟨S1x96, .f32⟩
  | 90 => ⟨S96, .f32⟩
  | 91 => ⟨S1x96, .f32⟩
  | 92 => ⟨S1x1x32x32, .f32⟩
  | 93 => ⟨S32x32, .f32⟩
  | 94 => ⟨S100000x32, .f32⟩
  | 95 => ⟨S100000x96, .f32⟩
  | 96 => ⟨S_, .i32⟩
  | 97 => ⟨S3200000, .i32⟩
  | 98 => ⟨S3200000, .i1⟩
  | 99 => ⟨S_, .i32⟩
  | 100 => ⟨S3200000, .i32⟩
  | 101 => ⟨S3200000, .i32⟩
  | 102 => ⟨S3200000, .i32⟩
  | 103 => ⟨S3200000x1, .i32⟩
  | 104 => ⟨S3200000x32, .f32⟩
  | 105 => ⟨S_, .f32⟩
  | 106 => ⟨S100000x32, .f32⟩
  | 107 => ⟨S3200000x1, .i32⟩
  | 108 => ⟨S100000x32, .f32⟩
  | 109 => ⟨S100000x32, .f32⟩
  | 110 => ⟨S1x1x32x32, .f32⟩
  | 111 => ⟨S32x32, .f32⟩
  | 112 => ⟨S100000x32, .f32⟩
  | 113 => ⟨S100000x96, .f32⟩
  | 114 => ⟨S_, .i32⟩
  | 115 => ⟨S3200000, .i32⟩
  | 116 => ⟨S3200000, .i1⟩
  | 117 => ⟨S_, .i32⟩
  | 118 => ⟨S3200000, .i32⟩
  | 119 => ⟨S3200000, .i32⟩
  | 120 => ⟨S3200000, .i32⟩
  | 121 => ⟨S3200000x1, .i32⟩
  | 122 => ⟨S3200000x32, .f32⟩
  | 123 => ⟨S_, .f32⟩
  | 124 => ⟨S100000x32, .f32⟩
  | 125 => ⟨S3200000x1, .i32⟩
  | 126 => ⟨S100000x32, .f32⟩
  | 127 => ⟨S100000x32, .f32⟩
  | _ => ⟨S100000x40, .f32⟩

abbrev hbmTy0_1 (i : Nat) : BufTy := match i % 128 with
  | 0 => ⟨S1x1x32x32, .f32⟩
  | 1 => ⟨S32x32, .f32⟩
  | 2 => ⟨S100000x32, .f32⟩
  | 3 => ⟨S100000x96, .f32⟩
  | 4 => ⟨S_, .i32⟩
  | 5 => ⟨S3200000, .i32⟩
  | 6 => ⟨S3200000, .i1⟩
  | 7 => ⟨S_, .i32⟩
  | 8 => ⟨S3200000, .i32⟩
  | 9 => ⟨S3200000, .i32⟩
  | 10 => ⟨S3200000, .i32⟩
  | 11 => ⟨S3200000x1, .i32⟩
  | 12 => ⟨S3200000x32, .f32⟩
  | 13 => ⟨S_, .f32⟩
  | 14 => ⟨S100000x32, .f32⟩
  | 15 => ⟨S3200000x1, .i32⟩
  | 16 => ⟨S100000x32, .f32⟩
  | 17 => ⟨S100000x32, .f32⟩
  | 18 => ⟨S1x32x96, .f32⟩
  | 19 => ⟨S32x96, .f32⟩
  | 20 => ⟨S1x32x96, .f32⟩
  | 21 => ⟨S32x96, .f32⟩
  | 22 => ⟨S1x96, .f32⟩
  | 23 => ⟨S96, .f32⟩
  | 24 => ⟨S1x96, .f32⟩
  | 25 => ⟨S1x96, .f32⟩
  | 26 => ⟨S96, .f32⟩
  | 27 => ⟨S1x96, .f32⟩
  | 28 => ⟨S1x1x32x32, .f32⟩
  | 29 => ⟨S32x32, .f32⟩
  | 30 => ⟨S100000x32, .f32⟩
  | 31 => ⟨S100000x96, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000x32, .f32⟩
  | 41 => ⟨S_, .f32⟩
  | 42 => ⟨S100000x32, .f32⟩
  | 43 => ⟨S3200000x1, .i32⟩
  | 44 => ⟨S100000x32, .f32⟩
  | 45 => ⟨S100000x32, .f32⟩
  | 46 => ⟨S1x1x32x32, .f32⟩
  | 47 => ⟨S32x32, .f32⟩
  | 48 => ⟨S100000x32, .f32⟩
  | 49 => ⟨S100000x96, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S3200000x32, .f32⟩
  | 59 => ⟨S_, .f32⟩
  | 60 => ⟨S100000x32, .f32⟩
  | 61 => ⟨S3200000x1, .i32⟩
  | 62 => ⟨S100000x32, .f32⟩
  | 63 => ⟨S100000x32, .f32⟩
  | 64 => ⟨S1x1x32x32, .f32⟩
  | 65 => ⟨S32x32, .f32⟩
  | 66 => ⟨S100000x32, .f32⟩
  | 67 => ⟨S100000x96, .f32⟩
  | 68 => ⟨S_, .i32⟩
  | 69 => ⟨S3200000, .i32⟩
  | 70 => ⟨S3200000, .i1⟩
  | 71 => ⟨S_, .i32⟩
  | 72 => ⟨S3200000, .i32⟩
  | 73 => ⟨S3200000, .i32⟩
  | 74 => ⟨S3200000, .i32⟩
  | 75 => ⟨S3200000x1, .i32⟩
  | 76 => ⟨S3200000x32, .f32⟩
  | 77 => ⟨S_, .f32⟩
  | 78 => ⟨S100000x32, .f32⟩
  | 79 => ⟨S3200000x1, .i32⟩
  | 80 => ⟨S100000x32, .f32⟩
  | 81 => ⟨S100000x32, .f32⟩
  | _ => ⟨S100000x40, .f32⟩

abbrev hbmTy (i : Nat) : BufTy := match i / 128 with
  | 0 => hbmTy0_0 i
  | 1 => hbmTy0_1 i
  | _ => ⟨S100000x40, .f32⟩

abbrev vmemTy0_0 (i : Nat) : BufTy := match i % 128 with
  | 0 => ⟨S2000x40, .f32⟩
  | 1 => ⟨S2000x40, .f32⟩
  | 2 => ⟨S40x32, .f32⟩
  | 3 => ⟨S1x32, .f32⟩
  | 4 => ⟨S2000x32, .f32⟩
  | 5 => ⟨S2000x32, .f32⟩
  | 6 => ⟨S2000x32, .f32⟩
  | 7 => ⟨S2000x32, .f32⟩
  | 8 => ⟨S32x32, .f32⟩
  | 9 => ⟨S32x96, .f32⟩
  | 10 => ⟨S1x96, .f32⟩
  | 11 => ⟨S2000x32, .f32⟩
  | 12 => ⟨S2000x32, .f32⟩
  | 13 => ⟨S2000x96, .f32⟩
  | 14 => ⟨S2000x96, .f32⟩
  | 15 => ⟨S2000x32, .f32⟩
  | 16 => ⟨S2000x32, .f32⟩
  | 17 => ⟨S2000x96, .f32⟩
  | 18 => ⟨S2000x96, .f32⟩
  | 19 => ⟨S2000x32, .f32⟩
  | 20 => ⟨S2000x32, .f32⟩
  | 21 => ⟨S32x96, .f32⟩
  | 22 => ⟨S1x96, .f32⟩
  | 23 => ⟨S2000x32, .f32⟩
  | 24 => ⟨S2000x32, .f32⟩
  | 25 => ⟨S2000x32, .f32⟩
  | 26 => ⟨S2000x32, .f32⟩
  | 27 => ⟨S32x32, .f32⟩
  | 28 => ⟨S32x96, .f32⟩
  | 29 => ⟨S1x96, .f32⟩
  | 30 => ⟨S2000x32, .f32⟩
  | 31 => ⟨S2000x32, .f32⟩
  | 32 => ⟨S2000x96, .f32⟩
  | 33 => ⟨S2000x96, .f32⟩
  | 34 => ⟨S2000x32, .f32⟩
  | 35 => ⟨S2000x32, .f32⟩
  | 36 => ⟨S2000x96, .f32⟩
  | 37 => ⟨S2000x96, .f32⟩
  | 38 => ⟨S2000x32, .f32⟩
  | 39 => ⟨S2000x32, .f32⟩
  | 40 => ⟨S32x96, .f32⟩
  | 41 => ⟨S1x96, .f32⟩
  | 42 => ⟨S2000x32, .f32⟩
  | 43 => ⟨S2000x32, .f32⟩
  | 44 => ⟨S2000x32, .f32⟩
  | 45 => ⟨S2000x32, .f32⟩
  | 46 => ⟨S32x32, .f32⟩
  | 47 => ⟨S32x96, .f32⟩
  | 48 => ⟨S1x96, .f32⟩
  | 49 => ⟨S2000x32, .f32⟩
  | 50 => ⟨S2000x32, .f32⟩
  | 51 => ⟨S2000x96, .f32⟩
  | 52 => ⟨S2000x96, .f32⟩
  | 53 => ⟨S2000x32, .f32⟩
  | 54 => ⟨S2000x32, .f32⟩
  | 55 => ⟨S2000x96, .f32⟩
  | 56 => ⟨S2000x96, .f32⟩
  | 57 => ⟨S2000x32, .f32⟩
  | 58 => ⟨S2000x32, .f32⟩
  | 59 => ⟨S32x96, .f32⟩
  | 60 => ⟨S1x96, .f32⟩
  | 61 => ⟨S2000x32, .f32⟩
  | 62 => ⟨S2000x32, .f32⟩
  | 63 => ⟨S2000x32, .f32⟩
  | 64 => ⟨S2000x32, .f32⟩
  | 65 => ⟨S32x32, .f32⟩
  | 66 => ⟨S32x96, .f32⟩
  | 67 => ⟨S1x96, .f32⟩
  | 68 => ⟨S2000x32, .f32⟩
  | 69 => ⟨S2000x32, .f32⟩
  | 70 => ⟨S2000x96, .f32⟩
  | 71 => ⟨S2000x96, .f32⟩
  | 72 => ⟨S2000x32, .f32⟩
  | 73 => ⟨S2000x32, .f32⟩
  | 74 => ⟨S2000x96, .f32⟩
  | 75 => ⟨S2000x96, .f32⟩
  | 76 => ⟨S2000x32, .f32⟩
  | 77 => ⟨S2000x32, .f32⟩
  | 78 => ⟨S32x96, .f32⟩
  | 79 => ⟨S1x96, .f32⟩
  | 80 => ⟨S2000x32, .f32⟩
  | 81 => ⟨S2000x32, .f32⟩
  | 82 => ⟨S2000x32, .f32⟩
  | 83 => ⟨S2000x32, .f32⟩
  | 84 => ⟨S32x32, .f32⟩
  | 85 => ⟨S32x96, .f32⟩
  | 86 => ⟨S1x96, .f32⟩
  | 87 => ⟨S2000x32, .f32⟩
  | 88 => ⟨S2000x32, .f32⟩
  | 89 => ⟨S2000x96, .f32⟩
  | 90 => ⟨S2000x96, .f32⟩
  | 91 => ⟨S2000x32, .f32⟩
  | 92 => ⟨S2000x32, .f32⟩
  | 93 => ⟨S2000x96, .f32⟩
  | 94 => ⟨S2000x96, .f32⟩
  | 95 => ⟨S2000x32, .f32⟩
  | 96 => ⟨S2000x32, .f32⟩
  | 97 => ⟨S32x96, .f32⟩
  | 98 => ⟨S1x96, .f32⟩
  | 99 => ⟨S2000x32, .f32⟩
  | 100 => ⟨S2000x32, .f32⟩
  | 101 => ⟨S2000x32, .f32⟩
  | 102 => ⟨S2000x32, .f32⟩
  | 103 => ⟨S32x32, .f32⟩
  | 104 => ⟨S32x96, .f32⟩
  | 105 => ⟨S1x96, .f32⟩
  | 106 => ⟨S2000x32, .f32⟩
  | 107 => ⟨S2000x32, .f32⟩
  | 108 => ⟨S2000x96, .f32⟩
  | 109 => ⟨S2000x96, .f32⟩
  | 110 => ⟨S2000x32, .f32⟩
  | 111 => ⟨S2000x32, .f32⟩
  | 112 => ⟨S2000x96, .f32⟩
  | 113 => ⟨S2000x96, .f32⟩
  | 114 => ⟨S2000x32, .f32⟩
  | 115 => ⟨S2000x32, .f32⟩
  | 116 => ⟨S32x96, .f32⟩
  | 117 => ⟨S1x96, .f32⟩
  | 118 => ⟨S2000x32, .f32⟩
  | 119 => ⟨S2000x32, .f32⟩
  | 120 => ⟨S2000x32, .f32⟩
  | 121 => ⟨S2000x32, .f32⟩
  | 122 => ⟨S32x32, .f32⟩
  | 123 => ⟨S32x96, .f32⟩
  | 124 => ⟨S1x96, .f32⟩
  | 125 => ⟨S2000x32, .f32⟩
  | 126 => ⟨S2000x32, .f32⟩
  | 127 => ⟨S2000x96, .f32⟩
  | _ => ⟨S100000x40, .f32⟩

abbrev vmemTy0_1 (i : Nat) : BufTy := match i % 128 with
  | 0 => ⟨S2000x96, .f32⟩
  | 1 => ⟨S2000x32, .f32⟩
  | 2 => ⟨S2000x32, .f32⟩
  | 3 => ⟨S2000x96, .f32⟩
  | 4 => ⟨S2000x96, .f32⟩
  | 5 => ⟨S2000x32, .f32⟩
  | 6 => ⟨S2000x32, .f32⟩
  | 7 => ⟨S32x96, .f32⟩
  | 8 => ⟨S1x96, .f32⟩
  | 9 => ⟨S2000x32, .f32⟩
  | 10 => ⟨S2000x32, .f32⟩
  | 11 => ⟨S2000x32, .f32⟩
  | 12 => ⟨S2000x32, .f32⟩
  | 13 => ⟨S32x32, .f32⟩
  | 14 => ⟨S32x96, .f32⟩
  | 15 => ⟨S1x96, .f32⟩
  | 16 => ⟨S2000x32, .f32⟩
  | 17 => ⟨S2000x32, .f32⟩
  | 18 => ⟨S2000x96, .f32⟩
  | 19 => ⟨S2000x96, .f32⟩
  | 20 => ⟨S2000x32, .f32⟩
  | 21 => ⟨S2000x32, .f32⟩
  | 22 => ⟨S2000x96, .f32⟩
  | 23 => ⟨S2000x96, .f32⟩
  | 24 => ⟨S2000x32, .f32⟩
  | 25 => ⟨S2000x32, .f32⟩
  | 26 => ⟨S32x96, .f32⟩
  | 27 => ⟨S1x96, .f32⟩
  | 28 => ⟨S2000x32, .f32⟩
  | 29 => ⟨S2000x32, .f32⟩
  | 30 => ⟨S2000x32, .f32⟩
  | 31 => ⟨S2000x32, .f32⟩
  | 32 => ⟨S32x32, .f32⟩
  | 33 => ⟨S32x96, .f32⟩
  | 34 => ⟨S1x96, .f32⟩
  | 35 => ⟨S2000x32, .f32⟩
  | 36 => ⟨S2000x32, .f32⟩
  | 37 => ⟨S2000x96, .f32⟩
  | 38 => ⟨S2000x96, .f32⟩
  | 39 => ⟨S2000x32, .f32⟩
  | 40 => ⟨S2000x32, .f32⟩
  | 41 => ⟨S2000x96, .f32⟩
  | 42 => ⟨S2000x96, .f32⟩
  | 43 => ⟨S2000x32, .f32⟩
  | 44 => ⟨S2000x32, .f32⟩
  | 45 => ⟨S32x96, .f32⟩
  | 46 => ⟨S1x96, .f32⟩
  | 47 => ⟨S2000x32, .f32⟩
  | 48 => ⟨S2000x32, .f32⟩
  | _ => ⟨S100000x40, .f32⟩

abbrev vmemTy (i : Nat) : BufTy := match i / 128 with
  | 0 => vmemTy0_0 i
  | 1 => vmemTy0_1 i
  | _ => ⟨S100000x40, .f32⟩

abbrev bufTy : (tb : Table) → Fin (tcTables nBuf tb) → BufTy
  | .hbm, ⟨i, _⟩ => hbmTy i
  | .local _ .vmem, ⟨i, _⟩ => vmemTy i
  | _, _ => ⟨S100000x40, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 177 → Bool
  | ⟨i, _⟩ => dmaSemScopedAt i

abbrev sig : RefSig :=
  ofTc nBuf bufTy 0 177 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_c : Ref sig .tc := ⟨.hbm, 32, rfl⟩
abbrev main_v22 : Ref sig .tc := ⟨.hbm, 33, rfl⟩
abbrev main_v23 : Ref sig .tc := ⟨.hbm, 34, rfl⟩
abbrev main_c_0 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_c_1 : Ref sig .tc := ⟨.hbm, 50, rfl⟩
abbrev main_v36 : Ref sig .tc := ⟨.hbm, 51, rfl⟩
abbrev main_v37 : Ref sig .tc := ⟨.hbm, 52, rfl⟩
abbrev main_c_2 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49_0 : Ref sig .tc := ⟨.hbm, 66, rfl⟩
abbrev main_v49_1 : Ref sig .tc := ⟨.hbm, 67, rfl⟩
abbrev main_c_4 : Ref sig .tc := ⟨.hbm, 68, rfl⟩
abbrev main_v50 : Ref sig .tc := ⟨.hbm, 69, rfl⟩
abbrev main_v51 : Ref sig .tc := ⟨.hbm, 70, rfl⟩
abbrev main_c_5 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_6 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73_0 : Ref sig .tc := ⟨.hbm, 94, rfl⟩
abbrev main_v73_1 : Ref sig .tc := ⟨.hbm, 95, rfl⟩
abbrev main_c_7 : Ref sig .tc := ⟨.hbm, 96, rfl⟩
abbrev main_v74 : Ref sig .tc := ⟨.hbm, 97, rfl⟩
abbrev main_v75 : Ref sig .tc := ⟨.hbm, 98, rfl⟩
abbrev main_c_8 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_9 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87_0 : Ref sig .tc := ⟨.hbm, 112, rfl⟩
abbrev main_v87_1 : Ref sig .tc := ⟨.hbm, 113, rfl⟩
abbrev main_c_10 : Ref sig .tc := ⟨.hbm, 114, rfl⟩
abbrev main_v88 : Ref sig .tc := ⟨.hbm, 115, rfl⟩
abbrev main_v89 : Ref sig .tc := ⟨.hbm, 116, rfl⟩
abbrev main_c_11 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_12 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101_0 : Ref sig .tc := ⟨.hbm, 130, rfl⟩
abbrev main_v101_1 : Ref sig .tc := ⟨.hbm, 131, rfl⟩
abbrev main_c_13 : Ref sig .tc := ⟨.hbm, 132, rfl⟩
abbrev main_v102 : Ref sig .tc := ⟨.hbm, 133, rfl⟩
abbrev main_v103 : Ref sig .tc := ⟨.hbm, 134, rfl⟩
abbrev main_c_14 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_15 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125_0 : Ref sig .tc := ⟨.hbm, 158, rfl⟩
abbrev main_v125_1 : Ref sig .tc := ⟨.hbm, 159, rfl⟩
abbrev main_c_16 : Ref sig .tc := ⟨.hbm, 160, rfl⟩
abbrev main_v126 : Ref sig .tc := ⟨.hbm, 161, rfl⟩
abbrev main_v127 : Ref sig .tc := ⟨.hbm, 162, rfl⟩
abbrev main_c_17 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_cst_18 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139_0 : Ref sig .tc := ⟨.hbm, 176, rfl⟩
abbrev main_v139_1 : Ref sig .tc := ⟨.hbm, 177, rfl⟩
abbrev main_c_19 : Ref sig .tc := ⟨.hbm, 178, rfl⟩
abbrev main_v140 : Ref sig .tc := ⟨.hbm, 179, rfl⟩
abbrev main_v141 : Ref sig .tc := ⟨.hbm, 180, rfl⟩
abbrev main_c_20 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_21 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153_0 : Ref sig .tc := ⟨.hbm, 194, rfl⟩
abbrev main_v153_1 : Ref sig .tc := ⟨.hbm, 195, rfl⟩
abbrev main_c_22 : Ref sig .tc := ⟨.hbm, 196, rfl⟩
abbrev main_v154 : Ref sig .tc := ⟨.hbm, 197, rfl⟩
abbrev main_v155 : Ref sig .tc := ⟨.hbm, 198, rfl⟩
abbrev main_c_23 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_cst_24 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg4_1 : Ref sig .tc := ⟨.vmem, 50, rfl⟩
abbrev cc5_stg5_0 : Ref sig .tc := ⟨.vmem, 51, rfl⟩
abbrev cc5_stg5_1 : Ref sig .tc := ⟨.vmem, 52, rfl⟩
abbrev cc6_stg0_0 : Ref sig .tc := ⟨.vmem, 53, rfl⟩
abbrev cc6_stg0_1 : Ref sig .tc := ⟨.vmem, 54, rfl⟩
abbrev cc6_stg1_0 : Ref sig .tc := ⟨.vmem, 55, rfl⟩
abbrev cc6_stg1_1 : Ref sig .tc := ⟨.vmem, 56, rfl⟩
abbrev cc6_stg2_0 : Ref sig .tc := ⟨.vmem, 57, rfl⟩
abbrev cc6_stg2_1 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg5_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg2_0 : Ref sig .tc := ⟨.vmem, 66, rfl⟩
abbrev cc7_stg3_0 : Ref sig .tc := ⟨.vmem, 67, rfl⟩
abbrev cc7_stg4_0 : Ref sig .tc := ⟨.vmem, 68, rfl⟩
abbrev cc7_stg4_1 : Ref sig .tc := ⟨.vmem, 69, rfl⟩
abbrev cc7_stg5_0 : Ref sig .tc := ⟨.vmem, 70, rfl⟩
abbrev cc7_stg5_1 : Ref sig .tc := ⟨.vmem, 71, rfl⟩
abbrev cc8_stg0_0 : Ref sig .tc := ⟨.vmem, 72, rfl⟩
abbrev cc8_stg0_1 : Ref sig .tc := ⟨.vmem, 73, rfl⟩
abbrev cc8_stg1_0 : Ref sig .tc := ⟨.vmem, 74, rfl⟩
abbrev cc8_stg1_1 : Ref sig .tc := ⟨.vmem, 75, rfl⟩
abbrev cc8_stg2_0 : Ref sig .tc := ⟨.vmem, 76, rfl⟩
abbrev cc8_stg2_1 : Ref sig .tc := ⟨.vmem, 77, rfl⟩
abbrev cc8_stg3_0 : Ref sig .tc := ⟨.vmem, 78, rfl⟩
abbrev cc8_stg4_0 : Ref sig .tc := ⟨.vmem, 79, rfl⟩
abbrev cc8_stg5_0 : Ref sig .tc := ⟨.vmem, 80, rfl⟩
abbrev cc8_stg5_1 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg2_0 : Ref sig .tc := ⟨.vmem, 85, rfl⟩
abbrev cc9_stg3_0 : Ref sig .tc := ⟨.vmem, 86, rfl⟩
abbrev cc9_stg4_0 : Ref sig .tc := ⟨.vmem, 87, rfl⟩
abbrev cc9_stg4_1 : Ref sig .tc := ⟨.vmem, 88, rfl⟩
abbrev cc9_stg5_0 : Ref sig .tc := ⟨.vmem, 89, rfl⟩
abbrev cc9_stg5_1 : Ref sig .tc := ⟨.vmem, 90, rfl⟩
abbrev cc10_stg0_0 : Ref sig .tc := ⟨.vmem, 91, rfl⟩
abbrev cc10_stg0_1 : Ref sig .tc := ⟨.vmem, 92, rfl⟩
abbrev cc10_stg1_0 : Ref sig .tc := ⟨.vmem, 93, rfl⟩
abbrev cc10_stg1_1 : Ref sig .tc := ⟨.vmem, 94, rfl⟩
abbrev cc10_stg2_0 : Ref sig .tc := ⟨.vmem, 95, rfl⟩
abbrev cc10_stg2_1 : Ref sig .tc := ⟨.vmem, 96, rfl⟩
abbrev cc10_stg3_0 : Ref sig .tc := ⟨.vmem, 97, rfl⟩
abbrev cc10_stg4_0 : Ref sig .tc := ⟨.vmem, 98, rfl⟩
abbrev cc10_stg5_0 : Ref sig .tc := ⟨.vmem, 99, rfl⟩
abbrev cc10_stg5_1 : Ref sig .tc := ⟨.vmem, 100, rfl⟩
abbrev cc11_stg0_0 : Ref sig .tc := ⟨.vmem, 101, rfl⟩
abbrev cc11_stg0_1 : Ref sig .tc := ⟨.vmem, 102, rfl⟩
abbrev cc11_stg1_0 : Ref sig .tc := ⟨.vmem, 103, rfl⟩
abbrev cc11_stg2_0 : Ref sig .tc := ⟨.vmem, 104, rfl⟩
abbrev cc11_stg3_0 : Ref sig .tc := ⟨.vmem, 105, rfl⟩
abbrev cc11_stg4_0 : Ref sig .tc := ⟨.vmem, 106, rfl⟩
abbrev cc11_stg4_1 : Ref sig .tc := ⟨.vmem, 107, rfl⟩
abbrev cc11_stg5_0 : Ref sig .tc := ⟨.vmem, 108, rfl⟩
abbrev cc11_stg5_1 : Ref sig .tc := ⟨.vmem, 109, rfl⟩
abbrev cc12_stg0_0 : Ref sig .tc := ⟨.vmem, 110, rfl⟩
abbrev cc12_stg0_1 : Ref sig .tc := ⟨.vmem, 111, rfl⟩
abbrev cc12_stg1_0 : Ref sig .tc := ⟨.vmem, 112, rfl⟩
abbrev cc12_stg1_1 : Ref sig .tc := ⟨.vmem, 113, rfl⟩
abbrev cc12_stg2_0 : Ref sig .tc := ⟨.vmem, 114, rfl⟩
abbrev cc12_stg2_1 : Ref sig .tc := ⟨.vmem, 115, rfl⟩
abbrev cc12_stg3_0 : Ref sig .tc := ⟨.vmem, 116, rfl⟩
abbrev cc12_stg4_0 : Ref sig .tc := ⟨.vmem, 117, rfl⟩
abbrev cc12_stg5_0 : Ref sig .tc := ⟨.vmem, 118, rfl⟩
abbrev cc12_stg5_1 : Ref sig .tc := ⟨.vmem, 119, rfl⟩
abbrev cc13_stg0_0 : Ref sig .tc := ⟨.vmem, 120, rfl⟩
abbrev cc13_stg0_1 : Ref sig .tc := ⟨.vmem, 121, rfl⟩
abbrev cc13_stg1_0 : Ref sig .tc := ⟨.vmem, 122, rfl⟩
abbrev cc13_stg2_0 : Ref sig .tc := ⟨.vmem, 123, rfl⟩
abbrev cc13_stg3_0 : Ref sig .tc := ⟨.vmem, 124, rfl⟩
abbrev cc13_stg4_0 : Ref sig .tc := ⟨.vmem, 125, rfl⟩
abbrev cc13_stg4_1 : Ref sig .tc := ⟨.vmem, 126, rfl⟩
abbrev cc13_stg5_0 : Ref sig .tc := ⟨.vmem, 127, rfl⟩
abbrev cc13_stg5_1 : Ref sig .tc := ⟨.vmem, 128, rfl⟩
abbrev cc14_stg0_0 : Ref sig .tc := ⟨.vmem, 129, rfl⟩
abbrev cc14_stg0_1 : Ref sig .tc := ⟨.vmem, 130, rfl⟩
abbrev cc14_stg1_0 : Ref sig .tc := ⟨.vmem, 131, rfl⟩
abbrev cc14_stg1_1 : Ref sig .tc := ⟨.vmem, 132, rfl⟩
abbrev cc14_stg2_0 : Ref sig .tc := ⟨.vmem, 133, rfl⟩
abbrev cc14_stg2_1 : Ref sig .tc := ⟨.vmem, 134, rfl⟩
abbrev cc14_stg3_0 : Ref sig .tc := ⟨.vmem, 135, rfl⟩
abbrev cc14_stg4_0 : Ref sig .tc := ⟨.vmem, 136, rfl⟩
abbrev cc14_stg5_0 : Ref sig .tc := ⟨.vmem, 137, rfl⟩
abbrev cc14_stg5_1 : Ref sig .tc := ⟨.vmem, 138, rfl⟩
abbrev cc15_stg0_0 : Ref sig .tc := ⟨.vmem, 139, rfl⟩
abbrev cc15_stg0_1 : Ref sig .tc := ⟨.vmem, 140, rfl⟩
abbrev cc15_stg1_0 : Ref sig .tc := ⟨.vmem, 141, rfl⟩
abbrev cc15_stg2_0 : Ref sig .tc := ⟨.vmem, 142, rfl⟩
abbrev cc15_stg3_0 : Ref sig .tc := ⟨.vmem, 143, rfl⟩
abbrev cc15_stg4_0 : Ref sig .tc := ⟨.vmem, 144, rfl⟩
abbrev cc15_stg4_1 : Ref sig .tc := ⟨.vmem, 145, rfl⟩
abbrev cc15_stg5_0 : Ref sig .tc := ⟨.vmem, 146, rfl⟩
abbrev cc15_stg5_1 : Ref sig .tc := ⟨.vmem, 147, rfl⟩
abbrev cc16_stg0_0 : Ref sig .tc := ⟨.vmem, 148, rfl⟩
abbrev cc16_stg0_1 : Ref sig .tc := ⟨.vmem, 149, rfl⟩
abbrev cc16_stg1_0 : Ref sig .tc := ⟨.vmem, 150, rfl⟩
abbrev cc16_stg1_1 : Ref sig .tc := ⟨.vmem, 151, rfl⟩
abbrev cc16_stg2_0 : Ref sig .tc := ⟨.vmem, 152, rfl⟩
abbrev cc16_stg2_1 : Ref sig .tc := ⟨.vmem, 153, rfl⟩
abbrev cc16_stg3_0 : Ref sig .tc := ⟨.vmem, 154, rfl⟩
abbrev cc16_stg4_0 : Ref sig .tc := ⟨.vmem, 155, rfl⟩
abbrev cc16_stg5_0 : Ref sig .tc := ⟨.vmem, 156, rfl⟩
abbrev cc16_stg5_1 : Ref sig .tc := ⟨.vmem, 157, rfl⟩
abbrev cc17_stg0_0 : Ref sig .tc := ⟨.vmem, 158, rfl⟩
abbrev cc17_stg0_1 : Ref sig .tc := ⟨.vmem, 159, rfl⟩
abbrev cc17_stg1_0 : Ref sig .tc := ⟨.vmem, 160, rfl⟩
abbrev cc17_stg2_0 : Ref sig .tc := ⟨.vmem, 161, rfl⟩
abbrev cc17_stg3_0 : Ref sig .tc := ⟨.vmem, 162, rfl⟩
abbrev cc17_stg4_0 : Ref sig .tc := ⟨.vmem, 163, rfl⟩
abbrev cc17_stg4_1 : Ref sig .tc := ⟨.vmem, 164, rfl⟩
abbrev cc17_stg5_0 : Ref sig .tc := ⟨.vmem, 165, rfl⟩
abbrev cc17_stg5_1 : Ref sig .tc := ⟨.vmem, 166, rfl⟩
abbrev cc18_stg0_0 : Ref sig .tc := ⟨.vmem, 167, rfl⟩
abbrev cc18_stg0_1 : Ref sig .tc := ⟨.vmem, 168, rfl⟩
abbrev cc18_stg1_0 : Ref sig .tc := ⟨.vmem, 169, rfl⟩
abbrev cc18_stg1_1 : Ref sig .tc := ⟨.vmem, 170, rfl⟩
abbrev cc18_stg2_0 : Ref sig .tc := ⟨.vmem, 171, rfl⟩
abbrev cc18_stg2_1 : Ref sig .tc := ⟨.vmem, 172, rfl⟩
abbrev cc18_stg3_0 : Ref sig .tc := ⟨.vmem, 173, rfl⟩
abbrev cc18_stg4_0 : Ref sig .tc := ⟨.vmem, 174, rfl⟩
abbrev cc18_stg5_0 : Ref sig .tc := ⟨.vmem, 175, rfl⟩
abbrev cc18_stg5_1 : Ref sig .tc := ⟨.vmem, 176, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem4_1 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem5_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem4_1 : DmaSem sig := 50
abbrev cc5_sem5_0 : DmaSem sig := 51
abbrev cc5_sem5_1 : DmaSem sig := 52
abbrev cc6_sem0_0 : DmaSem sig := 53
abbrev cc6_sem0_1 : DmaSem sig := 54
abbrev cc6_sem1_0 : DmaSem sig := 55
abbrev cc6_sem1_1 : DmaSem sig := 56
abbrev cc6_sem2_0 : DmaSem sig := 57
abbrev cc6_sem2_1 : DmaSem sig := 58
abbrev cc6_sem3_0 : DmaSem sig := 59
abbrev cc6_sem4_0 : DmaSem sig := 60
abbrev cc6_sem5_0 : DmaSem sig := 61
abbrev cc6_sem5_1 : DmaSem sig := 62
abbrev cc7_sem0_0 : DmaSem sig := 63
abbrev cc7_sem0_1 : DmaSem sig := 64
abbrev cc7_sem1_0 : DmaSem sig := 65
abbrev cc7_sem2_0 : DmaSem sig := 66
abbrev cc7_sem3_0 : DmaSem sig := 67
abbrev cc7_sem4_0 : DmaSem sig := 68
abbrev cc7_sem4_1 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem2_1 : DmaSem sig := 77
abbrev cc8_sem3_0 : DmaSem sig := 78
abbrev cc8_sem4_0 : DmaSem sig := 79
abbrev cc8_sem5_0 : DmaSem sig := 80
abbrev cc8_sem5_1 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem4_0 : DmaSem sig := 87
abbrev cc9_sem4_1 : DmaSem sig := 88
abbrev cc9_sem5_0 : DmaSem sig := 89
abbrev cc9_sem5_1 : DmaSem sig := 90
abbrev cc10_sem0_0 : DmaSem sig := 91
abbrev cc10_sem0_1 : DmaSem sig := 92
abbrev cc10_sem1_0 : DmaSem sig := 93
abbrev cc10_sem1_1 : DmaSem sig := 94
abbrev cc10_sem2_0 : DmaSem sig := 95
abbrev cc10_sem2_1 : DmaSem sig := 96
abbrev cc10_sem3_0 : DmaSem sig := 97
abbrev cc10_sem4_0 : DmaSem sig := 98
abbrev cc10_sem5_0 : DmaSem sig := 99
abbrev cc10_sem5_1 : DmaSem sig := 100
abbrev cc11_sem0_0 : DmaSem sig := 101
abbrev cc11_sem0_1 : DmaSem sig := 102
abbrev cc11_sem1_0 : DmaSem sig := 103
abbrev cc11_sem2_0 : DmaSem sig := 104
abbrev cc11_sem3_0 : DmaSem sig := 105
abbrev cc11_sem4_0 : DmaSem sig := 106
abbrev cc11_sem4_1 : DmaSem sig := 107
abbrev cc11_sem5_0 : DmaSem sig := 108
abbrev cc11_sem5_1 : DmaSem sig := 109
abbrev cc12_sem0_0 : DmaSem sig := 110
abbrev cc12_sem0_1 : DmaSem sig := 111
abbrev cc12_sem1_0 : DmaSem sig := 112
abbrev cc12_sem1_1 : DmaSem sig := 113
abbrev cc12_sem2_0 : DmaSem sig := 114
abbrev cc12_sem2_1 : DmaSem sig := 115
abbrev cc12_sem3_0 : DmaSem sig := 116
abbrev cc12_sem4_0 : DmaSem sig := 117
abbrev cc12_sem5_0 : DmaSem sig := 118
abbrev cc12_sem5_1 : DmaSem sig := 119
abbrev cc13_sem0_0 : DmaSem sig := 120
abbrev cc13_sem0_1 : DmaSem sig := 121
abbrev cc13_sem1_0 : DmaSem sig := 122
abbrev cc13_sem2_0 : DmaSem sig := 123
abbrev cc13_sem3_0 : DmaSem sig := 124
abbrev cc13_sem4_0 : DmaSem sig := 125
abbrev cc13_sem4_1 : DmaSem sig := 126
abbrev cc13_sem5_0 : DmaSem sig := 127
abbrev cc13_sem5_1 : DmaSem sig := 128
abbrev cc14_sem0_0 : DmaSem sig := 129
abbrev cc14_sem0_1 : DmaSem sig := 130
abbrev cc14_sem1_0 : DmaSem sig := 131
abbrev cc14_sem1_1 : DmaSem sig := 132
abbrev cc14_sem2_0 : DmaSem sig := 133
abbrev cc14_sem2_1 : DmaSem sig := 134
abbrev cc14_sem3_0 : DmaSem sig := 135
abbrev cc14_sem4_0 : DmaSem sig := 136
abbrev cc14_sem5_0 : DmaSem sig := 137
abbrev cc14_sem5_1 : DmaSem sig := 138
abbrev cc15_sem0_0 : DmaSem sig := 139
abbrev cc15_sem0_1 : DmaSem sig := 140
abbrev cc15_sem1_0 : DmaSem sig := 141
abbrev cc15_sem2_0 : DmaSem sig := 142
abbrev cc15_sem3_0 : DmaSem sig := 143
abbrev cc15_sem4_0 : DmaSem sig := 144
abbrev cc15_sem4_1 : DmaSem sig := 145
abbrev cc15_sem5_0 : DmaSem sig := 146
abbrev cc15_sem5_1 : DmaSem sig := 147
abbrev cc16_sem0_0 : DmaSem sig := 148
abbrev cc16_sem0_1 : DmaSem sig := 149
abbrev cc16_sem1_0 : DmaSem sig := 150
abbrev cc16_sem1_1 : DmaSem sig := 151
abbrev cc16_sem2_0 : DmaSem sig := 152
abbrev cc16_sem2_1 : DmaSem sig := 153
abbrev cc16_sem3_0 : DmaSem sig := 154
abbrev cc16_sem4_0 : DmaSem sig := 155
abbrev cc16_sem5_0 : DmaSem sig := 156
abbrev cc16_sem5_1 : DmaSem sig := 157
abbrev cc17_sem0_0 : DmaSem sig := 158
abbrev cc17_sem0_1 : DmaSem sig := 159
abbrev cc17_sem1_0 : DmaSem sig := 160
abbrev cc17_sem2_0 : DmaSem sig := 161
abbrev cc17_sem3_0 : DmaSem sig := 162
abbrev cc17_sem4_0 : DmaSem sig := 163
abbrev cc17_sem4_1 : DmaSem sig := 164
abbrev cc17_sem5_0 : DmaSem sig := 165
abbrev cc17_sem5_1 : DmaSem sig := 166
abbrev cc18_sem0_0 : DmaSem sig := 167
abbrev cc18_sem0_1 : DmaSem sig := 168
abbrev cc18_sem1_0 : DmaSem sig := 169
abbrev cc18_sem1_1 : DmaSem sig := 170
abbrev cc18_sem2_0 : DmaSem sig := 171
abbrev cc18_sem2_1 : DmaSem sig := 172
abbrev cc18_sem3_0 : DmaSem sig := 173
abbrev cc18_sem4_0 : DmaSem sig := 174
abbrev cc18_sem5_0 : DmaSem sig := 175
abbrev cc18_sem5_1 : DmaSem sig := 176

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32x96 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x32 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x96 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x96 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S32x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S32x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x96 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2000x96 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x96 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S32x96 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x96 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x32 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S32x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S32x96 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x96 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x32 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S2000x96 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x96 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S32x96 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x96 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x32 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![50], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S32x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S32x96 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x96 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S2000x32 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S2000x96 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![50], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x96 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S2000x32 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S32x96 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S1x96 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 2 → Memref sig .tc .vmem S2000x32 .f32 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev grid11 : Pipeline.Grid := ⟨1, ![50], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S32x32 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S32x96 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x96 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S2000x32 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S2000x96 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![50], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x32 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x96 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S2000x32 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S32x96 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x96 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S2000x32 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x32 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S32x32 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S32x96 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x96 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S2000x32 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 2 → Memref sig .tc .vmem S2000x96 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev grid14 : Pipeline.Grid := ⟨1, ![50], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x32 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S2000x96 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S2000x32 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev stage14_3 : Fin 1 → Memref sig .tc .vmem S32x96 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x96 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S2000x32 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

abbrev grid15 : Pipeline.Grid := ⟨1, ![50], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_5 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S2000x32 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S32x32 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S32x96 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x96 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 2 → Memref sig .tc .vmem S2000x32 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

abbrev stage15_5 : Fin 2 → Memref sig .tc .vmem S2000x96 .f32 := fun | 0 => Memref.whole cc15_stg5_0 | 1 => Memref.whole cc15_stg5_1 | ⟨_ + 2, h⟩ => absurd h (Nat.not_lt.2 (Nat.le_add_left _ _))
abbrev sem15_5 : Fin 2 → DmaSem sig := fun | 0 => cc15_sem5_0 | 1 => cc15_sem5_1 | ⟨_ + 2, h⟩ => absurd h (Nat.not_lt.2 (Nat.le_add_left _ _))
abbrev reads15_5 : Fin grid15.rank → Bool := ![true]

abbrev grid16 : Pipeline.Grid := ⟨1, ![50], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S2000x32 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S2000x96 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S2000x32 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 1 → Memref sig .tc .vmem S32x96 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S1x96 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 2 → Memref sig .tc .vmem S2000x32 .f32 := fun | 0 => Memref.whole cc16_stg5_0 | 1 => Memref.whole cc16_stg5_1 | ⟨_ + 2, h⟩ => absurd h (Nat.not_lt.2 (Nat.le_add_left _ _))
abbrev sem16_5 : Fin 2 → DmaSem sig := fun | 0 => cc16_sem5_0 | 1 => cc16_sem5_1 | ⟨_ + 2, h⟩ => absurd h (Nat.not_lt.2 (Nat.le_add_left _ _))
abbrev reads16_5 : Fin grid16.rank → Bool := ![true]

abbrev grid17 : Pipeline.Grid := ⟨1, ![50], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_4 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_5 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S2000x32 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S32x32 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S32x96 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 1 → Memref sig .tc .vmem S1x96 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))
abbrev reads17_3 : Fin grid17.rank → Bool := ![false]

abbrev stage17_4 : Fin 2 → Memref sig .tc .vmem S2000x32 .f32 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![true]

abbrev stage17_5 : Fin 2 → Memref sig .tc .vmem S2000x96 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true]

abbrev grid18 : Pipeline.Grid := ⟨1, ![50], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_3 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_4 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_5 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S2000x32 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S2000x96 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S2000x32 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev stage18_3 : Fin 1 → Memref sig .tc .vmem S32x96 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))
abbrev reads18_3 : Fin grid18.rank → Bool := ![false]

abbrev stage18_4 : Fin 1 → Memref sig .tc .vmem S1x96 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))
abbrev reads18_4 : Fin grid18.rank → Bool := ![false]

abbrev stage18_5 : Fin 2 → Memref sig .tc .vmem S2000x32 .f32 := fun | 0 => Memref.whole cc18_stg5_0 | 1 => Memref.whole cc18_stg5_1 | ⟨_ + 2, h⟩ => absurd h (Nat.not_lt.2 (Nat.le_add_left _ _))
abbrev sem18_5 : Fin 2 → DmaSem sig := fun | 0 => cc18_sem5_0 | 1 => cc18_sem5_1 | ⟨_ + 2, h⟩ => absurd h (Nat.not_lt.2 (Nat.le_add_left _ _))
abbrev reads18_5 : Fin grid18.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  transposes_S32x40_S40x32_1_0 : S32x40.Transposes [1, 0] S40x32
  shapeCasts_S32_S1x32 : S32.ShapeCasts S1x32
  inb_S2000x40_S2000x40_0_0 : ∀ a, (![0, 0] : Fin 2 → Nat) a + S2000x40.size a ≤ S2000x40.size a
  h_S2000x40 : 0 < S2000x40.numel
  bitsLt_bf16_f32 : FTy.bits .bf16 < FTy.bits .f32
  inb_S40x32_S40x32_0_0 : ∀ a, (![0, 0] : Fin 2 → Nat) a + S40x32.size a ≤ S40x32.size a
  h_S40x32 : 0 < S40x32.numel
  shapeCasts_S40x32_S40x32 : S40x32.ShapeCasts S40x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  transposes_S3x96x32_S3x32x96_0_2_1 : S3x96x32.Transposes [0, 2, 1] S3x32x96
  slices_S3x32x96_S1x32x96_0_0_0 : S3x32x96.Slices ![0, 0, 0] S1x32x96
  shapeCasts_S1x32x96_S32x96 : S1x32x96.ShapeCasts S32x96
  slices_S3x96_S1x96_0_0 : S3x96.Slices ![0, 0] S1x96
  shapeCasts_S1x96_S96 : S1x96.ShapeCasts S96
  shapeCasts_S96_S1x96 : S96.ShapeCasts S1x96
  slices_S3x3x32x32_S1x1x32x32_0_0_0_0 : S3x3x32x32.Slices ![0, 0, 0, 0] S1x1x32x32
  shapeCasts_S1x1x32x32_S32x32 : S1x1x32x32.ShapeCasts S32x32
  shapeCasts_S2000x32_S2000x32 : S2000x32.ShapeCasts S2000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x96_S32x96_0_0 : ∀ a, (![0, 0] : Fin 2 → Nat) a + S32x96.size a ≤ S32x96.size a
  h_S32x96 : 0 < S32x96.numel
  shapeCasts_S32x96_S32x96 : S32x96.ShapeCasts S32x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  inb_S2000x96_S2000x96_0_0 : ∀ a, (![0, 0] : Fin 2 → Nat) a + S2000x96.size a ≤ S2000x96.size a
  h_S2000x96 : 0 < S2000x96.numel
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  shapeCasts_S2000x96_S2000x96 : S2000x96.ShapeCasts S2000x96
  slices_S2000x96_o0_0_S2000x32 : S2000x96.Slices ![0, 0] S2000x32
  slices_S2000x96_o0_32_S2000x32 : S2000x96.Slices ![0, 32] S2000x32
  slices_S2000x96_o0_64_S2000x32 : S2000x96.Slices ![0, 64] S2000x32
  slices_S3x3x32x32_S1x1x32x32_0_1_0_0 : S3x3x32x32.Slices ![0, 1, 0, 0] S1x1x32x32
  slices_S3x3x32x32_S1x1x32x32_0_2_0_0 : S3x3x32x32.Slices ![0, 2, 0, 0] S1x1x32x32
  slices_S3x32x96_S1x32x96_1_0_0 : S3x32x96.Slices ![1, 0, 0] S1x32x96
  slices_S3x96_S1x96_1_0 : S3x96.Slices ![1, 0] S1x96
  slices_S3x3x32x32_S1x1x32x32_1_0_0_0 : S3x3x32x32.Slices ![1, 0, 0, 0] S1x1x32x32
  slices_S3x3x32x32_S1x1x32x32_1_1_0_0 : S3x3x32x32.Slices ![1, 1, 0, 0] S1x1x32x32
  slices_S3x3x32x32_S1x1x32x32_1_2_0_0 : S3x3x32x32.Slices ![1, 2, 0, 0] S1x1x32x32
  slices_S3x32x96_S1x32x96_2_0_0 : S3x32x96.Slices ![2, 0, 0] S1x32x96
  slices_S3x96_S1x96_2_0 : S3x96.Slices ![2, 0] S1x96
  slices_S3x3x32x32_S1x1x32x32_2_0_0_0 : S3x3x32x32.Slices ![2, 0, 0, 0] S1x1x32x32
  slices_S3x3x32x32_S1x1x32x32_2_1_0_0 : S3x3x32x32.Slices ![2, 1, 0, 0] S1x1x32x32
  slices_S3x3x32x32_S1x1x32x32_2_2_0_0 : S3x3x32x32.Slices ![2, 2, 0, 0] S1x1x32x32
  dot_S2000x40_S40x32_S2000x32_1_0_0_1_n_n_wf : DotDims.WF S2000x40 S40x32 S2000x32 [1] [0] [0] [1] [] []
  dot_S2000x32_S32x32_S2000x32_1_0_0_1_n_n_wf : DotDims.WF S2000x32 S32x32 S2000x32 [1] [0] [0] [1] [] []
  dot_S2000x32_S32x96_S2000x96_1_0_0_1_n_n_wf : DotDims.WF S2000x32 S32x96 S2000x96 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x40.size a ≤ S100000x40.size a
  hwx0_0 : ∀ i : grid0.Coords, EltTy.bits .f32 = 32 ∨ (Rect.block (s := S100000x40) S2000x40.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x32.size a ≤ S40x32.size a
  hwx0_1 : ∀ i : grid0.Coords, EltTy.bits .f32 = 32 ∨ (Rect.block (s := S40x32) S40x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S100000x32.size a
  hwx0_3 : ∀ i : grid0.Coords, EltTy.bits .f32 = 32 ∨ (Rect.block (s := S100000x32) S2000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x96.size a ≤ S32x96.size a
  hwx1_2 : ∀ i : grid1.Coords, EltTy.bits .f32 = 32 ∨ (Rect.block (s := S32x96) S32x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x32.size a ≤ S100000x32.size a
  hwx1_4 : ∀ i : grid1.Coords, EltTy.bits .f32 = 32 ∨ (Rect.block (s := S100000x32) S2000x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x96.size a ≤ S100000x96.size a
  hwx1_5 : ∀ i : grid1.Coords, EltTy.bits .f32 = 32 ∨ (Rect.block (s := S100000x96) S2000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x96.size a ≤ S100000x96.size a
  hwx2_1 : ∀ i : grid2.Coords, EltTy.bits .f32 = 32 ∨ (Rect.block (s := S100000x96) S2000x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x32.size a ≤ S100000x32.size a
  hwx2_2 : ∀ i : grid2.Coords, EltTy.bits .f32 = 32 ∨ (Rect.block (s := S100000x32) S2000x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x96.size a ≤ S32x96.size a
  hwx2_3 : ∀ i : grid2.Coords, EltTy.bits .f32 = 32 ∨ (Rect.block (s := S32x96) S32x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x32.size a ≤ S100000x32.size a
  hwx2_5 : ∀ i : grid2.Coords, EltTy.bits .f32 = 32 ∨ (Rect.block (s := S100000x32) S2000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x32.size a ≤ S100000x32.size a
  hwx3_0 : ∀ i : grid3.Coords, EltTy.bits .f32 = 32 ∨ (Rect.block (s := S100000x32) S2000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x96.size a ≤ S32x96.size a
  hwx3_2 : ∀ i : grid3.Coords, EltTy.bits .f32 = 32 ∨ (Rect.block (s := S32x96) S32x96.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x32.size a ≤ S100000x32.size a
  hwx3_4 : ∀ i : grid3.Coords, EltTy.bits .f32 = 32 ∨ (Rect.block (s := S100000x32) S2000x32.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x96.size a ≤ S100000x96.size a
  hwx3_5 : ∀ i : grid3.Coords, EltTy.bits .f32 = 32 ∨ (Rect.block (s := S100000x96) S2000x96.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S100000x32.size a
  hwx4_0 : ∀ i : grid4.Coords, EltTy.bits .f32 = 32 ∨ (Rect.block (s := S100000x32) S2000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x96.size a ≤ S100000x96.size a
  hwx4_1 : ∀ i : grid4.Coords, EltTy.bits .f32 = 32 ∨ (Rect.block (s := S100000x96) S2000x96.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x32.size a ≤ S100000x32.size a
  hwx4_2 : ∀ i : grid4.Coords, EltTy.bits .f32 = 32 ∨ (Rect.block (s := S100000x32) S2000x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x96.size a ≤ S32x96.size a
  hwx4_3 : ∀ i : grid4.Coords, EltTy.bits .f32 = 32 ∨ (Rect.block (s := S32x96) S32x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x96.size a ≤ S1x96.size a
  hwx4_4 : ∀ i : grid4.Coords, EltTy.bits .f32 = 32 ∨ (Rect.block (s := S1x96) S1x96.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x32.size a ≤ S100000x32.size a
  hwx4_5 : ∀ i : grid4.Coords, EltTy.bits .f32 = 32 ∨ (Rect.block (s := S100000x32) S2000x32.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x32.size a ≤ S100000x32.size a
  hwx5_0 : ∀ i : grid5.Coords, EltTy.bits .f32 = 32 ∨ (Rect.block (s := S100000x32) S2000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x32.size a ≤ S32x32.size a
  hwx5_1 : ∀ i : grid5.Coords, EltTy.bits .f32 = 32 ∨ (Rect.block (s := S32x32) S32x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x96.size a ≤ S32x96.size a
  hwx5_2 : ∀ i : grid5.Coords, EltTy.bits .f32 = 32 ∨ (Rect.block (s := S32x96) S32x96.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x96.size a ≤ S1x96.size a
  hwx5_3 : ∀ i : grid5.Coords, EltTy.bits .f32 = 32 ∨ (Rect.block (s := S1x96) S1x96.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x32.size a ≤ S100000x32.size a
  hwx5_4 : ∀ i : grid5.Coords, EltTy.bits .f32 = 32 ∨ (Rect.block (s := S100000x32) S2000x32.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x96.size a ≤ S100000x96.size a
  hwx5_5 : ∀ i : grid5.Coords, EltTy.bits .f32 = 32 ∨ (Rect.block (s := S100000x96) S2000x96.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x32.size a ≤ S100000x32.size a
  hwx6_0 : ∀ i : grid6.Coords, EltTy.bits .f32 = 32 ∨ (Rect.block (s := S100000x32) S2000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x96.size a ≤ S100000x96.size a
  hwx6_1 : ∀ i : grid6.Coords, EltTy.bits .f32 = 32 ∨ (Rect.block (s := S100000x96) S2000x96.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x32.size a ≤ S100000x32.size a
  hwx6_2 : ∀ i : grid6.Coords, EltTy.bits .f32 = 32 ∨ (Rect.block (s := S100000x32) S2000x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x96.size a ≤ S32x96.size a
  hwx6_3 : ∀ i : grid6.Coords, EltTy.bits .f32 = 32 ∨ (Rect.block (s := S32x96) S32x96.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x96.size a ≤ S1x96.size a
  hwx6_4 : ∀ i : grid6.Coords, EltTy.bits .f32 = 32 ∨ (Rect.block (s := S1x96) S1x96.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x32.size a ≤ S100000x32.size a
  hwx6_5 : ∀ i : grid6.Coords, EltTy.bits .f32 = 32 ∨ (Rect.block (s := S100000x32) S2000x32.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x32.size a ≤ S100000x32.size a
  hwx7_0 : ∀ i : grid7.Coords, EltTy.bits .f32 = 32 ∨ (Rect.block (s := S100000x32) S2000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S32x32.size a ≤ S32x32.size a
  hwx7_1 : ∀ i : grid7.Coords, EltTy.bits .f32 = 32 ∨ (Rect.block (s := S32x32) S32x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S32x96.size a ≤ S32x96.size a
  hwx7_2 : ∀ i : grid7.Coords, EltTy.bits .f32 = 32 ∨ (Rect.block (s := S32x96) S32x96.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x96.size a ≤ S1x96.size a
  hwx7_3 : ∀ i : grid7.Coords, EltTy.bits .f32 = 32 ∨ (Rect.block (s := S1x96) S1x96.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x32.size a ≤ S100000x32.size a
  hwx7_4 : ∀ i : grid7.Coords, EltTy.bits .f32 = 32 ∨ (Rect.block (s := S100000x32) S2000x32.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x96.size a ≤ S100000x96.size a
  hwx7_5 : ∀ i : grid7.Coords, EltTy.bits .f32 = 32 ∨ (Rect.block (s := S100000x96) S2000x96.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x32.size a ≤ S100000x32.size a
  hwx8_0 : ∀ i : grid8.Coords, EltTy.bits .f32 = 32 ∨ (Rect.block (s := S100000x32) S2000x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x96.size a ≤ S100000x96.size a
  hwx8_1 : ∀ i : grid8.Coords, EltTy.bits .f32 = 32 ∨ (Rect.block (s := S100000x96) S2000x96.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x32.size a ≤ S100000x32.size a
  hwx8_2 : ∀ i : grid8.Coords, EltTy.bits .f32 = 32 ∨ (Rect.block (s := S100000x32) S2000x32.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S32x96.size a ≤ S32x96.size a
  hwx8_3 : ∀ i : grid8.Coords, EltTy.bits .f32 = 32 ∨ (Rect.block (s := S32x96) S32x96.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x96.size a ≤ S1x96.size a
  hwx8_4 : ∀ i : grid8.Coords, EltTy.bits .f32 = 32 ∨ (Rect.block (s := S1x96) S1x96.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x32.size a ≤ S100000x32.size a
  hwx8_5 : ∀ i : grid8.Coords, EltTy.bits .f32 = 32 ∨ (Rect.block (s := S100000x32) S2000x32.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x32.size a ≤ S100000x32.size a
  hwx9_0 : ∀ i : grid9.Coords, EltTy.bits .f32 = 32 ∨ (Rect.block (s := S100000x32) S2000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S32x32.size a ≤ S32x32.size a
  hwx9_1 : ∀ i : grid9.Coords, EltTy.bits .f32 = 32 ∨ (Rect.block (s := S32x32) S32x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S32x96.size a ≤ S32x96.size a
  hwx9_2 : ∀ i : grid9.Coords, EltTy.bits .f32 = 32 ∨ (Rect.block (s := S32x96) S32x96.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x96.size a ≤ S1x96.size a
  hwx9_3 : ∀ i : grid9.Coords, EltTy.bits .f32 = 32 ∨ (Rect.block (s := S1x96) S1x96.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x32.size a ≤ S100000x32.size a
  hwx9_4 : ∀ i : grid9.Coords, EltTy.bits .f32 = 32 ∨ (Rect.block (s := S100000x32) S2000x32.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x96.size a ≤ S100000x96.size a
  hwx9_5 : ∀ i : grid9.Coords, EltTy.bits .f32 = 32 ∨ (Rect.block (s := S100000x96) S2000x96.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x32.size a ≤ S100000x32.size a
  hwx10_0 : ∀ i : grid10.Coords, EltTy.bits .f32 = 32 ∨ (Rect.block (s := S100000x32) S2000x32.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x96.size a ≤ S100000x96.size a
  hwx10_1 : ∀ i : grid10.Coords, EltTy.bits .f32 = 32 ∨ (Rect.block (s := S100000x96) S2000x96.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S2000x32.size a ≤ S100000x32.size a
  hwx10_2 : ∀ i : grid10.Coords, EltTy.bits .f32 = 32 ∨ (Rect.block (s := S100000x32) S2000x32.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S32x96.size a ≤ S32x96.size a
  hwx10_3 : ∀ i : grid10.Coords, EltTy.bits .f32 = 32 ∨ (Rect.block (s := S32x96) S32x96.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x96.size a ≤ S1x96.size a
  hwx10_4 : ∀ i : grid10.Coords, EltTy.bits .f32 = 32 ∨ (Rect.block (s := S1x96) S1x96.size (cc10_transform_4 i) (hinb10_4 i)).WholeWords (EltTy.packing .f32)
  hstage10_5 : ∀ j, (stage10_5 j).IsWhole
  nbuf10_5 : grid10.bufCount reads10_5 false = 2
  hreads10_5 : ∀ i i' : grid10.Coords, (∀ a, reads10_5 a = true → i a = i' a) → cc10_transform_5 i = cc10_transform_5 i'
  hinb10_5 : ∀ (i : grid10.Coords) a, (cc10_transform_5 i a + 1) * S2000x32.size a ≤ S100000x32.size a
  hwx10_5 : ∀ i : grid10.Coords, EltTy.bits .f32 = 32 ∨ (Rect.block (s := S100000x32) S2000x32.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x32.size a ≤ S100000x32.size a
  hwx11_0 : ∀ i : grid11.Coords, EltTy.bits .f32 = 32 ∨ (Rect.block (s := S100000x32) S2000x32.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S32x32.size a ≤ S32x32.size a
  hwx11_1 : ∀ i : grid11.Coords, EltTy.bits .f32 = 32 ∨ (Rect.block (s := S32x32) S32x32.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S32x96.size a ≤ S32x96.size a
  hwx11_2 : ∀ i : grid11.Coords, EltTy.bits .f32 = 32 ∨ (Rect.block (s := S32x96) S32x96.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x96.size a ≤ S1x96.size a
  hwx11_3 : ∀ i : grid11.Coords, EltTy.bits .f32 = 32 ∨ (Rect.block (s := S1x96) S1x96.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S2000x32.size a ≤ S100000x32.size a
  hwx11_4 : ∀ i : grid11.Coords, EltTy.bits .f32 = 32 ∨ (Rect.block (s := S100000x32) S2000x32.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x96.size a ≤ S100000x96.size a
  hwx11_5 : ∀ i : grid11.Coords, EltTy.bits .f32 = 32 ∨ (Rect.block (s := S100000x96) S2000x96.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x32.size a ≤ S100000x32.size a
  hwx12_0 : ∀ i : grid12.Coords, EltTy.bits .f32 = 32 ∨ (Rect.block (s := S100000x32) S2000x32.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x96.size a ≤ S100000x96.size a
  hwx12_1 : ∀ i : grid12.Coords, EltTy.bits .f32 = 32 ∨ (Rect.block (s := S100000x96) S2000x96.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2000x32.size a ≤ S100000x32.size a
  hwx12_2 : ∀ i : grid12.Coords, EltTy.bits .f32 = 32 ∨ (Rect.block (s := S100000x32) S2000x32.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S32x96.size a ≤ S32x96.size a
  hwx12_3 : ∀ i : grid12.Coords, EltTy.bits .f32 = 32 ∨ (Rect.block (s := S32x96) S32x96.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x96.size a ≤ S1x96.size a
  hwx12_4 : ∀ i : grid12.Coords, EltTy.bits .f32 = 32 ∨ (Rect.block (s := S1x96) S1x96.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S2000x32.size a ≤ S100000x32.size a
  hwx12_5 : ∀ i : grid12.Coords, EltTy.bits .f32 = 32 ∨ (Rect.block (s := S100000x32) S2000x32.size (cc12_transform_5 i) (hinb12_5 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x32.size a ≤ S100000x32.size a
  hwx13_0 : ∀ i : grid13.Coords, EltTy.bits .f32 = 32 ∨ (Rect.block (s := S100000x32) S2000x32.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S32x32.size a ≤ S32x32.size a
  hwx13_1 : ∀ i : grid13.Coords, EltTy.bits .f32 = 32 ∨ (Rect.block (s := S32x32) S32x32.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S32x96.size a ≤ S32x96.size a
  hwx13_2 : ∀ i : grid13.Coords, EltTy.bits .f32 = 32 ∨ (Rect.block (s := S32x96) S32x96.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x96.size a ≤ S1x96.size a
  hwx13_3 : ∀ i : grid13.Coords, EltTy.bits .f32 = 32 ∨ (Rect.block (s := S1x96) S1x96.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S2000x32.size a ≤ S100000x32.size a
  hwx13_4 : ∀ i : grid13.Coords, EltTy.bits .f32 = 32 ∨ (Rect.block (s := S100000x32) S2000x32.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S2000x96.size a ≤ S100000x96.size a
  hwx13_5 : ∀ i : grid13.Coords, EltTy.bits .f32 = 32 ∨ (Rect.block (s := S100000x96) S2000x96.size (cc13_transform_5 i) (hinb13_5 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x32.size a ≤ S100000x32.size a
  hwx14_0 : ∀ i : grid14.Coords, EltTy.bits .f32 = 32 ∨ (Rect.block (s := S100000x32) S2000x32.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S2000x96.size a ≤ S100000x96.size a
  hwx14_1 : ∀ i : grid14.Coords, EltTy.bits .f32 = 32 ∨ (Rect.block (s := S100000x96) S2000x96.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S2000x32.size a ≤ S100000x32.size a
  hwx14_2 : ∀ i : grid14.Coords, EltTy.bits .f32 = 32 ∨ (Rect.block (s := S100000x32) S2000x32.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S32x96.size a ≤ S32x96.size a
  hwx14_3 : ∀ i : grid14.Coords, EltTy.bits .f32 = 32 ∨ (Rect.block (s := S32x96) S32x96.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x96.size a ≤ S1x96.size a
  hwx14_4 : ∀ i : grid14.Coords, EltTy.bits .f32 = 32 ∨ (Rect.block (s := S1x96) S1x96.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S2000x32.size a ≤ S100000x32.size a
  hwx14_5 : ∀ i : grid14.Coords, EltTy.bits .f32 = 32 ∨ (Rect.block (s := S100000x32) S2000x32.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S2000x32.size a ≤ S100000x32.size a
  hwx15_0 : ∀ i : grid15.Coords, EltTy.bits .f32 = 32 ∨ (Rect.block (s := S100000x32) S2000x32.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S32x32.size a ≤ S32x32.size a
  hwx15_1 : ∀ i : grid15.Coords, EltTy.bits .f32 = 32 ∨ (Rect.block (s := S32x32) S32x32.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S32x96.size a ≤ S32x96.size a
  hwx15_2 : ∀ i : grid15.Coords, EltTy.bits .f32 = 32 ∨ (Rect.block (s := S32x96) S32x96.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x96.size a ≤ S1x96.size a
  hwx15_3 : ∀ i : grid15.Coords, EltTy.bits .f32 = 32 ∨ (Rect.block (s := S1x96) S1x96.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S2000x32.size a ≤ S100000x32.size a
  hwx15_4 : ∀ i : grid15.Coords, EltTy.bits .f32 = 32 ∨ (Rect.block (s := S100000x32) S2000x32.size (cc15_transform_4 i) (hinb15_4 i)).WholeWords (EltTy.packing .f32)
  hstage15_5 : ∀ j, (stage15_5 j).IsWhole
  nbuf15_5 : grid15.bufCount reads15_5 false = 2
  hreads15_5 : ∀ i i' : grid15.Coords, (∀ a, reads15_5 a = true → i a = i' a) → cc15_transform_5 i = cc15_transform_5 i'
  hinb15_5 : ∀ (i : grid15.Coords) a, (cc15_transform_5 i a + 1) * S2000x96.size a ≤ S100000x96.size a
  hwx15_5 : ∀ i : grid15.Coords, EltTy.bits .f32 = 32 ∨ (Rect.block (s := S100000x96) S2000x96.size (cc15_transform_5 i) (hinb15_5 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S2000x32.size a ≤ S100000x32.size a
  hwx16_0 : ∀ i : grid16.Coords, EltTy.bits .f32 = 32 ∨ (Rect.block (s := S100000x32) S2000x32.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S2000x96.size a ≤ S100000x96.size a
  hwx16_1 : ∀ i : grid16.Coords, EltTy.bits .f32 = 32 ∨ (Rect.block (s := S100000x96) S2000x96.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S2000x32.size a ≤ S100000x32.size a
  hwx16_2 : ∀ i : grid16.Coords, EltTy.bits .f32 = 32 ∨ (Rect.block (s := S100000x32) S2000x32.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S32x96.size a ≤ S32x96.size a
  hwx16_3 : ∀ i : grid16.Coords, EltTy.bits .f32 = 32 ∨ (Rect.block (s := S32x96) S32x96.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S1x96.size a ≤ S1x96.size a
  hwx16_4 : ∀ i : grid16.Coords, EltTy.bits .f32 = 32 ∨ (Rect.block (s := S1x96) S1x96.size (cc16_transform_4 i) (hinb16_4 i)).WholeWords (EltTy.packing .f32)
  hstage16_5 : ∀ j, (stage16_5 j).IsWhole
  nbuf16_5 : grid16.bufCount reads16_5 false = 2
  hreads16_5 : ∀ i i' : grid16.Coords, (∀ a, reads16_5 a = true → i a = i' a) → cc16_transform_5 i = cc16_transform_5 i'
  hinb16_5 : ∀ (i : grid16.Coords) a, (cc16_transform_5 i a + 1) * S2000x32.size a ≤ S100000x32.size a
  hwx16_5 : ∀ i : grid16.Coords, EltTy.bits .f32 = 32 ∨ (Rect.block (s := S100000x32) S2000x32.size (cc16_transform_5 i) (hinb16_5 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S2000x32.size a ≤ S100000x32.size a
  hwx17_0 : ∀ i : grid17.Coords, EltTy.bits .f32 = 32 ∨ (Rect.block (s := S100000x32) S2000x32.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S32x32.size a ≤ S32x32.size a
  hwx17_1 : ∀ i : grid17.Coords, EltTy.bits .f32 = 32 ∨ (Rect.block (s := S32x32) S32x32.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S32x96.size a ≤ S32x96.size a
  hwx17_2 : ∀ i : grid17.Coords, EltTy.bits .f32 = 32 ∨ (Rect.block (s := S32x96) S32x96.size (cc17_transform_2 i) (hinb17_2 i)).WholeWords (EltTy.packing .f32)
  hstage17_3 : ∀ j, (stage17_3 j).IsWhole
  nbuf17_3 : grid17.bufCount reads17_3 true = 1
  hreads17_3 : ∀ i i' : grid17.Coords, (∀ a, reads17_3 a = true → i a = i' a) → cc17_transform_3 i = cc17_transform_3 i'
  hinb17_3 : ∀ (i : grid17.Coords) a, (cc17_transform_3 i a + 1) * S1x96.size a ≤ S1x96.size a
  hwx17_3 : ∀ i : grid17.Coords, EltTy.bits .f32 = 32 ∨ (Rect.block (s := S1x96) S1x96.size (cc17_transform_3 i) (hinb17_3 i)).WholeWords (EltTy.packing .f32)
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S2000x32.size a ≤ S100000x32.size a
  hwx17_4 : ∀ i : grid17.Coords, EltTy.bits .f32 = 32 ∨ (Rect.block (s := S100000x32) S2000x32.size (cc17_transform_4 i) (hinb17_4 i)).WholeWords (EltTy.packing .f32)
  hstage17_5 : ∀ j, (stage17_5 j).IsWhole
  nbuf17_5 : grid17.bufCount reads17_5 false = 2
  hreads17_5 : ∀ i i' : grid17.Coords, (∀ a, reads17_5 a = true → i a = i' a) → cc17_transform_5 i = cc17_transform_5 i'
  hinb17_5 : ∀ (i : grid17.Coords) a, (cc17_transform_5 i a + 1) * S2000x96.size a ≤ S100000x96.size a
  hwx17_5 : ∀ i : grid17.Coords, EltTy.bits .f32 = 32 ∨ (Rect.block (s := S100000x96) S2000x96.size (cc17_transform_5 i) (hinb17_5 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S2000x32.size a ≤ S100000x32.size a
  hwx18_0 : ∀ i : grid18.Coords, EltTy.bits .f32 = 32 ∨ (Rect.block (s := S100000x32) S2000x32.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S2000x96.size a ≤ S100000x96.size a
  hwx18_1 : ∀ i : grid18.Coords, EltTy.bits .f32 = 32 ∨ (Rect.block (s := S100000x96) S2000x96.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S2000x32.size a ≤ S100000x32.size a
  hwx18_2 : ∀ i : grid18.Coords, EltTy.bits .f32 = 32 ∨ (Rect.block (s := S100000x32) S2000x32.size (cc18_transform_2 i) (hinb18_2 i)).WholeWords (EltTy.packing .f32)
  hstage18_3 : ∀ j, (stage18_3 j).IsWhole
  nbuf18_3 : grid18.bufCount reads18_3 true = 1
  hreads18_3 : ∀ i i' : grid18.Coords, (∀ a, reads18_3 a = true → i a = i' a) → cc18_transform_3 i = cc18_transform_3 i'
  hinb18_3 : ∀ (i : grid18.Coords) a, (cc18_transform_3 i a + 1) * S32x96.size a ≤ S32x96.size a
  hwx18_3 : ∀ i : grid18.Coords, EltTy.bits .f32 = 32 ∨ (Rect.block (s := S32x96) S32x96.size (cc18_transform_3 i) (hinb18_3 i)).WholeWords (EltTy.packing .f32)
  hstage18_4 : ∀ j, (stage18_4 j).IsWhole
  nbuf18_4 : grid18.bufCount reads18_4 true = 1
  hreads18_4 : ∀ i i' : grid18.Coords, (∀ a, reads18_4 a = true → i a = i' a) → cc18_transform_4 i = cc18_transform_4 i'
  hinb18_4 : ∀ (i : grid18.Coords) a, (cc18_transform_4 i a + 1) * S1x96.size a ≤ S1x96.size a
  hwx18_4 : ∀ i : grid18.Coords, EltTy.bits .f32 = 32 ∨ (Rect.block (s := S1x96) S1x96.size (cc18_transform_4 i) (hinb18_4 i)).WholeWords (EltTy.packing .f32)
  hstage18_5 : ∀ j, (stage18_5 j).IsWhole
  nbuf18_5 : grid18.bufCount reads18_5 false = 2
  hreads18_5 : ∀ i i' : grid18.Coords, (∀ a, reads18_5 a = true → i a = i' a) → cc18_transform_5 i = cc18_transform_5 i'
  hinb18_5 : ∀ (i : grid18.Coords) a, (cc18_transform_5 i a + 1) * S2000x32.size a ≤ S100000x32.size a
  hwx18_5 : ∀ i : grid18.Coords, EltTy.bits .f32 = 32 ∨ (Rect.block (s := S100000x32) S2000x32.size (cc18_transform_5 i) (hinb18_5 i)).WholeWords (EltTy.packing .f32)

variable [Facts₀]

def dot_S2000x40_S40x32_S2000x32_1_0_0_1_n_n : DotDims S2000x40 S40x32 S2000x32 where
  lhsContracting := [1]
  rhsContracting := [0]
  lhsNonContracting := [0]
  rhsNonContracting := [1]
  lhsBatch := []
  rhsBatch := []
  wf := dot_S2000x40_S40x32_S2000x32_1_0_0_1_n_n_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x32_S32x96_S2000x96_1_0_0_1_n_n : DotDims S2000x32 S32x96 S2000x96 where
  lhsContracting := [1]
  rhsContracting := [0]
  lhsNonContracting := [0]
  rhsNonContracting := [1]
  lhsBatch := []
  rhsBatch := []
  wf := dot_S2000x32_S32x96_S2000x96_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf

abbrev win0_0 : Pipeline.Window sig grid0 :=
  Pipeline.Window.ofSpec (Memref.whole main_arg0) S2000x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S40x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S32x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21_0) S2000x32.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v21_1) S2000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21_1) S2000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S2000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S32x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S2000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v32) S2000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v10) S32x96.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v15) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v35_0) S2000x32.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v35_1) S2000x96.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v45) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35_1) S2000x96.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v32) S2000x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v12) S32x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v18) S1x96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v46) S2000x32.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v46) S2000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v48) S32x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v10) S32x96.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v15) S1x96.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v49_0) S2000x32.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v49_1) S2000x96.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v59) S2000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v49_1) S2000x96.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v46) S2000x32.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v12) S32x96.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v18) S1x96.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v60) S2000x32.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v60) S2000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v72) S32x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v62) S32x96.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v67) S1x96.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v73_0) S2000x32.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v73_1) S2000x96.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v83) S2000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v73_1) S2000x96.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v60) S2000x32.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v64) S32x96.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v70) S1x96.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v84) S2000x32.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v84) S2000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v86) S32x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v62) S32x96.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v67) S1x96.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v87_0) S2000x32.size cc9_transform_4 reads9_4 true false 2 stage9_4 sem9_4
    hrank9 hreads9_4 hinb9_4 nbuf9_4 (Memref.isWhole_whole _) hwx9_4 hstage9_4

abbrev win9_5 : Pipeline.Window sig grid9 :=
  Pipeline.Window.ofSpec (Memref.whole main_v87_1) S2000x96.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v97) S2000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v87_1) S2000x96.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v84) S2000x32.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v64) S32x96.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v70) S1x96.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v98) S2000x32.size cc10_transform_5 reads10_5 true false 2 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v98) S2000x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v100) S32x32.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v62) S32x96.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v67) S1x96.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v101_0) S2000x32.size cc11_transform_4 reads11_4 true false 2 stage11_4 sem11_4
    hrank11 hreads11_4 hinb11_4 nbuf11_4 (Memref.isWhole_whole _) hwx11_4 hstage11_4

abbrev win11_5 : Pipeline.Window sig grid11 :=
  Pipeline.Window.ofSpec (Memref.whole main_v101_1) S2000x96.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v111) S2000x32.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v101_1) S2000x96.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v98) S2000x32.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v64) S32x96.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v70) S1x96.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v112) S2000x32.size cc12_transform_5 reads12_5 true false 2 stage12_5 sem12_5
    hrank12 hreads12_5 hinb12_5 nbuf12_5 (Memref.isWhole_whole _) hwx12_5 hstage12_5

abbrev win12 : Fin 6 → Pipeline.Window sig grid12 := fun | 0 => win12_0 | 1 => win12_1 | 2 => win12_2 | 3 => win12_3 | 4 => win12_4 | 5 => win12_5 | ⟨_ + 6, h⟩ => absurd h (Nat.not_lt.2 (Nat.le_add_left _ _))
abbrev spec12 : Fin 6 → Pipeline.WinSpec sig grid12.rank := fun w => (win12 w).toWinSpec

abbrev win13_0 : Pipeline.Window sig grid13 :=
  Pipeline.Window.ofSpec (Memref.whole main_v112) S2000x32.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v124) S32x32.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v114) S32x96.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v119) S1x96.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v125_0) S2000x32.size cc13_transform_4 reads13_4 true false 2 stage13_4 sem13_4
    hrank13 hreads13_4 hinb13_4 nbuf13_4 (Memref.isWhole_whole _) hwx13_4 hstage13_4

abbrev win13_5 : Pipeline.Window sig grid13 :=
  Pipeline.Window.ofSpec (Memref.whole main_v125_1) S2000x96.size cc13_transform_5 reads13_5 true false 2 stage13_5 sem13_5
    hrank13 hreads13_5 hinb13_5 nbuf13_5 (Memref.isWhole_whole _) hwx13_5 hstage13_5

abbrev win13 : Fin 6 → Pipeline.Window sig grid13 := fun | 0 => win13_0 | 1 => win13_1 | 2 => win13_2 | 3 => win13_3 | 4 => win13_4 | 5 => win13_5 | ⟨_ + 6, h⟩ => absurd h (Nat.not_lt.2 (Nat.le_add_left _ _))
abbrev spec13 : Fin 6 → Pipeline.WinSpec sig grid13.rank := fun w => (win13 w).toWinSpec

abbrev win14_0 : Pipeline.Window sig grid14 :=
  Pipeline.Window.ofSpec (Memref.whole main_v135) S2000x32.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v125_1) S2000x96.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v112) S2000x32.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_v116) S32x96.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v122) S1x96.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v136) S2000x32.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v136) S2000x32.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v138) S32x32.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v114) S32x96.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v119) S1x96.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v139_0) S2000x32.size cc15_transform_4 reads15_4 true false 2 stage15_4 sem15_4
    hrank15 hreads15_4 hinb15_4 nbuf15_4 (Memref.isWhole_whole _) hwx15_4 hstage15_4

abbrev win15_5 : Pipeline.Window sig grid15 :=
  Pipeline.Window.ofSpec (Memref.whole main_v139_1) S2000x96.size cc15_transform_5 reads15_5 true false 2 stage15_5 sem15_5
    hrank15 hreads15_5 hinb15_5 nbuf15_5 (Memref.isWhole_whole _) hwx15_5 hstage15_5

abbrev win15 : Fin 6 → Pipeline.Window sig grid15 := fun | 0 => win15_0 | 1 => win15_1 | 2 => win15_2 | 3 => win15_3 | 4 => win15_4 | 5 => win15_5 | ⟨_ + 6, h⟩ => absurd h (Nat.not_lt.2 (Nat.le_add_left _ _))
abbrev spec15 : Fin 6 → Pipeline.WinSpec sig grid15.rank := fun w => (win15 w).toWinSpec

abbrev win16_0 : Pipeline.Window sig grid16 :=
  Pipeline.Window.ofSpec (Memref.whole main_v149) S2000x32.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v139_1) S2000x96.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v136) S2000x32.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v116) S32x96.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_v122) S1x96.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v150) S2000x32.size cc16_transform_5 reads16_5 true false 2 stage16_5 sem16_5
    hrank16 hreads16_5 hinb16_5 nbuf16_5 (Memref.isWhole_whole _) hwx16_5 hstage16_5

abbrev win16 : Fin 6 → Pipeline.Window sig grid16 := fun | 0 => win16_0 | 1 => win16_1 | 2 => win16_2 | 3 => win16_3 | 4 => win16_4 | 5 => win16_5 | ⟨_ + 6, h⟩ => absurd h (Nat.not_lt.2 (Nat.le_add_left _ _))
abbrev spec16 : Fin 6 → Pipeline.WinSpec sig grid16.rank := fun w => (win16 w).toWinSpec

abbrev win17_0 : Pipeline.Window sig grid17 :=
  Pipeline.Window.ofSpec (Memref.whole main_v150) S2000x32.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v152) S32x32.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v114) S32x96.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v119) S1x96.size cc17_transform_3 reads17_3 false true 1 stage17_3 sem17_3
    hrank17 hreads17_3 hinb17_3 nbuf17_3 (Memref.isWhole_whole _) hwx17_3 hstage17_3

abbrev win17_4 : Pipeline.Window sig grid17 :=
  Pipeline.Window.ofSpec (Memref.whole main_v153_0) S2000x32.size cc17_transform_4 reads17_4 true false 2 stage17_4 sem17_4
    hrank17 hreads17_4 hinb17_4 nbuf17_4 (Memref.isWhole_whole _) hwx17_4 hstage17_4

abbrev win17_5 : Pipeline.Window sig grid17 :=
  Pipeline.Window.ofSpec (Memref.whole main_v153_1) S2000x96.size cc17_transform_5 reads17_5 true false 2 stage17_5 sem17_5
    hrank17 hreads17_5 hinb17_5 nbuf17_5 (Memref.isWhole_whole _) hwx17_5 hstage17_5

abbrev win17 : Fin 6 → Pipeline.Window sig grid17 := fun | 0 => win17_0 | 1 => win17_1 | 2 => win17_2 | 3 => win17_3 | 4 => win17_4 | 5 => win17_5 | ⟨_ + 6, h⟩ => absurd h (Nat.not_lt.2 (Nat.le_add_left _ _))
abbrev spec17 : Fin 6 → Pipeline.WinSpec sig grid17.rank := fun w => (win17 w).toWinSpec

abbrev win18_0 : Pipeline.Window sig grid18 :=
  Pipeline.Window.ofSpec (Memref.whole main_v163) S2000x32.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v153_1) S2000x96.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v150) S2000x32.size cc18_transform_2 reads18_2 false false 2 stage18_2 sem18_2
    hrank18 hreads18_2 hinb18_2 nbuf18_2 (Memref.isWhole_whole _) hwx18_2 hstage18_2

abbrev win18_3 : Pipeline.Window sig grid18 :=
  Pipeline.Window.ofSpec (Memref.whole main_v116) S32x96.size cc18_transform_3 reads18_3 false true 1 stage18_3 sem18_3
    hrank18 hreads18_3 hinb18_3 nbuf18_3 (Memref.isWhole_whole _) hwx18_3 hstage18_3

abbrev win18_4 : Pipeline.Window sig grid18 :=
  Pipeline.Window.ofSpec (Memref.whole main_v122) S1x96.size cc18_transform_4 reads18_4 false true 1 stage18_4 sem18_4
    hrank18 hreads18_4 hinb18_4 nbuf18_4 (Memref.isWhole_whole _) hwx18_4 hstage18_4

abbrev win18_5 : Pipeline.Window sig grid18 :=
  Pipeline.Window.ofSpec (Memref.whole main_v164) S2000x32.size cc18_transform_5 reads18_5 true false 2 stage18_5 sem18_5
    hrank18 hreads18_5 hinb18_5 nbuf18_5 (Memref.isWhole_whole _) hwx18_5 hstage18_5

abbrev win18 : Fin 6 → Pipeline.Window sig grid18 := fun | 0 => win18_0 | 1 => win18_1 | 2 => win18_2 | 3 => win18_3 | 4 => win18_4 | 5 => win18_5 | ⟨_ + 6, h⟩ => absurd h (Nat.not_lt.2 (Nat.le_add_left _ _))
abbrev spec18 : Fin 6 → Pipeline.WinSpec sig grid18.rank := fun w => (win18 w).toWinSpec

class Facts : Prop extends Facts₀ where

variable [Facts]
-- ==== ReferenceIdeal.lean ====
abbrev S100000x40 : Shape := ⟨2, ![100000, 40]⟩
abbrev S2x3200000 : Shape := ⟨2, ![2, 3200000]⟩
abbrev S32x40 : Shape := ⟨2, ![32, 40]⟩
abbrev S32 : Shape := ⟨1, ![32]⟩
abbrev S3x3x32x32 : Shape := ⟨4, ![3, 3, 32, 32]⟩
abbrev S3x96x32 : Shape := ⟨3, ![3, 96, 32]⟩
abbrev S3x96 : Shape := ⟨2, ![3, 96]⟩
abbrev S1x3200000 : Shape := ⟨2, ![1, 3200000]⟩
abbrev S3200000 : Shape := ⟨1, ![3200000]⟩
abbrev S40x32 : Shape := ⟨2, ![40, 32]⟩
abbrev S100000x32 : Shape := ⟨2, ![100000, 32]⟩
abbrev S1x32 : Shape := ⟨2, ![1, 32]⟩
abbrev S1x1x32x32 : Shape := ⟨4, ![1, 1, 32, 32]⟩
abbrev S32x32 : Shape := ⟨2, ![32, 32]⟩
abbrev S_ : Shape := ⟨0, ![]⟩
abbrev S3200000x1 : Shape := ⟨2, ![3200000, 1]⟩
abbrev S3200000x32 : Shape := ⟨2, ![3200000, 32]⟩
abbrev S1x96x32 : Shape := ⟨3, ![1, 96, 32]⟩
abbrev S96x32 : Shape := ⟨2, ![96, 32]⟩
abbrev S32x96 : Shape := ⟨2, ![32, 96]⟩
abbrev S100000x96 : Shape := ⟨2, ![100000, 96]⟩
abbrev S1x96 : Shape := ⟨2, ![1, 96]⟩
abbrev S96 : Shape := ⟨1, ![96]⟩

abbrev nBuf : Space → Nat
  | .hbm => 621
  | .vmem => 0
  | .smem => 0
  | _ => 0

abbrev hbmTy0_0 (i : Nat) : BufTy := match i % 128 with
  | 0 => ⟨S100000x40, .f32⟩
  | 1 => ⟨S2x3200000, .i32⟩
  | 2 => ⟨S32x40, .f32⟩
  | 3 => ⟨S32, .f32⟩
  | 4 => ⟨S3x3x32x32, .f32⟩
  | 5 => ⟨S3x96x32, .f32⟩
  | 6 => ⟨S3x96x32, .f32⟩
  | 7 => ⟨S3x96, .f32⟩
  | 8 => ⟨S3x96, .f32⟩
  | 9 => ⟨S1x3200000, .i32⟩
  | 10 => ⟨S3200000, .i32⟩
  | 11 => ⟨S1x3200000, .i32⟩
  | 12 => ⟨S3200000, .i32⟩
  | 13 => ⟨S40x32, .f32⟩
  | 14 => ⟨S100000x32, .f32⟩
  | 15 => ⟨S1x32, .f32⟩
  | 16 => ⟨S100000x32, .f32⟩
  | 17 => ⟨S100000x32, .f32⟩
  | 18 => ⟨S1x1x32x32, .f32⟩
  | 19 => ⟨S32x32, .f32⟩
  | 20 => ⟨S100000x32, .f32⟩
  | 21 => ⟨S_, .i32⟩
  | 22 => ⟨S3200000, .i32⟩
  | 23 => ⟨S3200000, .i1⟩
  | 24 => ⟨S_, .i32⟩
  | 25 => ⟨S3200000, .i32⟩
  | 26 => ⟨S3200000, .i32⟩
  | 27 => ⟨S3200000, .i32⟩
  | 28 => ⟨S3200000x1, .i32⟩
  | 29 => ⟨S3200000x32, .f32⟩
  | 30 => ⟨S_, .f32⟩
  | 31 => ⟨S100000x32, .f32⟩
  | 32 => ⟨S3200000x1, .i32⟩
  | 33 => ⟨S100000x32, .f32⟩
  | 34 => ⟨S1x96x32, .f32⟩
  | 35 => ⟨S96x32, .f32⟩
  | 36 => ⟨S32x96, .f32⟩
  | 37 => ⟨S100000x96, .f32⟩
  | 38 => ⟨S1x96, .f32⟩
  | 39 => ⟨S96, .f32⟩
  | 40 => ⟨S1x96, .f32⟩
  | 41 => ⟨S100000x96, .f32⟩
  | 42 => ⟨S100000x96, .f32⟩
  | 43 => ⟨S1x96x32, .f32⟩
  | 44 => ⟨S96x32, .f32⟩
  | 45 => ⟨S32x96, .f32⟩
  | 46 => ⟨S100000x96, .f32⟩
  | 47 => ⟨S1x96, .f32⟩
  | 48 => ⟨S96, .f32⟩
  | 49 => ⟨S1x96, .f32⟩
  | 50 => ⟨S100000x96, .f32⟩
  | 51 => ⟨S100000x96, .f32⟩
  | 52 => ⟨S100000x32, .f32⟩
  | 53 => ⟨S100000x32, .f32⟩
  | 54 => ⟨S100000x32, .f32⟩
  | 55 => ⟨S100000x32, .f32⟩
  | 56 => ⟨S100000x32, .f32⟩
  | 57 => ⟨S100000x32, .f32⟩
  | 58 => ⟨S100000x32, .f32⟩
  | 59 => ⟨S100000x32, .f32⟩
  | 60 => ⟨S100000x32, .f32⟩
  | 61 => ⟨S_, .f32⟩
  | 62 => ⟨S100000x32, .f32⟩
  | 63 => ⟨S100000x32, .f32⟩
  | 64 => ⟨S_, .f32⟩
  | 65 => ⟨S100000x32, .f32⟩
  | 66 => ⟨S100000x32, .f32⟩
  | 67 => ⟨S100000x32, .f32⟩
  | 68 => ⟨S100000x32, .f32⟩
  | 69 => ⟨S100000x32, .f32⟩
  | 70 => ⟨S_, .f32⟩
  | 71 => ⟨S100000x32, .f32⟩
  | 72 => ⟨S100000x32, .f32⟩
  | 73 => ⟨S_, .f32⟩
  | 74 => ⟨S100000x32, .f32⟩
  | 75 => ⟨S100000x32, .f32⟩
  | 76 => ⟨S100000x32, .f32⟩
  | 77 => ⟨S100000x32, .f32⟩
  | 78 => ⟨S100000x32, .f32⟩
  | 79 => ⟨S_, .f32⟩
  | 80 => ⟨S100000x32, .f32⟩
  | 81 => ⟨S100000x32, .f32⟩
  | 82 => ⟨S100000x32, .f32⟩
  | 83 => ⟨S100000x32, .f32⟩
  | 84 => ⟨S100000x32, .f32⟩
  | 85 => ⟨S1x1x32x32, .f32⟩
  | 86 => ⟨S32x32, .f32⟩
  | 87 => ⟨S100000x32, .f32⟩
  | 88 => ⟨S_, .i32⟩
  | 89 => ⟨S3200000, .i32⟩
  | 90 => ⟨S3200000, .i1⟩
  | 91 => ⟨S_, .i32⟩
  | 92 => ⟨S3200000, .i32⟩
  | 93 => ⟨S3200000, .i32⟩
  | 94 => ⟨S3200000, .i32⟩
  | 95 => ⟨S3200000x1, .i32⟩
  | 96 => ⟨S3200000x32, .f32⟩
  | 97 => ⟨S_, .f32⟩
  | 98 => ⟨S100000x32, .f32⟩
  | 99 => ⟨S3200000x1, .i32⟩
  | 100 => ⟨S100000x32, .f32⟩
  | 101 => ⟨S1x96x32, .f32⟩
  | 102 => ⟨S96x32, .f32⟩
  | 103 => ⟨S32x96, .f32⟩
  | 104 => ⟨S100000x96, .f32⟩
  | 105 => ⟨S1x96, .f32⟩
  | 106 => ⟨S96, .f32⟩
  | 107 => ⟨S1x96, .f32⟩
  | 108 => ⟨S100000x96, .f32⟩
  | 109 => ⟨S100000x96, .f32⟩
  | 110 => ⟨S1x96x32, .f32⟩
  | 111 => ⟨S96x32, .f32⟩
  | 112 => ⟨S32x96, .f32⟩
  | 113 => ⟨S100000x96, .f32⟩
  | 114 => ⟨S1x96, .f32⟩
  | 115 => ⟨S96, .f32⟩
  | 116 => ⟨S1x96, .f32⟩
  | 117 => ⟨S100000x96, .f32⟩
  | 118 => ⟨S100000x96, .f32⟩
  | 119 => ⟨S100000x32, .f32⟩
  | 120 => ⟨S100000x32, .f32⟩
  | 121 => ⟨S100000x32, .f32⟩
  | 122 => ⟨S100000x32, .f32⟩
  | 123 => ⟨S100000x32, .f32⟩
  | 124 => ⟨S100000x32, .f32⟩
  | 125 => ⟨S100000x32, .f32⟩
  | 126 => ⟨S100000x32, .f32⟩
  | 127 => ⟨S100000x32, .f32⟩
  | _ => ⟨S100000x40, .f32⟩

abbrev hbmTy0_1 (i : Nat) : BufTy := match i % 128 with
  | 0 => ⟨S_, .f32⟩
  | 1 => ⟨S100000x32, .f32⟩
  | 2 => ⟨S100000x32, .f32⟩
  | 3 => ⟨S_, .f32⟩
  | 4 => ⟨S100000x32, .f32⟩
  | 5 => ⟨S100000x32, .f32⟩
  | 6 => ⟨S100000x32, .f32⟩
  | 7 => ⟨S100000x32, .f32⟩
  | 8 => ⟨S100000x32, .f32⟩
  | 9 => ⟨S_, .f32⟩
  | 10 => ⟨S100000x32, .f32⟩
  | 11 => ⟨S100000x32, .f32⟩
  | 12 => ⟨S_, .f32⟩
  | 13 => ⟨S100000x32, .f32⟩
  | 14 => ⟨S100000x32, .f32⟩
  | 15 => ⟨S100000x32, .f32⟩
  | 16 => ⟨S100000x32, .f32⟩
  | 17 => ⟨S100000x32, .f32⟩
  | 18 => ⟨S_, .f32⟩
  | 19 => ⟨S100000x32, .f32⟩
  | 20 => ⟨S100000x32, .f32⟩
  | 21 => ⟨S100000x32, .f32⟩
  | 22 => ⟨S100000x32, .f32⟩
  | 23 => ⟨S100000x32, .f32⟩
  | 24 => ⟨S1x1x32x32, .f32⟩
  | 25 => ⟨S32x32, .f32⟩
  | 26 => ⟨S100000x32, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000x32, .f32⟩
  | 36 => ⟨S_, .f32⟩
  | 37 => ⟨S100000x32, .f32⟩
  | 38 => ⟨S3200000x1, .i32⟩
  | 39 => ⟨S100000x32, .f32⟩
  | 40 => ⟨S1x96x32, .f32⟩
  | 41 => ⟨S96x32, .f32⟩
  | 42 => ⟨S32x96, .f32⟩
  | 43 => ⟨S100000x96, .f32⟩
  | 44 => ⟨S1x96, .f32⟩
  | 45 => ⟨S96, .f32⟩
  | 46 => ⟨S1x96, .f32⟩
  | 47 => ⟨S100000x96, .f32⟩
  | 48 => ⟨S100000x96, .f32⟩
  | 49 => ⟨S1x96x32, .f32⟩
  | 50 => ⟨S96x32, .f32⟩
  | 51 => ⟨S32x96, .f32⟩
  | 52 => ⟨S100000x96, .f32⟩
  | 53 => ⟨S1x96, .f32⟩
  | 54 => ⟨S96, .f32⟩
  | 55 => ⟨S1x96, .f32⟩
  | 56 => ⟨S100000x96, .f32⟩
  | 57 => ⟨S100000x96, .f32⟩
  | 58 => ⟨S100000x32, .f32⟩
  | 59 => ⟨S100000x32, .f32⟩
  | 60 => ⟨S100000x32, .f32⟩
  | 61 => ⟨S100000x32, .f32⟩
  | 62 => ⟨S100000x32, .f32⟩
  | 63 => ⟨S100000x32, .f32⟩
  | 64 => ⟨S100000x32, .f32⟩
  | 65 => ⟨S100000x32, .f32⟩
  | 66 => ⟨S100000x32, .f32⟩
  | 67 => ⟨S_, .f32⟩
  | 68 => ⟨S100000x32, .f32⟩
  | 69 => ⟨S100000x32, .f32⟩
  | 70 => ⟨S_, .f32⟩
  | 71 => ⟨S100000x32, .f32⟩
  | 72 => ⟨S100000x32, .f32⟩
  | 73 => ⟨S100000x32, .f32⟩
  | 74 => ⟨S100000x32, .f32⟩
  | 75 => ⟨S100000x32, .f32⟩
  | 76 => ⟨S_, .f32⟩
  | 77 => ⟨S100000x32, .f32⟩
  | 78 => ⟨S100000x32, .f32⟩
  | 79 => ⟨S_, .f32⟩
  | 80 => ⟨S100000x32, .f32⟩
  | 81 => ⟨S100000x32, .f32⟩
  | 82 => ⟨S100000x32, .f32⟩
  | 83 => ⟨S100000x32, .f32⟩
  | 84 => ⟨S100000x32, .f32⟩
  | 85 => ⟨S_, .f32⟩
  | 86 => ⟨S100000x32, .f32⟩
  | 87 => ⟨S100000x32, .f32⟩
  | 88 => ⟨S100000x32, .f32⟩
  | 89 => ⟨S100000x32, .f32⟩
  | 90 => ⟨S100000x32, .f32⟩
  | 91 => ⟨S1x1x32x32, .f32⟩
  | 92 => ⟨S32x32, .f32⟩
  | 93 => ⟨S100000x32, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000x32, .f32⟩
  | 103 => ⟨S_, .f32⟩
  | 104 => ⟨S100000x32, .f32⟩
  | 105 => ⟨S3200000x1, .i32⟩
  | 106 => ⟨S100000x32, .f32⟩
  | 107 => ⟨S1x96x32, .f32⟩
  | 108 => ⟨S96x32, .f32⟩
  | 109 => ⟨S32x96, .f32⟩
  | 110 => ⟨S100000x96, .f32⟩
  | 111 => ⟨S1x96, .f32⟩
  | 112 => ⟨S96, .f32⟩
  | 113 => ⟨S1x96, .f32⟩
  | 114 => ⟨S100000x96, .f32⟩
  | 115 => ⟨S100000x96, .f32⟩
  | 116 => ⟨S1x96x32, .f32⟩
  | 117 => ⟨S96x32, .f32⟩
  | 118 => ⟨S32x96, .f32⟩
  | 119 => ⟨S100000x96, .f32⟩
  | 120 => ⟨S1x96, .f32⟩
  | 121 => ⟨S96, .f32⟩
  | 122 => ⟨S1x96, .f32⟩
  | 123 => ⟨S100000x96, .f32⟩
  | 124 => ⟨S100000x96, .f32⟩
  | 125 => ⟨S100000x32, .f32⟩
  | 126 => ⟨S100000x32, .f32⟩
  | 127 => ⟨S100000x32, .f32⟩
  | _ => ⟨S100000x40, .f32⟩

abbrev hbmTy0_2 (i : Nat) : BufTy := match i % 128 with
  | 0 => ⟨S100000x32, .f32⟩
  | 1 => ⟨S100000x32, .f32⟩
  | 2 => ⟨S100000x32, .f32⟩
  | 3 => ⟨S100000x32, .f32⟩
  | 4 => ⟨S100000x32, .f32⟩
  | 5 => ⟨S100000x32, .f32⟩
  | 6 => ⟨S_, .f32⟩
  | 7 => ⟨S100000x32, .f32⟩
  | 8 => ⟨S100000x32, .f32⟩
  | 9 => ⟨S_, .f32⟩
  | 10 => ⟨S100000x32, .f32⟩
  | 11 => ⟨S100000x32, .f32⟩
  | 12 => ⟨S100000x32, .f32⟩
  | 13 => ⟨S100000x32, .f32⟩
  | 14 => ⟨S100000x32, .f32⟩
  | 15 => ⟨S_, .f32⟩
  | 16 => ⟨S100000x32, .f32⟩
  | 17 => ⟨S100000x32, .f32⟩
  | 18 => ⟨S_, .f32⟩
  | 19 => ⟨S100000x32, .f32⟩
  | 20 => ⟨S100000x32, .f32⟩
  | 21 => ⟨S100000x32, .f32⟩
  | 22 => ⟨S100000x32, .f32⟩
  | 23 => ⟨S100000x32, .f32⟩
  | 24 => ⟨S_, .f32⟩
  | 25 => ⟨S100000x32, .f32⟩
  | 26 => ⟨S100000x32, .f32⟩
  | 27 => ⟨S100000x32, .f32⟩
  | 28 => ⟨S100000x32, .f32⟩
  | 29 => ⟨S100000x32, .f32⟩
  | 30 => ⟨S1x1x32x32, .f32⟩
  | 31 => ⟨S32x32, .f32⟩
  | 32 => ⟨S100000x32, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000x32, .f32⟩
  | 42 => ⟨S_, .f32⟩
  | 43 => ⟨S100000x32, .f32⟩
  | 44 => ⟨S3200000x1, .i32⟩
  | 45 => ⟨S100000x32, .f32⟩
  | 46 => ⟨S1x96x32, .f32⟩
  | 47 => ⟨S96x32, .f32⟩
  | 48 => ⟨S32x96, .f32⟩
  | 49 => ⟨S100000x96, .f32⟩
  | 50 => ⟨S1x96, .f32⟩
  | 51 => ⟨S96, .f32⟩
  | 52 => ⟨S1x96, .f32⟩
  | 53 => ⟨S100000x96, .f32⟩
  | 54 => ⟨S100000x96, .f32⟩
  | 55 => ⟨S1x96x32, .f32⟩
  | 56 => ⟨S96x32, .f32⟩
  | 57 => ⟨S32x96, .f32⟩
  | 58 => ⟨S100000x96, .f32⟩
  | 59 => ⟨S1x96, .f32⟩
  | 60 => ⟨S96, .f32⟩
  | 61 => ⟨S1x96, .f32⟩
  | 62 => ⟨S100000x96, .f32⟩
  | 63 => ⟨S100000x96, .f32⟩
  | 64 => ⟨S100000x32, .f32⟩
  | 65 => ⟨S100000x32, .f32⟩
  | 66 => ⟨S100000x32, .f32⟩
  | 67 => ⟨S100000x32, .f32⟩
  | 68 => ⟨S100000x32, .f32⟩
  | 69 => ⟨S100000x32, .f32⟩
  | 70 => ⟨S100000x32, .f32⟩
  | 71 => ⟨S100000x32, .f32⟩
  | 72 => ⟨S100000x32, .f32⟩
  | 73 => ⟨S_, .f32⟩
  | 74 => ⟨S100000x32, .f32⟩
  | 75 => ⟨S100000x32, .f32⟩
  | 76 => ⟨S_, .f32⟩
  | 77 => ⟨S100000x32, .f32⟩
  | 78 => ⟨S100000x32, .f32⟩
  | 79 => ⟨S100000x32, .f32⟩
  | 80 => ⟨S100000x32, .f32⟩
  | 81 => ⟨S100000x32, .f32⟩
  | 82 => ⟨S_, .f32⟩
  | 83 => ⟨S100000x32, .f32⟩
  | 84 => ⟨S100000x32, .f32⟩
  | 85 => ⟨S_, .f32⟩
  | 86 => ⟨S100000x32, .f32⟩
  | 87 => ⟨S100000x32, .f32⟩
  | 88 => ⟨S100000x32, .f32⟩
  | 89 => ⟨S100000x32, .f32⟩
  | 90 => ⟨S100000x32, .f32⟩
  | 91 => ⟨S_, .f32⟩
  | 92 => ⟨S100000x32, .f32⟩
  | 93 => ⟨S100000x32, .f32⟩
  | 94 => ⟨S100000x32, .f32⟩
  | 95 => ⟨S100000x32, .f32⟩
  | 96 => ⟨S100000x32, .f32⟩
  | 97 => ⟨S1x1x32x32, .f32⟩
  | 98 => ⟨S32x32, .f32⟩
  | 99 => ⟨S100000x32, .f32⟩
  | 100 => ⟨S_, .i32⟩
  | 101 => ⟨S3200000, .i32⟩
  | 102 => ⟨S3200000, .i1⟩
  | 103 => ⟨S_, .i32⟩
  | 104 => ⟨S3200000, .i32⟩
  | 105 => ⟨S3200000, .i32⟩
  | 106 => ⟨S3200000, .i32⟩
  | 107 => ⟨S3200000x1, .i32⟩
  | 108 => ⟨S3200000x32, .f32⟩
  | 109 => ⟨S_, .f32⟩
  | 110 => ⟨S100000x32, .f32⟩
  | 111 => ⟨S3200000x1, .i32⟩
  | 112 => ⟨S100000x32, .f32⟩
  | 113 => ⟨S1x96x32, .f32⟩
  | 114 => ⟨S96x32, .f32⟩
  | 115 => ⟨S32x96, .f32⟩
  | 116 => ⟨S100000x96, .f32⟩
  | 117 => ⟨S1x96, .f32⟩
  | 118 => ⟨S96, .f32⟩
  | 119 => ⟨S1x96, .f32⟩
  | 120 => ⟨S100000x96, .f32⟩
  | 121 => ⟨S100000x96, .f32⟩
  | 122 => ⟨S1x96x32, .f32⟩
  | 123 => ⟨S96x32, .f32⟩
  | 124 => ⟨S32x96, .f32⟩
  | 125 => ⟨S100000x96, .f32⟩
  | 126 => ⟨S1x96, .f32⟩
  | 127 => ⟨S96, .f32⟩
  | _ => ⟨S100000x40, .f32⟩

abbrev hbmTy0_3 (i : Nat) : BufTy := match i % 128 with
  | 0 => ⟨S1x96, .f32⟩
  | 1 => ⟨S100000x96, .f32⟩
  | 2 => ⟨S100000x96, .f32⟩
  | 3 => ⟨S100000x32, .f32⟩
  | 4 => ⟨S100000x32, .f32⟩
  | 5 => ⟨S100000x32, .f32⟩
  | 6 => ⟨S100000x32, .f32⟩
  | 7 => ⟨S100000x32, .f32⟩
  | 8 => ⟨S100000x32, .f32⟩
  | 9 => ⟨S100000x32, .f32⟩
  | 10 => ⟨S100000x32, .f32⟩
  | 11 => ⟨S100000x32, .f32⟩
  | 12 => ⟨S_, .f32⟩
  | 13 => ⟨S100000x32, .f32⟩
  | 14 => ⟨S100000x32, .f32⟩
  | 15 => ⟨S_, .f32⟩
  | 16 => ⟨S100000x32, .f32⟩
  | 17 => ⟨S100000x32, .f32⟩
  | 18 => ⟨S100000x32, .f32⟩
  | 19 => ⟨S100000x32, .f32⟩
  | 20 => ⟨S100000x32, .f32⟩
  | 21 => ⟨S_, .f32⟩
  | 22 => ⟨S100000x32, .f32⟩
  | 23 => ⟨S100000x32, .f32⟩
  | 24 => ⟨S_, .f32⟩
  | 25 => ⟨S100000x32, .f32⟩
  | 26 => ⟨S100000x32, .f32⟩
  | 27 => ⟨S100000x32, .f32⟩
  | 28 => ⟨S100000x32, .f32⟩
  | 29 => ⟨S100000x32, .f32⟩
  | 30 => ⟨S_, .f32⟩
  | 31 => ⟨S100000x32, .f32⟩
  | 32 => ⟨S100000x32, .f32⟩
  | 33 => ⟨S100000x32, .f32⟩
  | 34 => ⟨S100000x32, .f32⟩
  | 35 => ⟨S100000x32, .f32⟩
  | 36 => ⟨S1x1x32x32, .f32⟩
  | 37 => ⟨S32x32, .f32⟩
  | 38 => ⟨S100000x32, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000x32, .f32⟩
  | 48 => ⟨S_, .f32⟩
  | 49 => ⟨S100000x32, .f32⟩
  | 50 => ⟨S3200000x1, .i32⟩
  | 51 => ⟨S100000x32, .f32⟩
  | 52 => ⟨S1x96x32, .f32⟩
  | 53 => ⟨S96x32, .f32⟩
  | 54 => ⟨S32x96, .f32⟩
  | 55 => ⟨S100000x96, .f32⟩
  | 56 => ⟨S1x96, .f32⟩
  | 57 => ⟨S96, .f32⟩
  | 58 => ⟨S1x96, .f32⟩
  | 59 => ⟨S100000x96, .f32⟩
  | 60 => ⟨S100000x96, .f32⟩
  | 61 => ⟨S1x96x32, .f32⟩
  | 62 => ⟨S96x32, .f32⟩
  | 63 => ⟨S32x96, .f32⟩
  | 64 => ⟨S100000x96, .f32⟩
  | 65 => ⟨S1x96, .f32⟩
  | 66 => ⟨S96, .f32⟩
  | 67 => ⟨S1x96, .f32⟩
  | 68 => ⟨S100000x96, .f32⟩
  | 69 => ⟨S100000x96, .f32⟩
  | 70 => ⟨S100000x32, .f32⟩
  | 71 => ⟨S100000x32, .f32⟩
  | 72 => ⟨S100000x32, .f32⟩
  | 73 => ⟨S100000x32, .f32⟩
  | 74 => ⟨S100000x32, .f32⟩
  | 75 => ⟨S100000x32, .f32⟩
  | 76 => ⟨S100000x32, .f32⟩
  | 77 => ⟨S100000x32, .f32⟩
  | 78 => ⟨S100000x32, .f32⟩
  | 79 => ⟨S_, .f32⟩
  | 80 => ⟨S100000x32, .f32⟩
  | 81 => ⟨S100000x32, .f32⟩
  | 82 => ⟨S_, .f32⟩
  | 83 => ⟨S100000x32, .f32⟩
  | 84 => ⟨S100000x32, .f32⟩
  | 85 => ⟨S100000x32, .f32⟩
  | 86 => ⟨S100000x32, .f32⟩
  | 87 => ⟨S100000x32, .f32⟩
  | 88 => ⟨S_, .f32⟩
  | 89 => ⟨S100000x32, .f32⟩
  | 90 => ⟨S100000x32, .f32⟩
  | 91 => ⟨S_, .f32⟩
  | 92 => ⟨S100000x32, .f32⟩
  | 93 => ⟨S100000x32, .f32⟩
  | 94 => ⟨S100000x32, .f32⟩
  | 95 => ⟨S100000x32, .f32⟩
  | 96 => ⟨S100000x32, .f32⟩
  | 97 => ⟨S_, .f32⟩
  | 98 => ⟨S100000x32, .f32⟩
  | 99 => ⟨S100000x32, .f32⟩
  | 100 => ⟨S100000x32, .f32⟩
  | 101 => ⟨S100000x32, .f32⟩
  | 102 => ⟨S100000x32, .f32⟩
  | 103 => ⟨S1x1x32x32, .f32⟩
  | 104 => ⟨S32x32, .f32⟩
  | 105 => ⟨S100000x32, .f32⟩
  | 106 => ⟨S_, .i32⟩
  | 107 => ⟨S3200000, .i32⟩
  | 108 => ⟨S3200000, .i1⟩
  | 109 => ⟨S_, .i32⟩
  | 110 => ⟨S3200000, .i32⟩
  | 111 => ⟨S3200000, .i32⟩
  | 112 => ⟨S3200000, .i32⟩
  | 113 => ⟨S3200000x1, .i32⟩
  | 114 => ⟨S3200000x32, .f32⟩
  | 115 => ⟨S_, .f32⟩
  | 116 => ⟨S100000x32, .f32⟩
  | 117 => ⟨S3200000x1, .i32⟩
  | 118 => ⟨S100000x32, .f32⟩
  | 119 => ⟨S1x96x32, .f32⟩
  | 120 => ⟨S96x32, .f32⟩
  | 121 => ⟨S32x96, .f32⟩
  | 122 => ⟨S100000x96, .f32⟩
  | 123 => ⟨S1x96, .f32⟩
  | 124 => ⟨S96, .f32⟩
  | 125 => ⟨S1x96, .f32⟩
  | 126 => ⟨S100000x96, .f32⟩
  | 127 => ⟨S100000x96, .f32⟩
  | _ => ⟨S100000x40, .f32⟩

abbrev hbmTy0_4 (i : Nat) : BufTy := match i % 128 with
  | 0 => ⟨S1x96x32, .f32⟩
  | 1 => ⟨S96x32, .f32⟩
  | 2 => ⟨S32x96, .f32⟩
  | 3 => ⟨S100000x96, .f32⟩
  | 4 => ⟨S1x96, .f32⟩
  | 5 => ⟨S96, .f32⟩
  | 6 => ⟨S1x96, .f32⟩
  | 7 => ⟨S100000x96, .f32⟩
  | 8 => ⟨S100000x96, .f32⟩
  | 9 => ⟨S100000x32, .f32⟩
  | 10 => ⟨S100000x32, .f32⟩
  | 11 => ⟨S100000x32, .f32⟩
  | 12 => ⟨S100000x32, .f32⟩
  | 13 => ⟨S100000x32, .f32⟩
  | 14 => ⟨S100000x32, .f32⟩
  | 15 => ⟨S100000x32, .f32⟩
  | 16 => ⟨S100000x32, .f32⟩
  | 17 => ⟨S100000x32, .f32⟩
  | 18 => ⟨S_, .f32⟩
  | 19 => ⟨S100000x32, .f32⟩
  | 20 => ⟨S100000x32, .f32⟩
  | 21 => ⟨S_, .f32⟩
  | 22 => ⟨S100000x32, .f32⟩
  | 23 => ⟨S100000x32, .f32⟩
  | 24 => ⟨S100000x32, .f32⟩
  | 25 => ⟨S100000x32, .f32⟩
  | 26 => ⟨S100000x32, .f32⟩
  | 27 => ⟨S_, .f32⟩
  | 28 => ⟨S100000x32, .f32⟩
  | 29 => ⟨S100000x32, .f32⟩
  | 30 => ⟨S_, .f32⟩
  | 31 => ⟨S100000x32, .f32⟩
  | 32 => ⟨S100000x32, .f32⟩
  | 33 => ⟨S100000x32, .f32⟩
  | 34 => ⟨S100000x32, .f32⟩
  | 35 => ⟨S100000x32, .f32⟩
  | 36 => ⟨S_, .f32⟩
  | 37 => ⟨S100000x32, .f32⟩
  | 38 => ⟨S100000x32, .f32⟩
  | 39 => ⟨S100000x32, .f32⟩
  | 40 => ⟨S100000x32, .f32⟩
  | 41 => ⟨S100000x32, .f32⟩
  | 42 => ⟨S1x1x32x32, .f32⟩
  | 43 => ⟨S32x32, .f32⟩
  | 44 => ⟨S100000x32, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000x32, .f32⟩
  | 54 => ⟨S_, .f32⟩
  | 55 => ⟨S100000x32, .f32⟩
  | 56 => ⟨S3200000x1, .i32⟩
  | 57 => ⟨S100000x32, .f32⟩
  | 58 => ⟨S1x96x32, .f32⟩
  | 59 => ⟨S96x32, .f32⟩
  | 60 => ⟨S32x96, .f32⟩
  | 61 => ⟨S100000x96, .f32⟩
  | 62 => ⟨S1x96, .f32⟩
  | 63 => ⟨S96, .f32⟩
  | 64 => ⟨S1x96, .f32⟩
  | 65 => ⟨S100000x96, .f32⟩
  | 66 => ⟨S100000x96, .f32⟩
  | 67 => ⟨S1x96x32, .f32⟩
  | 68 => ⟨S96x32, .f32⟩
  | 69 => ⟨S32x96, .f32⟩
  | 70 => ⟨S100000x96, .f32⟩
  | 71 => ⟨S1x96, .f32⟩
  | 72 => ⟨S96, .f32⟩
  | 73 => ⟨S1x96, .f32⟩
  | 74 => ⟨S100000x96, .f32⟩
  | 75 => ⟨S100000x96, .f32⟩
  | 76 => ⟨S100000x32, .f32⟩
  | 77 => ⟨S100000x32, .f32⟩
  | 78 => ⟨S100000x32, .f32⟩
  | 79 => ⟨S100000x32, .f32⟩
  | 80 => ⟨S100000x32, .f32⟩
  | 81 => ⟨S100000x32, .f32⟩
  | 82 => ⟨S100000x32, .f32⟩
  | 83 => ⟨S100000x32, .f32⟩
  | 84 => ⟨S100000x32, .f32⟩
  | 85 => ⟨S_, .f32⟩
  | 86 => ⟨S100000x32, .f32⟩
  | 87 => ⟨S100000x32, .f32⟩
  | 88 => ⟨S_, .f32⟩
  | 89 => ⟨S100000x32, .f32⟩
  | 90 => ⟨S100000x32, .f32⟩
  | 91 => ⟨S100000x32, .f32⟩
  | 92 => ⟨S100000x32, .f32⟩
  | 93 => ⟨S100000x32, .f32⟩
  | 94 => ⟨S_, .f32⟩
  | 95 => ⟨S100000x32, .f32⟩
  | 96 => ⟨S100000x32, .f32⟩
  | 97 => ⟨S_, .f32⟩
  | 98 => ⟨S100000x32, .f32⟩
  | 99 => ⟨S100000x32, .f32⟩
  | 100 => ⟨S100000x32, .f32⟩
  | 101 => ⟨S100000x32, .f32⟩
  | 102 => ⟨S100000x32, .f32⟩
  | 103 => ⟨S_, .f32⟩
  | 104 => ⟨S100000x32, .f32⟩
  | 105 => ⟨S100000x32, .f32⟩
  | 106 => ⟨S100000x32, .f32⟩
  | 107 => ⟨S100000x32, .f32⟩
  | 108 => ⟨S100000x32, .f32⟩
  | _ => ⟨S100000x40, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x40, .f32⟩

abbrev bufTy : (tb : Table) → Fin (tcTables nBuf tb) → BufTy
  | .hbm, ⟨i, _⟩ => hbmTy i
  | _, _ => ⟨S100000x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_1 : Ref sig .tc := ⟨.hbm, 61, rfl⟩
abbrev main_v49 : Ref sig .tc := ⟨.hbm, 62, rfl⟩
abbrev main_v50 : Ref sig .tc := ⟨.hbm, 63, rfl⟩
abbrev main_cst_2 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_3 : Ref sig .tc := ⟨.hbm, 70, rfl⟩
abbrev main_v56 : Ref sig .tc := ⟨.hbm, 71, rfl⟩
abbrev main_v57 : Ref sig .tc := ⟨.hbm, 72, rfl⟩
abbrev main_cst_4 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_5 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_c_6 : Ref sig .tc := ⟨.hbm, 88, rfl⟩
abbrev main_v71 : Ref sig .tc := ⟨.hbm, 89, rfl⟩
abbrev main_v72 : Ref sig .tc := ⟨.hbm, 90, rfl⟩
abbrev main_c_7 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_8 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_cst_9 : Ref sig .tc := ⟨.hbm, 128, rfl⟩
abbrev main_v108 : Ref sig .tc := ⟨.hbm, 129, rfl⟩
abbrev main_v109 : Ref sig .tc := ⟨.hbm, 130, rfl⟩
abbrev main_cst_10 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_cst_11 : Ref sig .tc := ⟨.hbm, 137, rfl⟩
abbrev main_v115 : Ref sig .tc := ⟨.hbm, 138, rfl⟩
abbrev main_v116 : Ref sig .tc := ⟨.hbm, 139, rfl⟩
abbrev main_cst_12 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_13 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_c_14 : Ref sig .tc := ⟨.hbm, 155, rfl⟩
abbrev main_v130 : Ref sig .tc := ⟨.hbm, 156, rfl⟩
abbrev main_v131 : Ref sig .tc := ⟨.hbm, 157, rfl⟩
abbrev main_c_15 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_cst_16 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_cst_17 : Ref sig .tc := ⟨.hbm, 195, rfl⟩
abbrev main_v167 : Ref sig .tc := ⟨.hbm, 196, rfl⟩
abbrev main_v168 : Ref sig .tc := ⟨.hbm, 197, rfl⟩
abbrev main_cst_18 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_cst_19 : Ref sig .tc := ⟨.hbm, 204, rfl⟩
abbrev main_v174 : Ref sig .tc := ⟨.hbm, 205, rfl⟩
abbrev main_v175 : Ref sig .tc := ⟨.hbm, 206, rfl⟩
abbrev main_cst_20 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev main_v180 : Ref sig .tc := ⟨.hbm, 212, rfl⟩
abbrev main_cst_21 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_c_22 : Ref sig .tc := ⟨.hbm, 222, rfl⟩
abbrev main_v189 : Ref sig .tc := ⟨.hbm, 223, rfl⟩
abbrev main_v190 : Ref sig .tc := ⟨.hbm, 224, rfl⟩
abbrev main_c_23 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_cst_24 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_v200 : Ref sig .tc := ⟨.hbm, 236, rfl⟩
abbrev main_v201 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_v217 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_cst_25 : Ref sig .tc := ⟨.hbm, 262, rfl⟩
abbrev main_v226 : Ref sig .tc := ⟨.hbm, 263, rfl⟩
abbrev main_v227 : Ref sig .tc := ⟨.hbm, 264, rfl⟩
abbrev main_cst_26 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_cst_27 : Ref sig .tc := ⟨.hbm, 271, rfl⟩
abbrev main_v233 : Ref sig .tc := ⟨.hbm, 272, rfl⟩
abbrev main_v234 : Ref sig .tc := ⟨.hbm, 273, rfl⟩
abbrev main_cst_28 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_cst_29 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_c_30 : Ref sig .tc := ⟨.hbm, 289, rfl⟩
abbrev main_v248 : Ref sig .tc := ⟨.hbm, 290, rfl⟩
abbrev main_v249 : Ref sig .tc := ⟨.hbm, 291, rfl⟩
abbrev main_c_31 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_cst_32 : Ref sig .tc := ⟨.hbm, 298, rfl⟩
abbrev main_v255 : Ref sig .tc := ⟨.hbm, 299, rfl⟩
abbrev main_v256 : Ref sig .tc := ⟨.hbm, 300, rfl⟩
abbrev main_v257 : Ref sig .tc := ⟨.hbm, 301, rfl⟩
abbrev main_v258 : Ref sig .tc := ⟨.hbm, 302, rfl⟩
abbrev main_v259 : Ref sig .tc := ⟨.hbm, 303, rfl⟩
abbrev main_v260 : Ref sig .tc := ⟨.hbm, 304, rfl⟩
abbrev main_v261 : Ref sig .tc := ⟨.hbm, 305, rfl⟩
abbrev main_v262 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_v272 : Ref sig .tc := ⟨.hbm, 316, rfl⟩
abbrev main_v273 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_v277 : Ref sig .tc := ⟨.hbm, 321, rfl⟩
abbrev main_v278 : Ref sig .tc := ⟨.hbm, 322, rfl⟩
abbrev main_v279 : Ref sig .tc := ⟨.hbm, 323, rfl⟩
abbrev main_v280 : Ref sig .tc := ⟨.hbm, 324, rfl⟩
abbrev main_v281 : Ref sig .tc := ⟨.hbm, 325, rfl⟩
abbrev main_v282 : Ref sig .tc := ⟨.hbm, 326, rfl⟩
abbrev main_v283 : Ref sig .tc := ⟨.hbm, 327, rfl⟩
abbrev main_v284 : Ref sig .tc := ⟨.hbm, 328, rfl⟩
abbrev main_cst_33 : Ref sig .tc := ⟨.hbm, 329, rfl⟩
abbrev main_v285 : Ref sig .tc := ⟨.hbm, 330, rfl⟩
abbrev main_v286 : Ref sig .tc := ⟨.hbm, 331, rfl⟩
abbrev main_cst_34 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_v290 : Ref sig .tc := ⟨.hbm, 336, rfl⟩
abbrev main_v291 : Ref sig .tc := ⟨.hbm, 337, rfl⟩
abbrev main_cst_35 : Ref sig .tc := ⟨.hbm, 338, rfl⟩
abbrev main_v292 : Ref sig .tc := ⟨.hbm, 339, rfl⟩
abbrev main_v293 : Ref sig .tc := ⟨.hbm, 340, rfl⟩
abbrev main_cst_36 : Ref sig .tc := ⟨.hbm, 341, rfl⟩
abbrev main_v294 : Ref sig .tc := ⟨.hbm, 342, rfl⟩
abbrev main_v295 : Ref sig .tc := ⟨.hbm, 343, rfl⟩
abbrev main_v296 : Ref sig .tc := ⟨.hbm, 344, rfl⟩
abbrev main_v297 : Ref sig .tc := ⟨.hbm, 345, rfl⟩
abbrev main_v298 : Ref sig .tc := ⟨.hbm, 346, rfl⟩
abbrev main_cst_37 : Ref sig .tc := ⟨.hbm, 347, rfl⟩
abbrev main_v299 : Ref sig .tc := ⟨.hbm, 348, rfl⟩
abbrev main_v300 : Ref sig .tc := ⟨.hbm, 349, rfl⟩
abbrev main_v301 : Ref sig .tc := ⟨.hbm, 350, rfl⟩
abbrev main_v302 : Ref sig .tc := ⟨.hbm, 351, rfl⟩
abbrev main_v303 : Ref sig .tc := ⟨.hbm, 352, rfl⟩
abbrev main_v304 : Ref sig .tc := ⟨.hbm, 353, rfl⟩
abbrev main_v305 : Ref sig .tc := ⟨.hbm, 354, rfl⟩
abbrev main_v306 : Ref sig .tc := ⟨.hbm, 355, rfl⟩
abbrev main_c_38 : Ref sig .tc := ⟨.hbm, 356, rfl⟩
abbrev main_v307 : Ref sig .tc := ⟨.hbm, 357, rfl⟩
abbrev main_v308 : Ref sig .tc := ⟨.hbm, 358, rfl⟩
abbrev main_c_39 : Ref sig .tc := ⟨.hbm, 359, rfl⟩
abbrev main_v309 : Ref sig .tc := ⟨.hbm, 360, rfl⟩
abbrev main_v310 : Ref sig .tc := ⟨.hbm, 361, rfl⟩
abbrev main_v311 : Ref sig .tc := ⟨.hbm, 362, rfl⟩
abbrev main_v312 : Ref sig .tc := ⟨.hbm, 363, rfl⟩
abbrev main_v313 : Ref sig .tc := ⟨.hbm, 364, rfl⟩
abbrev main_cst_40 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_v324 : Ref sig .tc := ⟨.hbm, 376, rfl⟩
abbrev main_v325 : Ref sig .tc := ⟨.hbm, 377, rfl⟩
abbrev main_v326 : Ref sig .tc := ⟨.hbm, 378, rfl⟩
abbrev main_v327 : Ref sig .tc := ⟨.hbm, 379, rfl⟩
abbrev main_v328 : Ref sig .tc := ⟨.hbm, 380, rfl⟩
abbrev main_v329 : Ref sig .tc := ⟨.hbm, 381, rfl⟩
abbrev main_v330 : Ref sig .tc := ⟨.hbm, 382, rfl⟩
abbrev main_v331 : Ref sig .tc := ⟨.hbm, 383, rfl⟩
abbrev main_v332 : Ref sig .tc := ⟨.hbm, 384, rfl⟩
abbrev main_v333 : Ref sig .tc := ⟨.hbm, 385, rfl⟩
abbrev main_v334 : Ref sig .tc := ⟨.hbm, 386, rfl⟩
abbrev main_v335 : Ref sig .tc := ⟨.hbm, 387, rfl⟩
abbrev main_v336 : Ref sig .tc := ⟨.hbm, 388, rfl⟩
abbrev main_v337 : Ref sig .tc := ⟨.hbm, 389, rfl⟩
abbrev main_v338 : Ref sig .tc := ⟨.hbm, 390, rfl⟩
abbrev main_v339 : Ref sig .tc := ⟨.hbm, 391, rfl⟩
abbrev main_v340 : Ref sig .tc := ⟨.hbm, 392, rfl⟩
abbrev main_v341 : Ref sig .tc := ⟨.hbm, 393, rfl⟩
abbrev main_v342 : Ref sig .tc := ⟨.hbm, 394, rfl⟩
abbrev main_v343 : Ref sig .tc := ⟨.hbm, 395, rfl⟩
abbrev main_cst_41 : Ref sig .tc := ⟨.hbm, 396, rfl⟩
abbrev main_v344 : Ref sig .tc := ⟨.hbm, 397, rfl⟩
abbrev main_v345 : Ref sig .tc := ⟨.hbm, 398, rfl⟩
abbrev main_cst_42 : Ref sig .tc := ⟨.hbm, 399, rfl⟩
abbrev main_v346 : Ref sig .tc := ⟨.hbm, 400, rfl⟩
abbrev main_v347 : Ref sig .tc := ⟨.hbm, 401, rfl⟩
abbrev main_v348 : Ref sig .tc := ⟨.hbm, 402, rfl⟩
abbrev main_v349 : Ref sig .tc := ⟨.hbm, 403, rfl⟩
abbrev main_v350 : Ref sig .tc := ⟨.hbm, 404, rfl⟩
abbrev main_cst_43 : Ref sig .tc := ⟨.hbm, 405, rfl⟩
abbrev main_v351 : Ref sig .tc := ⟨.hbm, 406, rfl⟩
abbrev main_v352 : Ref sig .tc := ⟨.hbm, 407, rfl⟩
abbrev main_cst_44 : Ref sig .tc := ⟨.hbm, 408, rfl⟩
abbrev main_v353 : Ref sig .tc := ⟨.hbm, 409, rfl⟩
abbrev main_v354 : Ref sig .tc := ⟨.hbm, 410, rfl⟩
abbrev main_v355 : Ref sig .tc := ⟨.hbm, 411, rfl⟩
abbrev main_v356 : Ref sig .tc := ⟨.hbm, 412, rfl⟩
abbrev main_v357 : Ref sig .tc := ⟨.hbm, 413, rfl⟩
abbrev main_cst_45 : Ref sig .tc := ⟨.hbm, 414, rfl⟩
abbrev main_v358 : Ref sig .tc := ⟨.hbm, 415, rfl⟩
abbrev main_v359 : Ref sig .tc := ⟨.hbm, 416, rfl⟩
abbrev main_v360 : Ref sig .tc := ⟨.hbm, 417, rfl⟩
abbrev main_v361 : Ref sig .tc := ⟨.hbm, 418, rfl⟩
abbrev main_v362 : Ref sig .tc := ⟨.hbm, 419, rfl⟩
abbrev main_v363 : Ref sig .tc := ⟨.hbm, 420, rfl⟩
abbrev main_v364 : Ref sig .tc := ⟨.hbm, 421, rfl⟩
abbrev main_v365 : Ref sig .tc := ⟨.hbm, 422, rfl⟩
abbrev main_c_46 : Ref sig .tc := ⟨.hbm, 423, rfl⟩
abbrev main_v366 : Ref sig .tc := ⟨.hbm, 424, rfl⟩
abbrev main_v367 : Ref sig .tc := ⟨.hbm, 425, rfl⟩
abbrev main_c_47 : Ref sig .tc := ⟨.hbm, 426, rfl⟩
abbrev main_v368 : Ref sig .tc := ⟨.hbm, 427, rfl⟩
abbrev main_v369 : Ref sig .tc := ⟨.hbm, 428, rfl⟩
abbrev main_v370 : Ref sig .tc := ⟨.hbm, 429, rfl⟩
abbrev main_v371 : Ref sig .tc := ⟨.hbm, 430, rfl⟩
abbrev main_v372 : Ref sig .tc := ⟨.hbm, 431, rfl⟩
abbrev main_cst_48 : Ref sig .tc := ⟨.hbm, 432, rfl⟩
abbrev main_v373 : Ref sig .tc := ⟨.hbm, 433, rfl⟩
abbrev main_v374 : Ref sig .tc := ⟨.hbm, 434, rfl⟩
abbrev main_v375 : Ref sig .tc := ⟨.hbm, 435, rfl⟩
abbrev main_v376 : Ref sig .tc := ⟨.hbm, 436, rfl⟩
abbrev main_v377 : Ref sig .tc := ⟨.hbm, 437, rfl⟩
abbrev main_v378 : Ref sig .tc := ⟨.hbm, 438, rfl⟩
abbrev main_v379 : Ref sig .tc := ⟨.hbm, 439, rfl⟩
abbrev main_v380 : Ref sig .tc := ⟨.hbm, 440, rfl⟩
abbrev main_v381 : Ref sig .tc := ⟨.hbm, 441, rfl⟩
abbrev main_v382 : Ref sig .tc := ⟨.hbm, 442, rfl⟩
abbrev main_v383 : Ref sig .tc := ⟨.hbm, 443, rfl⟩
abbrev main_v384 : Ref sig .tc := ⟨.hbm, 444, rfl⟩
abbrev main_v385 : Ref sig .tc := ⟨.hbm, 445, rfl⟩
abbrev main_v386 : Ref sig .tc := ⟨.hbm, 446, rfl⟩
abbrev main_v387 : Ref sig .tc := ⟨.hbm, 447, rfl⟩
abbrev main_v388 : Ref sig .tc := ⟨.hbm, 448, rfl⟩
abbrev main_v389 : Ref sig .tc := ⟨.hbm, 449, rfl⟩
abbrev main_v390 : Ref sig .tc := ⟨.hbm, 450, rfl⟩
abbrev main_v391 : Ref sig .tc := ⟨.hbm, 451, rfl⟩
abbrev main_v392 : Ref sig .tc := ⟨.hbm, 452, rfl⟩
abbrev main_v393 : Ref sig .tc := ⟨.hbm, 453, rfl⟩
abbrev main_v394 : Ref sig .tc := ⟨.hbm, 454, rfl⟩
abbrev main_v395 : Ref sig .tc := ⟨.hbm, 455, rfl⟩
abbrev main_v396 : Ref sig .tc := ⟨.hbm, 456, rfl⟩
abbrev main_v397 : Ref sig .tc := ⟨.hbm, 457, rfl⟩
abbrev main_v398 : Ref sig .tc := ⟨.hbm, 458, rfl⟩
abbrev main_v399 : Ref sig .tc := ⟨.hbm, 459, rfl⟩
abbrev main_v400 : Ref sig .tc := ⟨.hbm, 460, rfl⟩
abbrev main_v401 : Ref sig .tc := ⟨.hbm, 461, rfl⟩
abbrev main_v402 : Ref sig .tc := ⟨.hbm, 462, rfl⟩
abbrev main_cst_49 : Ref sig .tc := ⟨.hbm, 463, rfl⟩
abbrev main_v403 : Ref sig .tc := ⟨.hbm, 464, rfl⟩
abbrev main_v404 : Ref sig .tc := ⟨.hbm, 465, rfl⟩
abbrev main_cst_50 : Ref sig .tc := ⟨.hbm, 466, rfl⟩
abbrev main_v405 : Ref sig .tc := ⟨.hbm, 467, rfl⟩
abbrev main_v406 : Ref sig .tc := ⟨.hbm, 468, rfl⟩
abbrev main_v407 : Ref sig .tc := ⟨.hbm, 469, rfl⟩
abbrev main_v408 : Ref sig .tc := ⟨.hbm, 470, rfl⟩
abbrev main_v409 : Ref sig .tc := ⟨.hbm, 471, rfl⟩
abbrev main_cst_51 : Ref sig .tc := ⟨.hbm, 472, rfl⟩
abbrev main_v410 : Ref sig .tc := ⟨.hbm, 473, rfl⟩
abbrev main_v411 : Ref sig .tc := ⟨.hbm, 474, rfl⟩
abbrev main_cst_52 : Ref sig .tc := ⟨.hbm, 475, rfl⟩
abbrev main_v412 : Ref sig .tc := ⟨.hbm, 476, rfl⟩
abbrev main_v413 : Ref sig .tc := ⟨.hbm, 477, rfl⟩
abbrev main_v414 : Ref sig .tc := ⟨.hbm, 478, rfl⟩
abbrev main_v415 : Ref sig .tc := ⟨.hbm, 479, rfl⟩
abbrev main_v416 : Ref sig .tc := ⟨.hbm, 480, rfl⟩
abbrev main_cst_53 : Ref sig .tc := ⟨.hbm, 481, rfl⟩
abbrev main_v417 : Ref sig .tc := ⟨.hbm, 482, rfl⟩
abbrev main_v418 : Ref sig .tc := ⟨.hbm, 483, rfl⟩
abbrev main_v419 : Ref sig .tc := ⟨.hbm, 484, rfl⟩
abbrev main_v420 : Ref sig .tc := ⟨.hbm, 485, rfl⟩
abbrev main_v421 : Ref sig .tc := ⟨.hbm, 486, rfl⟩
abbrev main_v422 : Ref sig .tc := ⟨.hbm, 487, rfl⟩
abbrev main_v423 : Ref sig .tc := ⟨.hbm, 488, rfl⟩
abbrev main_v424 : Ref sig .tc := ⟨.hbm, 489, rfl⟩
abbrev main_c_54 : Ref sig .tc := ⟨.hbm, 490, rfl⟩
abbrev main_v425 : Ref sig .tc := ⟨.hbm, 491, rfl⟩
abbrev main_v426 : Ref sig .tc := ⟨.hbm, 492, rfl⟩
abbrev main_c_55 : Ref sig .tc := ⟨.hbm, 493, rfl⟩
abbrev main_v427 : Ref sig .tc := ⟨.hbm, 494, rfl⟩
abbrev main_v428 : Ref sig .tc := ⟨.hbm, 495, rfl⟩
abbrev main_v429 : Ref sig .tc := ⟨.hbm, 496, rfl⟩
abbrev main_v430 : Ref sig .tc := ⟨.hbm, 497, rfl⟩
abbrev main_v431 : Ref sig .tc := ⟨.hbm, 498, rfl⟩
abbrev main_cst_56 : Ref sig .tc := ⟨.hbm, 499, rfl⟩
abbrev main_v432 : Ref sig .tc := ⟨.hbm, 500, rfl⟩
abbrev main_v433 : Ref sig .tc := ⟨.hbm, 501, rfl⟩
abbrev main_v434 : Ref sig .tc := ⟨.hbm, 502, rfl⟩
abbrev main_v435 : Ref sig .tc := ⟨.hbm, 503, rfl⟩
abbrev main_v436 : Ref sig .tc := ⟨.hbm, 504, rfl⟩
abbrev main_v437 : Ref sig .tc := ⟨.hbm, 505, rfl⟩
abbrev main_v438 : Ref sig .tc := ⟨.hbm, 506, rfl⟩
abbrev main_v439 : Ref sig .tc := ⟨.hbm, 507, rfl⟩
abbrev main_v440 : Ref sig .tc := ⟨.hbm, 508, rfl⟩
abbrev main_v441 : Ref sig .tc := ⟨.hbm, 509, rfl⟩
abbrev main_v442 : Ref sig .tc := ⟨.hbm, 510, rfl⟩
abbrev main_v443 : Ref sig .tc := ⟨.hbm, 511, rfl⟩
abbrev main_v444 : Ref sig .tc := ⟨.hbm, 512, rfl⟩
abbrev main_v445 : Ref sig .tc := ⟨.hbm, 513, rfl⟩
abbrev main_v446 : Ref sig .tc := ⟨.hbm, 514, rfl⟩
abbrev main_v447 : Ref sig .tc := ⟨.hbm, 515, rfl⟩
abbrev main_v448 : Ref sig .tc := ⟨.hbm, 516, rfl⟩
abbrev main_v449 : Ref sig .tc := ⟨.hbm, 517, rfl⟩
abbrev main_v450 : Ref sig .tc := ⟨.hbm, 518, rfl⟩
abbrev main_v451 : Ref sig .tc := ⟨.hbm, 519, rfl⟩
abbrev main_v452 : Ref sig .tc := ⟨.hbm, 520, rfl⟩
abbrev main_v453 : Ref sig .tc := ⟨.hbm, 521, rfl⟩
abbrev main_v454 : Ref sig .tc := ⟨.hbm, 522, rfl⟩
abbrev main_v455 : Ref sig .tc := ⟨.hbm, 523, rfl⟩
abbrev main_v456 : Ref sig .tc := ⟨.hbm, 524, rfl⟩
abbrev main_v457 : Ref sig .tc := ⟨.hbm, 525, rfl⟩
abbrev main_v458 : Ref sig .tc := ⟨.hbm, 526, rfl⟩
abbrev main_v459 : Ref sig .tc := ⟨.hbm, 527, rfl⟩
abbrev main_v460 : Ref sig .tc := ⟨.hbm, 528, rfl⟩
abbrev main_v461 : Ref sig .tc := ⟨.hbm, 529, rfl⟩
abbrev main_cst_57 : Ref sig .tc := ⟨.hbm, 530, rfl⟩
abbrev main_v462 : Ref sig .tc := ⟨.hbm, 531, rfl⟩
abbrev main_v463 : Ref sig .tc := ⟨.hbm, 532, rfl⟩
abbrev main_cst_58 : Ref sig .tc := ⟨.hbm, 533, rfl⟩
abbrev main_v464 : Ref sig .tc := ⟨.hbm, 534, rfl⟩
abbrev main_v465 : Ref sig .tc := ⟨.hbm, 535, rfl⟩
abbrev main_v466 : Ref sig .tc := ⟨.hbm, 536, rfl⟩
abbrev main_v467 : Ref sig .tc := ⟨.hbm, 537, rfl⟩
abbrev main_v468 : Ref sig .tc := ⟨.hbm, 538, rfl⟩
abbrev main_cst_59 : Ref sig .tc := ⟨.hbm, 539, rfl⟩
abbrev main_v469 : Ref sig .tc := ⟨.hbm, 540, rfl⟩
abbrev main_v470 : Ref sig .tc := ⟨.hbm, 541, rfl⟩
abbrev main_cst_60 : Ref sig .tc := ⟨.hbm, 542, rfl⟩
abbrev main_v471 : Ref sig .tc := ⟨.hbm, 543, rfl⟩
abbrev main_v472 : Ref sig .tc := ⟨.hbm, 544, rfl⟩
abbrev main_v473 : Ref sig .tc := ⟨.hbm, 545, rfl⟩
abbrev main_v474 : Ref sig .tc := ⟨.hbm, 546, rfl⟩
abbrev main_v475 : Ref sig .tc := ⟨.hbm, 547, rfl⟩
abbrev main_cst_61 : Ref sig .tc := ⟨.hbm, 548, rfl⟩
abbrev main_v476 : Ref sig .tc := ⟨.hbm, 549, rfl⟩
abbrev main_v477 : Ref sig .tc := ⟨.hbm, 550, rfl⟩
abbrev main_v478 : Ref sig .tc := ⟨.hbm, 551, rfl⟩
abbrev main_v479 : Ref sig .tc := ⟨.hbm, 552, rfl⟩
abbrev main_v480 : Ref sig .tc := ⟨.hbm, 553, rfl⟩
abbrev main_v481 : Ref sig .tc := ⟨.hbm, 554, rfl⟩
abbrev main_v482 : Ref sig .tc := ⟨.hbm, 555, rfl⟩
abbrev main_v483 : Ref sig .tc := ⟨.hbm, 556, rfl⟩
abbrev main_c_62 : Ref sig .tc := ⟨.hbm, 557, rfl⟩
abbrev main_v484 : Ref sig .tc := ⟨.hbm, 558, rfl⟩
abbrev main_v485 : Ref sig .tc := ⟨.hbm, 559, rfl⟩
abbrev main_c_63 : Ref sig .tc := ⟨.hbm, 560, rfl⟩
abbrev main_v486 : Ref sig .tc := ⟨.hbm, 561, rfl⟩
abbrev main_v487 : Ref sig .tc := ⟨.hbm, 562, rfl⟩
abbrev main_v488 : Ref sig .tc := ⟨.hbm, 563, rfl⟩
abbrev main_v489 : Ref sig .tc := ⟨.hbm, 564, rfl⟩
abbrev main_v490 : Ref sig .tc := ⟨.hbm, 565, rfl⟩
abbrev main_cst_64 : Ref sig .tc := ⟨.hbm, 566, rfl⟩
abbrev main_v491 : Ref sig .tc := ⟨.hbm, 567, rfl⟩
abbrev main_v492 : Ref sig .tc := ⟨.hbm, 568, rfl⟩
abbrev main_v493 : Ref sig .tc := ⟨.hbm, 569, rfl⟩
abbrev main_v494 : Ref sig .tc := ⟨.hbm, 570, rfl⟩
abbrev main_v495 : Ref sig .tc := ⟨.hbm, 571, rfl⟩
abbrev main_v496 : Ref sig .tc := ⟨.hbm, 572, rfl⟩
abbrev main_v497 : Ref sig .tc := ⟨.hbm, 573, rfl⟩
abbrev main_v498 : Ref sig .tc := ⟨.hbm, 574, rfl⟩
abbrev main_v499 : Ref sig .tc := ⟨.hbm, 575, rfl⟩
abbrev main_v500 : Ref sig .tc := ⟨.hbm, 576, rfl⟩
abbrev main_v501 : Ref sig .tc := ⟨.hbm, 577, rfl⟩
abbrev main_v502 : Ref sig .tc := ⟨.hbm, 578, rfl⟩
abbrev main_v503 : Ref sig .tc := ⟨.hbm, 579, rfl⟩
abbrev main_v504 : Ref sig .tc := ⟨.hbm, 580, rfl⟩
abbrev main_v505 : Ref sig .tc := ⟨.hbm, 581, rfl⟩
abbrev main_v506 : Ref sig .tc := ⟨.hbm, 582, rfl⟩
abbrev main_v507 : Ref sig .tc := ⟨.hbm, 583, rfl⟩
abbrev main_v508 : Ref sig .tc := ⟨.hbm, 584, rfl⟩
abbrev main_v509 : Ref sig .tc := ⟨.hbm, 585, rfl⟩
abbrev main_v510 : Ref sig .tc := ⟨.hbm, 586, rfl⟩
abbrev main_v511 : Ref sig .tc := ⟨.hbm, 587, rfl⟩
abbrev main_v512 : Ref sig .tc := ⟨.hbm, 588, rfl⟩
abbrev main_v513 : Ref sig .tc := ⟨.hbm, 589, rfl⟩
abbrev main_v514 : Ref sig .tc := ⟨.hbm, 590, rfl⟩
abbrev main_v515 : Ref sig .tc := ⟨.hbm, 591, rfl⟩
abbrev main_v516 : Ref sig .tc := ⟨.hbm, 592, rfl⟩
abbrev main_v517 : Ref sig .tc := ⟨.hbm, 593, rfl⟩
abbrev main_v518 : Ref sig .tc := ⟨.hbm, 594, rfl⟩
abbrev main_v519 : Ref sig .tc := ⟨.hbm, 595, rfl⟩
abbrev main_v520 : Ref sig .tc := ⟨.hbm, 596, rfl⟩
abbrev main_cst_65 : Ref sig .tc := ⟨.hbm, 597, rfl⟩
abbrev main_v521 : Ref sig .tc := ⟨.hbm, 598, rfl⟩
abbrev main_v522 : Ref sig .tc := ⟨.hbm, 599, rfl⟩
abbrev main_cst_66 : Ref sig .tc := ⟨.hbm, 600, rfl⟩
abbrev main_v523 : Ref sig .tc := ⟨.hbm, 601, rfl⟩
abbrev main_v524 : Ref sig .tc := ⟨.hbm, 602, rfl⟩
abbrev main_v525 : Ref sig .tc := ⟨.hbm, 603, rfl⟩
abbrev main_v526 : Ref sig .tc := ⟨.hbm, 604, rfl⟩
abbrev main_v527 : Ref sig .tc := ⟨.hbm, 605, rfl⟩
abbrev main_cst_67 : Ref sig .tc := ⟨.hbm, 606, rfl⟩
abbrev main_v528 : Ref sig .tc := ⟨.hbm, 607, rfl⟩
abbrev main_v529 : Ref sig .tc := ⟨.hbm, 608, rfl⟩
abbrev main_cst_68 : Ref sig .tc := ⟨.hbm, 609, rfl⟩
abbrev main_v530 : Ref sig .tc := ⟨.hbm, 610, rfl⟩
abbrev main_v531 : Ref sig .tc := ⟨.hbm, 611, rfl⟩
abbrev main_v532 : Ref sig .tc := ⟨.hbm, 612, rfl⟩
abbrev main_v533 : Ref sig .tc := ⟨.hbm, 613, rfl⟩
abbrev main_v534 : Ref sig .tc := ⟨.hbm, 614, rfl⟩
abbrev main_cst_69 : Ref sig .tc := ⟨.hbm, 615, rfl⟩
abbrev main_v535 : Ref sig .tc := ⟨.hbm, 616, rfl⟩
abbrev main_v536 : Ref sig .tc := ⟨.hbm, 617, rfl⟩
abbrev main_v537 : Ref sig .tc := ⟨.hbm, 618, rfl⟩
abbrev main_v538 : Ref sig .tc := ⟨.hbm, 619, rfl⟩
abbrev main_v539 : Ref sig .tc := ⟨.hbm, 620, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  transposes_S32x40_S40x32_1_0 : S32x40.Transposes [1, 0] S40x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S3x3x32x32_S1x1x32x32_0_0_0_0 : S3x3x32x32.Slices ![0, 0, 0, 0] S1x1x32x32
  shapeCasts_S1x1x32x32_S32x32 : S1x1x32x32.ShapeCasts S32x32
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  slices_S3x96x32_S1x96x32_0_0_0 : S3x96x32.Slices ![0, 0, 0] S1x96x32
  shapeCasts_S1x96x32_S96x32 : S1x96x32.ShapeCasts S96x32
  transposes_S96x32_S32x96_1_0 : S96x32.Transposes [1, 0] S32x96
  slices_S3x96_S1x96_0_0 : S3x96.Slices ![0, 0] S1x96
  shapeCasts_S1x96_S96 : S1x96.ShapeCasts S96
  bcast_S96_S1x96_1 : S96.BroadcastsInDim S1x96 (![1] : Fin 1 → Fin S1x96.rank)
  bcast_S1x96_S100000x96_0_1 : S1x96.BroadcastsInDim S100000x96 (![0, 1] : Fin 2 → Fin S100000x96.rank)
  slices_S100000x96_S100000x32_0_0 : S100000x96.Slices ![0, 0] S100000x32
  slices_S100000x96_S100000x32_0_32 : S100000x96.Slices ![0, 32] S100000x32
  slices_S100000x96_S100000x32_0_64 : S100000x96.Slices ![0, 64] S100000x32
  slices_S3x3x32x32_S1x1x32x32_0_1_0_0 : S3x3x32x32.Slices ![0, 1, 0, 0] S1x1x32x32
  slices_S3x3x32x32_S1x1x32x32_0_2_0_0 : S3x3x32x32.Slices ![0, 2, 0, 0] S1x1x32x32
  slices_S3x3x32x32_S1x1x32x32_1_0_0_0 : S3x3x32x32.Slices ![1, 0, 0, 0] S1x1x32x32
  slices_S3x96x32_S1x96x32_1_0_0 : S3x96x32.Slices ![1, 0, 0] S1x96x32
  slices_S3x96_S1x96_1_0 : S3x96.Slices ![1, 0] S1x96
  slices_S3x3x32x32_S1x1x32x32_1_1_0_0 : S3x3x32x32.Slices ![1, 1, 0, 0] S1x1x32x32
  slices_S3x3x32x32_S1x1x32x32_1_2_0_0 : S3x3x32x32.Slices ![1, 2, 0, 0] S1x1x32x32
  slices_S3x3x32x32_S1x1x32x32_2_0_0_0 : S3x3x32x32.Slices ![2, 0, 0, 0] S1x1x32x32
  slices_S3x96x32_S1x96x32_2_0_0 : S3x96x32.Slices ![2, 0, 0] S1x96x32
  slices_S3x96_S1x96_2_0 : S3x96.Slices ![2, 0] S1x96
  slices_S3x3x32x32_S1x1x32x32_2_1_0_0 : S3x3x32x32.Slices ![2, 1, 0, 0] S1x1x32x32
  slices_S3x3x32x32_S1x1x32x32_2_2_0_0 : S3x3x32x32.Slices ![2, 2, 0, 0] S1x1x32x32
  dot_S100000x40_S40x32_S100000x32_1_0_0_1_n_n_wf : DotDims.WF S100000x40 S40x32 S100000x32 [1] [0] [0] [1] [] []
  dot_S100000x32_S32x32_S100000x32_1_0_0_1_n_n_wf : DotDims.WF S100000x32 S32x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x96_S100000x96_1_0_0_1_n_n_wf : DotDims.WF S100000x32 S32x96 S100000x96 [1] [0] [0] [1] [] []

variable [Facts₀]

def dot_S100000x40_S40x32_S100000x32_1_0_0_1_n_n : DotDims S100000x40 S40x32 S100000x32 where
  lhsContracting := [1]
  rhsContracting := [0]
  lhsNonContracting := [0]
  rhsNonContracting := [1]
  lhsBatch := []
  rhsBatch := []
  wf := dot_S100000x40_S40x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x96_S100000x96_1_0_0_1_n_n : DotDims S100000x32 S32x96 S100000x96 where
  lhsContracting := [1]
  rhsContracting := [0]
  lhsNonContracting := [0]
  rhsNonContracting := [1]
  lhsBatch := []
  rhsBatch := []
  wf := dot_S100000x32_S32x96_S100000x96_1_0_0_1_n_n_wf

class Facts : Prop extends Facts₀ where

variable [Facts]
-- ==== Proof.RefOps.lean ====
/-
  The reference's whole-array operations, named. A gated graph network keeps a state `h` of one row per node. The first
  layer is the affine map `x · Wᵀ + b`. Each later round forms the messages `h · C`, gathers a message row per edge at
  the edge's source and sums the gathered rows into the edge's target, forms the two gate pre-activations (an affine map of
  the aggregate and one of the state), and updates the state by the gated rule
  `h' = (1 - z) · n + z · h`, `r = σ(gi_r + gh_r)`, `z = σ(gi_z + gh_z)`, `n = tanh(gi_n + r · gh_n)`,
  where `σ(t) = 1 / (1 + e^(-t))` is spelled with the host's negate, exponential, add and divide. Each definition below
  is the composition of host operations the reference applies for that step; the values of both programs are stated with
  them.
-/
import proofs.«421494_j30356828848478_1_alg».proof.ReferenceIdeal
import Idealize.ShloMosaic.PureOps.Ideal

noncomputable section

namespace Cert.Bridge

open Idealize.ShloMosaic Cert.ReferenceIdeal

variable [Cert.ReferenceIdeal.Facts₀]
open Cert.ReferenceIdeal.Facts₀

/-- The first layer: rows of `x` against the transposed weight, the bias row repeated down the rows. -/
def rLin (x : FVec Ideal S100000x40 .f32) (wT : FVec Ideal S40x32 .f32) (b : FVec Ideal S1x32 .f32) :
    FVec Ideal S100000x32 .f32 :=
  addf (Host.dotGeneral dot_S100000x40_S40x32_S100000x32_1_0_0_1_n_n none x wT)
    (broadcastInDim S100000x32 ![0, 1] bcast_S1x32_S100000x32_0_1 b)

/-- The messages: the state against a 32 × 32 matrix. -/
def rMsg (h : FVec Ideal S100000x32 .f32) (conv : FVec Ideal S32x32 .f32) : FVec Ideal S100000x32 .f32 :=
  Host.dotGeneral dot_S100000x32_S32x32_S100000x32_1_0_0_1_n_n none h conv

/-- A gate pre-activation: an array of 32-wide rows against a 32 × 96 matrix, plus the bias row repeated down the rows. -/
def rGate (a : FVec Ideal S100000x32 .f32) (wT : FVec Ideal S32x96 .f32) (b : FVec Ideal S1x96 .f32) :
    FVec Ideal S100000x96 .f32 :=
  addf (Host.dotGeneral dot_S100000x32_S32x96_S100000x96_1_0_0_1_n_n none a wT)
    (broadcastInDim S100000x96 ![0, 1] bcast_S1x96_S100000x96_0_1 b)

/-- The edge aggregation: a source index below zero is counted from the end; one message row is gathered per edge at its
    source, and the gathered rows are summed into a zero array at the edges' targets. -/
def rAgg (msg : FVec Ideal S100000x32 .f32) (src dst : IVec S3200000 32) : FVec Ideal S100000x32 .f32 :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 dst)
    (Host.gather gather_S100000x32_S3200000x1_S3200000x32_1_0_n_n_0_1_132 msg
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src)))

/-- The array of ones. -/
def rOne : FVec Ideal S100000x32 .f32 := broadcastInDim S100000x32 ![] bcast_S_S100000x32 (constant S_ .f32 0x3F800000#32)

/-- The logistic function as the host spells it: `1 / (1 + e^(-t))`. -/
def rSig (t : FVec Ideal S100000x32 .f32) : FVec Ideal S100000x32 .f32 :=
  Host.divf rOne (addf rOne (Host.exp (Host.negf t)))

/-- The gated update from the two pre-activations and the state. -/
def rUpd (gi gh : FVec Ideal S100000x96 .f32) (h : FVec Ideal S100000x32 .f32) : FVec Ideal S100000x32 .f32 :=
  addf
    (mulf
      (subf rOne
        (rSig (addf (extractStridedSlice S100000x32 ![0, 32] gi slices_S100000x96_S100000x32_0_32)
          (extractStridedSlice S100000x32 ![0, 32] gh slices_S100000x96_S100000x32_0_32))))
      (Host.tanh
        (addf (extractStridedSlice S100000x32 ![0, 64] gi slices_S100000x96_S100000x32_0_64)
          (mulf
            (rSig (addf (extractStridedSlice S100000x32 ![0, 0] gi slices_S100000x96_S100000x32_0_0)
              (extractStridedSlice S100000x32 ![0, 0] gh slices_S100000x96_S100000x32_0_0)))
            (extractStridedSlice S100000x32 ![0, 64] gh slices_S100000x96_S100000x32_0_64)))))
    (mulf
      (rSig (addf (extractStridedSlice S100000x32 ![0, 32] gi slices_S100000x96_S100000x32_0_32)
        (extractStridedSlice S100000x32 ![0, 32] gh slices_S100000x96_S100000x32_0_32)))
      h)

/-- One round of the network on a state, from the round's 32 × 32 matrix, the two transposed gate matrices, the two bias
    rows and the edge list. -/
def rRound (h : FVec Ideal S100000x32 .f32) (conv : FVec Ideal S32x32 .f32) (wihT whhT : FVec Ideal S32x96 .f32)
    (bih bhh : FVec Ideal S1x96 .f32) (src dst : IVec S3200000 32) : FVec Ideal S100000x32 .f32 :=
  rUpd (rGate (rAgg (rMsg h conv) src dst) wihT bih) (rGate h whhT bhh) h

end Cert.Bridge

end
-- ==== Proof.Weights.lean ====
/-
  The small operands of the two programs, and the edge aggregation, each spelled as its program spells it. The kernel's
  program transposes the two stacked gate weights once (axes 1 and 2 exchanged), then cuts layer `c` out of the transposed
  stack and drops the unit axis; the reference cuts layer `c` out of the stack, drops the unit axis, and transposes the
  96 × 32 matrix. Both are the matrix `(k, j) ↦ w (c, j, k)`. A bias row: the kernel's program flattens layer `c`'s 1 × 96
  slice to 96 entries and reshapes it to 1 × 96; the reference flattens it and places the 96 entries along axis 1 of a
  1 × 96 array. Both are `(0, j) ↦ b (c, j)`. The first layer's bias likewise (a reshape against a placement along axis 1).
  The round's 32 × 32 matrix, the first layer's transposed weight, the source and target rows of the edge list and the
  edge aggregation are spelled with the same operations in both programs.
-/
import proofs.«421494_j30356828848478_1_alg».proof.KernelIdeal
import proofs.«421494_j30356828848478_1_alg».proof.Proof.RefOps
import Idealize.ShloMosaic.Lib.ValueIdx
import Idealize.ShloMosaic.Lib.Pipeline.Value
import Idealize.ShloMosaic.Lib.ValueLayout

noncomputable section

namespace Cert.Bridge

open Idealize.ShloMosaic Idealize.ShloMosaic.ValueIdx

variable [Cert.KernelIdeal.Facts₀] [Cert.ReferenceIdeal.Facts₀]

/-! ## As the kernel's program spells them -/

namespace K

open Cert.KernelIdeal Cert.KernelIdeal.Facts₀

/-- The edges' source nodes: row 0 of the edge list. -/
def src (e : IVec S2x3200000 32) : IVec S3200000 32 :=
  shapeCast S3200000 (extractStridedSlice S1x3200000 ![0, 0] e slices_S2x3200000_S1x3200000_0_0) shapeCasts_S1x3200000_S3200000
/-- The edges' target nodes: row 1 of the edge list. -/
def dst (e : IVec S2x3200000 32) : IVec S3200000 32 :=
  shapeCast S3200000 (extractStridedSlice S1x3200000 ![1, 0] e slices_S2x3200000_S1x3200000_1_0) shapeCasts_S1x3200000_S3200000
/-- The first layer's weight, transposed. -/
def linW (w : FVec Ideal S32x40 .f32) : FVec Ideal S40x32 .f32 := transpose S40x32 [1, 0] w transposes_S32x40_S40x32_1_0
/-- The first layer's bias as a 1 × 32 row. -/
def linB (b : FVec Ideal S32 .f32) : FVec Ideal S1x32 .f32 := shapeCast S1x32 b shapeCasts_S32_S1x32
/-- A stack of three 96 × 32 gate weights with each matrix transposed. -/
def gT (w : FVec Ideal S3x96x32 .f32) : FVec Ideal S3x32x96 .f32 := transpose S3x32x96 [0, 2, 1] w transposes_S3x96x32_S3x32x96_0_2_1
/-- Layer 0 of a transposed stack, as a 32 × 96 matrix. -/
def gW0 (t : FVec Ideal S3x32x96 .f32) : FVec Ideal S32x96 .f32 :=
  shapeCast S32x96 (extractStridedSlice S1x32x96 ![0, 0, 0] t slices_S3x32x96_S1x32x96_0_0_0) shapeCasts_S1x32x96_S32x96
/-- Layer 1 of a transposed stack, as a 32 × 96 matrix. -/
def gW1 (t : FVec Ideal S3x32x96 .f32) : FVec Ideal S32x96 .f32 :=
  shapeCast S32x96 (extractStridedSlice S1x32x96 ![1, 0, 0] t slices_S3x32x96_S1x32x96_1_0_0) shapeCasts_S1x32x96_S32x96
/-- Layer 2 of a transposed stack, as a 32 × 96 matrix. -/
def gW2 (t : FVec Ideal S3x32x96 .f32) : FVec Ideal S32x96 .f32 :=
  shapeCast S32x96 (extractStridedSlice S1x32x96 ![2, 0, 0] t slices_S3x32x96_S1x32x96_2_0_0) shapeCasts_S1x32x96_S32x96
/-- Layer 0's bias as a 1 × 96 row. -/
def gB0 (b : FVec Ideal S3x96 .f32) : FVec Ideal S1x96 .f32 :=
  shapeCast S1x96 (shapeCast S96 (extractStridedSlice S1x96 ![0, 0] b slices_S3x96_S1x96_0_0) shapeCasts_S1x96_S96) shapeCasts_S96_S1x96
/-- Layer 1's bias as a 1 × 96 row. -/
def gB1 (b : FVec Ideal S3x96 .f32) : FVec Ideal S1x96 .f32 :=
  shapeCast S1x96 (shapeCast S96 (extractStridedSlice S1x96 ![1, 0] b slices_S3x96_S1x96_1_0) shapeCasts_S1x96_S96) shapeCasts_S96_S1x96
/-- Layer 2's bias as a 1 × 96 row. -/
def gB2 (b : FVec Ideal S3x96 .f32) : FVec Ideal S1x96 .f32 :=
  shapeCast S1x96 (shapeCast S96 (extractStridedSlice S1x96 ![2, 0] b slices_S3x96_S1x96_2_0) shapeCasts_S1x96_S96) shapeCasts_S96_S1x96
/-- The 32 × 32 matrix of layer 0, step 0. -/
def conv00 (w : FVec Ideal S3x3x32x32 .f32) : FVec Ideal S32x32 .f32 :=
  shapeCast S32x32 (extractStridedSlice S1x1x32x32 ![0, 0, 0, 0] w slices_S3x3x32x32_S1x1x32x32_0_0_0_0) shapeCasts_S1x1x32x32_S32x32
/-- The 32 × 32 matrix of layer 0, step 1. -/
def conv01 (w : FVec Ideal S3x3x32x32 .f32) : FVec Ideal S32x32 .f32 :=
  shapeCast S32x32 (extractStridedSlice S1x1x32x32 ![0, 1, 0, 0] w slices_S3x3x32x32_S1x1x32x32_0_1_0_0) shapeCasts_S1x1x32x32_S32x32
/-- The 32 × 32 matrix of layer 0, step 2. -/
def conv02 (w : FVec Ideal S3x3x32x32 .f32) : FVec Ideal S32x32 .f32 :=
  shapeCast S32x32 (extractStridedSlice S1x1x32x32 ![0, 2, 0, 0] w slices_S3x3x32x32_S1x1x32x32_0_2_0_0) shapeCasts_S1x1x32x32_S32x32
/-- The 32 × 32 matrix of layer 1, step 0. -/
def conv10 (w : FVec Ideal S3x3x32x32 .f32) : FVec Ideal S32x32 .f32 :=
  shapeCast S32x32 (extractStridedSlice S1x1x32x32 ![1, 0, 0, 0] w slices_S3x3x32x32_S1x1x32x32_1_0_0_0) shapeCasts_S1x1x32x32_S32x32
/-- The 32 × 32 matrix of layer 1, step 1. -/
def conv11 (w : FVec Ideal S3x3x32x32 .f32) : FVec Ideal S32x32 .f32 :=
  shapeCast S32x32 (extractStridedSlice S1x1x32x32 ![1, 1, 0, 0] w slices_S3x3x32x32_S1x1x32x32_1_1_0_0) shapeCasts_S1x1x32x32_S32x32
/-- The 32 × 32 matrix of layer 1, step 2. -/
def conv12 (w : FVec Ideal S3x3x32x32 .f32) : FVec Ideal S32x32 .f32 :=
  shapeCast S32x32 (extractStridedSlice S1x1x32x32 ![1, 2, 0, 0] w slices_S3x3x32x32_S1x1x32x32_1_2_0_0) shapeCasts_S1x1x32x32_S32x32
/-- The 32 × 32 matrix of layer 2, step 0. -/
def conv20 (w : FVec Ideal S3x3x32x32 .f32) : FVec Ideal S32x32 .f32 :=
  shapeCast S32x32 (extractStridedSlice S1x1x32x32 ![2, 0, 0, 0] w slices_S3x3x32x32_S1x1x32x32_2_0_0_0) shapeCasts_S1x1x32x32_S32x32
/-- The 32 × 32 matrix of layer 2, step 1. -/
def conv21 (w : FVec Ideal S3x3x32x32 .f32) : FVec Ideal S32x32 .f32 :=
  shapeCast S32x32 (extractStridedSlice S1x1x32x32 ![2, 1, 0, 0] w slices_S3x3x32x32_S1x1x32x32_2_1_0_0) shapeCasts_S1x1x32x32_S32x32
/-- The 32 × 32 matrix of layer 2, step 2. -/
def conv22 (w : FVec Ideal S3x3x32x32 .f32) : FVec Ideal S32x32 .f32 :=
  shapeCast S32x32 (extractStridedSlice S1x1x32x32 ![2, 2, 0, 0] w slices_S3x3x32x32_S1x1x32x32_2_2_0_0) shapeCasts_S1x1x32x32_S32x32
/-- The edge aggregation: a source index below zero counted from the end, one message row gathered per edge at its source,
    the gathered rows summed into a zero array at the edges' targets. -/
def agg (msg : FVec Ideal S100000x32 .f32) (s d : IVec S3200000 32) : FVec Ideal S100000x32 .f32 :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 d)
    (Host.gather gather_S100000x32_S3200000x1_S3200000x32_1_0_n_n_0_1_132 msg
      (broadcastInDim S3200000x1 ![0] bcast_S3200000_S3200000x1_0
        (select (cmpi .slt s (broadcastInDim S3200000 ![] bcast_S_S3200000 (constantI S_ 32 0#32)))
          (addi s (broadcastInDim S3200000 ![] bcast_S_S3200000 (constantI S_ 32 100000#32))) s)))

end K

/-! ## As the reference spells them -/

namespace R

open Cert.ReferenceIdeal Cert.ReferenceIdeal.Facts₀

/-- The edges' source nodes: row 0 of the edge list. -/
def src (e : IVec S2x3200000 32) : IVec S3200000 32 :=
  shapeCast S3200000 (extractStridedSlice S1x3200000 ![0, 0] e slices_S2x3200000_S1x3200000_0_0) shapeCasts_S1x3200000_S3200000
/-- The edges' target nodes: row 1 of the edge list. -/
def dst (e : IVec S2x3200000 32) : IVec S3200000 32 :=
  shapeCast S3200000 (extractStridedSlice S1x3200000 ![1, 0] e slices_S2x3200000_S1x3200000_1_0) shapeCasts_S1x3200000_S3200000
/-- The first layer's weight, transposed. -/
def linW (w : FVec Ideal S32x40 .f32) : FVec Ideal S40x32 .f32 := transpose S40x32 [1, 0] w transposes_S32x40_S40x32_1_0
/-- The first layer's bias placed along axis 1 of a 1 × 32 array. -/
def linB (b : FVec Ideal S32 .f32) : FVec Ideal S1x32 .f32 := broadcastInDim S1x32 ![1] bcast_S32_S1x32_1 b
/-- Layer 0 of a stack of three 96 × 32 gate weights, transposed to 32 × 96. -/
def gW0 (w : FVec Ideal S3x96x32 .f32) : FVec Ideal S32x96 .f32 :=
  transpose S32x96 [1, 0]
    (shapeCast S96x32 (extractStridedSlice S1x96x32 ![0, 0, 0] w slices_S3x96x32_S1x96x32_0_0_0) shapeCasts_S1x96x32_S96x32)
    transposes_S96x32_S32x96_1_0
/-- Layer 1 of a stack of three 96 × 32 gate weights, transposed to 32 × 96. -/
def gW1 (w : FVec Ideal S3x96x32 .f32) : FVec Ideal S32x96 .f32 :=
  transpose S32x96 [1, 0]
    (shapeCast S96x32 (extractStridedSlice S1x96x32 ![1, 0, 0] w slices_S3x96x32_S1x96x32_1_0_0) shapeCasts_S1x96x32_S96x32)
    transposes_S96x32_S32x96_1_0
/-- Layer 2 of a stack of three 96 × 32 gate weights, transposed to 32 × 96. -/
def gW2 (w : FVec Ideal S3x96x32 .f32) : FVec Ideal S32x96 .f32 :=
  transpose S32x96 [1, 0]
    (shapeCast S96x32 (extractStridedSlice S1x96x32 ![2, 0, 0] w slices_S3x96x32_S1x96x32_2_0_0) shapeCasts_S1x96x32_S96x32)
    transposes_S96x32_S32x96_1_0
/-- Layer 0's bias placed along axis 1 of a 1 × 96 array. -/
def gB0 (b : FVec Ideal S3x96 .f32) : FVec Ideal S1x96 .f32 :=
  broadcastInDim S1x96 ![1] bcast_S96_S1x96_1
    (shapeCast S96 (extractStridedSlice S1x96 ![0, 0] b slices_S3x96_S1x96_0_0) shapeCasts_S1x96_S96)
/-- Layer 1's bias placed along axis 1 of a 1 × 96 array. -/
def gB1 (b : FVec Ideal S3x96 .f32) : FVec Ideal S1x96 .f32 :=
  broadcastInDim S1x96 ![1] bcast_S96_S1x96_1
    (shapeCast S96 (extractStridedSlice S1x96 ![1, 0] b slices_S3x96_S1x96_1_0) shapeCasts_S1x96_S96)
/-- Layer 2's bias placed along axis 1 of a 1 × 96 array. -/
def gB2 (b : FVec Ideal S3x96 .f32) : FVec Ideal S1x96 .f32 :=
  broadcastInDim S1x96 ![1] bcast_S96_S1x96_1
    (shapeCast S96 (extractStridedSlice S1x96 ![2, 0] b slices_S3x96_S1x96_2_0) shapeCasts_S1x96_S96)
/-- The 32 × 32 matrix of layer 0, step 0. -/
def conv00 (w : FVec Ideal S3x3x32x32 .f32) : FVec Ideal S32x32 .f32 :=
  shapeCast S32x32 (extractStridedSlice S1x1x32x32 ![0, 0, 0, 0] w slices_S3x3x32x32_S1x1x32x32_0_0_0_0) shapeCasts_S1x1x32x32_S32x32
/-- The 32 × 32 matrix of layer 0, step 1. -/
def conv01 (w : FVec Ideal S3x3x32x32 .f32) : FVec Ideal S32x32 .f32 :=
  shapeCast S32x32 (extractStridedSlice S1x1x32x32 ![0, 1, 0, 0] w slices_S3x3x32x32_S1x1x32x32_0_1_0_0) shapeCasts_S1x1x32x32_S32x32
/-- The 32 × 32 matrix of layer 0, step 2. -/
def conv02 (w : FVec Ideal S3x3x32x32 .f32) : FVec Ideal S32x32 .f32 :=
  shapeCast S32x32 (extractStridedSlice S1x1x32x32 ![0, 2, 0, 0] w slices_S3x3x32x32_S1x1x32x32_0_2_0_0) shapeCasts_S1x1x32x32_S32x32
/-- The 32 × 32 matrix of layer 1, step 0. -/
def conv10 (w : FVec Ideal S3x3x32x32 .f32) : FVec Ideal S32x32 .f32 :=
  shapeCast S32x32 (extractStridedSlice S1x1x32x32 ![1, 0, 0, 0] w slices_S3x3x32x32_S1x1x32x32_1_0_0_0) shapeCasts_S1x1x32x32_S32x32
/-- The 32 × 32 matrix of layer 1, step 1. -/
def conv11 (w : FVec Ideal S3x3x32x32 .f32) : FVec Ideal S32x32 .f32 :=
  shapeCast S32x32 (extractStridedSlice S1x1x32x32 ![1, 1, 0, 0] w slices_S3x3x32x32_S1x1x32x32_1_1_0_0) shapeCasts_S1x1x32x32_S32x32
/-- The 32 × 32 matrix of layer 1, step 2. -/
def conv12 (w : FVec Ideal S3x3x32x32 .f32) : FVec Ideal S32x32 .f32 :=
  shapeCast S32x32 (extractStridedSlice S1x1x32x32 ![1, 2, 0, 0] w slices_S3x3x32x32_S1x1x32x32_1_2_0_0) shapeCasts_S1x1x32x32_S32x32
/-- The 32 × 32 matrix of layer 2, step 0. -/
def conv20 (w : FVec Ideal S3x3x32x32 .f32) : FVec Ideal S32x32 .f32 :=
  shapeCast S32x32 (extractStridedSlice S1x1x32x32 ![2, 0, 0, 0] w slices_S3x3x32x32_S1x1x32x32_2_0_0_0) shapeCasts_S1x1x32x32_S32x32
/-- The 32 × 32 matrix of layer 2, step 1. -/
def conv21 (w : FVec Ideal S3x3x32x32 .f32) : FVec Ideal S32x32 .f32 :=
  shapeCast S32x32 (extractStridedSlice S1x1x32x32 ![2, 1, 0, 0] w slices_S3x3x32x32_S1x1x32x32_2_1_0_0) shapeCasts_S1x1x32x32_S32x32
/-- The 32 × 32 matrix of layer 2, step 2. -/
def conv22 (w : FVec Ideal S3x3x32x32 .f32) : FVec Ideal S32x32 .f32 :=
  shapeCast S32x32 (extractStridedSlice S1x1x32x32 ![2, 2, 0, 0] w slices_S3x3x32x32_S1x1x32x32_2_2_0_0) shapeCasts_S1x1x32x32_S32x32

end R

/-! ## The two spellings are the same arrays -/

/-- A vector of `n` entries reshaped to `1 × n` is the vector placed along axis 1 of a `1 × n` array: both read, at
    `(u, q)`, the vector's entry `q`. -/
private theorem row_cast_eq_place {α : Type} {n : ℕ} (v : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ v h = broadcastInDim ⟨2, ![1, n]⟩ ![1] h' v := by
  funext j
  obtain ⟨u, q, rfl⟩ : ∃ (u : Fin 1) (q : Fin n), j = ix2 u q := ⟨j 0, j 1, eq_ix2 j⟩
  rw [shapeCast_a_1a_apply]
  refine (broadcastInDim_apply _ h' v _ (ix1 q) (fun a => ?_)).symm
  match a with
  | ⟨0, _⟩ =>
    show q.val = if n = 1 then 0 else q.val
    by_cases h1 : n = 1
    · rw [if_pos h1]; have := q.isLt; omega
    · rw [if_neg h1]

/-- A rank-3 array cut along axis 0 from `o` reads, at `(j, a, e)`, the source at `(k, a, e)` with `k = o + j`. -/
private theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Layer `c` of a stack of `a × b` matrices, transposed: cutting the layer out of the stack of transposed matrices and
    dropping the unit axis, and cutting it out of the stack, dropping the unit axis and transposing, both give the
    matrix `(p, q) ↦ w (c, q, p)`. -/
private theorem layer_transposed {α : Type} {m a b : ℕ} (c : ℕ) (hc : c < m) (w : (⟨3, ![m, a, b]⟩ : Shape).Idx → α)
    (hT : (⟨3, ![m, a, b]⟩ : Shape).Transposes [0, 2, 1] ⟨3, ![m, b, a]⟩)
    (hS : (⟨3, ![m, b, a]⟩ : Shape).Slices ![c, 0, 0] ⟨3, ![1, b, a]⟩)
    (hC : (⟨3, ![1, b, a]⟩ : Shape).ShapeCasts ⟨2, ![b, a]⟩)
    (hS' : (⟨3, ![m, a, b]⟩ : Shape).Slices ![c, 0, 0] ⟨3, ![1, a, b]⟩)
    (hC' : (⟨3, ![1, a, b]⟩ : Shape).ShapeCasts ⟨2, ![a, b]⟩)
    (hT' : (⟨2, ![a, b]⟩ : Shape).Transposes [1, 0] ⟨2, ![b, a]⟩) :
    shapeCast ⟨2, ![b, a]⟩ (extractStridedSlice ⟨3, ![1, b, a]⟩ ![c, 0, 0] (transpose ⟨3, ![m, b, a]⟩ [0, 2, 1] w hT) hS) hC
      = transpose ⟨2, ![b, a]⟩ [1, 0]
          (shapeCast ⟨2, ![a, b]⟩ (extractStridedSlice ⟨3, ![1, a, b]⟩ ![c, 0, 0] w hS') hC') hT' := by
  funext i
  obtain ⟨p, q, rfl⟩ : ∃ (p : Fin b) (q : Fin a), i = ix2 p q := ⟨i 0, i 1, eq_ix2 i⟩
  rw [shapeCast_1ab_ab_apply, slice3_axis0_apply c _ hS 0 p q ⟨c, hc⟩ rfl, transpose_ix3_021_apply,
    transpose_ix2_apply, shapeCast_1ab_ab_apply, slice3_axis0_apply c w hS' 0 q p ⟨c, hc⟩ rfl]

theorem src_eq (e : IVec Cert.KernelIdeal.S2x3200000 32) : K.src e = R.src e := rfl
theorem dst_eq (e : IVec Cert.KernelIdeal.S2x3200000 32) : K.dst e = R.dst e := rfl
theorem linW_eq (w : FVec Ideal Cert.KernelIdeal.S32x40 .f32) : K.linW w = R.linW w := rfl
theorem linB_eq (b : FVec Ideal Cert.KernelIdeal.S32 .f32) : K.linB b = R.linB b := row_cast_eq_place b _ _
theorem gW0_eq (w : FVec Ideal Cert.KernelIdeal.S3x96x32 .f32) : K.gW0 (K.gT w) = R.gW0 w := layer_transposed 0 (by decide) w _ _ _ _ _ _
theorem gW1_eq (w : FVec Ideal Cert.KernelIdeal.S3x96x32 .f32) : K.gW1 (K.gT w) = R.gW1 w := layer_transposed 1 (by decide) w _ _ _ _ _ _
theorem gW2_eq (w : FVec Ideal Cert.KernelIdeal.S3x96x32 .f32) : K.gW2 (K.gT w) = R.gW2 w := layer_transposed 2 (by decide) w _ _ _ _ _ _
theorem gB0_eq (b : FVec Ideal Cert.KernelIdeal.S3x96 .f32) : K.gB0 b = R.gB0 b := row_cast_eq_place _ _ _
theorem gB1_eq (b : FVec Ideal Cert.KernelIdeal.S3x96 .f32) : K.gB1 b = R.gB1 b := row_cast_eq_place _ _ _
theorem gB2_eq (b : FVec Ideal Cert.KernelIdeal.S3x96 .f32) : K.gB2 b = R.gB2 b := row_cast_eq_place _ _ _
theorem conv00_eq (w : FVec Ideal Cert.KernelIdeal.S3x3x32x32 .f32) : K.conv00 w = R.conv00 w := rfl
theorem conv01_eq (w : FVec Ideal Cert.KernelIdeal.S3x3x32x32 .f32) : K.conv01 w = R.conv01 w := rfl
theorem conv02_eq (w : FVec Ideal Cert.KernelIdeal.S3x3x32x32 .f32) : K.conv02 w = R.conv02 w := rfl
theorem conv10_eq (w : FVec Ideal Cert.KernelIdeal.S3x3x32x32 .f32) : K.conv10 w = R.conv10 w := rfl
theorem conv11_eq (w : FVec Ideal Cert.KernelIdeal.S3x3x32x32 .f32) : K.conv11 w = R.conv11 w := rfl
theorem conv12_eq (w : FVec Ideal Cert.KernelIdeal.S3x3x32x32 .f32) : K.conv12 w = R.conv12 w := rfl
theorem conv20_eq (w : FVec Ideal Cert.KernelIdeal.S3x3x32x32 .f32) : K.conv20 w = R.conv20 w := rfl
theorem conv21_eq (w : FVec Ideal Cert.KernelIdeal.S3x3x32x32 .f32) : K.conv21 w = R.conv21 w := rfl
theorem conv22_eq (w : FVec Ideal Cert.KernelIdeal.S3x3x32x32 .f32) : K.conv22 w = R.conv22 w := rfl

/-- The two programs' gather records have the same fields. -/
private theorem gather_rec_eq :
    Cert.KernelIdeal.gather_S100000x32_S3200000x1_S3200000x32_1_0_n_n_0_1_132
      = Cert.ReferenceIdeal.gather_S100000x32_S3200000x1_S3200000x32_1_0_n_n_0_1_132 := rfl

/-- The two programs' scatter records have the same fields. -/
private theorem scatter_rec_eq :
    Cert.KernelIdeal.scatter_S100000x32_S3200000x1_S3200000x32_1_0_0_1
      = Cert.ReferenceIdeal.scatter_S100000x32_S3200000x1_S3200000x32_1_0_0_1 := rfl

theorem agg_eq (msg : FVec Ideal Cert.KernelIdeal.S100000x32 .f32) (s d : IVec Cert.KernelIdeal.S3200000 32) : K.agg msg s d = rAgg msg s d := by
  unfold K.agg rAgg
  rw [gather_rec_eq, scatter_rec_eq]

end Cert.Bridge

end
-- ==== Proof.KChain.lean ====
/-
  The state of the network after each of its nine rounds, as a function of the nine argument arrays, with the small
  operands spelled as the kernel's program spells them. `kH 0` is the first layer; round `k` (layer `c = k / 3`, step
  `i = k % 3`) forms the messages `kM k` and the state gate `kG k` from `kH k`, aggregates the messages over the edges
  (`kA k`), and updates the state to `kH (k + 1)` by the gated rule.
-/
import proofs.«421494_j30356828848478_1_alg».proof.Proof.Weights

noncomputable section

namespace Cert.Bridge

open Idealize.ShloMosaic

variable [Cert.KernelIdeal.Facts₀] [Cert.ReferenceIdeal.Facts₀]

/-- The nine argument arrays. -/
structure Args where
  a0 : FVec Ideal Cert.KernelIdeal.S100000x40 .f32
  a1 : IVec Cert.KernelIdeal.S2x3200000 32
  a2 : FVec Ideal Cert.KernelIdeal.S32x40 .f32
  a3 : FVec Ideal Cert.KernelIdeal.S32 .f32
  a4 : FVec Ideal Cert.KernelIdeal.S3x3x32x32 .f32
  a5 : FVec Ideal Cert.KernelIdeal.S3x96x32 .f32
  a6 : FVec Ideal Cert.KernelIdeal.S3x96x32 .f32
  a7 : FVec Ideal Cert.KernelIdeal.S3x96 .f32
  a8 : FVec Ideal Cert.KernelIdeal.S3x96 .f32

/-- The first layer. -/
def kH0 (A : Args) : FVec Ideal Cert.ReferenceIdeal.S100000x32 .f32 := rLin A.a0 (K.linW A.a2) (K.linB A.a3)
/-- Round 0 (layer 0, step 0): the messages. -/
def kM0 (A : Args) : FVec Ideal Cert.ReferenceIdeal.S100000x32 .f32 := rMsg (kH0 A) (K.conv00 A.a4)
/-- Round 0: the state gate. -/
def kG0 (A : Args) : FVec Ideal Cert.ReferenceIdeal.S100000x96 .f32 := rGate (kH0 A) (K.gW0 (K.gT A.a6)) (K.gB0 A.a8)
/-- Round 0: the messages aggregated over the edges. -/
def kA0 (A : Args) : FVec Ideal Cert.ReferenceIdeal.S100000x32 .f32 := rAgg (kM0 A) (K.src A.a1) (K.dst A.a1)
/-- The state after round 0. -/
def kH1 (A : Args) : FVec Ideal Cert.ReferenceIdeal.S100000x32 .f32 :=
  rUpd (rGate (kA0 A) (K.gW0 (K.gT A.a5)) (K.gB0 A.a7)) (kG0 A) (kH0 A)
/-- Round 1 (layer 0, step 1): the messages. -/
def kM1 (A : Args) : FVec Ideal Cert.ReferenceIdeal.S100000x32 .f32 := rMsg (kH1 A) (K.conv01 A.a4)
/-- Round 1: the state gate. -/
def kG1 (A : Args) : FVec Ideal Cert.ReferenceIdeal.S100000x96 .f32 := rGate (kH1 A) (K.gW0 (K.gT A.a6)) (K.gB0 A.a8)
/-- Round 1: the messages aggregated over the edges. -/
def kA1 (A : Args) : FVec Ideal Cert.ReferenceIdeal.S100000x32 .f32 := rAgg (kM1 A) (K.src A.a1) (K.dst A.a1)
/-- The state after round 1. -/
def kH2 (A : Args) : FVec Ideal Cert.ReferenceIdeal.S100000x32 .f32 :=
  rUpd (rGate (kA1 A) (K.gW0 (K.gT A.a5)) (K.gB0 A.a7)) (kG1 A) (kH1 A)
/-- Round 2 (layer 0, step 2): the messages. -/
def kM2 (A : Args) : FVec Ideal Cert.ReferenceIdeal.S100000x32 .f32 := rMsg (kH2 A) (K.conv02 A.a4)
/-- Round 2: the state gate. -/
def kG2 (A : Args) : FVec Ideal Cert.ReferenceIdeal.S100000x96 .f32 := rGate (kH2 A) (K.gW0 (K.gT A.a6)) (K.gB0 A.a8)
/-- Round 2: the messages aggregated over the edges. -/
def kA2 (A : Args) : FVec Ideal Cert.ReferenceIdeal.S100000x32 .f32 := rAgg (kM2 A) (K.src A.a1) (K.dst A.a1)
/-- The state after round 2. -/
def kH3 (A : Args) : FVec Ideal Cert.ReferenceIdeal.S100000x32 .f32 :=
  rUpd (rGate (kA2 A) (K.gW0 (K.gT A.a5)) (K.gB0 A.a7)) (kG2 A) (kH2 A)
/-- Round 3 (layer 1, step 0): the messages. -/
def kM3 (A : Args) : FVec Ideal Cert.ReferenceIdeal.S100000x32 .f32 := rMsg (kH3 A) (K.conv10 A.a4)
/-- Round 3: the state gate. -/
def kG3 (A : Args) : FVec Ideal Cert.ReferenceIdeal.S100000x96 .f32 := rGate (kH3 A) (K.gW1 (K.gT A.a6)) (K.gB1 A.a8)
/-- Round 3: the messages aggregated over the edges. -/
def kA3 (A : Args) : FVec Ideal Cert.ReferenceIdeal.S100000x32 .f32 := rAgg (kM3 A) (K.src A.a1) (K.dst A.a1)
/-- The state after round 3. -/
def kH4 (A : Args) : FVec Ideal Cert.ReferenceIdeal.S100000x32 .f32 :=
  rUpd (rGate (kA3 A) (K.gW1 (K.gT A.a5)) (K.gB1 A.a7)) (kG3 A) (kH3 A)
/-- Round 4 (layer 1, step 1): the messages. -/
def kM4 (A : Args) : FVec Ideal Cert.ReferenceIdeal.S100000x32 .f32 := rMsg (kH4 A) (K.conv11 A.a4)
/-- Round 4: the state gate. -/
def kG4 (A : Args) : FVec Ideal Cert.ReferenceIdeal.S100000x96 .f32 := rGate (kH4 A) (K.gW1 (K.gT A.a6)) (K.gB1 A.a8)
/-- Round 4: the messages aggregated over the edges. -/
def kA4 (A : Args) : FVec Ideal Cert.ReferenceIdeal.S100000x32 .f32 := rAgg (kM4 A) (K.src A.a1) (K.dst A.a1)
/-- The state after round 4. -/
def kH5 (A : Args) : FVec Ideal Cert.ReferenceIdeal.S100000x32 .f32 :=
  rUpd (rGate (kA4 A) (K.gW1 (K.gT A.a5)) (K.gB1 A.a7)) (kG4 A) (kH4 A)
/-- Round 5 (layer 1, step 2): the messages. -/
def kM5 (A : Args) : FVec Ideal Cert.ReferenceIdeal.S100000x32 .f32 := rMsg (kH5 A) (K.conv12 A.a4)
/-- Round 5: the state gate. -/
def kG5 (A : Args) : FVec Ideal Cert.ReferenceIdeal.S100000x96 .f32 := rGate (kH5 A) (K.gW1 (K.gT A.a6)) (K.gB1 A.a8)
/-- Round 5: the messages aggregated over the edges. -/
def kA5 (A : Args) : FVec Ideal Cert.ReferenceIdeal.S100000x32 .f32 := rAgg (kM5 A) (K.src A.a1) (K.dst A.a1)
/-- The state after round 5. -/
def kH6 (A : Args) : FVec Ideal Cert.ReferenceIdeal.S100000x32 .f32 :=
  rUpd (rGate (kA5 A) (K.gW1 (K.gT A.a5)) (K.gB1 A.a7)) (kG5 A) (kH5 A)
/-- Round 6 (layer 2, step 0): the messages. -/
def kM6 (A : Args) : FVec Ideal Cert.ReferenceIdeal.S100000x32 .f32 := rMsg (kH6 A) (K.conv20 A.a4)
/-- Round 6: the state gate. -/
def kG6 (A : Args) : FVec Ideal Cert.ReferenceIdeal.S100000x96 .f32 := rGate (kH6 A) (K.gW2 (K.gT A.a6)) (K.gB2 A.a8)
/-- Round 6: the messages aggregated over the edges. -/
def kA6 (A : Args) : FVec Ideal Cert.ReferenceIdeal.S100000x32 .f32 := rAgg (kM6 A) (K.src A.a1) (K.dst A.a1)
/-- The state after round 6. -/
def kH7 (A : Args) : FVec Ideal Cert.ReferenceIdeal.S100000x32 .f32 :=
  rUpd (rGate (kA6 A) (K.gW2 (K.gT A.a5)) (K.gB2 A.a7)) (kG6 A) (kH6 A)
/-- Round 7 (layer 2, step 1): the messages. -/
def kM7 (A : Args) : FVec Ideal Cert.ReferenceIdeal.S100000x32 .f32 := rMsg (kH7 A) (K.conv21 A.a4)
/-- Round 7: the state gate. -/
def kG7 (A : Args) : FVec Ideal Cert.ReferenceIdeal.S100000x96 .f32 := rGate (kH7 A) (K.gW2 (K.gT A.a6)) (K.gB2 A.a8)
/-- Round 7: the messages aggregated over the edges. -/
def kA7 (A : Args) : FVec Ideal Cert.ReferenceIdeal.S100000x32 .f32 := rAgg (kM7 A) (K.src A.a1) (K.dst A.a1)
/-- The state after round 7. -/
def kH8 (A : Args) : FVec Ideal Cert.ReferenceIdeal.S100000x32 .f32 :=
  rUpd (rGate (kA7 A) (K.gW2 (K.gT A.a5)) (K.gB2 A.a7)) (kG7 A) (kH7 A)
/-- Round 8 (layer 2, step 2): the messages. -/
def kM8 (A : Args) : FVec Ideal Cert.ReferenceIdeal.S100000x32 .f32 := rMsg (kH8 A) (K.conv22 A.a4)
/-- Round 8: the state gate. -/
def kG8 (A : Args) : FVec Ideal Cert.ReferenceIdeal.S100000x96 .f32 := rGate (kH8 A) (K.gW2 (K.gT A.a6)) (K.gB2 A.a8)
/-- Round 8: the messages aggregated over the edges. -/
def kA8 (A : Args) : FVec Ideal Cert.ReferenceIdeal.S100000x32 .f32 := rAgg (kM8 A) (K.src A.a1) (K.dst A.a1)
/-- The state after round 8. -/
def kH9 (A : Args) : FVec Ideal Cert.ReferenceIdeal.S100000x32 .f32 :=
  rUpd (rGate (kA8 A) (K.gW2 (K.gT A.a5)) (K.gB2 A.a7)) (kG8 A) (kH8 A)

/-- Round 0 is one round of the reference's network on the state before it. -/
theorem kH1_eq (A : Args) :
    kH1 A = rRound (kH0 A) (K.conv00 A.a4) (K.gW0 (K.gT A.a5)) (K.gW0 (K.gT A.a6)) (K.gB0 A.a7) (K.gB0 A.a8)
      (K.src A.a1) (K.dst A.a1) := rfl
/-- Round 1 is one round of the reference's network on the state before it. -/
theorem kH2_eq (A : Args) :
    kH2 A = rRound (kH1 A) (K.conv01 A.a4) (K.gW0 (K.gT A.a5)) (K.gW0 (K.gT A.a6)) (K.gB0 A.a7) (K.gB0 A.a8)
      (K.src A.a1) (K.dst A.a1) := rfl
/-- Round 2 is one round of the reference's network on the state before it. -/
theorem kH3_eq (A : Args) :
    kH3 A = rRound (kH2 A) (K.conv02 A.a4) (K.gW0 (K.gT A.a5)) (K.gW0 (K.gT A.a6)) (K.gB0 A.a7) (K.gB0 A.a8)
      (K.src A.a1) (K.dst A.a1) := rfl
/-- Round 3 is one round of the reference's network on the state before it. -/
theorem kH4_eq (A : Args) :
    kH4 A = rRound (kH3 A) (K.conv10 A.a4) (K.gW1 (K.gT A.a5)) (K.gW1 (K.gT A.a6)) (K.gB1 A.a7) (K.gB1 A.a8)
      (K.src A.a1) (K.dst A.a1) := rfl
/-- Round 4 is one round of the reference's network on the state before it. -/
theorem kH5_eq (A : Args) :
    kH5 A = rRound (kH4 A) (K.conv11 A.a4) (K.gW1 (K.gT A.a5)) (K.gW1 (K.gT A.a6)) (K.gB1 A.a7) (K.gB1 A.a8)
      (K.src A.a1) (K.dst A.a1) := rfl
/-- Round 5 is one round of the reference's network on the state before it. -/
theorem kH6_eq (A : Args) :
    kH6 A = rRound (kH5 A) (K.conv12 A.a4) (K.gW1 (K.gT A.a5)) (K.gW1 (K.gT A.a6)) (K.gB1 A.a7) (K.gB1 A.a8)
      (K.src A.a1) (K.dst A.a1) := rfl
/-- Round 6 is one round of the reference's network on the state before it. -/
theorem kH7_eq (A : Args) :
    kH7 A = rRound (kH6 A) (K.conv20 A.a4) (K.gW2 (K.gT A.a5)) (K.gW2 (K.gT A.a6)) (K.gB2 A.a7) (K.gB2 A.a8)
      (K.src A.a1) (K.dst A.a1) := rfl
/-- Round 7 is one round of the reference's network on the state before it. -/
theorem kH8_eq (A : Args) :
    kH8 A = rRound (kH7 A) (K.conv21 A.a4) (K.gW2 (K.gT A.a5)) (K.gW2 (K.gT A.a6)) (K.gB2 A.a7) (K.gB2 A.a8)
      (K.src A.a1) (K.dst A.a1) := rfl
/-- Round 8 is one round of the reference's network on the state before it. -/
theorem kH9_eq (A : Args) :
    kH9 A = rRound (kH8 A) (K.conv22 A.a4) (K.gW2 (K.gT A.a5)) (K.gW2 (K.gT A.a6)) (K.gB2 A.a7) (K.gB2 A.a8)
      (K.src A.a1) (K.dst A.a1) := rfl

end Cert.Bridge

end
-- ==== Proof.RefApply.lean ====
/-
  The reference's operations read at one element. A row-by-matrix product at row `r`, column `q` is the sum over the
  contracted axis `k` of `a (r, k) · w (k, q)`; a bias row repeated down the rows contributes `b (0, q)`; the gated update
  at `(r, q)` depends on the three 32-wide column blocks of the two pre-activations at row `r` (columns `q`, `q + 32`,
  `q + 64`) and on the state at `(r, q)`, through the scalar function `gru`.
-/
import proofs.«421494_j30356828848478_1_alg».proof.Proof.RefOps
import Idealize.ShloMosaic.Lib.ValueIdx
import Idealize.ShloMosaic.Lib.Pipeline.Value
import Idealize.ShloMosaic.PureOps.Ideal.Laws

noncomputable section

open scoped BigOperators

namespace Cert.Bridge

open Idealize.ShloMosaic Idealize.ShloMosaic.ValueIdx Cert.ReferenceIdeal

variable [Cert.ReferenceIdeal.Facts₀]
open Cert.ReferenceIdeal.Facts₀

/-- The gated update on scalars: `(1 - z) · n + z · h` with `r = σ(ir + hr)`, `z = σ(iz + hz)`,
    `n = tanh(in + r · hn)`, `σ` the logistic function on the extended reals. -/
def gru (ir iz inn hr hz hn hp : EReal) : EReal :=
  ((1 : EReal) - Ideal.logistic (iz + hz)) * Ideal.tanh (inn + Ideal.logistic (ir + hr) * hn)
    + Ideal.logistic (iz + hz) * hp

/-- Column `q` of the first 32-wide block of a 96-wide row. -/
abbrev col0 (q : Fin 32) : Fin 96 := ⟨q.val, by omega⟩
/-- Column `q` of the second 32-wide block of a 96-wide row. -/
abbrev col1 (q : Fin 32) : Fin 96 := ⟨q.val + 32, by omega⟩
/-- Column `q` of the third 32-wide block of a 96-wide row. -/
abbrev col2 (q : Fin 32) : Fin 96 := ⟨q.val + 64, by omega⟩

/-! ## A row-by-matrix product at one element

The three products of the reference contract the second axis of an `M × K` array against the first axis of a `K × N`
one, with no batch axis: the plain product. At result index `(i, q)` and contraction position `k` the operands are read
at `(i, k)` and `(k, q)`, so the contraction's sum, re-indexed by its one coordinate, is `∑ k, l (i, k) · r (k, q)`. -/

section Plain
variable {M K N : Nat}

/-- The left operand's row is the result's row. -/
private theorem plain_lhs0 (j : (⟨2, ![M, N]⟩ : Shape).Idx) (k : (DotDims.plain M K N).contr.Idx) :
    ((DotDims.plain M K N).lhsIdx j k 0).val = (j 0).val := rfl
/-- The left operand's column is the contraction position. -/
private theorem plain_lhs1 (j : (⟨2, ![M, N]⟩ : Shape).Idx) (k : (DotDims.plain M K N).contr.Idx) :
    ((DotDims.plain M K N).lhsIdx j k 1).val = (k ⟨0, Nat.one_pos⟩).val := rfl
/-- The right operand's row is the contraction position. -/
private theorem plain_rhs0 (j : (⟨2, ![M, N]⟩ : Shape).Idx) (k : (DotDims.plain M K N).contr.Idx) :
    ((DotDims.plain M K N).rhsIdx j k 0).val = (k ⟨0, Nat.one_pos⟩).val := rfl
/-- The right operand's column is the result's column. -/
private theorem plain_rhs1 (j : (⟨2, ![M, N]⟩ : Shape).Idx) (k : (DotDims.plain M K N).contr.Idx) :
    ((DotDims.plain M K N).rhsIdx j k 1).val = (j 1).val := rfl

/-- The plain product at `(i, q)` is the sum over the contracted axis. -/
private theorem plain_dot_apply (l : FVec Ideal ⟨2, ![M, K]⟩ .f32) (r : FVec Ideal ⟨2, ![K, N]⟩ .f32) (i : Fin M) (q : Fin N) :
    Host.dotGeneral (F := Ideal) (DotDims.plain M K N) none l r (ix2 i q) = ∑ k : Fin K, l (ix2 i k) * r (ix2 k q) := by
  show FloatOps.dotGeneral (DotDims.plain M K N) none .single l r (ix2 i q) = _
  rw [Ideal.dotGeneral_apply, ← Equiv.sum_comp (contrEquiv1 (DotDims.plain M K N) K rfl rfl).symm]
  refine Finset.sum_congr rfl fun k _ => ?_
  have hl : (DotDims.plain M K N).lhsIdx (ix2 i q) ((contrEquiv1 (DotDims.plain M K N) K rfl rfl).symm k) = ix2 i k := by
    funext a
    refine Fin.ext ?_
    match a with
    | ⟨0, _⟩ => exact plain_lhs0 _ _
    | ⟨1, _⟩ => exact (plain_lhs1 _ _).trans (contrEquiv1_symm_val (DotDims.plain M K N) K rfl rfl k)
  have hr : (DotDims.plain M K N).rhsIdx (ix2 i q) ((contrEquiv1 (DotDims.plain M K N) K rfl rfl).symm k) = ix2 k q := by
    funext a
    refine Fin.ext ?_
    match a with
    | ⟨0, _⟩ => exact (plain_rhs0 _ _).trans (contrEquiv1_symm_val (DotDims.plain M K N) K rfl rfl k)
    | ⟨1, _⟩ => exact plain_rhs1 _ _
  rw [hl, hr]

end Plain

/-- The three contractions of the reference are plain products. -/
private theorem dot_lin_eq : dot_S100000x40_S40x32_S100000x32_1_0_0_1_n_n = DotDims.plain 100000 40 32 := rfl
private theorem dot_msg_eq : dot_S100000x32_S32x32_S100000x32_1_0_0_1_n_n = DotDims.plain 100000 32 32 := rfl
private theorem dot_gate_eq : dot_S100000x32_S32x96_S100000x96_1_0_0_1_n_n = DotDims.plain 100000 32 96 := rfl

/-! ## A bias row repeated down the rows, a slice of columns, the array of ones -/

/-- A `1 × N` row repeated down `M` rows reads, at `(i, q)`, the row's entry `(0, q)`. -/
private theorem bias_row_apply {M N : Nat} (hb : (⟨2, ![1, N]⟩ : Shape).BroadcastsInDim ⟨2, ![M, N]⟩ ![0, 1])
    (b : (⟨2, ![1, N]⟩ : Shape).Idx → EReal) (i : Fin M) (q : Fin N) :
    broadcastInDim ⟨2, ![M, N]⟩ ![0, 1] hb b (ix2 i q) = b (ix2 (0 : Fin 1) q) := by
  refine broadcastInDim_apply _ hb b (ix2 i q) (ix2 (0 : Fin 1) q) fun a => ?_
  match a with
  | ⟨0, _⟩ => exact (if_pos rfl).symm
  | ⟨1, _⟩ =>
    show q.val = if N = 1 then 0 else q.val
    have hq := q.isLt
    split
    · omega
    · rfl

/-- The columns `c ≤ · < c + 32` of a 96-wide array, read at `(i, q)`, are the array at `(i, q + c)`. -/
private theorem cols_apply (c : Nat) (hc : c + 32 ≤ 96) (hs : S100000x96.Slices ![0, c] S100000x32)
    (g : S100000x96.Idx → EReal) (i : Fin 100000) (q : Fin 32) :
    extractStridedSlice S100000x32 ![0, c] g hs (ix2 i q) = g (ix2 i (⟨q.val + c, by omega⟩ : Fin 96)) := by
  refine extractStridedSlice_apply ![0, c] g hs (ix2 i q) (ix2 i (⟨q.val + c, by omega⟩ : Fin 96)) fun a => ?_
  match a with
  | ⟨0, _⟩ => exact (Nat.zero_add _).symm
  | ⟨1, _⟩ => exact Nat.add_comm _ _

/-- The bit pattern `0x3F800000` is the number one, so the array of ones reads `1` everywhere. -/
private theorem rOne_apply (i : S100000x32.Idx) : rOne i = 1 := by
  unfold rOne
  refine (broadcastInDim_apply _ bcast_S_S100000x32 _ i ix0 fun a => a.elim0).trans ?_
  exact IdealRules.sign_bit.ideal_onePat .f32

/-- The host's spelling `1 / (1 + e^(-t))` is the logistic function at each element. -/
private theorem rSig_apply (t : FVec Ideal S100000x32 .f32) (i : S100000x32.Idx) : rSig t i = Ideal.logistic (t i) := by
  show Ideal.div (rOne i) (rOne i + Ideal.exp (-(t i))) = _
  rw [rOne_apply]
  rfl

theorem rLin_apply (x : FVec Ideal S100000x40 .f32) (w : FVec Ideal S40x32 .f32) (b : FVec Ideal S1x32 .f32)
    (r : Fin 100000) (q : Fin 32) :
    rLin x w b (ix2 r q) = (∑ k : Fin 40, x (ix2 r k) * w (ix2 k q)) + b (ix2 (0 : Fin 1) q) := by
  unfold rLin
  rw [addf_apply, dot_lin_eq, plain_dot_apply, bias_row_apply]

theorem rMsg_apply (h : FVec Ideal S100000x32 .f32) (cv : FVec Ideal S32x32 .f32) (r : Fin 100000) (q : Fin 32) :
    rMsg h cv (ix2 r q) = ∑ k : Fin 32, h (ix2 r k) * cv (ix2 k q) := by
  unfold rMsg
  rw [dot_msg_eq, plain_dot_apply]

theorem rGate_apply (a : FVec Ideal S100000x32 .f32) (w : FVec Ideal S32x96 .f32) (b : FVec Ideal S1x96 .f32)
    (r : Fin 100000) (q : Fin 96) :
    rGate a w b (ix2 r q) = (∑ k : Fin 32, a (ix2 r k) * w (ix2 k q)) + b (ix2 (0 : Fin 1) q) := by
  unfold rGate
  rw [addf_apply, dot_gate_eq, plain_dot_apply, bias_row_apply]

theorem rUpd_apply (gi gh : FVec Ideal S100000x96 .f32) (h : FVec Ideal S100000x32 .f32) (r : Fin 100000) (q : Fin 32) :
    rUpd gi gh h (ix2 r q)
      = gru (gi (ix2 r (col0 q))) (gi (ix2 r (col1 q))) (gi (ix2 r (col2 q)))
          (gh (ix2 r (col0 q))) (gh (ix2 r (col1 q))) (gh (ix2 r (col2 q))) (h (ix2 r q)) := by
  unfold rUpd gru
  simp only [addf_apply, mulf_apply, subf_apply]
  show (rOne (ix2 r q) - _) * Ideal.tanh _ + _ = _
  simp only [rSig_apply, rOne_apply, addf_apply, mulf_apply]
  rw [cols_apply 0 (by omega), cols_apply 0 (by omega), cols_apply 32 (by omega), cols_apply 32 (by omega),
    cols_apply 64 (by omega), cols_apply 64 (by omega)]
  rfl

end Cert.Bridge

end
-- ==== Proof.PayApply.lean ====
/-
  The kernels' block computations read at one element. Each of the three kernel bodies computes, from the blocks it
  loads, one pure value per store. At row `p` of a 2000-row block and column `q`: the first layer's is
  `Σ_k x (p, k) · w (k, q) + b (0, q)`; the message product's is `Σ_k h (p, k) · c (k, q)`; the state gate's is
  `Σ_k h (p, k) · w (k, q) + b (0, q)`; and the update's is the scalar gated rule `gru` of the aggregate's gate
  pre-activation (computed in the body: `Σ_k agg (p, k) · w (k, j) + b (0, j)` at the three columns `q`, `q + 32`,
  `q + 64`), the loaded state gate at the same three columns, and the loaded state at `(p, q)`. Rounding an operand to
  a shorter format before the product is the identity on the extended reals.
-/
import proofs.«421494_j30356828848478_1_alg».proof.Proof.Gen.KernelIdeal.Skeleton
import proofs.«421494_j30356828848478_1_alg».proof.Proof.RefApply
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Ideal

noncomputable section

open scoped BigOperators

namespace Cert.Bridge

open Idealize.ShloMosaic Idealize.ShloMosaic.ValueIdx Cert.KernelIdeal Cert.KernelIdeal.Gen

/-- A product of an `m × k` by a `k × n` matrix accumulated into the zero splat, read at `(a, b)`: the sum over the
    contracted coordinate of the products of the entries. -/
private theorem matmul_zero_ix2 {m k n : Nat} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    FloatOps.matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The first layer's block: a 2000 × 40 block of `x` against the 40 × 32 weight, plus the bias row. -/
theorem pay_lin (x : Vec Ideal S2000x40 .f32) (w : Vec Ideal S40x32 .f32) (b : Vec Ideal S1x32 .f32)
    (p : Fin 2000) (q : Fin 32) :
    k0_pay1 (F := Ideal) x w b (ix2 p q) = (∑ k : Fin 40, x (ix2 p k) * w (ix2 k q)) + b (ix2 (0 : Fin 1) q) := by
  unfold k0_pay1
  simp only [shapeCast_self]
  exact (addf_apply _ _ _).trans
    (congrArg₂ (· + ·) (matmul_zero_ix2 _ _ _ p q) (broadcastTo_1b_ab_apply _ _ p q))

/-- The message block: a 2000 × 32 block of the state against the 32 × 32 matrix. -/
theorem pay_msg (h : Vec Ideal S2000x32 .f32) (cv : Vec Ideal S32x32 .f32) (p : Fin 2000) (q : Fin 32) :
    k1_pay2 (F := Ideal) h cv (ix2 p q) = ∑ k : Fin 32, h (ix2 p k) * cv (ix2 k q) := by
  unfold k1_pay2 k1_pay1
  simp only [shapeCast_self]
  exact matmul_zero_ix2 _ _ _ p q

/-- The state gate's block: a 2000 × 32 block of the state against the 32 × 96 matrix, plus the bias row. -/
theorem pay_gate (h : Vec Ideal S2000x32 .f32) (w : Vec Ideal S32x96 .f32) (b : Vec Ideal S1x96 .f32)
    (p : Fin 2000) (q : Fin 96) :
    k1_pay3 (F := Ideal) h w b (ix2 p q) = (∑ k : Fin 32, h (ix2 p k) * w (ix2 k q)) + b (ix2 (0 : Fin 1) q) := by
  unfold k1_pay3 k1_pay1
  simp only [shapeCast_self]
  exact (addf_apply _ _ _).trans
    (congrArg₂ (· + ·) (matmul_zero_ix2 _ _ _ p q) (broadcastTo_1b_ab_apply _ _ p q))

/-- The word `0x3F800000` denotes the number one. -/
private theorem one_word : Ideal.ofBits .f32 0x3F800000#32 = 1 := by
  simp [Ideal.ofBits, Ideal.ieee, -EReal.coe_mul]; norm_num

/-- The gated rule on blocks, read at `(p, q)`: the three 32-wide column blocks of the two 96-wide pre-activations are
    read at the columns `q`, `q + 32`, `q + 64`; the logistic function, the hyperbolic tangent and the arithmetic act
    elementwise; the splat of the word of one is one. -/
private theorem upd_at (gi gh : FVec Ideal S2000x96 .f32) (h : FVec Ideal S2000x32 .f32) (p : Fin 2000) (q : Fin 32)
    (s0 : S2000x96.Slices ![0, 0] S2000x32) (s1 : S2000x96.Slices ![0, 32] S2000x32)
    (s2 : S2000x96.Slices ![0, 64] S2000x32) :
    addf
      (mulf
        (subf (broadcast S2000x32 (Scalar.ofBits (F := Ideal) .f32 0x3F800000#32))
          (logistic (addf (extractStridedSlice S2000x32 ![0, 32] gi s1) (extractStridedSlice S2000x32 ![0, 32] gh s1))))
        (tanh
          (addf (extractStridedSlice S2000x32 ![0, 64] gi s2)
            (mulf
              (logistic (addf (extractStridedSlice S2000x32 ![0, 0] gi s0) (extractStridedSlice S2000x32 ![0, 0] gh s0)))
              (extractStridedSlice S2000x32 ![0, 64] gh s2)))))
      (mulf
        (logistic (addf (extractStridedSlice S2000x32 ![0, 32] gi s1) (extractStridedSlice S2000x32 ![0, 32] gh s1)))
        h) (ix2 p q)
      = gru (gi (ix2 p (col0 q))) (gi (ix2 p (col1 q))) (gi (ix2 p (col2 q)))
          (gh (ix2 p (col0 q))) (gh (ix2 p (col1 q))) (gh (ix2 p (col2 q))) (h (ix2 p q)) := by
  have e0 : ∀ X : FVec Ideal S2000x96 .f32,
      extractStridedSlice S2000x32 ![0, 0] X s0 (ix2 p q) = X (ix2 p (col0 q)) :=
    fun X => slice2_axis1_apply 0 X s0 p q (col0 q) (Nat.zero_add _).symm
  have e1 : ∀ X : FVec Ideal S2000x96 .f32,
      extractStridedSlice S2000x32 ![0, 32] X s1 (ix2 p q) = X (ix2 p (col1 q)) :=
    fun X => slice2_axis1_apply 32 X s1 p q (col1 q) (Nat.add_comm _ _)
  have e2 : ∀ X : FVec Ideal S2000x96 .f32,
      extractStridedSlice S2000x32 ![0, 64] X s2 (ix2 p q) = X (ix2 p (col2 q)) :=
    fun X => slice2_axis1_apply 64 X s2 p q (col2 q) (Nat.add_comm _ _)
  unfold gru
  rw [← e0 gi, ← e1 gi, ← e2 gi, ← e0 gh, ← e1 gh, ← e2 gh, ← one_word]
  rfl

/-- The update's block: the gated rule of the aggregate's gate (formed in the body), the loaded state gate and the
    loaded state. -/
theorem pay_upd (agg : Vec Ideal S2000x32 .f32) (w : Vec Ideal S32x96 .f32) (b : Vec Ideal S1x96 .f32)
    (gh : Vec Ideal S2000x96 .f32) (h : Vec Ideal S2000x32 .f32) (p : Fin 2000) (q : Fin 32) :
    k2_pay1 (F := Ideal) agg w b gh h (ix2 p q)
      = gru ((∑ k : Fin 32, agg (ix2 p k) * w (ix2 k (col0 q))) + b (ix2 (0 : Fin 1) (col0 q)))
          ((∑ k : Fin 32, agg (ix2 p k) * w (ix2 k (col1 q))) + b (ix2 (0 : Fin 1) (col1 q)))
          ((∑ k : Fin 32, agg (ix2 p k) * w (ix2 k (col2 q))) + b (ix2 (0 : Fin 1) (col2 q)))
          (gh (ix2 p (col0 q))) (gh (ix2 p (col1 q))) (gh (ix2 p (col2 q))) (h (ix2 p q)) := by
  have e : ∀ j : Fin 96, k1_pay3 (F := Ideal) agg w b (ix2 p j)
      = (∑ k : Fin 32, agg (ix2 p k) * w (ix2 k j)) + b (ix2 (0 : Fin 1) j) := fun j => pay_gate agg w b p j
  unfold k1_pay3 k1_pay1 at e
  unfold k2_pay1
  refine (upd_at _ _ _ p q _ _ _).trans ?_
  simp only [shapeCast_self] at e ⊢
  rw [e, e, e]

end Cert.Bridge

end
-- ==== Proof.Val0.lean ====
/-
  What the first-layer region leaves in its output array, as a whole-array function of the arrays it finds at entry. The
  region runs fifty grid points; point `t` loads rows `2000·t … 2000·t + 1999` of the input and the weight and bias whole,
  and writes back the same rows of the output. Element `(p, q)` of a block is element `(2000·t + p, q)` of its array; the
  body's value there is the row-by-matrix sum plus the bias entry, which is the reference's affine map at that element; and
  the fifty blocks tile the output array.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg0

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the input, the transposed weight and the bias row. -/
abbrev aX (c : Dev nD) : FVec Ideal S100000x40 .f32 := V c main_arg0
abbrev aW (c : Dev nD) : FVec Ideal S40x32 .f32 := V c main_v4
abbrev aB (c : Dev nD) : FVec Ideal S1x32 .f32 := V c main_v5

theorem hz : (![0, 0] : Fin 2 → Nat) = fun _ => 0 := funext fun a => by fin_cases a <;> rfl

/-- The printed index maps, decided over the fifty grid points: the input window and the output window sit at block row
    `t`, block column 0; the weight and the bias at block (0, 0). -/
theorem idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `2000·t + p` of the array. -/
def row (t : Fin cfg0.N) (p : Fin 2000) : Fin 100000 :=
  ⟨t.val * 2000 + p.val, by have ht : t.val < 50 := t.isLt; have hp := p.isLt; omega⟩

theorem emb_0 (t : Fin cfg0.N) (p : Fin 2000) (k : Fin 40) :
    ((cfg0.win 0).blk t).view.emb (ix2 p k) = ix2 (row t p) k := by
  obtain ⟨e0, e1, -⟩ := idx t
  funext a; apply Fin.ext
  match a with
  | ⟨0, _⟩ => show win0_0.index t (0 : Fin 2) * 2000 + 1 * p.val = t.val * 2000 + p.val; omega
  | ⟨1, _⟩ => show win0_0.index t (1 : Fin 2) * 40 + 1 * k.val = k.val; omega

theorem emb_1 (t : Fin cfg0.N) (k : Fin 40) (q : Fin 32) :
    ((cfg0.win 1).blk t).view.emb (ix2 k q) = ix2 k q := by
  obtain ⟨-, -, e0, e1, -⟩ := idx t
  funext a; apply Fin.ext
  match a with
  | ⟨0, _⟩ => show win0_1.index t (0 : Fin 2) * 40 + 1 * k.val = k.val; omega
  | ⟨1, _⟩ => show win0_1.index t (1 : Fin 2) * 32 + 1 * q.val = q.val; omega

theorem emb_2 (t : Fin cfg0.N) (z : Fin 1) (q : Fin 32) :
    ((cfg0.win 2).blk t).view.emb (ix2 z q) = ix2 z q := by
  obtain ⟨-, -, -, -, e0, e1, -⟩ := idx t
  funext a; apply Fin.ext
  match a with
  | ⟨0, _⟩ => show win0_2.index t (0 : Fin 2) * 1 + 1 * z.val = z.val; omega
  | ⟨1, _⟩ => show win0_2.index t (1 : Fin 2) * 32 + 1 * q.val = q.val; omega

theorem emb_3 (t : Fin cfg0.N) (p : Fin 2000) (q : Fin 32) :
    ((cfg0.win 3).blk t).view.emb (ix2 p q) = ix2 (row t p) q := by
  obtain ⟨-, -, -, -, -, -, e0, e1⟩ := idx t
  funext a; apply Fin.ext
  match a with
  | ⟨0, _⟩ => show win0_3.index t (0 : Fin 2) * 2000 + 1 * p.val = t.val * 2000 + p.val; omega
  | ⟨1, _⟩ => show win0_3.index t (1 : Fin 2) * 32 + 1 * q.val = q.val; omega

/-- What point `t` writes back is block `t` of the reference's affine map of the arrays found at entry. -/
theorem flushed_3 (c : Dev nD) (t : Fin cfg0.N) :
    (dat0 V c).flushed 3 t
      = ((cfg0.win 3).blk t).view.read (Elt Ideal) (rLin (aX V c) (aW V c) (aB V c)) := by
  show (cfg0.win 3).cut (grid0.coords t) ((dat0 V c).after 3 t) = _
  rw [after0_3]
  unfold out0_3
  rw [View.canon_unit_zero hz]
  simp only [View.ld_unit_zero (S := S2000x40) hz, View.ld_unit_zero (S := S40x32) hz, View.ld_unit_zero (S := S1x32) hz, View.ld_unit_zero (S := S2000x32) hz]
  funext j
  obtain ⟨p, q, rfl⟩ : ∃ (p : Fin 2000) (q : Fin 32), j = ix2 p q := ⟨j 0, j 1, eq_ix2 j⟩
  refine (pay_lin _ _ _ p q).trans ?_
  show _ = rLin (aX V c) (aW V c) (aB V c) (((cfg0.win 3).blk t).view.emb (ix2 p q))
  rw [emb_3 t p q, rLin_apply]
  refine congrArg₂ (· + ·) (Finset.sum_congr rfl fun k _ => ?_) ?_
  · show aX V c (((cfg0.win 0).blk t).view.emb (ix2 p k)) * aW V c (((cfg0.win 1).blk t).view.emb (ix2 k q)) = _
    rw [emb_0 t p k, emb_1 t k q]
  · show aB V c (((cfg0.win 2).blk t).view.emb (ix2 (0 : Fin 1) q)) = _
    rw [emb_2 t 0 q]

/-- Every element of the output array is in the block of the point that holds its row. -/
theorem cover_3 (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  let t : Fin cfg0.N := ⟨(i 0).val / 2000, by show (i 0).val / 2000 < 50; omega⟩
  refine ⟨t, flush0_3 t, ?_⟩
  obtain ⟨-, -, -, -, -, -, e0, e1⟩ := idx t
  show i ∈ ((View.whole main_v6).slice (win0_3.rect t)).set
  rw [View.set_slice_whole, Rect.mem_set_unit]
  intro a
  match a with
  | ⟨0, _⟩ => show win0_3.index t (0 : Fin 2) * 2000 ≤ (i 0).val ∧ (i 0).val < win0_3.index t (0 : Fin 2) * 2000 + 2000
              have : t.val = (i 0).val / 2000 := rfl
              omega
  | ⟨1, _⟩ => show win0_3.index t (1 : Fin 2) * 32 ≤ (i 1).val ∧ (i 1).val < win0_3.index t (1 : Fin 2) * 32 + 32; omega

/-- The output array after the region: the reference's affine map of the input, the transposed weight and the bias row
    found at entry. -/
theorem out (c : Dev nD) : (dat0 V c).arrAt 3 cfg0.N = rLin (V c main_arg0) (V c main_v4) (V c main_v5) :=
  (dat0 V c).arrAt_eq_of_cover 3 _ (fun t _ => flushed_3 V c t) cover_3

end Cert.Bridge.Reg0

end
-- ==== Proof.Chain00.lean ====
/-
  The contents at launch, at the first region's entry and at its exit.
-/
import proofs.«421494_j30356828848478_1_alg».proof.Proof.Gen.KernelIdeal.Frame
import proofs.«421494_j30356828848478_1_alg».proof.Proof.Gen.ReferenceIdeal
import proofs.«421494_j30356828848478_1_alg».proof.Proof.KChain
import proofs.«421494_j30356828848478_1_alg».proof.Proof.Val0

set_option maxRecDepth 16384

noncomputable section

namespace Cert.Bridge.Chain

open Idealize.ShloMosaic Idealize.ShloMosaic.TcCoe Idealize.SL.Sem
open Cert.KernelIdeal Cert.KernelIdeal.Gen Cert.Bridge

variable (m : (ℓ : Loc nD τ sig) → Buf (Elt Ideal) ℓ) (ρ : Dev nD → PrngReg)

/-- The argument arrays of a core at launch. -/
def args (c : Dev nD) : Args :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8)⟩

/-- A function of two, three or five arrays at equal arrays. -/
theorem cg2 {α β γ : Sort _} (f : α → β → γ) {a a' : α} {b b' : β} (ha : a = a') (hb : b = b') : f a b = f a' b' := by
  rw [ha, hb]
theorem cg3 {α β γ δ : Sort _} (f : α → β → γ → δ) {a a' : α} {b b' : β} {c c' : γ} (ha : a = a') (hb : b = b') (hc : c = c') :
    f a b c = f a' b' c' := by rw [ha, hb, hc]
theorem cg5 {α β γ δ ε ζ : Sort _} (f : α → β → γ → δ → ε → ζ) {a a' : α} {b b' : β} {c c' : γ} {d d' : δ} {e e' : ε}
    (ha : a = a') (hb : b = b') (hc : c = c') (hd : d = d') (he : e = e') : f a b c d e = f a' b' c' d' e' := by
  rw [ha, hb, hc, hd, he]

/-! ## Boundary 0 -/

theorem at0_main_arg0 (c : Dev nD) : W0 m ρ c (Proc.devRef .tc main_arg0) = (args m c).a0 := rfl
theorem at0_main_arg1 (c : Dev nD) : W0 m ρ c (Proc.devRef .tc main_arg1) = (args m c).a1 := rfl
theorem at0_main_arg2 (c : Dev nD) : W0 m ρ c (Proc.devRef .tc main_arg2) = (args m c).a2 := rfl
theorem at0_main_arg3 (c : Dev nD) : W0 m ρ c (Proc.devRef .tc main_arg3) = (args m c).a3 := rfl
theorem at0_main_arg4 (c : Dev nD) : W0 m ρ c (Proc.devRef .tc main_arg4) = (args m c).a4 := rfl
theorem at0_main_arg5 (c : Dev nD) : W0 m ρ c (Proc.devRef .tc main_arg5) = (args m c).a5 := rfl
theorem at0_main_arg6 (c : Dev nD) : W0 m ρ c (Proc.devRef .tc main_arg6) = (args m c).a6 := rfl
theorem at0_main_arg7 (c : Dev nD) : W0 m ρ c (Proc.devRef .tc main_arg7) = (args m c).a7 := rfl
theorem at0_main_arg8 (c : Dev nD) : W0 m ρ c (Proc.devRef .tc main_arg8) = (args m c).a8 := rfl

/-! ## Boundary 1 -/

set_option maxHeartbeats 1000000 in
theorem at1_main_arg0 (c : Dev nD) : W1 m ρ c (Proc.devRef .tc main_arg0) = (args m c).a0 := by
  show StableHlo.after hostOps0 (W0 m ρ c) (Proc.devRef .tc main_arg0) = _
  simp only [hostOps0]
  after_results
  exact at0_main_arg0 m ρ c
set_option maxHeartbeats 1000000 in
theorem at1_main_arg4 (c : Dev nD) : W1 m ρ c (Proc.devRef .tc main_arg4) = (args m c).a4 := by
  show StableHlo.after hostOps0 (W0 m ρ c) (Proc.devRef .tc main_arg4) = _
  simp only [hostOps0]
  after_results
  exact at0_main_arg4 m ρ c
set_option maxHeartbeats 1000000 in
theorem at1_main_arg5 (c : Dev nD) : W1 m ρ c (Proc.devRef .tc main_arg5) = (args m c).a5 := by
  show StableHlo.after hostOps0 (W0 m ρ c) (Proc.devRef .tc main_arg5) = _
  simp only [hostOps0]
  after_results
  exact at0_main_arg5 m ρ c
set_option maxHeartbeats 1000000 in
theorem at1_main_arg6 (c : Dev nD) : W1 m ρ c (Proc.devRef .tc main_arg6) = (args m c).a6 := by
  show StableHlo.after hostOps0 (W0 m ρ c) (Proc.devRef .tc main_arg6) = _
  simp only [hostOps0]
  after_results
  exact at0_main_arg6 m ρ c
set_option maxHeartbeats 1000000 in
theorem at1_main_arg7 (c : Dev nD) : W1 m ρ c (Proc.devRef .tc main_arg7) = (args m c).a7 := by
  show StableHlo.after hostOps0 (W0 m ρ c) (Proc.devRef .tc main_arg7) = _
  simp only [hostOps0]
  after_results
  exact at0_main_arg7 m ρ c
set_option maxHeartbeats 1000000 in
theorem at1_main_arg8 (c : Dev nD) : W1 m ρ c (Proc.devRef .tc main_arg8) = (args m c).a8 := by
  show StableHlo.after hostOps0 (W0 m ρ c) (Proc.devRef .tc main_arg8) = _
  simp only [hostOps0]
  after_results
  exact at0_main_arg8 m ρ c
set_option maxHeartbeats 1000000 in
theorem at1_main_v1 (c : Dev nD) : W1 m ρ c (Proc.devRef .tc main_v1) = K.src (args m c).a1 := by
  show StableHlo.after hostOps0 (W0 m ρ c) (Proc.devRef .tc main_v1) = _
  simp only [hostOps0]
  after_results
  rw [at0_main_arg1 m ρ c]
  rfl
set_option maxHeartbeats 1000000 in
theorem at1_main_v3 (c : Dev nD) : W1 m ρ c (Proc.devRef .tc main_v3) = K.dst (args m c).a1 := by
  show StableHlo.after hostOps0 (W0 m ρ c) (Proc.devRef .tc main_v3) = _
  simp only [hostOps0]
  after_results
  rw [at0_main_arg1 m ρ c]
  rfl
set_option maxHeartbeats 1000000 in
theorem at1_main_v4 (c : Dev nD) : W1 m ρ c (Proc.devRef .tc main_v4) = K.linW (args m c).a2 := by
  show StableHlo.after hostOps0 (W0 m ρ c) (Proc.devRef .tc main_v4) = _
  simp only [hostOps0]
  after_results
  rw [at0_main_arg2 m ρ c]
  rfl
set_option maxHeartbeats 1000000 in
theorem at1_main_v5 (c : Dev nD) : W1 m ρ c (Proc.devRef .tc main_v5) = K.linB (args m c).a3 := by
  show StableHlo.after hostOps0 (W0 m ρ c) (Proc.devRef .tc main_v5) = _
  simp only [hostOps0]
  after_results
  rw [at0_main_arg3 m ρ c]
  rfl

/-! ## Boundary 2 -/

theorem at2_main_arg4 (c : Dev nD) : W2 m ρ c (Proc.devRef .tc main_arg4) = (args m c).a4 :=
  (W2_of_ne m ρ c main_arg4 (by decide)).trans (at1_main_arg4 m ρ c)
theorem at2_main_arg5 (c : Dev nD) : W2 m ρ c (Proc.devRef .tc main_arg5) = (args m c).a5 :=
  (W2_of_ne m ρ c main_arg5 (by decide)).trans (at1_main_arg5 m ρ c)
theorem at2_main_arg6 (c : Dev nD) : W2 m ρ c (Proc.devRef .tc main_arg6) = (args m c).a6 :=
  (W2_of_ne m ρ c main_arg6 (by decide)).trans (at1_main_arg6 m ρ c)
theorem at2_main_arg7 (c : Dev nD) : W2 m ρ c (Proc.devRef .tc main_arg7) = (args m c).a7 :=
  (W2_of_ne m ρ c main_arg7 (by decide)).trans (at1_main_arg7 m ρ c)
theorem at2_main_arg8 (c : Dev nD) : W2 m ρ c (Proc.devRef .tc main_arg8) = (args m c).a8 :=
  (W2_of_ne m ρ c main_arg8 (by decide)).trans (at1_main_arg8 m ρ c)
theorem at2_main_v1 (c : Dev nD) : W2 m ρ c (Proc.devRef .tc main_v1) = K.src (args m c).a1 :=
  (W2_of_ne m ρ c main_v1 (by decide)).trans (at1_main_v1 m ρ c)
theorem at2_main_v3 (c : Dev nD) : W2 m ρ c (Proc.devRef .tc main_v3) = K.dst (args m c).a1 :=
  (W2_of_ne m ρ c main_v3 (by decide)).trans (at1_main_v3 m ρ c)
theorem at2_main_v6 (c : Dev nD) : W2 m ρ c (Proc.devRef .tc main_v6) = kH0 (args m c) :=
  (W2_arr m ρ c 3).trans ((Reg0.out (V1 m ρ) c).trans (cg3 rLin (at1_main_arg0 m ρ c) (at1_main_v4 m ρ c) (at1_main_v5 m ρ c)))

end Cert.Bridge.Chain

end
-- ==== Proof.Val1.lean ====
/-
  What the message-and-gate region leaves in its two output arrays, as whole-array functions of the arrays it finds at
  entry. The region runs fifty grid points; point `t` loads rows `2000·t … 2000·t + 1999` of the state and the three small
  operands whole, and writes back the same rows of the two outputs. So element `(p, q)` of a block is element
  `(2000·t + p, q)` of its array; the body's value there is a row-by-matrix sum, which is the reference's product at that
  element; and the fifty blocks tile each output array, so the array ends at the reference's whole-array term.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg1

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the state, the round's matrix, the state gate's matrix and
    bias row. -/
abbrev aH (c : Dev nD) : FVec Ideal S100000x32 .f32 := V c main_v6
abbrev aC (c : Dev nD) : FVec Ideal S32x32 .f32 := V c main_v20
abbrev aW (c : Dev nD) : FVec Ideal S32x96 .f32 := V c main_v10
abbrev aB (c : Dev nD) : FVec Ideal S1x96 .f32 := V c main_v15

theorem hz : (![0, 0] : Fin 2 → Nat) = fun _ => 0 := funext fun a => by fin_cases a <;> rfl

/-- The printed index maps, decided over the fifty grid points: the state window and both output windows sit at block row
    `t`, block column 0; the three small operands at block (0, 0). -/
theorem idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Row `p` of point `t`'s block is row `2000·t + p` of the array. -/
def row (t : Fin cfg1.N) (p : Fin 2000) : Fin 100000 :=
  ⟨t.val * 2000 + p.val, by have ht : t.val < 50 := t.isLt; have hp := p.isLt; omega⟩

theorem emb_0 (t : Fin cfg1.N) (p : Fin 2000) (k : Fin 32) :
    ((cfg1.win 0).blk t).view.emb (ix2 p k) = ix2 (row t p) k := by
  obtain ⟨e0, e1, -⟩ := idx t
  funext a; apply Fin.ext
  match a with
  | ⟨0, _⟩ => show win1_0.index t (0 : Fin 2) * 2000 + 1 * p.val = t.val * 2000 + p.val; omega
  | ⟨1, _⟩ => show win1_0.index t (1 : Fin 2) * 32 + 1 * k.val = k.val; omega

theorem emb_1 (t : Fin cfg1.N) (k : Fin 32) (q : Fin 32) :
    ((cfg1.win 1).blk t).view.emb (ix2 k q) = ix2 k q := by
  obtain ⟨-, -, e0, e1, -⟩ := idx t
  funext a; apply Fin.ext
  match a with
  | ⟨0, _⟩ => show win1_1.index t (0 : Fin 2) * 32 + 1 * k.val = k.val; omega
  | ⟨1, _⟩ => show win1_1.index t (1 : Fin 2) * 32 + 1 * q.val = q.val; omega

theorem emb_2 (t : Fin cfg1.N) (k : Fin 32) (q : Fin 96) :
    ((cfg1.win 2).blk t).view.emb (ix2 k q) = ix2 k q := by
  obtain ⟨-, -, -, -, e0, e1, -⟩ := idx t
  funext a; apply Fin.ext
  match a with
  | ⟨0, _⟩ => show win1_2.index t (0 : Fin 2) * 32 + 1 * k.val = k.val; omega
  | ⟨1, _⟩ => show win1_2.index t (1 : Fin 2) * 96 + 1 * q.val = q.val; omega

theorem emb_3 (t : Fin cfg1.N) (z : Fin 1) (q : Fin 96) :
    ((cfg1.win 3).blk t).view.emb (ix2 z q) = ix2 z q := by
  obtain ⟨-, -, -, -, -, -, e0, e1, -⟩ := idx t
  funext a; apply Fin.ext
  match a with
  | ⟨0, _⟩ => show win1_3.index t (0 : Fin 2) * 1 + 1 * z.val = z.val; omega
  | ⟨1, _⟩ => show win1_3.index t (1 : Fin 2) * 96 + 1 * q.val = q.val; omega

theorem emb_4 (t : Fin cfg1.N) (p : Fin 2000) (q : Fin 32) :
    ((cfg1.win 4).blk t).view.emb (ix2 p q) = ix2 (row t p) q := by
  obtain ⟨-, -, -, -, -, -, -, -, e0, e1, -⟩ := idx t
  funext a; apply Fin.ext
  match a with
  | ⟨0, _⟩ => show win1_4.index t (0 : Fin 2) * 2000 + 1 * p.val = t.val * 2000 + p.val; omega
  | ⟨1, _⟩ => show win1_4.index t (1 : Fin 2) * 32 + 1 * q.val = q.val; omega

theorem emb_5 (t : Fin cfg1.N) (p : Fin 2000) (q : Fin 96) :
    ((cfg1.win 5).blk t).view.emb (ix2 p q) = ix2 (row t p) q := by
  obtain ⟨-, -, -, -, -, -, -, -, -, -, e0, e1⟩ := idx t
  funext a; apply Fin.ext
  match a with
  | ⟨0, _⟩ => show win1_5.index t (0 : Fin 2) * 2000 + 1 * p.val = t.val * 2000 + p.val; omega
  | ⟨1, _⟩ => show win1_5.index t (1 : Fin 2) * 96 + 1 * q.val = q.val; omega

/-- What point `t` writes back to the message array is block `t` of the reference's message product of the arrays found at
    entry. -/
theorem flushed_4 (c : Dev nD) (t : Fin cfg1.N) :
    (dat1 V c).flushed 4 t
      = ((cfg1.win 4).blk t).view.read (Elt Ideal) (rMsg (aH V c) (aC V c)) := by
  show (cfg1.win 4).cut (grid1.coords t) ((dat1 V c).after 4 t) = _
  rw [after1_4]
  unfold out1_4
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 32), j = ix2 p q := ⟨j 0, j 1, eq_ix2 j⟩
  refine (pay_msg _ _ p q).trans ?_
  show _ = rMsg (aH V c) (aC V c) (((cfg1.win 4).blk t).view.emb (ix2 p q))
  rw [emb_4 t p q, rMsg_apply]
  refine Finset.sum_congr rfl fun k _ => ?_
  show aH V c (((cfg1.win 0).blk t).view.emb (ix2 p k)) * aC V c (((cfg1.win 1).blk t).view.emb (ix2 k q)) = _
  rw [emb_0 t p k, emb_1 t k q]

/-- What point `t` writes back to the gate array is block `t` of the reference's gate pre-activation of the arrays found at
    entry. -/
theorem flushed_5 (c : Dev nD) (t : Fin cfg1.N) :
    (dat1 V c).flushed 5 t
      = ((cfg1.win 5).blk t).view.read (Elt Ideal) (rGate (aH V c) (aW V c) (aB V c)) := by
  show (cfg1.win 5).cut (grid1.coords t) ((dat1 V c).after 5 t) = _
  rw [after1_5]
  unfold out1_5
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 96), j = ix2 p q := ⟨j 0, j 1, eq_ix2 j⟩
  refine (pay_gate _ _ _ p q).trans ?_
  show _ = rGate (aH V c) (aW V c) (aB V c) (((cfg1.win 5).blk t).view.emb (ix2 p q))
  rw [emb_5 t p q, rGate_apply]
  refine congrArg₂ (· + ·) (Finset.sum_congr rfl fun k _ => ?_) ?_
  · show aH V c (((cfg1.win 0).blk t).view.emb (ix2 p k)) * aW V c (((cfg1.win 2).blk t).view.emb (ix2 k q)) = _
    rw [emb_0 t p k, emb_2 t k q]
  · show aB V c (((cfg1.win 3).blk t).view.emb (ix2 (0 : Fin 1) q)) = _
    rw [emb_3 t 0 q]

/-- Every element of a 100000-row array is in the block of the point that holds its row. -/
theorem cover_4 (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  let t : Fin cfg1.N := ⟨(i 0).val / 2000, by show (i 0).val / 2000 < 50; omega⟩
  refine ⟨t, flush1_4 t, ?_⟩
  obtain ⟨-, -, -, -, -, -, -, -, e0, e1, -⟩ := idx t
  show i ∈ ((View.whole main_v21_0).slice (win1_4.rect t)).set
  rw [View.set_slice_whole, Rect.mem_set_unit]
  intro a
  match a with
  | ⟨0, _⟩ => show win1_4.index t (0 : Fin 2) * 2000 ≤ (i 0).val ∧ (i 0).val < win1_4.index t (0 : Fin 2) * 2000 + 2000
              have : t.val = (i 0).val / 2000 := rfl
              omega
  | ⟨1, _⟩ => show win1_4.index t (1 : Fin 2) * 32 ≤ (i 1).val ∧ (i 1).val < win1_4.index t (1 : Fin 2) * 32 + 32; omega

theorem cover_5 (i : S100000x96.Idx) :
    ∃ t : Fin cfg1.N, (cfg1.win 5).flush t = true ∧ i ∈ ((cfg1.win 5).blk t).view.set := by
  have hi0 : (i 0).val < 100000 := (i 0).isLt
  have hi1 : (i 1).val < 96 := (i 1).isLt
  let t : Fin cfg1.N := ⟨(i 0).val / 2000, by show (i 0).val / 2000 < 50; omega⟩
  refine ⟨t, flush1_5 t, ?_⟩
  obtain ⟨-, -, -, -, -, -, -, -, -, -, e0, e1⟩ := idx t
  show i ∈ ((View.whole main_v21_1).slice (win1_5.rect t)).set
  rw [View.set_slice_whole, Rect.mem_set_unit]
  intro a
  match a with
  | ⟨0, _⟩ => show win1_5.index t (0 : Fin 2) * 2000 ≤ (i 0).val ∧ (i 0).val < win1_5.index t (0 : Fin 2) * 2000 + 2000
              have : t.val = (i 0).val / 2000 := rfl
              omega
  | ⟨1, _⟩ => show win1_5.index t (1 : Fin 2) * 96 ≤ (i 1).val ∧ (i 1).val < win1_5.index t (1 : Fin 2) * 96 + 96; omega

/-- The message array after the region: the reference's message product of the state and the matrix found at entry. -/
theorem msg (c : Dev nD) : (dat1 V c).arrAt 4 cfg1.N = rMsg (V c main_v6) (V c main_v20) :=
  (dat1 V c).arrAt_eq_of_cover 4 _ (fun t _ => flushed_4 V c t) cover_4

/-- The state-gate array after the region: the reference's gate pre-activation of the state, the matrix and the bias row
    found at entry. -/
theorem gate (c : Dev nD) : (dat1 V c).arrAt 5 cfg1.N = rGate (V c main_v6) (V c main_v10) (V c main_v15) :=
  (dat1 V c).arrAt_eq_of_cover 5 _ (fun t _ => flushed_5 V c t) cover_5

end Cert.Bridge.Reg1

end
-- ==== Proof.Val2.lean ====
/-
  What the update region leaves in its output array, as a whole-array function of the arrays it finds at entry. The region
  runs fifty grid points; point `t` loads rows `2000·t … 2000·t + 1999` of the aggregate, of the state gate and of the
  state, and the gate matrix and bias row whole, and writes back the same rows of the new state. Element `(p, q)` of a
  block is element `(2000·t + p, q)` of its array. The body forms the aggregate's gate pre-activation at the three columns
  `q`, `q + 32`, `q + 64` of row `p` and applies the gated rule with the loaded state gate at the same columns and the
  loaded state at `(p, q)`; the reference's update of the reference's gate pre-activation reads the same seven numbers at
  row `2000·t + p`. The fifty blocks tile the output array.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg2

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the aggregate, the state gate, the state, the aggregate
    gate's matrix and bias row. -/
abbrev aA (c : Dev nD) : FVec Ideal S100000x32 .f32 := V c main_v31
abbrev aG (c : Dev nD) : FVec Ideal S100000x96 .f32 := V c main_v21_1
abbrev aH (c : Dev nD) : FVec Ideal S100000x32 .f32 := V c main_v6
abbrev aW (c : Dev nD) : FVec Ideal S32x96 .f32 := V c main_v12
abbrev aB (c : Dev nD) : FVec Ideal S1x96 .f32 := V c main_v18

theorem hz : (![0, 0] : Fin 2 → Nat) = fun _ => 0 := funext fun a => by fin_cases a <;> rfl

/-- The printed index maps, decided over the fifty grid points: the aggregate, state-gate, state and output windows sit at
    block row `t`, block column 0; the gate matrix and the bias row at block (0, 0). -/
theorem idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of point `t`'s block is row `2000·t + p` of the array. -/
def row (t : Fin cfg2.N) (p : Fin 2000) : Fin 100000 :=
  ⟨t.val * 2000 + p.val, by have ht : t.val < 50 := t.isLt; have hp := p.isLt; omega⟩

theorem emb_0 (t : Fin cfg2.N) (p : Fin 2000) (k : Fin 32) :
    ((cfg2.win 0).blk t).view.emb (ix2 p k) = ix2 (row t p) k := by
  obtain ⟨e0, e1, -⟩ := idx t
  funext a; apply Fin.ext
  match a with
  | ⟨0, _⟩ => show win2_0.index t (0 : Fin 2) * 2000 + 1 * p.val = t.val * 2000 + p.val; omega
  | ⟨1, _⟩ => show win2_0.index t (1 : Fin 2) * 32 + 1 * k.val = k.val; omega

theorem emb_1 (t : Fin cfg2.N) (p : Fin 2000) (j : Fin 96) :
    ((cfg2.win 1).blk t).view.emb (ix2 p j) = ix2 (row t p) j := by
  obtain ⟨-, -, e0, e1, -⟩ := idx t
  funext a; apply Fin.ext
  match a with
  | ⟨0, _⟩ => show win2_1.index t (0 : Fin 2) * 2000 + 1 * p.val = t.val * 2000 + p.val; omega
  | ⟨1, _⟩ => show win2_1.index t (1 : Fin 2) * 96 + 1 * j.val = j.val; omega

theorem emb_2 (t : Fin cfg2.N) (p : Fin 2000) (q : Fin 32) :
    ((cfg2.win 2).blk t).view.emb (ix2 p q) = ix2 (row t p) q := by
  obtain ⟨-, -, -, -, e0, e1, -⟩ := idx t
  funext a; apply Fin.ext
  match a with
  | ⟨0, _⟩ => show win2_2.index t (0 : Fin 2) * 2000 + 1 * p.val = t.val * 2000 + p.val; omega
  | ⟨1, _⟩ => show win2_2.index t (1 : Fin 2) * 32 + 1 * q.val = q.val; omega

theorem emb_3 (t : Fin cfg2.N) (k : Fin 32) (j : Fin 96) :
    ((cfg2.win 3).blk t).view.emb (ix2 k j) = ix2 k j := by
  obtain ⟨-, -, -, -, -, -, e0, e1, -⟩ := idx t
  funext a; apply Fin.ext
  match a with
  | ⟨0, _⟩ => show win2_3.index t (0 : Fin 2) * 32 + 1 * k.val = k.val; omega
  | ⟨1, _⟩ => show win2_3.index t (1 : Fin 2) * 96 + 1 * j.val = j.val; omega

theorem emb_4 (t : Fin cfg2.N) (z : Fin 1) (j : Fin 96) :
    ((cfg2.win 4).blk t).view.emb (ix2 z j) = ix2 z j := by
  obtain ⟨-, -, -, -, -, -, -, -, e0, e1, -⟩ := idx t
  funext a; apply Fin.ext
  match a with
  | ⟨0, _⟩ => show win2_4.index t (0 : Fin 2) * 1 + 1 * z.val = z.val; omega
  | ⟨1, _⟩ => show win2_4.index t (1 : Fin 2) * 96 + 1 * j.val = j.val; omega

theorem emb_5 (t : Fin cfg2.N) (p : Fin 2000) (q : Fin 32) :
    ((cfg2.win 5).blk t).view.emb (ix2 p q) = ix2 (row t p) q := by
  obtain ⟨-, -, -, -, -, -, -, -, -, -, e0, e1⟩ := idx t
  funext a; apply Fin.ext
  match a with
  | ⟨0, _⟩ => show win2_5.index t (0 : Fin 2) * 2000 + 1 * p.val = t.val * 2000 + p.val; omega
  | ⟨1, _⟩ => show win2_5.index t (1 : Fin 2) * 32 + 1 * q.val = q.val; omega

/-- The gated rule at equal arguments. -/
theorem gru_congr {a1 a2 a3 a4 a5 a6 a7 b1 b2 b3 b4 b5 b6 b7 : EReal} (h1 : a1 = b1) (h2 : a2 = b2) (h3 : a3 = b3)
    (h4 : a4 = b4) (h5 : a5 = b5) (h6 : a6 = b6) (h7 : a7 = b7) :
    gru a1 a2 a3 a4 a5 a6 a7 = gru b1 b2 b3 b4 b5 b6 b7 := by rw [h1, h2, h3, h4, h5, h6, h7]

/-- The aggregate's gate pre-activation formed from point `t`'s blocks at row `p`, column `j`, is the one formed from the
    arrays at row `2000·t + p`. -/
theorem gate_at (c : Dev nD) (t : Fin cfg2.N) (p : Fin 2000) (j : Fin 96) :
    (∑ k : Fin 32, aA V c (((cfg2.win 0).blk t).view.emb (ix2 p k)) * aW V c (((cfg2.win 3).blk t).view.emb (ix2 k j)))
        + aB V c (((cfg2.win 4).blk t).view.emb (ix2 (0 : Fin 1) j))
      = (∑ k : Fin 32, aA V c (ix2 (row t p) k) * aW V c (ix2 k j)) + aB V c (ix2 (0 : Fin 1) j) := by
  refine congrArg₂ (· + ·) (Finset.sum_congr rfl fun k _ => ?_) ?_
  · rw [emb_0 t p k, emb_3 t k j]
  · rw [emb_4 t 0 j]

/-- What point `t` writes back is block `t` of the reference's update of the arrays found at entry. -/
theorem flushed_5 (c : Dev nD) (t : Fin cfg2.N) :
    (dat2 V c).flushed 5 t
      = ((cfg2.win 5).blk t).view.read (Elt Ideal)
          (rUpd (rGate (aA V c) (aW V c) (aB V c)) (aG V c) (aH V c)) := by
  show (cfg2.win 5).cut (grid2.coords t) ((dat2 V c).after 5 t) = _
  rw [after2_5]
  unfold out2_5
  rw [View.canon_unit_zero hz]
  simp only [View.ld_unit_zero (S := S2000x32) hz, View.ld_unit_zero (S := S2000x96) hz, View.ld_unit_zero (S := S32x96) hz, View.ld_unit_zero (S := S1x96) hz]
  funext j
  obtain ⟨p, q, rfl⟩ : ∃ (p : Fin 2000) (q : Fin 32), j = ix2 p q := ⟨j 0, j 1, eq_ix2 j⟩
  refine (pay_upd _ _ _ _ _ p q).trans ?_
  show _ = rUpd (rGate (aA V c) (aW V c) (aB V c)) (aG V c) (aH V c)
      (((cfg2.win 5).blk t).view.emb (ix2 p q))
  rw [emb_5 t p q, rUpd_apply, rGate_apply, rGate_apply, rGate_apply]
  refine gru_congr (gate_at V c t p (col0 q)) (gate_at V c t p (col1 q)) (gate_at V c t p (col2 q)) ?_ ?_ ?_ ?_
  · show aG V c (((cfg2.win 1).blk t).view.emb (ix2 p (col0 q))) = _
    rw [emb_1 t p (col0 q)]
  · show aG V c (((cfg2.win 1).blk t).view.emb (ix2 p (col1 q))) = _
    rw [emb_1 t p (col1 q)]
  · show aG V c (((cfg2.win 1).blk t).view.emb (ix2 p (col2 q))) = _
    rw [emb_1 t p (col2 q)]
  · show aH V c (((cfg2.win 2).blk t).view.emb (ix2 p q)) = _
    rw [emb_2 t p q]

/-- Every element of the output array is in the block of the point that holds its row. -/
theorem cover_5 (i : S100000x32.Idx) :
    ∃ t : Fin cfg2.N, (cfg2.win 5).flush t = true ∧ i ∈ ((cfg2.win 5).blk t).view.set := by
  have hi0 : (i 0).val < 100000 := (i 0).isLt
  have hi1 : (i 1).val < 32 := (i 1).isLt
  let t : Fin cfg2.N := ⟨(i 0).val / 2000, by show (i 0).val / 2000 < 50; omega⟩
  refine ⟨t, flush2_5 t, ?_⟩
  obtain ⟨-, -, -, -, -, -, -, -, -, -, e0, e1⟩ := idx t
  show i ∈ ((View.whole main_v32).slice (win2_5.rect t)).set
  rw [View.set_slice_whole, Rect.mem_set_unit]
  intro a
  match a with
  | ⟨0, _⟩ => show win2_5.index t (0 : Fin 2) * 2000 ≤ (i 0).val ∧ (i 0).val < win2_5.index t (0 : Fin 2) * 2000 + 2000
              have : t.val = (i 0).val / 2000 := rfl
              omega
  | ⟨1, _⟩ => show win2_5.index t (1 : Fin 2) * 32 ≤ (i 1).val ∧ (i 1).val < win2_5.index t (1 : Fin 2) * 32 + 32; omega

/-- The output array after the region: the reference's update, from the reference's gate pre-activation of the aggregate,
    the state gate and the state found at entry. -/
theorem out (c : Dev nD) :
    (dat2 V c).arrAt 5 cfg2.N = rUpd (rGate (V c main_v31) (V c main_v12) (V c main_v18)) (V c main_v21_1) (V c main_v6) :=
  (dat2 V c).arrAt_eq_of_cover 5 _ (fun t _ => flushed_5 V c t) cover_5

end Cert.Bridge.Reg2

end
-- ==== Proof.ChainR0.lean ====
/-
  Round 0: the contents at the entries and exits of its two regions.
-/
import proofs.«421494_j30356828848478_1_alg».proof.Proof.Chain00
import proofs.«421494_j30356828848478_1_alg».proof.Proof.Val1
import proofs.«421494_j30356828848478_1_alg».proof.Proof.Val2

set_option maxRecDepth 16384

noncomputable section

namespace Cert.Bridge.Chain

open Idealize.ShloMosaic Idealize.ShloMosaic.TcCoe Idealize.SL.Sem
open Cert.KernelIdeal Cert.KernelIdeal.Gen Cert.Bridge

variable (m : (ℓ : Loc nD τ sig) → Buf (Elt Ideal) ℓ) (ρ : Dev nD → PrngReg)

/-! ## Boundary 3 -/

set_option maxHeartbeats 1000000 in
theorem at3_main_arg4 (c : Dev nD) : W3 m ρ c (Proc.devRef .tc main_arg4) = (args m c).a4 := by
  show StableHlo.after hostOps1 (W2 m ρ c) (Proc.devRef .tc main_arg4) = _
  simp only [hostOps1]
  after_results
  exact at2_main_arg4 m ρ c
set_option maxHeartbeats 1000000 in
theorem at3_main_arg7 (c : Dev nD) : W3 m ρ c (Proc.devRef .tc main_arg7) = (args m c).a7 := by
  show StableHlo.after hostOps1 (W2 m ρ c) (Proc.devRef .tc main_arg7) = _
  simp only [hostOps1]
  after_results
  exact at2_main_arg7 m ρ c
set_option maxHeartbeats 1000000 in
theorem at3_main_arg8 (c : Dev nD) : W3 m ρ c (Proc.devRef .tc main_arg8) = (args m c).a8 := by
  show StableHlo.after hostOps1 (W2 m ρ c) (Proc.devRef .tc main_arg8) = _
  simp only [hostOps1]
  after_results
  exact at2_main_arg8 m ρ c
set_option maxHeartbeats 1000000 in
theorem at3_main_v1 (c : Dev nD) : W3 m ρ c (Proc.devRef .tc main_v1) = K.src (args m c).a1 := by
  show StableHlo.after hostOps1 (W2 m ρ c) (Proc.devRef .tc main_v1) = _
  simp only [hostOps1]
  after_results
  exact at2_main_v1 m ρ c
set_option maxHeartbeats 1000000 in
theorem at3_main_v3 (c : Dev nD) : W3 m ρ c (Proc.devRef .tc main_v3) = K.dst (args m c).a1 := by
  show StableHlo.after hostOps1 (W2 m ρ c) (Proc.devRef .tc main_v3) = _
  simp only [hostOps1]
  after_results
  exact at2_main_v3 m ρ c
set_option maxHeartbeats 1000000 in
theorem at3_main_v6 (c : Dev nD) : W3 m ρ c (Proc.devRef .tc main_v6) = kH0 (args m c) := by
  show StableHlo.after hostOps1 (W2 m ρ c) (Proc.devRef .tc main_v6) = _
  simp only [hostOps1]
  after_results
  exact at2_main_v6 m ρ c
set_option maxHeartbeats 1000000 in
theorem at3_main_v7 (c : Dev nD) : W3 m ρ c (Proc.devRef .tc main_v7) = K.gT (args m c).a5 := by
  show StableHlo.after hostOps1 (W2 m ρ c) (Proc.devRef .tc main_v7) = _
  simp only [hostOps1]
  after_results
  rw [at2_main_arg5 m ρ c]
  rfl
set_option maxHeartbeats 1000000 in
theorem at3_main_v8 (c : Dev nD) : W3 m ρ c (Proc.devRef .tc main_v8) = K.gT (args m c).a6 := by
  show StableHlo.after hostOps1 (W2 m ρ c) (Proc.devRef .tc main_v8) = _
  simp only [hostOps1]
  after_results
  rw [at2_main_arg6 m ρ c]
  rfl
set_option maxHeartbeats 1000000 in
theorem at3_main_v10 (c : Dev nD) : W3 m ρ c (Proc.devRef .tc main_v10) = K.gW0 (K.gT (args m c).a6) := by
  show StableHlo.after hostOps1 (W2 m ρ c) (Proc.devRef .tc main_v10) = _
  simp only [hostOps1]
  after_results
  rw [at2_main_arg6 m ρ c]
  rfl
set_option maxHeartbeats 1000000 in
theorem at3_main_v12 (c : Dev nD) : W3 m ρ c (Proc.devRef .tc main_v12) = K.gW0 (K.gT (args m c).a5) := by
  show StableHlo.after hostOps1 (W2 m ρ c) (Proc.devRef .tc main_v12) = _
  simp only [hostOps1]
  after_results
  rw [at2_main_arg5 m ρ c]
  rfl
set_option maxHeartbeats 1000000 in
theorem at3_main_v15 (c : Dev nD) : W3 m ρ c (Proc.devRef .tc main_v15) = K.gB0 (args m c).a8 := by
  show StableHlo.after hostOps1 (W2 m ρ c) (Proc.devRef .tc main_v15) = _
  simp only [hostOps1]
  after_results
  rw [at2_main_arg8 m ρ c]
  rfl
set_option maxHeartbeats 1000000 in
theorem at3_main_v18 (c : Dev nD) : W3 m ρ c (Proc.devRef .tc main_v18) = K.gB0 (args m c).a7 := by
  show StableHlo.after hostOps1 (W2 m ρ c) (Proc.devRef .tc main_v18) = _
  simp only [hostOps1]
  after_results
  rw [at2_main_arg7 m ρ c]
  rfl
set_option maxHeartbeats 1000000 in
theorem at3_main_v20 (c : Dev nD) : W3 m ρ c (Proc.devRef .tc main_v20) = K.conv00 (args m c).a4 := by
  show StableHlo.after hostOps1 (W2 m ρ c) (Proc.devRef .tc main_v20) = _
  simp only [hostOps1]
  after_results
  rw [at2_main_arg4 m ρ c]
  rfl

/-! ## Boundary 4 -/

theorem at4_main_arg4 (c : Dev nD) : W4 m ρ c (Proc.devRef .tc main_arg4) = (args m c).a4 :=
  (W4_of_ne m ρ c main_arg4 (by decide)).trans (at3_main_arg4 m ρ c)
theorem at4_main_arg7 (c : Dev nD) : W4 m ρ c (Proc.devRef .tc main_arg7) = (args m c).a7 :=
  (W4_of_ne m ρ c main_arg7 (by decide)).trans (at3_main_arg7 m ρ c)
theorem at4_main_arg8 (c : Dev nD) : W4 m ρ c (Proc.devRef .tc main_arg8) = (args m c).a8 :=
  (W4_of_ne m ρ c main_arg8 (by decide)).trans (at3_main_arg8 m ρ c)
theorem at4_main_v1 (c : Dev nD) : W4 m ρ c (Proc.devRef .tc main_v1) = K.src (args m c).a1 :=
  (W4_of_ne m ρ c main_v1 (by decide)).trans (at3_main_v1 m ρ c)
theorem at4_main_v3 (c : Dev nD) : W4 m ρ c (Proc.devRef .tc main_v3) = K.dst (args m c).a1 :=
  (W4_of_ne m ρ c main_v3 (by decide)).trans (at3_main_v3 m ρ c)
theorem at4_main_v6 (c : Dev nD) : W4 m ρ c (Proc.devRef .tc main_v6) = kH0 (args m c) :=
  (W4_arr m ρ c 0).trans (((dat1 (V3 m ρ) c).arrAt_in 0 rfl _).trans ((A_eq1 (V3 m ρ) c 0).trans (at3_main_v6 m ρ c)))
theorem at4_main_v7 (c : Dev nD) : W4 m ρ c (Proc.devRef .tc main_v7) = K.gT (args m c).a5 :=
  (W4_of_ne m ρ c main_v7 (by decide)).trans (at3_main_v7 m ρ c)
theorem at4_main_v8 (c : Dev nD) : W4 m ρ c (Proc.devRef .tc main_v8) = K.gT (args m c).a6 :=
  (W4_of_ne m ρ c main_v8 (by decide)).trans (at3_main_v8 m ρ c)
theorem at4_main_v10 (c : Dev nD) : W4 m ρ c (Proc.devRef .tc main_v10) = K.gW0 (K.gT (args m c).a6) :=
  (W4_arr m ρ c 2).trans (((dat1 (V3 m ρ) c).arrAt_in 2 rfl _).trans ((A_eq1 (V3 m ρ) c 2).trans (at3_main_v10 m ρ c)))
theorem at4_main_v12 (c : Dev nD) : W4 m ρ c (Proc.devRef .tc main_v12) = K.gW0 (K.gT (args m c).a5) :=
  (W4_of_ne m ρ c main_v12 (by decide)).trans (at3_main_v12 m ρ c)
theorem at4_main_v15 (c : Dev nD) : W4 m ρ c (Proc.devRef .tc main_v15) = K.gB0 (args m c).a8 :=
  (W4_arr m ρ c 3).trans (((dat1 (V3 m ρ) c).arrAt_in 3 rfl _).trans ((A_eq1 (V3 m ρ) c 3).trans (at3_main_v15 m ρ c)))
theorem at4_main_v18 (c : Dev nD) : W4 m ρ c (Proc.devRef .tc main_v18) = K.gB0 (args m c).a7 :=
  (W4_of_ne m ρ c main_v18 (by decide)).trans (at3_main_v18 m ρ c)
theorem at4_main_v21_0 (c : Dev nD) : W4 m ρ c (Proc.devRef .tc main_v21_0) = kM0 (args m c) :=
  (W4_arr m ρ c 4).trans ((Reg1.msg (V3 m ρ) c).trans (cg2 rMsg (at3_main_v6 m ρ c) (at3_main_v20 m ρ c)))
theorem at4_main_v21_1 (c : Dev nD) : W4 m ρ c (Proc.devRef .tc main_v21_1) = kG0 (args m c) :=
  (W4_arr m ρ c 5).trans ((Reg1.gate (V3 m ρ) c).trans (cg3 rGate (at3_main_v6 m ρ c) (at3_main_v10 m ρ c) (at3_main_v15 m ρ c)))

/-! ## Boundary 5 -/

set_option maxHeartbeats 1000000 in
theorem at5_main_arg4 (c : Dev nD) : W5 m ρ c (Proc.devRef .tc main_arg4) = (args m c).a4 := by
  show StableHlo.after hostOps2 (W4 m ρ c) (Proc.devRef .tc main_arg4) = _
  simp only [hostOps2]
  after_results
  exact at4_main_arg4 m ρ c
set_option maxHeartbeats 1000000 in
theorem at5_main_arg7 (c : Dev nD) : W5 m ρ c (Proc.devRef .tc main_arg7) = (args m c).a7 := by
  show StableHlo.after hostOps2 (W4 m ρ c) (Proc.devRef .tc main_arg7) = _
  simp only [hostOps2]
  after_results
  exact at4_main_arg7 m ρ c
set_option maxHeartbeats 1000000 in
theorem at5_main_arg8 (c : Dev nD) : W5 m ρ c (Proc.devRef .tc main_arg8) = (args m c).a8 := by
  show StableHlo.after hostOps2 (W4 m ρ c) (Proc.devRef .tc main_arg8) = _
  simp only [hostOps2]
  after_results
  exact at4_main_arg8 m ρ c
set_option maxHeartbeats 1000000 in
theorem at5_main_v1 (c : Dev nD) : W5 m ρ c (Proc.devRef .tc main_v1) = K.src (args m c).a1 := by
  show StableHlo.after hostOps2 (W4 m ρ c) (Proc.devRef .tc main_v1) = _
  simp only [hostOps2]
  after_results
  exact at4_main_v1 m ρ c
set_option maxHeartbeats 1000000 in
theorem at5_main_v3 (c : Dev nD) : W5 m ρ c (Proc.devRef .tc main_v3) = K.dst (args m c).a1 := by
  show StableHlo.after hostOps2 (W4 m ρ c) (Proc.devRef .tc main_v3) = _
  simp only [hostOps2]
  after_results
  exact at4_main_v3 m ρ c
set_option maxHeartbeats 1000000 in
theorem at5_main_v6 (c : Dev nD) : W5 m ρ c (Proc.devRef .tc main_v6) = kH0 (args m c) := by
  show StableHlo.after hostOps2 (W4 m ρ c) (Proc.devRef .tc main_v6) = _
  simp only [hostOps2]
  after_results
  exact at4_main_v6 m ρ c
set_option maxHeartbeats 1000000 in
theorem at5_main_v7 (c : Dev nD) : W5 m ρ c (Proc.devRef .tc main_v7) = K.gT (args m c).a5 := by
  show StableHlo.after hostOps2 (W4 m ρ c) (Proc.devRef .tc main_v7) = _
  simp only [hostOps2]
  after_results
  exact at4_main_v7 m ρ c
set_option maxHeartbeats 1000000 in
theorem at5_main_v8 (c : Dev nD) : W5 m ρ c (Proc.devRef .tc main_v8) = K.gT (args m c).a6 := by
  show StableHlo.after hostOps2 (W4 m ρ c) (Proc.devRef .tc main_v8) = _
  simp only [hostOps2]
  after_results
  exact at4_main_v8 m ρ c
set_option maxHeartbeats 1000000 in
theorem at5_main_v10 (c : Dev nD) : W5 m ρ c (Proc.devRef .tc main_v10) = K.gW0 (K.gT (args m c).a6) := by
  show StableHlo.after hostOps2 (W4 m ρ c) (Proc.devRef .tc main_v10) = _
  simp only [hostOps2]
  after_results
  exact at4_main_v10 m ρ c
set_option maxHeartbeats 1000000 in
theorem at5_main_v12 (c : Dev nD) : W5 m ρ c (Proc.devRef .tc main_v12) = K.gW0 (K.gT (args m c).a5) := by
  show StableHlo.after hostOps2 (W4 m ρ c) (Proc.devRef .tc main_v12) = _
  simp only [hostOps2]
  after_results
  exact at4_main_v12 m ρ c
set_option maxHeartbeats 1000000 in
theorem at5_main_v15 (c : Dev nD) : W5 m ρ c (Proc.devRef .tc main_v15) = K.gB0 (args m c).a8 := by
  show StableHlo.after hostOps2 (W4 m ρ c) (Proc.devRef .tc main_v15) = _
  simp only [hostOps2]
  after_results
  exact at4_main_v15 m ρ c
set_option maxHeartbeats 1000000 in
theorem at5_main_v18 (c : Dev nD) : W5 m ρ c (Proc.devRef .tc main_v18) = K.gB0 (args m c).a7 := by
  show StableHlo.after hostOps2 (W4 m ρ c) (Proc.devRef .tc main_v18) = _
  simp only [hostOps2]
  after_results
  exact at4_main_v18 m ρ c
set_option maxHeartbeats 1000000 in
theorem at5_main_v21_1 (c : Dev nD) : W5 m ρ c (Proc.devRef .tc main_v21_1) = kG0 (args m c) := by
  show StableHlo.after hostOps2 (W4 m ρ c) (Proc.devRef .tc main_v21_1) = _
  simp only [hostOps2]
  after_results
  exact at4_main_v21_1 m ρ c
set_option maxHeartbeats 1000000 in
theorem at5_main_v31 (c : Dev nD) : W5 m ρ c (Proc.devRef .tc main_v31) = kA0 (args m c) := by
  show StableHlo.after hostOps2 (W4 m ρ c) (Proc.devRef .tc main_v31) = _
  simp only [hostOps2]
  after_results
  exact (cg3 K.agg (at4_main_v21_0 m ρ c) (at4_main_v1 m ρ c) (at4_main_v3 m ρ c)).trans (agg_eq _ _ _)

/-! ## Boundary 6 -/

theorem at6_main_arg4 (c : Dev nD) : W6 m ρ c (Proc.devRef .tc main_arg4) = (args m c).a4 :=
  (W6_of_ne m ρ c main_arg4 (by decide)).trans (at5_main_arg4 m ρ c)
theorem at6_main_arg7 (c : Dev nD) : W6 m ρ c (Proc.devRef .tc main_arg7) = (args m c).a7 :=
  (W6_of_ne m ρ c main_arg7 (by decide)).trans (at5_main_arg7 m ρ c)
theorem at6_main_arg8 (c : Dev nD) : W6 m ρ c (Proc.devRef .tc main_arg8) = (args m c).a8 :=
  (W6_of_ne m ρ c main_arg8 (by decide)).trans (at5_main_arg8 m ρ c)
theorem at6_main_v1 (c : Dev nD) : W6 m ρ c (Proc.devRef .tc main_v1) = K.src (args m c).a1 :=
  (W6_of_ne m ρ c main_v1 (by decide)).trans (at5_main_v1 m ρ c)
theorem at6_main_v3 (c : Dev nD) : W6 m ρ c (Proc.devRef .tc main_v3) = K.dst (args m c).a1 :=
  (W6_of_ne m ρ c main_v3 (by decide)).trans (at5_main_v3 m ρ c)
theorem at6_main_v7 (c : Dev nD) : W6 m ρ c (Proc.devRef .tc main_v7) = K.gT (args m c).a5 :=
  (W6_of_ne m ρ c main_v7 (by decide)).trans (at5_main_v7 m ρ c)
theorem at6_main_v8 (c : Dev nD) : W6 m ρ c (Proc.devRef .tc main_v8) = K.gT (args m c).a6 :=
  (W6_of_ne m ρ c main_v8 (by decide)).trans (at5_main_v8 m ρ c)
theorem at6_main_v10 (c : Dev nD) : W6 m ρ c (Proc.devRef .tc main_v10) = K.gW0 (K.gT (args m c).a6) :=
  (W6_of_ne m ρ c main_v10 (by decide)).trans (at5_main_v10 m ρ c)
theorem at6_main_v12 (c : Dev nD) : W6 m ρ c (Proc.devRef .tc main_v12) = K.gW0 (K.gT (args m c).a5) :=
  (W6_arr m ρ c 3).trans (((dat2 (V5 m ρ) c).arrAt_in 3 rfl _).trans ((A_eq2 (V5 m ρ) c 3).trans (at5_main_v12 m ρ c)))
theorem at6_main_v15 (c : Dev nD) : W6 m ρ c (Proc.devRef .tc main_v15) = K.gB0 (args m c).a8 :=
  (W6_of_ne m ρ c main_v15 (by decide)).trans (at5_main_v15 m ρ c)
theorem at6_main_v18 (c : Dev nD) : W6 m ρ c (Proc.devRef .tc main_v18) = K.gB0 (args m c).a7 :=
  (W6_arr m ρ c 4).trans (((dat2 (V5 m ρ) c).arrAt_in 4 rfl _).trans ((A_eq2 (V5 m ρ) c 4).trans (at5_main_v18 m ρ c)))
theorem at6_main_v32 (c : Dev nD) : W6 m ρ c (Proc.devRef .tc main_v32) = kH1 (args m c) :=
  (W6_arr m ρ c 5).trans ((Reg2.out (V5 m ρ) c).trans (cg5 (fun a w b g h => rUpd (rGate a w b) g h) (at5_main_v31 m ρ c) (at5_main_v12 m ρ c) (at5_main_v18 m ρ c) (at5_main_v21_1 m ρ c) (at5_main_v6 m ρ c)))

end Cert.Bridge.Chain

end
-- ==== Proof.Val3.lean ====
/-
  What the message-and-gate region leaves in its two output arrays, as whole-array functions of the arrays it finds at
  entry. The region runs fifty grid points; point `t` loads rows `2000·t … 2000·t + 1999` of the state and the three small
  operands whole, and writes back the same rows of the two outputs. So element `(p, q)` of a block is element
  `(2000·t + p, q)` of its array; the body's value there is a row-by-matrix sum, which is the reference's product at that
  element; and the fifty blocks tile each output array, so the array ends at the reference's whole-array term.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg3

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the state, the round's matrix, the state gate's matrix and
    bias row. -/
abbrev aH (c : Dev nD) : FVec Ideal S100000x32 .f32 := V c main_v32
abbrev aC (c : Dev nD) : FVec Ideal S32x32 .f32 := V c main_v34
abbrev aW (c : Dev nD) : FVec Ideal S32x96 .f32 := V c main_v10
abbrev aB (c : Dev nD) : FVec Ideal S1x96 .f32 := V c main_v15

theorem hz : (![0, 0] : Fin 2 → Nat) = fun _ => 0 := funext fun a => by fin_cases a <;> rfl

/-- The printed index maps, decided over the fifty grid points: the state window and both output windows sit at block row
    `t`, block column 0; the three small operands at block (0, 0). -/
theorem idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ win3_5.index t (0 : Fin 2) = t.val ∧ win3_5.index t (1 : Fin 2) = 0 :=
  (by decide +kernel : ∀ t : Fin grid3.N, _)

/-- Row `p` of point `t`'s block is row `2000·t + p` of the array. -/
def row (t : Fin cfg3.N) (p : Fin 2000) : Fin 100000 :=
  ⟨t.val * 2000 + p.val, by have ht : t.val < 50 := t.isLt; have hp := p.isLt; omega⟩

theorem emb_0 (t : Fin cfg3.N) (p : Fin 2000) (k : Fin 32) :
    ((cfg3.win 0).blk t).view.emb (ix2 p k) = ix2 (row t p) k := by
  obtain ⟨e0, e1, -⟩ := idx t
  funext a; apply Fin.ext
  match a with
  | ⟨0, _⟩ => show win3_0.index t (0 : Fin 2) * 2000 + 1 * p.val = t.val * 2000 + p.val; omega
  | ⟨1, _⟩ => show win3_0.index t (1 : Fin 2) * 32 + 1 * k.val = k.val; omega

theorem emb_1 (t : Fin cfg3.N) (k : Fin 32) (q : Fin 32) :
    ((cfg3.win 1).blk t).view.emb (ix2 k q) = ix2 k q := by
  obtain ⟨-, -, e0, e1, -⟩ := idx t
  funext a; apply Fin.ext
  match a with
  | ⟨0, _⟩ => show win3_1.index t (0 : Fin 2) * 32 + 1 * k.val = k.val; omega
  | ⟨1, _⟩ => show win3_1.index t (1 : Fin 2) * 32 + 1 * q.val = q.val; omega

theorem emb_2 (t : Fin cfg3.N) (k : Fin 32) (q : Fin 96) :
    ((cfg3.win 2).blk t).view.emb (ix2 k q) = ix2 k q := by
  obtain ⟨-, -, -, -, e0, e1, -⟩ := idx t
  funext a; apply Fin.ext
  match a with
  | ⟨0, _⟩ => show win3_2.index t (0 : Fin 2) * 32 + 1 * k.val = k.val; omega
  | ⟨1, _⟩ => show win3_2.index t (1 : Fin 2) * 96 + 1 * q.val = q.val; omega

theorem emb_3 (t : Fin cfg3.N) (z : Fin 1) (q : Fin 96) :
    ((cfg3.win 3).blk t).view.emb (ix2 z q) = ix2 z q := by
  obtain ⟨-, -, -, -, -, -, e0, e1, -⟩ := idx t
  funext a; apply Fin.ext
  match a with
  | ⟨0, _⟩ => show win3_3.index t (0 : Fin 2) * 1 + 1 * z.val = z.val; omega
  | ⟨1, _⟩ => show win3_3.index t (1 : Fin 2) * 96 + 1 * q.val = q.val; omega

theorem emb_4 (t : Fin cfg3.N) (p : Fin 2000) (q : Fin 32) :
    ((cfg3.win 4).blk t).view.emb (ix2 p q) = ix2 (row t p) q := by
  obtain ⟨-, -, -, -, -, -, -, -, e0, e1, -⟩ := idx t
  funext a; apply Fin.ext
  match a with
  | ⟨0, _⟩ => show win3_4.index t (0 : Fin 2) * 2000 + 1 * p.val = t.val * 2000 + p.val; omega
  | ⟨1, _⟩ => show win3_4.index t (1 : Fin 2) * 32 + 1 * q.val = q.val; omega

theorem emb_5 (t : Fin cfg3.N) (p : Fin 2000) (q : Fin 96) :
    ((cfg3.win 5).blk t).view.emb (ix2 p q) = ix2 (row t p) q := by
  obtain ⟨-, -, -, -, -, -, -, -, -, -, e0, e1⟩ := idx t
  funext a; apply Fin.ext
  match a with
  | ⟨0, _⟩ => show win3_5.index t (0 : Fin 2) * 2000 + 1 * p.val = t.val * 2000 + p.val; omega
  | ⟨1, _⟩ => show win3_5.index t (1 : Fin 2) * 96 + 1 * q.val = q.val; omega

/-- What point `t` writes back to the message array is block `t` of the reference's message product of the arrays found at
    entry. -/
theorem flushed_4 (c : Dev nD) (t : Fin cfg3.N) :
    (dat3 V c).flushed 4 t
      = ((cfg3.win 4).blk t).view.read (Elt Ideal) (rMsg (aH V c) (aC V c)) := by
  show (cfg3.win 4).cut (grid3.coords t) ((dat3 V c).after 4 t) = _
  rw [after3_4]
  unfold out3_4
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 32), j = ix2 p q := ⟨j 0, j 1, eq_ix2 j⟩
  refine (pay_msg _ _ p q).trans ?_
  show _ = rMsg (aH V c) (aC V c) (((cfg3.win 4).blk t).view.emb (ix2 p q))
  rw [emb_4 t p q, rMsg_apply]
  refine Finset.sum_congr rfl fun k _ => ?_
  show aH V c (((cfg3.win 0).blk t).view.emb (ix2 p k)) * aC V c (((cfg3.win 1).blk t).view.emb (ix2 k q)) = _
  rw [emb_0 t p k, emb_1 t k q]

/-- What point `t` writes back to the gate array is block `t` of the reference's gate pre-activation of the arrays found at
    entry. -/
theorem flushed_5 (c : Dev nD) (t : Fin cfg3.N) :
    (dat3 V c).flushed 5 t
      = ((cfg3.win 5).blk t).view.read (Elt Ideal) (rGate (aH V c) (aW V c) (aB V c)) := by
  show (cfg3.win 5).cut (grid3.coords t) ((dat3 V c).after 5 t) = _
  rw [after3_5]
  unfold out3_5
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 96), j = ix2 p q := ⟨j 0, j 1, eq_ix2 j⟩
  refine (pay_gate _ _ _ p q).trans ?_
  show _ = rGate (aH V c) (aW V c) (aB V c) (((cfg3.win 5).blk t).view.emb (ix2 p q))
  rw [emb_5 t p q, rGate_apply]
  refine congrArg₂ (· + ·) (Finset.sum_congr rfl fun k _ => ?_) ?_
  · show aH V c (((cfg3.win 0).blk t).view.emb (ix2 p k)) * aW V c (((cfg3.win 2).blk t).view.emb (ix2 k q)) = _
    rw [emb_0 t p k, emb_2 t k q]
  · show aB V c (((cfg3.win 3).blk t).view.emb (ix2 (0 : Fin 1) q)) = _
    rw [emb_3 t 0 q]

/-- Every element of a 100000-row array is in the block of the point that holds its row. -/
theorem cover_4 (i : S100000x32.Idx) :
    ∃ t : Fin cfg3.N, (cfg3.win 4).flush t = true ∧ i ∈ ((cfg3.win 4).blk t).view.set := by
  have hi0 : (i 0).val < 100000 := (i 0).isLt
  have hi1 : (i 1).val < 32 := (i 1).isLt
  let t : Fin cfg3.N := ⟨(i 0).val / 2000, by show (i 0).val / 2000 < 50; omega⟩
  refine ⟨t, flush3_4 t, ?_⟩
  obtain ⟨-, -, -, -, -, -, -, -, e0, e1, -⟩ := idx t
  show i ∈ ((View.whole main_v35_0).slice (win3_4.rect t)).set
  rw [View.set_slice_whole, Rect.mem_set_unit]
  intro a
  match a with
  | ⟨0, _⟩ => show win3_4.index t (0 : Fin 2) * 2000 ≤ (i 0).val ∧ (i 0).val < win3_4.index t (0 : Fin 2) * 2000 + 2000
              have : t.val = (i 0).val / 2000 := rfl
              omega
  | ⟨1, _⟩ => show win3_4.index t (1 : Fin 2) * 32 ≤ (i 1).val ∧ (i 1).val < win3_4.index t (1 : Fin 2) * 32 + 32; omega

theorem cover_5 (i : S100000x96.Idx) :
    ∃ t : Fin cfg3.N, (cfg3.win 5).flush t = true ∧ i ∈ ((cfg3.win 5).blk t).view.set := by
  have hi0 : (i 0).val < 100000 := (i 0).isLt
  have hi1 : (i 1).val < 96 := (i 1).isLt
  let t : Fin cfg3.N := ⟨(i 0).val / 2000, by show (i 0).val / 2000 < 50; omega⟩
  refine ⟨t, flush3_5 t, ?_⟩
  obtain ⟨-, -, -, -, -, -, -, -, -, -, e0, e1⟩ := idx t
  show i ∈ ((View.whole main_v35_1).slice (win3_5.rect t)).set
  rw [View.set_slice_whole, Rect.mem_set_unit]
  intro a
  match a with
  | ⟨0, _⟩ => show win3_5.index t (0 : Fin 2) * 2000 ≤ (i 0).val ∧ (i 0).val < win3_5.index t (0 : Fin 2) * 2000 + 2000
              have : t.val = (i 0).val / 2000 := rfl
              omega
  | ⟨1, _⟩ => show win3_5.index t (1 : Fin 2) * 96 ≤ (i 1).val ∧ (i 1).val < win3_5.index t (1 : Fin 2) * 96 + 96; omega

/-- The message array after the region: the reference's message product of the state and the matrix found at entry. -/
theorem msg (c : Dev nD) : (dat3 V c).arrAt 4 cfg3.N = rMsg (V c main_v32) (V c main_v34) :=
  (dat3 V c).arrAt_eq_of_cover 4 _ (fun t _ => flushed_4 V c t) cover_4

/-- The state-gate array after the region: the reference's gate pre-activation of the state, the matrix and the bias row
    found at entry. -/
theorem gate (c : Dev nD) : (dat3 V c).arrAt 5 cfg3.N = rGate (V c main_v32) (V c main_v10) (V c main_v15) :=
  (dat3 V c).arrAt_eq_of_cover 5 _ (fun t _ => flushed_5 V c t) cover_5

end Cert.Bridge.Reg3

end
-- ==== Proof.Val4.lean ====
/-
  What the update region leaves in its output array, as a whole-array function of the arrays it finds at entry. The region
  runs fifty grid points; point `t` loads rows `2000·t … 2000·t + 1999` of the aggregate, of the state gate and of the
  state, and the gate matrix and bias row whole, and writes back the same rows of the new state. Element `(p, q)` of a
  block is element `(2000·t + p, q)` of its array. The body forms the aggregate's gate pre-activation at the three columns
  `q`, `q + 32`, `q + 64` of row `p` and applies the gated rule with the loaded state gate at the same columns and the
  loaded state at `(p, q)`; the reference's update of the reference's gate pre-activation reads the same seven numbers at
  row `2000·t + p`. The fifty blocks tile the output array.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg4

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the aggregate, the state gate, the state, the aggregate
    gate's matrix and bias row. -/
abbrev aA (c : Dev nD) : FVec Ideal S100000x32 .f32 := V c main_v45
abbrev aG (c : Dev nD) : FVec Ideal S100000x96 .f32 := V c main_v35_1
abbrev aH (c : Dev nD) : FVec Ideal S100000x32 .f32 := V c main_v32
abbrev aW (c : Dev nD) : FVec Ideal S32x96 .f32 := V c main_v12
abbrev aB (c : Dev nD) : FVec Ideal S1x96 .f32 := V c main_v18

theorem hz : (![0, 0] : Fin 2 → Nat) = fun _ => 0 := funext fun a => by fin_cases a <;> rfl

/-- The printed index maps, decided over the fifty grid points: the aggregate, state-gate, state and output windows sit at
    block row `t`, block column 0; the gate matrix and the bias row at block (0, 0). -/
theorem idx : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row `p` of point `t`'s block is row `2000·t + p` of the array. -/
def row (t : Fin cfg4.N) (p : Fin 2000) : Fin 100000 :=
  ⟨t.val * 2000 + p.val, by have ht : t.val < 50 := t.isLt; have hp := p.isLt; omega⟩

theorem emb_0 (t : Fin cfg4.N) (p : Fin 2000) (k : Fin 32) :
    ((cfg4.win 0).blk t).view.emb (ix2 p k) = ix2 (row t p) k := by
  obtain ⟨e0, e1, -⟩ := idx t
  funext a; apply Fin.ext
  match a with
  | ⟨0, _⟩ => show win4_0.index t (0 : Fin 2) * 2000 + 1 * p.val = t.val * 2000 + p.val; omega
  | ⟨1, _⟩ => show win4_0.index t (1 : Fin 2) * 32 + 1 * k.val = k.val; omega

theorem emb_1 (t : Fin cfg4.N) (p : Fin 2000) (j : Fin 96) :
    ((cfg4.win 1).blk t).view.emb (ix2 p j) = ix2 (row t p) j := by
  obtain ⟨-, -, e0, e1, -⟩ := idx t
  funext a; apply Fin.ext
  match a with
  | ⟨0, _⟩ => show win4_1.index t (0 : Fin 2) * 2000 + 1 * p.val = t.val * 2000 + p.val; omega
  | ⟨1, _⟩ => show win4_1.index t (1 : Fin 2) * 96 + 1 * j.val = j.val; omega

theorem emb_2 (t : Fin cfg4.N) (p : Fin 2000) (q : Fin 32) :
    ((cfg4.win 2).blk t).view.emb (ix2 p q) = ix2 (row t p) q := by
  obtain ⟨-, -, -, -, e0, e1, -⟩ := idx t
  funext a; apply Fin.ext
  match a with
  | ⟨0, _⟩ => show win4_2.index t (0 : Fin 2) * 2000 + 1 * p.val = t.val * 2000 + p.val; omega
  | ⟨1, _⟩ => show win4_2.index t (1 : Fin 2) * 32 + 1 * q.val = q.val; omega

theorem emb_3 (t : Fin cfg4.N) (k : Fin 32) (j : Fin 96) :
    ((cfg4.win 3).blk t).view.emb (ix2 k j) = ix2 k j := by
  obtain ⟨-, -, -, -, -, -, e0, e1, -⟩ := idx t
  funext a; apply Fin.ext
  match a with
  | ⟨0, _⟩ => show win4_3.index t (0 : Fin 2) * 32 + 1 * k.val = k.val; omega
  | ⟨1, _⟩ => show win4_3.index t (1 : Fin 2) * 96 + 1 * j.val = j.val; omega

theorem emb_4 (t : Fin cfg4.N) (z : Fin 1) (j : Fin 96) :
    ((cfg4.win 4).blk t).view.emb (ix2 z j) = ix2 z j := by
  obtain ⟨-, -, -, -, -, -, -, -, e0, e1, -⟩ := idx t
  funext a; apply Fin.ext
  match a with
  | ⟨0, _⟩ => show win4_4.index t (0 : Fin 2) * 1 + 1 * z.val = z.val; omega
  | ⟨1, _⟩ => show win4_4.index t (1 : Fin 2) * 96 + 1 * j.val = j.val; omega

theorem emb_5 (t : Fin cfg4.N) (p : Fin 2000) (q : Fin 32) :
    ((cfg4.win 5).blk t).view.emb (ix2 p q) = ix2 (row t p) q := by
  obtain ⟨-, -, -, -, -, -, -, -, -, -, e0, e1⟩ := idx t
  funext a; apply Fin.ext
  match a with
  | ⟨0, _⟩ => show win4_5.index t (0 : Fin 2) * 2000 + 1 * p.val = t.val * 2000 + p.val; omega
  | ⟨1, _⟩ => show win4_5.index t (1 : Fin 2) * 32 + 1 * q.val = q.val; omega

/-- The gated rule at equal arguments. -/
theorem gru_congr {a1 a2 a3 a4 a5 a6 a7 b1 b2 b3 b4 b5 b6 b7 : EReal} (h1 : a1 = b1) (h2 : a2 = b2) (h3 : a3 = b3)
    (h4 : a4 = b4) (h5 : a5 = b5) (h6 : a6 = b6) (h7 : a7 = b7) :
    gru a1 a2 a3 a4 a5 a6 a7 = gru b1 b2 b3 b4 b5 b6 b7 := by rw [h1, h2, h3, h4, h5, h6, h7]

/-- The aggregate's gate pre-activation formed from point `t`'s blocks at row `p`, column `j`, is the one formed from the
    arrays at row `2000·t + p`. -/
theorem gate_at (c : Dev nD) (t : Fin cfg4.N) (p : Fin 2000) (j : Fin 96) :
    (∑ k : Fin 32, aA V c (((cfg4.win 0).blk t).view.emb (ix2 p k)) * aW V c (((cfg4.win 3).blk t).view.emb (ix2 k j)))
        + aB V c (((cfg4.win 4).blk t).view.emb (ix2 (0 : Fin 1) j))
      = (∑ k : Fin 32, aA V c (ix2 (row t p) k) * aW V c (ix2 k j)) + aB V c (ix2 (0 : Fin 1) j) := by
  refine congrArg₂ (· + ·) (Finset.sum_congr rfl fun k _ => ?_) ?_
  · rw [emb_0 t p k, emb_3 t k j]
  · rw [emb_4 t 0 j]

/-- What point `t` writes back is block `t` of the reference's update of the arrays found at entry. -/
theorem flushed_5 (c : Dev nD) (t : Fin cfg4.N) :
    (dat4 V c).flushed 5 t
      = ((cfg4.win 5).blk t).view.read (Elt Ideal)
          (rUpd (rGate (aA V c) (aW V c) (aB V c)) (aG V c) (aH V c)) := by
  show (cfg4.win 5).cut (grid4.coords t) ((dat4 V c).after 5 t) = _
  rw [after4_5]
  unfold out4_5
  rw [View.canon_unit_zero hz]
  simp only [View.ld_unit_zero (S := S2000x32) hz, View.ld_unit_zero (S := S2000x96) hz, View.ld_unit_zero (S := S32x96) hz, View.ld_unit_zero (S := S1x96) hz]
  funext j
  obtain ⟨p, q, rfl⟩ : ∃ (p : Fin 2000) (q : Fin 32), j = ix2 p q := ⟨j 0, j 1, eq_ix2 j⟩
  refine (pay_upd _ _ _ _ _ p q).trans ?_
  show _ = rUpd (rGate (aA V c) (aW V c) (aB V c)) (aG V c) (aH V c)
      (((cfg4.win 5).blk t).view.emb (ix2 p q))
  rw [emb_5 t p q, rUpd_apply, rGate_apply, rGate_apply, rGate_apply]
  refine gru_congr (gate_at V c t p (col0 q)) (gate_at V c t p (col1 q)) (gate_at V c t p (col2 q)) ?_ ?_ ?_ ?_
  · show aG V c (((cfg4.win 1).blk t).view.emb (ix2 p (col0 q))) = _
    rw [emb_1 t p (col0 q)]
  · show aG V c (((cfg4.win 1).blk t).view.emb (ix2 p (col1 q))) = _
    rw [emb_1 t p (col1 q)]
  · show aG V c (((cfg4.win 1).blk t).view.emb (ix2 p (col2 q))) = _
    rw [emb_1 t p (col2 q)]
  · show aH V c (((cfg4.win 2).blk t).view.emb (ix2 p q)) = _
    rw [emb_2 t p q]

/-- Every element of the output array is in the block of the point that holds its row. -/
theorem cover_5 (i : S100000x32.Idx) :
    ∃ t : Fin cfg4.N, (cfg4.win 5).flush t = true ∧ i ∈ ((cfg4.win 5).blk t).view.set := by
  have hi0 : (i 0).val < 100000 := (i 0).isLt
  have hi1 : (i 1).val < 32 := (i 1).isLt
  let t : Fin cfg4.N := ⟨(i 0).val / 2000, by show (i 0).val / 2000 < 50; omega⟩
  refine ⟨t, flush4_5 t, ?_⟩
  obtain ⟨-, -, -, -, -, -, -, -, -, -, e0, e1⟩ := idx t
  show i ∈ ((View.whole main_v46).slice (win4_5.rect t)).set
  rw [View.set_slice_whole, Rect.mem_set_unit]
  intro a
  match a with
  | ⟨0, _⟩ => show win4_5.index t (0 : Fin 2) * 2000 ≤ (i 0).val ∧ (i 0).val < win4_5.index t (0 : Fin 2) * 2000 + 2000
              have : t.val = (i 0).val / 2000 := rfl
              omega
  | ⟨1, _⟩ => show win4_5.index t (1 : Fin 2) * 32 ≤ (i 1).val ∧ (i 1).val < win4_5.index t (1 : Fin 2) * 32 + 32; omega

/-- The output array after the region: the reference's update, from the reference's gate pre-activation of the aggregate,
    the state gate and the state found at entry. -/
theorem out (c : Dev nD) :
    (dat4 V c).arrAt 5 cfg4.N = rUpd (rGate (V c main_v45) (V c main_v12) (V c main_v18)) (V c main_v35_1) (V c main_v32) :=
  (dat4 V c).arrAt_eq_of_cover 5 _ (fun t _ => flushed_5 V c t) cover_5

end Cert.Bridge.Reg4

end
-- ==== Proof.ChainR1.lean ====
/-
  Round 1: the contents at the entries and exits of its two regions.
-/
import proofs.«421494_j30356828848478_1_alg».proof.Proof.ChainR0
import proofs.«421494_j30356828848478_1_alg».proof.Proof.Val3
import proofs.«421494_j30356828848478_1_alg».proof.Proof.Val4

set_option maxRecDepth 16384

noncomputable section

namespace Cert.Bridge.Chain

open Idealize.ShloMosaic Idealize.ShloMosaic.TcCoe Idealize.SL.Sem
open Cert.KernelIdeal Cert.KernelIdeal.Gen Cert.Bridge

variable (m : (ℓ : Loc nD τ sig) → Buf (Elt Ideal) ℓ) (ρ : Dev nD → PrngReg)

/-! ## Boundary 7 -/

set_option maxHeartbeats 1000000 in
theorem at7_main_arg4 (c : Dev nD) : W7 m ρ c (Proc.devRef .tc main_arg4) = (args m c).a4 := by
  show StableHlo.after hostOps3 (W6 m ρ c) (Proc.devRef .tc main_arg4) = _
  simp only [hostOps3]
  after_results
  exact at6_main_arg4 m ρ c
set_option maxHeartbeats 1000000 in
theorem at7_main_arg7 (c : Dev nD) : W7 m ρ c (Proc.devRef .tc main_arg7) = (args m c).a7 := by
  show StableHlo.after hostOps3 (W6 m ρ c) (Proc.devRef .tc main_arg7) = _
  simp only [hostOps3]
  after_results
  exact at6_main_arg7 m ρ c
set_option maxHeartbeats 1000000 in
theorem at7_main_arg8 (c : Dev nD) : W7 m ρ c (Proc.devRef .tc main_arg8) = (args m c).a8 := by
  show StableHlo.after hostOps3 (W6 m ρ c) (Proc.devRef .tc main_arg8) = _
  simp only [hostOps3]
  after_results
  exact at6_main_arg8 m ρ c
set_option maxHeartbeats 1000000 in
theorem at7_main_v1 (c : Dev nD) : W7 m ρ c (Proc.devRef .tc main_v1) = K.src (args m c).a1 := by
  show StableHlo.after hostOps3 (W6 m ρ c) (Proc.devRef .tc main_v1) = _
  simp only [hostOps3]
  after_results
  exact at6_main_v1 m ρ c
set_option maxHeartbeats 1000000 in
theorem at7_main_v3 (c : Dev nD) : W7 m ρ c (Proc.devRef .tc main_v3) = K.dst (args m c).a1 := by
  show StableHlo.after hostOps3 (W6 m ρ c) (Proc.devRef .tc main_v3) = _
  simp only [hostOps3]
  after_results
  exact at6_main_v3 m ρ c
set_option maxHeartbeats 1000000 in
theorem at7_main_v7 (c : Dev nD) : W7 m ρ c (Proc.devRef .tc main_v7) = K.gT (args m c).a5 := by
  show StableHlo.after hostOps3 (W6 m ρ c) (Proc.devRef .tc main_v7) = _
  simp only [hostOps3]
  after_results
  exact at6_main_v7 m ρ c
set_option maxHeartbeats 1000000 in
theorem at7_main_v8 (c : Dev nD) : W7 m ρ c (Proc.devRef .tc main_v8) = K.gT (args m c).a6 := by
  show StableHlo.after hostOps3 (W6 m ρ c) (Proc.devRef .tc main_v8) = _
  simp only [hostOps3]
  after_results
  exact at6_main_v8 m ρ c
set_option maxHeartbeats 1000000 in
theorem at7_main_v10 (c : Dev nD) : W7 m ρ c (Proc.devRef .tc main_v10) = K.gW0 (K.gT (args m c).a6) := by
  show StableHlo.after hostOps3 (W6 m ρ c) (Proc.devRef .tc main_v10) = _
  simp only [hostOps3]
  after_results
  exact at6_main_v10 m ρ c
set_option maxHeartbeats 1000000 in
theorem at7_main_v12 (c : Dev nD) : W7 m ρ c (Proc.devRef .tc main_v12) = K.gW0 (K.gT (args m c).a5) := by
  show StableHlo.after hostOps3 (W6 m ρ c) (Proc.devRef .tc main_v12) = _
  simp only [hostOps3]
  after_results
  exact at6_main_v12 m ρ c
set_option maxHeartbeats 1000000 in
theorem at7_main_v15 (c : Dev nD) : W7 m ρ c (Proc.devRef .tc main_v15) = K.gB0 (args m c).a8 := by
  show StableHlo.after hostOps3 (W6 m ρ c) (Proc.devRef .tc main_v15) = _
  simp only [hostOps3]
  after_results
  exact at6_main_v15 m ρ c
set_option maxHeartbeats 1000000 in
theorem at7_main_v18 (c : Dev nD) : W7 m ρ c (Proc.devRef .tc main_v18) = K.gB0 (args m c).a7 := by
  show StableHlo.after hostOps3 (W6 m ρ c) (Proc.devRef .tc main_v18) = _
  simp only [hostOps3]
  after_results
  exact at6_main_v18 m ρ c
set_option maxHeartbeats 1000000 in
theorem at7_main_v32 (c : Dev nD) : W7 m ρ c (Proc.devRef .tc main_v32) = kH1 (args m c) := by
  show StableHlo.after hostOps3 (W6 m ρ c) (Proc.devRef .tc main_v32) = _
  simp only [hostOps3]
  after_results
  exact at6_main_v32 m ρ c
set_option maxHeartbeats 1000000 in
theorem at7_main_v34 (c : Dev nD) : W7 m ρ c (Proc.devRef .tc main_v34) = K.conv01 (args m c).a4 := by
  show StableHlo.after hostOps3 (W6 m ρ c) (Proc.devRef .tc main_v34) = _
  simp only [hostOps3]
  after_results
  rw [at6_main_arg4 m ρ c]
  rfl

/-! ## Boundary 8 -/

theorem at8_main_arg4 (c : Dev nD) : W8 m ρ c (Proc.devRef .tc main_arg4) = (args m c).a4 :=
  (W8_of_ne m ρ c main_arg4 (by decide)).trans (at7_main_arg4 m ρ c)
theorem at8_main_arg7 (c : Dev nD) : W8 m ρ c (Proc.devRef .tc main_arg7) = (args m c).a7 :=
  (W8_of_ne m ρ c main_arg7 (by decide)).trans (at7_main_arg7 m ρ c)
theorem at8_main_arg8 (c : Dev nD) : W8 m ρ c (Proc.devRef .tc main_arg8) = (args m c).a8 :=
  (W8_of_ne m ρ c main_arg8 (by decide)).trans (at7_main_arg8 m ρ c)
theorem at8_main_v1 (c : Dev nD) : W8 m ρ c (Proc.devRef .tc main_v1) = K.src (args m c).a1 :=
  (W8_of_ne m ρ c main_v1 (by decide)).trans (at7_main_v1 m ρ c)
theorem at8_main_v3 (c : Dev nD) : W8 m ρ c (Proc.devRef .tc main_v3) = K.dst (args m c).a1 :=
  (W8_of_ne m ρ c main_v3 (by decide)).trans (at7_main_v3 m ρ c)
theorem at8_main_v7 (c : Dev nD) : W8 m ρ c (Proc.devRef .tc main_v7) = K.gT (args m c).a5 :=
  (W8_of_ne m ρ c main_v7 (by decide)).trans (at7_main_v7 m ρ c)
theorem at8_main_v8 (c : Dev nD) : W8 m ρ c (Proc.devRef .tc main_v8) = K.gT (args m c).a6 :=
  (W8_of_ne m ρ c main_v8 (by decide)).trans (at7_main_v8 m ρ c)
theorem at8_main_v10 (c : Dev nD) : W8 m ρ c (Proc.devRef .tc main_v10) = K.gW0 (K.gT (args m c).a6) :=
  (W8_arr m ρ c 2).trans (((dat3 (V7 m ρ) c).arrAt_in 2 rfl _).trans ((A_eq3 (V7 m ρ) c 2).trans (at7_main_v10 m ρ c)))
theorem at8_main_v12 (c : Dev nD) : W8 m ρ c (Proc.devRef .tc main_v12) = K.gW0 (K.gT (args m c).a5) :=
  (W8_of_ne m ρ c main_v12 (by decide)).trans (at7_main_v12 m ρ c)
theorem at8_main_v15 (c : Dev nD) : W8 m ρ c (Proc.devRef .tc main_v15) = K.gB0 (args m c).a8 :=
  (W8_arr m ρ c 3).trans (((dat3 (V7 m ρ) c).arrAt_in 3 rfl _).trans ((A_eq3 (V7 m ρ) c 3).trans (at7_main_v15 m ρ c)))
theorem at8_main_v18 (c : Dev nD) : W8 m ρ c (Proc.devRef .tc main_v18) = K.gB0 (args m c).a7 :=
  (W8_of_ne m ρ c main_v18 (by decide)).trans (at7_main_v18 m ρ c)
theorem at8_main_v32 (c : Dev nD) : W8 m ρ c (Proc.devRef .tc main_v32) = kH1 (args m c) :=
  (W8_arr m ρ c 0).trans (((dat3 (V7 m ρ) c).arrAt_in 0 rfl _).trans ((A_eq3 (V7 m ρ) c 0).trans (at7_main_v32 m ρ c)))
theorem at8_main_v35_0 (c : Dev nD) : W8 m ρ c (Proc.devRef .tc main_v35_0) = kM1 (args m c) :=
  (W8_arr m ρ c 4).trans ((Reg3.msg (V7 m ρ) c).trans (cg2 rMsg (at7_main_v32 m ρ c) (at7_main_v34 m ρ c)))
theorem at8_main_v35_1 (c : Dev nD) : W8 m ρ c (Proc.devRef .tc main_v35_1) = kG1 (args m c) :=
  (W8_arr m ρ c 5).trans ((Reg3.gate (V7 m ρ) c).trans (cg3 rGate (at7_main_v32 m ρ c) (at7_main_v10 m ρ c) (at7_main_v15 m ρ c)))

/-! ## Boundary 9 -/

set_option maxHeartbeats 1000000 in
theorem at9_main_arg4 (c : Dev nD) : W9 m ρ c (Proc.devRef .tc main_arg4) = (args m c).a4 := by
  show StableHlo.after hostOps4 (W8 m ρ c) (Proc.devRef .tc main_arg4) = _
  simp only [hostOps4]
  after_results
  exact at8_main_arg4 m ρ c
set_option maxHeartbeats 1000000 in
theorem at9_main_arg7 (c : Dev nD) : W9 m ρ c (Proc.devRef .tc main_arg7) = (args m c).a7 := by
  show StableHlo.after hostOps4 (W8 m ρ c) (Proc.devRef .tc main_arg7) = _
  simp only [hostOps4]
  after_results
  exact at8_main_arg7 m ρ c
set_option maxHeartbeats 1000000 in
theorem at9_main_arg8 (c : Dev nD) : W9 m ρ c (Proc.devRef .tc main_arg8) = (args m c).a8 := by
  show StableHlo.after hostOps4 (W8 m ρ c) (Proc.devRef .tc main_arg8) = _
  simp only [hostOps4]
  after_results
  exact at8_main_arg8 m ρ c
set_option maxHeartbeats 1000000 in
theorem at9_main_v1 (c : Dev nD) : W9 m ρ c (Proc.devRef .tc main_v1) = K.src (args m c).a1 := by
  show StableHlo.after hostOps4 (W8 m ρ c) (Proc.devRef .tc main_v1) = _
  simp only [hostOps4]
  after_results
  exact at8_main_v1 m ρ c
set_option maxHeartbeats 1000000 in
theorem at9_main_v3 (c : Dev nD) : W9 m ρ c (Proc.devRef .tc main_v3) = K.dst (args m c).a1 := by
  show StableHlo.after hostOps4 (W8 m ρ c) (Proc.devRef .tc main_v3) = _
  simp only [hostOps4]
  after_results
  exact at8_main_v3 m ρ c
set_option maxHeartbeats 1000000 in
theorem at9_main_v7 (c : Dev nD) : W9 m ρ c (Proc.devRef .tc main_v7) = K.gT (args m c).a5 := by
  show StableHlo.after hostOps4 (W8 m ρ c) (Proc.devRef .tc main_v7) = _
  simp only [hostOps4]
  after_results
  exact at8_main_v7 m ρ c
set_option maxHeartbeats 1000000 in
theorem at9_main_v8 (c : Dev nD) : W9 m ρ c (Proc.devRef .tc main_v8) = K.gT (args m c).a6 := by
  show StableHlo.after hostOps4 (W8 m ρ c) (Proc.devRef .tc main_v8) = _
  simp only [hostOps4]
  after_results
  exact at8_main_v8 m ρ c
set_option maxHeartbeats 1000000 in
theorem at9_main_v10 (c : Dev nD) : W9 m ρ c (Proc.devRef .tc main_v10) = K.gW0 (K.gT (args m c).a6) := by
  show StableHlo.after hostOps4 (W8 m ρ c) (Proc.devRef .tc main_v10) = _
  simp only [hostOps4]
  after_results
  exact at8_main_v10 m ρ c
set_option maxHeartbeats 1000000 in
theorem at9_main_v12 (c : Dev nD) : W9 m ρ c (Proc.devRef .tc main_v12) = K.gW0 (K.gT (args m c).a5) := by
  show StableHlo.after hostOps4 (W8 m ρ c) (Proc.devRef .tc main_v12) = _
  simp only [hostOps4]
  after_results
  exact at8_main_v12 m ρ c
set_option maxHeartbeats 1000000 in
theorem at9_main_v15 (c : Dev nD) : W9 m ρ c (Proc.devRef .tc main_v15) = K.gB0 (args m c).a8 := by
  show StableHlo.after hostOps4 (W8 m ρ c) (Proc.devRef .tc main_v15) = _
  simp only [hostOps4]
  after_results
  exact at8_main_v15 m ρ c
set_option maxHeartbeats 1000000 in
theorem at9_main_v18 (c : Dev nD) : W9 m ρ c (Proc.devRef .tc main_v18) = K.gB0 (args m c).a7 := by
  show StableHlo.after hostOps4 (W8 m ρ c) (Proc.devRef .tc main_v18) = _
  simp only [hostOps4]
  after_results
  exact at8_main_v18 m ρ c
set_option maxHeartbeats 1000000 in
theorem at9_main_v32 (c : Dev nD) : W9 m ρ c (Proc.devRef .tc main_v32) = kH1 (args m c) := by
  show StableHlo.after hostOps4 (W8 m ρ c) (Proc.devRef .tc main_v32) = _
  simp only [hostOps4]
  after_results
  exact at8_main_v32 m ρ c
set_option maxHeartbeats 1000000 in
theorem at9_main_v35_1 (c : Dev nD) : W9 m ρ c (Proc.devRef .tc main_v35_1) = kG1 (args m c) := by
  show StableHlo.after hostOps4 (W8 m ρ c) (Proc.devRef .tc main_v35_1) = _
  simp only [hostOps4]
  after_results
  exact at8_main_v35_1 m ρ c
set_option maxHeartbeats 1000000 in
theorem at9_main_v45 (c : Dev nD) : W9 m ρ c (Proc.devRef .tc main_v45) = kA1 (args m c) := by
  show StableHlo.after hostOps4 (W8 m ρ c) (Proc.devRef .tc main_v45) = _
  simp only [hostOps4]
  after_results
  exact (cg3 K.agg (at8_main_v35_0 m ρ c) (at8_main_v1 m ρ c) (at8_main_v3 m ρ c)).trans (agg_eq _ _ _)

/-! ## Boundary 10 -/

theorem at10_main_arg4 (c : Dev nD) : W10 m ρ c (Proc.devRef .tc main_arg4) = (args m c).a4 :=
  (W10_of_ne m ρ c main_arg4 (by decide)).trans (at9_main_arg4 m ρ c)
theorem at10_main_arg7 (c : Dev nD) : W10 m ρ c (Proc.devRef .tc main_arg7) = (args m c).a7 :=
  (W10_of_ne m ρ c main_arg7 (by decide)).trans (at9_main_arg7 m ρ c)
theorem at10_main_arg8 (c : Dev nD) : W10 m ρ c (Proc.devRef .tc main_arg8) = (args m c).a8 :=
  (W10_of_ne m ρ c main_arg8 (by decide)).trans (at9_main_arg8 m ρ c)
theorem at10_main_v1 (c : Dev nD) : W10 m ρ c (Proc.devRef .tc main_v1) = K.src (args m c).a1 :=
  (W10_of_ne m ρ c main_v1 (by decide)).trans (at9_main_v1 m ρ c)
theorem at10_main_v3 (c : Dev nD) : W10 m ρ c (Proc.devRef .tc main_v3) = K.dst (args m c).a1 :=
  (W10_of_ne m ρ c main_v3 (by decide)).trans (at9_main_v3 m ρ c)
theorem at10_main_v7 (c : Dev nD) : W10 m ρ c (Proc.devRef .tc main_v7) = K.gT (args m c).a5 :=
  (W10_of_ne m ρ c main_v7 (by decide)).trans (at9_main_v7 m ρ c)
theorem at10_main_v8 (c : Dev nD) : W10 m ρ c (Proc.devRef .tc main_v8) = K.gT (args m c).a6 :=
  (W10_of_ne m ρ c main_v8 (by decide)).trans (at9_main_v8 m ρ c)
theorem at10_main_v10 (c : Dev nD) : W10 m ρ c (Proc.devRef .tc main_v10) = K.gW0 (K.gT (args m c).a6) :=
  (W10_of_ne m ρ c main_v10 (by decide)).trans (at9_main_v10 m ρ c)
theorem at10_main_v12 (c : Dev nD) : W10 m ρ c (Proc.devRef .tc main_v12) = K.gW0 (K.gT (args m c).a5) :=
  (W10_arr m ρ c 3).trans (((dat4 (V9 m ρ) c).arrAt_in 3 rfl _).trans ((A_eq4 (V9 m ρ) c 3).trans (at9_main_v12 m ρ c)))
theorem at10_main_v15 (c : Dev nD) : W10 m ρ c (Proc.devRef .tc main_v15) = K.gB0 (args m c).a8 :=
  (W10_of_ne m ρ c main_v15 (by decide)).trans (at9_main_v15 m ρ c)
theorem at10_main_v18 (c : Dev nD) : W10 m ρ c (Proc.devRef .tc main_v18) = K.gB0 (args m c).a7 :=
  (W10_arr m ρ c 4).trans (((dat4 (V9 m ρ) c).arrAt_in 4 rfl _).trans ((A_eq4 (V9 m ρ) c 4).trans (at9_main_v18 m ρ c)))
theorem at10_main_v46 (c : Dev nD) : W10 m ρ c (Proc.devRef .tc main_v46) = kH2 (args m c) :=
  (W10_arr m ρ c 5).trans ((Reg4.out (V9 m ρ) c).trans (cg5 (fun a w b g h => rUpd (rGate a w b) g h) (at9_main_v45 m ρ c) (at9_main_v12 m ρ c) (at9_main_v18 m ρ c) (at9_main_v35_1 m ρ c) (at9_main_v32 m ρ c)))

end Cert.Bridge.Chain

end
-- ==== Proof.Val5.lean ====
/-
  What the message-and-gate region leaves in its two output arrays, as whole-array functions of the arrays it finds at
  entry. The region runs fifty grid points; point `t` loads rows `2000·t … 2000·t + 1999` of the state and the three small
  operands whole, and writes back the same rows of the two outputs. So element `(p, q)` of a block is element
  `(2000·t + p, q)` of its array; the body's value there is a row-by-matrix sum, which is the reference's product at that
  element; and the fifty blocks tile each output array, so the array ends at the reference's whole-array term.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg5

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the state, the round's matrix, the state gate's matrix and
    bias row. -/
abbrev aH (c : Dev nD) : FVec Ideal S100000x32 .f32 := V c main_v46
abbrev aC (c : Dev nD) : FVec Ideal S32x32 .f32 := V c main_v48
abbrev aW (c : Dev nD) : FVec Ideal S32x96 .f32 := V c main_v10
abbrev aB (c : Dev nD) : FVec Ideal S1x96 .f32 := V c main_v15

theorem hz : (![0, 0] : Fin 2 → Nat) = fun _ => 0 := funext fun a => by fin_cases a <;> rfl

/-- The printed index maps, decided over the fifty grid points: the state window and both output windows sit at block row
    `t`, block column 0; the three small operands at block (0, 0). -/
theorem idx : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

/-- Row `p` of point `t`'s block is row `2000·t + p` of the array. -/
def row (t : Fin cfg5.N) (p : Fin 2000) : Fin 100000 :=
  ⟨t.val * 2000 + p.val, by have ht : t.val < 50 := t.isLt; have hp := p.isLt; omega⟩

theorem emb_0 (t : Fin cfg5.N) (p : Fin 2000) (k : Fin 32) :
    ((cfg5.win 0).blk t).view.emb (ix2 p k) = ix2 (row t p) k := by
  obtain ⟨e0, e1, -⟩ := idx t
  funext a; apply Fin.ext
  match a with
  | ⟨0, _⟩ => show win5_0.index t (0 : Fin 2) * 2000 + 1 * p.val = t.val * 2000 + p.val; omega
  | ⟨1, _⟩ => show win5_0.index t (1 : Fin 2) * 32 + 1 * k.val = k.val; omega

theorem emb_1 (t : Fin cfg5.N) (k : Fin 32) (q : Fin 32) :
    ((cfg5.win 1).blk t).view.emb (ix2 k q) = ix2 k q := by
  obtain ⟨-, -, e0, e1, -⟩ := idx t
  funext a; apply Fin.ext
  match a with
  | ⟨0, _⟩ => show win5_1.index t (0 : Fin 2) * 32 + 1 * k.val = k.val; omega
  | ⟨1, _⟩ => show win5_1.index t (1 : Fin 2) * 32 + 1 * q.val = q.val; omega

theorem emb_2 (t : Fin cfg5.N) (k : Fin 32) (q : Fin 96) :
    ((cfg5.win 2).blk t).view.emb (ix2 k q) = ix2 k q := by
  obtain ⟨-, -, -, -, e0, e1, -⟩ := idx t
  funext a; apply Fin.ext
  match a with
  | ⟨0, _⟩ => show win5_2.index t (0 : Fin 2) * 32 + 1 * k.val = k.val; omega
  | ⟨1, _⟩ => show win5_2.index t (1 : Fin 2) * 96 + 1 * q.val = q.val; omega

theorem emb_3 (t : Fin cfg5.N) (z : Fin 1) (q : Fin 96) :
    ((cfg5.win 3).blk t).view.emb (ix2 z q) = ix2 z q := by
  obtain ⟨-, -, -, -, -, -, e0, e1, -⟩ := idx t
  funext a; apply Fin.ext
  match a with
  | ⟨0, _⟩ => show win5_3.index t (0 : Fin 2) * 1 + 1 * z.val = z.val; omega
  | ⟨1, _⟩ => show win5_3.index t (1 : Fin 2) * 96 + 1 * q.val = q.val; omega

theorem emb_4 (t : Fin cfg5.N) (p : Fin 2000) (q : Fin 32) :
    ((cfg5.win 4).blk t).view.emb (ix2 p q) = ix2 (row t p) q := by
  obtain ⟨-, -, -, -, -, -, -, -, e0, e1, -⟩ := idx t
  funext a; apply Fin.ext
  match a with
  | ⟨0, _⟩ => show win5_4.index t (0 : Fin 2) * 2000 + 1 * p.val = t.val * 2000 + p.val; omega
  | ⟨1, _⟩ => show win5_4.index t (1 : Fin 2) * 32 + 1 * q.val = q.val; omega

theorem emb_5 (t : Fin cfg5.N) (p : Fin 2000) (q : Fin 96) :
    ((cfg5.win 5).blk t).view.emb (ix2 p q) = ix2 (row t p) q := by
  obtain ⟨-, -, -, -, -, -, -, -, -, -, e0, e1⟩ := idx t
  funext a; apply Fin.ext
  match a with
  | ⟨0, _⟩ => show win5_5.index t (0 : Fin 2) * 2000 + 1 * p.val = t.val * 2000 + p.val; omega
  | ⟨1, _⟩ => show win5_5.index t (1 : Fin 2) * 96 + 1 * q.val = q.val; omega

/-- What point `t` writes back to the message array is block `t` of the reference's message product of the arrays found at
    entry. -/
theorem flushed_4 (c : Dev nD) (t : Fin cfg5.N) :
    (dat5 V c).flushed 4 t
      = ((cfg5.win 4).blk t).view.read (Elt Ideal) (rMsg (aH V c) (aC V c)) := by
  show (cfg5.win 4).cut (grid5.coords t) ((dat5 V c).after 4 t) = _
  rw [after5_4]
  unfold out5_4
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 32), j = ix2 p q := ⟨j 0, j 1, eq_ix2 j⟩
  refine (pay_msg _ _ p q).trans ?_
  show _ = rMsg (aH V c) (aC V c) (((cfg5.win 4).blk t).view.emb (ix2 p q))
  rw [emb_4 t p q, rMsg_apply]
  refine Finset.sum_congr rfl fun k _ => ?_
  show aH V c (((cfg5.win 0).blk t).view.emb (ix2 p k)) * aC V c (((cfg5.win 1).blk t).view.emb (ix2 k q)) = _
  rw [emb_0 t p k, emb_1 t k q]

/-- What point `t` writes back to the gate array is block `t` of the reference's gate pre-activation of the arrays found at
    entry. -/
theorem flushed_5 (c : Dev nD) (t : Fin cfg5.N) :
    (dat5 V c).flushed 5 t
      = ((cfg5.win 5).blk t).view.read (Elt Ideal) (rGate (aH V c) (aW V c) (aB V c)) := by
  show (cfg5.win 5).cut (grid5.coords t) ((dat5 V c).after 5 t) = _
  rw [after5_5]
  unfold out5_5
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 96), j = ix2 p q := ⟨j 0, j 1, eq_ix2 j⟩
  refine (pay_gate _ _ _ p q).trans ?_
  show _ = rGate (aH V c) (aW V c) (aB V c) (((cfg5.win 5).blk t).view.emb (ix2 p q))
  rw [emb_5 t p q, rGate_apply]
  refine congrArg₂ (· + ·) (Finset.sum_congr rfl fun k _ => ?_) ?_
  · show aH V c (((cfg5.win 0).blk t).view.emb (ix2 p k)) * aW V c (((cfg5.win 2).blk t).view.emb (ix2 k q)) = _
    rw [emb_0 t p k, emb_2 t k q]
  · show aB V c (((cfg5.win 3).blk t).view.emb (ix2 (0 : Fin 1) q)) = _
    rw [emb_3 t 0 q]

/-- Every element of a 100000-row array is in the block of the point that holds its row. -/
theorem cover_4 (i : S100000x32.Idx) :
    ∃ t : Fin cfg5.N, (cfg5.win 4).flush t = true ∧ i ∈ ((cfg5.win 4).blk t).view.set := by
  have hi0 : (i 0).val < 100000 := (i 0).isLt
  have hi1 : (i 1).val < 32 := (i 1).isLt
  let t : Fin cfg5.N := ⟨(i 0).val / 2000, by show (i 0).val / 2000 < 50; omega⟩
  refine ⟨t, flush5_4 t, ?_⟩
  obtain ⟨-, -, -, -, -, -, -, -, e0, e1, -⟩ := idx t
  show i ∈ ((View.whole main_v49_0).slice (win5_4.rect t)).set
  rw [View.set_slice_whole, Rect.mem_set_unit]
  intro a
  match a with
  | ⟨0, _⟩ => show win5_4.index t (0 : Fin 2) * 2000 ≤ (i 0).val ∧ (i 0).val < win5_4.index t (0 : Fin 2) * 2000 + 2000
              have : t.val = (i 0).val / 2000 := rfl
              omega
  | ⟨1, _⟩ => show win5_4.index t (1 : Fin 2) * 32 ≤ (i 1).val ∧ (i 1).val < win5_4.index t (1 : Fin 2) * 32 + 32; omega

theorem cover_5 (i : S100000x96.Idx) :
    ∃ t : Fin cfg5.N, (cfg5.win 5).flush t = true ∧ i ∈ ((cfg5.win 5).blk t).view.set := by
  have hi0 : (i 0).val < 100000 := (i 0).isLt
  have hi1 : (i 1).val < 96 := (i 1).isLt
  let t : Fin cfg5.N := ⟨(i 0).val / 2000, by show (i 0).val / 2000 < 50; omega⟩
  refine ⟨t, flush5_5 t, ?_⟩
  obtain ⟨-, -, -, -, -, -, -, -, -, -, e0, e1⟩ := idx t
  show i ∈ ((View.whole main_v49_1).slice (win5_5.rect t)).set
  rw [View.set_slice_whole, Rect.mem_set_unit]
  intro a
  match a with
  | ⟨0, _⟩ => show win5_5.index t (0 : Fin 2) * 2000 ≤ (i 0).val ∧ (i 0).val < win5_5.index t (0 : Fin 2) * 2000 + 2000
              have : t.val = (i 0).val / 2000 := rfl
              omega
  | ⟨1, _⟩ => show win5_5.index t (1 : Fin 2) * 96 ≤ (i 1).val ∧ (i 1).val < win5_5.index t (1 : Fin 2) * 96 + 96; omega

/-- The message array after the region: the reference's message product of the state and the matrix found at entry. -/
theorem msg (c : Dev nD) : (dat5 V c).arrAt 4 cfg5.N = rMsg (V c main_v46) (V c main_v48) :=
  (dat5 V c).arrAt_eq_of_cover 4 _ (fun t _ => flushed_4 V c t) cover_4

/-- The state-gate array after the region: the reference's gate pre-activation of the state, the matrix and the bias row
    found at entry. -/
theorem gate (c : Dev nD) : (dat5 V c).arrAt 5 cfg5.N = rGate (V c main_v46) (V c main_v10) (V c main_v15) :=
  (dat5 V c).arrAt_eq_of_cover 5 _ (fun t _ => flushed_5 V c t) cover_5

end Cert.Bridge.Reg5

end
-- ==== Proof.Val6.lean ====
/-
  What the update region leaves in its output array, as a whole-array function of the arrays it finds at entry. The region
  runs fifty grid points; point `t` loads rows `2000·t … 2000·t + 1999` of the aggregate, of the state gate and of the
  state, and the gate matrix and bias row whole, and writes back the same rows of the new state. Element `(p, q)` of a
  block is element `(2000·t + p, q)` of its array. The body forms the aggregate's gate pre-activation at the three columns
  `q`, `q + 32`, `q + 64` of row `p` and applies the gated rule with the loaded state gate at the same columns and the
  loaded state at `(p, q)`; the reference's update of the reference's gate pre-activation reads the same seven numbers at
  row `2000·t + p`. The fifty blocks tile the output array.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg6

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the aggregate, the state gate, the state, the aggregate
    gate's matrix and bias row. -/
abbrev aA (c : Dev nD) : FVec Ideal S100000x32 .f32 := V c main_v59
abbrev aG (c : Dev nD) : FVec Ideal S100000x96 .f32 := V c main_v49_1
abbrev aH (c : Dev nD) : FVec Ideal S100000x32 .f32 := V c main_v46
abbrev aW (c : Dev nD) : FVec Ideal S32x96 .f32 := V c main_v12
abbrev aB (c : Dev nD) : FVec Ideal S1x96 .f32 := V c main_v18

theorem hz : (![0, 0] : Fin 2 → Nat) = fun _ => 0 := funext fun a => by fin_cases a <;> rfl

/-- The printed index maps, decided over the fifty grid points: the aggregate, state-gate, state and output windows sit at
    block row `t`, block column 0; the gate matrix and the bias row at block (0, 0). -/
theorem idx : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row `p` of point `t`'s block is row `2000·t + p` of the array. -/
def row (t : Fin cfg6.N) (p : Fin 2000) : Fin 100000 :=
  ⟨t.val * 2000 + p.val, by have ht : t.val < 50 := t.isLt; have hp := p.isLt; omega⟩

theorem emb_0 (t : Fin cfg6.N) (p : Fin 2000) (k : Fin 32) :
    ((cfg6.win 0).blk t).view.emb (ix2 p k) = ix2 (row t p) k := by
  obtain ⟨e0, e1, -⟩ := idx t
  funext a; apply Fin.ext
  match a with
  | ⟨0, _⟩ => show win6_0.index t (0 : Fin 2) * 2000 + 1 * p.val = t.val * 2000 + p.val; omega
  | ⟨1, _⟩ => show win6_0.index t (1 : Fin 2) * 32 + 1 * k.val = k.val; omega

theorem emb_1 (t : Fin cfg6.N) (p : Fin 2000) (j : Fin 96) :
    ((cfg6.win 1).blk t).view.emb (ix2 p j) = ix2 (row t p) j := by
  obtain ⟨-, -, e0, e1, -⟩ := idx t
  funext a; apply Fin.ext
  match a with
  | ⟨0, _⟩ => show win6_1.index t (0 : Fin 2) * 2000 + 1 * p.val = t.val * 2000 + p.val; omega
  | ⟨1, _⟩ => show win6_1.index t (1 : Fin 2) * 96 + 1 * j.val = j.val; omega

theorem emb_2 (t : Fin cfg6.N) (p : Fin 2000) (q : Fin 32) :
    ((cfg6.win 2).blk t).view.emb (ix2 p q) = ix2 (row t p) q := by
  obtain ⟨-, -, -, -, e0, e1, -⟩ := idx t
  funext a; apply Fin.ext
  match a with
  | ⟨0, _⟩ => show win6_2.index t (0 : Fin 2) * 2000 + 1 * p.val = t.val * 2000 + p.val; omega
  | ⟨1, _⟩ => show win6_2.index t (1 : Fin 2) * 32 + 1 * q.val = q.val; omega

theorem emb_3 (t : Fin cfg6.N) (k : Fin 32) (j : Fin 96) :
    ((cfg6.win 3).blk t).view.emb (ix2 k j) = ix2 k j := by
  obtain ⟨-, -, -, -, -, -, e0, e1, -⟩ := idx t
  funext a; apply Fin.ext
  match a with
  | ⟨0, _⟩ => show win6_3.index t (0 : Fin 2) * 32 + 1 * k.val = k.val; omega
  | ⟨1, _⟩ => show win6_3.index t (1 : Fin 2) * 96 + 1 * j.val = j.val; omega

theorem emb_4 (t : Fin cfg6.N) (z : Fin 1) (j : Fin 96) :
    ((cfg6.win 4).blk t).view.emb (ix2 z j) = ix2 z j := by
  obtain ⟨-, -, -, -, -, -, -, -, e0, e1, -⟩ := idx t
  funext a; apply Fin.ext
  match a with
  | ⟨0, _⟩ => show win6_4.index t (0 : Fin 2) * 1 + 1 * z.val = z.val; omega
  | ⟨1, _⟩ => show win6_4.index t (1 : Fin 2) * 96 + 1 * j.val = j.val; omega

theorem emb_5 (t : Fin cfg6.N) (p : Fin 2000) (q : Fin 32) :
    ((cfg6.win 5).blk t).view.emb (ix2 p q) = ix2 (row t p) q := by
  obtain ⟨-, -, -, -, -, -, -, -, -, -, e0, e1⟩ := idx t
  funext a; apply Fin.ext
  match a with
  | ⟨0, _⟩ => show win6_5.index t (0 : Fin 2) * 2000 + 1 * p.val = t.val * 2000 + p.val; omega
  | ⟨1, _⟩ => show win6_5.index t (1 : Fin 2) * 32 + 1 * q.val = q.val; omega

/-- The gated rule at equal arguments. -/
theorem gru_congr {a1 a2 a3 a4 a5 a6 a7 b1 b2 b3 b4 b5 b6 b7 : EReal} (h1 : a1 = b1) (h2 : a2 = b2) (h3 : a3 = b3)
    (h4 : a4 = b4) (h5 : a5 = b5) (h6 : a6 = b6) (h7 : a7 = b7) :
    gru a1 a2 a3 a4 a5 a6 a7 = gru b1 b2 b3 b4 b5 b6 b7 := by rw [h1, h2, h3, h4, h5, h6, h7]

/-- The aggregate's gate pre-activation formed from point `t`'s blocks at row `p`, column `j`, is the one formed from the
    arrays at row `2000·t + p`. -/
theorem gate_at (c : Dev nD) (t : Fin cfg6.N) (p : Fin 2000) (j : Fin 96) :
    (∑ k : Fin 32, aA V c (((cfg6.win 0).blk t).view.emb (ix2 p k)) * aW V c (((cfg6.win 3).blk t).view.emb (ix2 k j)))
        + aB V c (((cfg6.win 4).blk t).view.emb (ix2 (0 : Fin 1) j))
      = (∑ k : Fin 32, aA V c (ix2 (row t p) k) * aW V c (ix2 k j)) + aB V c (ix2 (0 : Fin 1) j) := by
  refine congrArg₂ (· + ·) (Finset.sum_congr rfl fun k _ => ?_) ?_
  · rw [emb_0 t p k, emb_3 t k j]
  · rw [emb_4 t 0 j]

/-- What point `t` writes back is block `t` of the reference's update of the arrays found at entry. -/
theorem flushed_5 (c : Dev nD) (t : Fin cfg6.N) :
    (dat6 V c).flushed 5 t
      = ((cfg6.win 5).blk t).view.read (Elt Ideal)
          (rUpd (rGate (aA V c) (aW V c) (aB V c)) (aG V c) (aH V c)) := by
  show (cfg6.win 5).cut (grid6.coords t) ((dat6 V c).after 5 t) = _
  rw [after6_5]
  unfold out6_5
  rw [View.canon_unit_zero hz]
  simp only [View.ld_unit_zero (S := S2000x32) hz, View.ld_unit_zero (S := S2000x96) hz, View.ld_unit_zero (S := S32x96) hz, View.ld_unit_zero (S := S1x96) hz]
  funext j
  obtain ⟨p, q, rfl⟩ : ∃ (p : Fin 2000) (q : Fin 32), j = ix2 p q := ⟨j 0, j 1, eq_ix2 j⟩
  refine (pay_upd _ _ _ _ _ p q).trans ?_
  show _ = rUpd (rGate (aA V c) (aW V c) (aB V c)) (aG V c) (aH V c)
      (((cfg6.win 5).blk t).view.emb (ix2 p q))
  rw [emb_5 t p q, rUpd_apply, rGate_apply, rGate_apply, rGate_apply]
  refine gru_congr (gate_at V c t p (col0 q)) (gate_at V c t p (col1 q)) (gate_at V c t p (col2 q)) ?_ ?_ ?_ ?_
  · show aG V c (((cfg6.win 1).blk t).view.emb (ix2 p (col0 q))) = _
    rw [emb_1 t p (col0 q)]
  · show aG V c (((cfg6.win 1).blk t).view.emb (ix2 p (col1 q))) = _
    rw [emb_1 t p (col1 q)]
  · show aG V c (((cfg6.win 1).blk t).view.emb (ix2 p (col2 q))) = _
    rw [emb_1 t p (col2 q)]
  · show aH V c (((cfg6.win 2).blk t).view.emb (ix2 p q)) = _
    rw [emb_2 t p q]

/-- Every element of the output array is in the block of the point that holds its row. -/
theorem cover_5 (i : S100000x32.Idx) :
    ∃ t : Fin cfg6.N, (cfg6.win 5).flush t = true ∧ i ∈ ((cfg6.win 5).blk t).view.set := by
  have hi0 : (i 0).val < 100000 := (i 0).isLt
  have hi1 : (i 1).val < 32 := (i 1).isLt
  let t : Fin cfg6.N := ⟨(i 0).val / 2000, by show (i 0).val / 2000 < 50; omega⟩
  refine ⟨t, flush6_5 t, ?_⟩
  obtain ⟨-, -, -, -, -, -, -, -, -, -, e0, e1⟩ := idx t
  show i ∈ ((View.whole main_v60).slice (win6_5.rect t)).set
  rw [View.set_slice_whole, Rect.mem_set_unit]
  intro a
  match a with
  | ⟨0, _⟩ => show win6_5.index t (0 : Fin 2) * 2000 ≤ (i 0).val ∧ (i 0).val < win6_5.index t (0 : Fin 2) * 2000 + 2000
              have : t.val = (i 0).val / 2000 := rfl
              omega
  | ⟨1, _⟩ => show win6_5.index t (1 : Fin 2) * 32 ≤ (i 1).val ∧ (i 1).val < win6_5.index t (1 : Fin 2) * 32 + 32; omega

/-- The output array after the region: the reference's update, from the reference's gate pre-activation of the aggregate,
    the state gate and the state found at entry. -/
theorem out (c : Dev nD) :
    (dat6 V c).arrAt 5 cfg6.N = rUpd (rGate (V c main_v59) (V c main_v12) (V c main_v18)) (V c main_v49_1) (V c main_v46) :=
  (dat6 V c).arrAt_eq_of_cover 5 _ (fun t _ => flushed_5 V c t) cover_5

end Cert.Bridge.Reg6

end
-- ==== Proof.ChainR2.lean ====
/-
  Round 2: the contents at the entries and exits of its two regions.
-/
import proofs.«421494_j30356828848478_1_alg».proof.Proof.ChainR1
import proofs.«421494_j30356828848478_1_alg».proof.Proof.Val5
import proofs.«421494_j30356828848478_1_alg».proof.Proof.Val6

set_option maxRecDepth 16384

noncomputable section

namespace Cert.Bridge.Chain

open Idealize.ShloMosaic Idealize.ShloMosaic.TcCoe Idealize.SL.Sem
open Cert.KernelIdeal Cert.KernelIdeal.Gen Cert.Bridge

variable (m : (ℓ : Loc nD τ sig) → Buf (Elt Ideal) ℓ) (ρ : Dev nD → PrngReg)

/-! ## Boundary 11 -/

set_option maxHeartbeats 1000000 in
theorem at11_main_arg4 (c : Dev nD) : W11 m ρ c (Proc.devRef .tc main_arg4) = (args m c).a4 := by
  show StableHlo.after hostOps5 (W10 m ρ c) (Proc.devRef .tc main_arg4) = _
  simp only [hostOps5]
  after_results
  exact at10_main_arg4 m ρ c
set_option maxHeartbeats 1000000 in
theorem at11_main_arg7 (c : Dev nD) : W11 m ρ c (Proc.devRef .tc main_arg7) = (args m c).a7 := by
  show StableHlo.after hostOps5 (W10 m ρ c) (Proc.devRef .tc main_arg7) = _
  simp only [hostOps5]
  after_results
  exact at10_main_arg7 m ρ c
set_option maxHeartbeats 1000000 in
theorem at11_main_arg8 (c : Dev nD) : W11 m ρ c (Proc.devRef .tc main_arg8) = (args m c).a8 := by
  show StableHlo.after hostOps5 (W10 m ρ c) (Proc.devRef .tc main_arg8) = _
  simp only [hostOps5]
  after_results
  exact at10_main_arg8 m ρ c
set_option maxHeartbeats 1000000 in
theorem at11_main_v1 (c : Dev nD) : W11 m ρ c (Proc.devRef .tc main_v1) = K.src (args m c).a1 := by
  show StableHlo.after hostOps5 (W10 m ρ c) (Proc.devRef .tc main_v1) = _
  simp only [hostOps5]
  after_results
  exact at10_main_v1 m ρ c
set_option maxHeartbeats 1000000 in
theorem at11_main_v3 (c : Dev nD) : W11 m ρ c (Proc.devRef .tc main_v3) = K.dst (args m c).a1 := by
  show StableHlo.after hostOps5 (W10 m ρ c) (Proc.devRef .tc main_v3) = _
  simp only [hostOps5]
  after_results
  exact at10_main_v3 m ρ c
set_option maxHeartbeats 1000000 in
theorem at11_main_v7 (c : Dev nD) : W11 m ρ c (Proc.devRef .tc main_v7) = K.gT (args m c).a5 := by
  show StableHlo.after hostOps5 (W10 m ρ c) (Proc.devRef .tc main_v7) = _
  simp only [hostOps5]
  after_results
  exact at10_main_v7 m ρ c
set_option maxHeartbeats 1000000 in
theorem at11_main_v8 (c : Dev nD) : W11 m ρ c (Proc.devRef .tc main_v8) = K.gT (args m c).a6 := by
  show StableHlo.after hostOps5 (W10 m ρ c) (Proc.devRef .tc main_v8) = _
  simp only [hostOps5]
  after_results
  exact at10_main_v8 m ρ c
set_option maxHeartbeats 1000000 in
theorem at11_main_v10 (c : Dev nD) : W11 m ρ c (Proc.devRef .tc main_v10) = K.gW0 (K.gT (args m c).a6) := by
  show StableHlo.after hostOps5 (W10 m ρ c) (Proc.devRef .tc main_v10) = _
  simp only [hostOps5]
  after_results
  exact at10_main_v10 m ρ c
set_option maxHeartbeats 1000000 in
theorem at11_main_v12 (c : Dev nD) : W11 m ρ c (Proc.devRef .tc main_v12) = K.gW0 (K.gT (args m c).a5) := by
  show StableHlo.after hostOps5 (W10 m ρ c) (Proc.devRef .tc main_v12) = _
  simp only [hostOps5]
  after_results
  exact at10_main_v12 m ρ c
set_option maxHeartbeats 1000000 in
theorem at11_main_v15 (c : Dev nD) : W11 m ρ c (Proc.devRef .tc main_v15) = K.gB0 (args m c).a8 := by
  show StableHlo.after hostOps5 (W10 m ρ c) (Proc.devRef .tc main_v15) = _
  simp only [hostOps5]
  after_results
  exact at10_main_v15 m ρ c
set_option maxHeartbeats 1000000 in
theorem at11_main_v18 (c : Dev nD) : W11 m ρ c (Proc.devRef .tc main_v18) = K.gB0 (args m c).a7 := by
  show StableHlo.after hostOps5 (W10 m ρ c) (Proc.devRef .tc main_v18) = _
  simp only [hostOps5]
  after_results
  exact at10_main_v18 m ρ c
set_option maxHeartbeats 1000000 in
theorem at11_main_v46 (c : Dev nD) : W11 m ρ c (Proc.devRef .tc main_v46) = kH2 (args m c) := by
  show StableHlo.after hostOps5 (W10 m ρ c) (Proc.devRef .tc main_v46) = _
  simp only [hostOps5]
  after_results
  exact at10_main_v46 m ρ c
set_option maxHeartbeats 1000000 in
theorem at11_main_v48 (c : Dev nD) : W11 m ρ c (Proc.devRef .tc main_v48) = K.conv02 (args m c).a4 := by
  show StableHlo.after hostOps5 (W10 m ρ c) (Proc.devRef .tc main_v48) = _
  simp only [hostOps5]
  after_results
  rw [at10_main_arg4 m ρ c]
  rfl

/-! ## Boundary 12 -/

theorem at12_main_arg4 (c : Dev nD) : W12 m ρ c (Proc.devRef .tc main_arg4) = (args m c).a4 :=
  (W12_of_ne m ρ c main_arg4 (by decide)).trans (at11_main_arg4 m ρ c)
theorem at12_main_arg7 (c : Dev nD) : W12 m ρ c (Proc.devRef .tc main_arg7) = (args m c).a7 :=
  (W12_of_ne m ρ c main_arg7 (by decide)).trans (at11_main_arg7 m ρ c)
theorem at12_main_arg8 (c : Dev nD) : W12 m ρ c (Proc.devRef .tc main_arg8) = (args m c).a8 :=
  (W12_of_ne m ρ c main_arg8 (by decide)).trans (at11_main_arg8 m ρ c)
theorem at12_main_v1 (c : Dev nD) : W12 m ρ c (Proc.devRef .tc main_v1) = K.src (args m c).a1 :=
  (W12_of_ne m ρ c main_v1 (by decide)).trans (at11_main_v1 m ρ c)
theorem at12_main_v3 (c : Dev nD) : W12 m ρ c (Proc.devRef .tc main_v3) = K.dst (args m c).a1 :=
  (W12_of_ne m ρ c main_v3 (by decide)).trans (at11_main_v3 m ρ c)
theorem at12_main_v7 (c : Dev nD) : W12 m ρ c (Proc.devRef .tc main_v7) = K.gT (args m c).a5 :=
  (W12_of_ne m ρ c main_v7 (by decide)).trans (at11_main_v7 m ρ c)
theorem at12_main_v8 (c : Dev nD) : W12 m ρ c (Proc.devRef .tc main_v8) = K.gT (args m c).a6 :=
  (W12_of_ne m ρ c main_v8 (by decide)).trans (at11_main_v8 m ρ c)
theorem at12_main_v12 (c : Dev nD) : W12 m ρ c (Proc.devRef .tc main_v12) = K.gW0 (K.gT (args m c).a5) :=
  (W12_of_ne m ρ c main_v12 (by decide)).trans (at11_main_v12 m ρ c)
theorem at12_main_v18 (c : Dev nD) : W12 m ρ c (Proc.devRef .tc main_v18) = K.gB0 (args m c).a7 :=
  (W12_of_ne m ρ c main_v18 (by decide)).trans (at11_main_v18 m ρ c)
theorem at12_main_v46 (c : Dev nD) : W12 m ρ c (Proc.devRef .tc main_v46) = kH2 (args m c) :=
  (W12_arr m ρ c 0).trans (((dat5 (V11 m ρ) c).arrAt_in 0 rfl _).trans ((A_eq5 (V11 m ρ) c 0).trans (at11_main_v46 m ρ c)))
theorem at12_main_v49_0 (c : Dev nD) : W12 m ρ c (Proc.devRef .tc main_v49_0) = kM2 (args m c) :=
  (W12_arr m ρ c 4).trans ((Reg5.msg (V11 m ρ) c).trans (cg2 rMsg (at11_main_v46 m ρ c) (at11_main_v48 m ρ c)))
theorem at12_main_v49_1 (c : Dev nD) : W12 m ρ c (Proc.devRef .tc main_v49_1) = kG2 (args m c) :=
  (W12_arr m ρ c 5).trans ((Reg5.gate (V11 m ρ) c).trans (cg3 rGate (at11_main_v46 m ρ c) (at11_main_v10 m ρ c) (at11_main_v15 m ρ c)))

/-! ## Boundary 13 -/

set_option maxHeartbeats 1000000 in
theorem at13_main_arg4 (c : Dev nD) : W13 m ρ c (Proc.devRef .tc main_arg4) = (args m c).a4 := by
  show StableHlo.after hostOps6 (W12 m ρ c) (Proc.devRef .tc main_arg4) = _
  simp only [hostOps6]
  after_results
  exact at12_main_arg4 m ρ c
set_option maxHeartbeats 1000000 in
theorem at13_main_arg7 (c : Dev nD) : W13 m ρ c (Proc.devRef .tc main_arg7) = (args m c).a7 := by
  show StableHlo.after hostOps6 (W12 m ρ c) (Proc.devRef .tc main_arg7) = _
  simp only [hostOps6]
  after_results
  exact at12_main_arg7 m ρ c
set_option maxHeartbeats 1000000 in
theorem at13_main_arg8 (c : Dev nD) : W13 m ρ c (Proc.devRef .tc main_arg8) = (args m c).a8 := by
  show StableHlo.after hostOps6 (W12 m ρ c) (Proc.devRef .tc main_arg8) = _
  simp only [hostOps6]
  after_results
  exact at12_main_arg8 m ρ c
set_option maxHeartbeats 1000000 in
theorem at13_main_v1 (c : Dev nD) : W13 m ρ c (Proc.devRef .tc main_v1) = K.src (args m c).a1 := by
  show StableHlo.after hostOps6 (W12 m ρ c) (Proc.devRef .tc main_v1) = _
  simp only [hostOps6]
  after_results
  exact at12_main_v1 m ρ c
set_option maxHeartbeats 1000000 in
theorem at13_main_v3 (c : Dev nD) : W13 m ρ c (Proc.devRef .tc main_v3) = K.dst (args m c).a1 := by
  show StableHlo.after hostOps6 (W12 m ρ c) (Proc.devRef .tc main_v3) = _
  simp only [hostOps6]
  after_results
  exact at12_main_v3 m ρ c
set_option maxHeartbeats 1000000 in
theorem at13_main_v7 (c : Dev nD) : W13 m ρ c (Proc.devRef .tc main_v7) = K.gT (args m c).a5 := by
  show StableHlo.after hostOps6 (W12 m ρ c) (Proc.devRef .tc main_v7) = _
  simp only [hostOps6]
  after_results
  exact at12_main_v7 m ρ c
set_option maxHeartbeats 1000000 in
theorem at13_main_v8 (c : Dev nD) : W13 m ρ c (Proc.devRef .tc main_v8) = K.gT (args m c).a6 := by
  show StableHlo.after hostOps6 (W12 m ρ c) (Proc.devRef .tc main_v8) = _
  simp only [hostOps6]
  after_results
  exact at12_main_v8 m ρ c
set_option maxHeartbeats 1000000 in
theorem at13_main_v12 (c : Dev nD) : W13 m ρ c (Proc.devRef .tc main_v12) = K.gW0 (K.gT (args m c).a5) := by
  show StableHlo.after hostOps6 (W12 m ρ c) (Proc.devRef .tc main_v12) = _
  simp only [hostOps6]
  after_results
  exact at12_main_v12 m ρ c
set_option maxHeartbeats 1000000 in
theorem at13_main_v18 (c : Dev nD) : W13 m ρ c (Proc.devRef .tc main_v18) = K.gB0 (args m c).a7 := by
  show StableHlo.after hostOps6 (W12 m ρ c) (Proc.devRef .tc main_v18) = _
  simp only [hostOps6]
  after_results
  exact at12_main_v18 m ρ c
set_option maxHeartbeats 1000000 in
theorem at13_main_v46 (c : Dev nD) : W13 m ρ c (Proc.devRef .tc main_v46) = kH2 (args m c) := by
  show StableHlo.after hostOps6 (W12 m ρ c) (Proc.devRef .tc main_v46) = _
  simp only [hostOps6]
  after_results
  exact at12_main_v46 m ρ c
set_option maxHeartbeats 1000000 in
theorem at13_main_v49_1 (c : Dev nD) : W13 m ρ c (Proc.devRef .tc main_v49_1) = kG2 (args m c) := by
  show StableHlo.after hostOps6 (W12 m ρ c) (Proc.devRef .tc main_v49_1) = _
  simp only [hostOps6]
  after_results
  exact at12_main_v49_1 m ρ c
set_option maxHeartbeats 1000000 in
theorem at13_main_v59 (c : Dev nD) : W13 m ρ c (Proc.devRef .tc main_v59) = kA2 (args m c) := by
  show StableHlo.after hostOps6 (W12 m ρ c) (Proc.devRef .tc main_v59) = _
  simp only [hostOps6]
  after_results
  exact (cg3 K.agg (at12_main_v49_0 m ρ c) (at12_main_v1 m ρ c) (at12_main_v3 m ρ c)).trans (agg_eq _ _ _)

/-! ## Boundary 14 -/

theorem at14_main_arg4 (c : Dev nD) : W14 m ρ c (Proc.devRef .tc main_arg4) = (args m c).a4 :=
  (W14_of_ne m ρ c main_arg4 (by decide)).trans (at13_main_arg4 m ρ c)
theorem at14_main_arg7 (c : Dev nD) : W14 m ρ c (Proc.devRef .tc main_arg7) = (args m c).a7 :=
  (W14_of_ne m ρ c main_arg7 (by decide)).trans (at13_main_arg7 m ρ c)
theorem at14_main_arg8 (c : Dev nD) : W14 m ρ c (Proc.devRef .tc main_arg8) = (args m c).a8 :=
  (W14_of_ne m ρ c main_arg8 (by decide)).trans (at13_main_arg8 m ρ c)
theorem at14_main_v1 (c : Dev nD) : W14 m ρ c (Proc.devRef .tc main_v1) = K.src (args m c).a1 :=
  (W14_of_ne m ρ c main_v1 (by decide)).trans (at13_main_v1 m ρ c)
theorem at14_main_v3 (c : Dev nD) : W14 m ρ c (Proc.devRef .tc main_v3) = K.dst (args m c).a1 :=
  (W14_of_ne m ρ c main_v3 (by decide)).trans (at13_main_v3 m ρ c)
theorem at14_main_v7 (c : Dev nD) : W14 m ρ c (Proc.devRef .tc main_v7) = K.gT (args m c).a5 :=
  (W14_of_ne m ρ c main_v7 (by decide)).trans (at13_main_v7 m ρ c)
theorem at14_main_v8 (c : Dev nD) : W14 m ρ c (Proc.devRef .tc main_v8) = K.gT (args m c).a6 :=
  (W14_of_ne m ρ c main_v8 (by decide)).trans (at13_main_v8 m ρ c)
theorem at14_main_v60 (c : Dev nD) : W14 m ρ c (Proc.devRef .tc main_v60) = kH3 (args m c) :=
  (W14_arr m ρ c 5).trans ((Reg6.out (V13 m ρ) c).trans (cg5 (fun a w b g h => rUpd (rGate a w b) g h) (at13_main_v59 m ρ c) (at13_main_v12 m ρ c) (at13_main_v18 m ρ c) (at13_main_v49_1 m ρ c) (at13_main_v46 m ρ c)))

end Cert.Bridge.Chain

end
-- ==== Proof.Val7.lean ====
/-
  What the message-and-gate region leaves in its two output arrays, as whole-array functions of the arrays it finds at
  entry. The region runs fifty grid points; point `t` loads rows `2000·t … 2000·t + 1999` of the state and the three small
  operands whole, and writes back the same rows of the two outputs. So element `(p, q)` of a block is element
  `(2000·t + p, q)` of its array; the body's value there is a row-by-matrix sum, which is the reference's product at that
  element; and the fifty blocks tile each output array, so the array ends at the reference's whole-array term.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg7

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the state, the round's matrix, the state gate's matrix and
    bias row. -/
abbrev aH (c : Dev nD) : FVec Ideal S100000x32 .f32 := V c main_v60
abbrev aC (c : Dev nD) : FVec Ideal S32x32 .f32 := V c main_v72
abbrev aW (c : Dev nD) : FVec Ideal S32x96 .f32 := V c main_v62
abbrev aB (c : Dev nD) : FVec Ideal S1x96 .f32 := V c main_v67

theorem hz : (![0, 0] : Fin 2 → Nat) = fun _ => 0 := funext fun a => by fin_cases a <;> rfl

/-- The printed index maps, decided over the fifty grid points: the state window and both output windows sit at block row
    `t`, block column 0; the three small operands at block (0, 0). -/
theorem idx : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0 :=
  (by decide +kernel : ∀ t : Fin grid7.N, _)

/-- Row `p` of point `t`'s block is row `2000·t + p` of the array. -/
def row (t : Fin cfg7.N) (p : Fin 2000) : Fin 100000 :=
  ⟨t.val * 2000 + p.val, by have ht : t.val < 50 := t.isLt; have hp := p.isLt; omega⟩

theorem emb_0 (t : Fin cfg7.N) (p : Fin 2000) (k : Fin 32) :
    ((cfg7.win 0).blk t).view.emb (ix2 p k) = ix2 (row t p) k := by
  obtain ⟨e0, e1, -⟩ := idx t
  funext a; apply Fin.ext
  match a with
  | ⟨0, _⟩ => show win7_0.index t (0 : Fin 2) * 2000 + 1 * p.val = t.val * 2000 + p.val; omega
  | ⟨1, _⟩ => show win7_0.index t (1 : Fin 2) * 32 + 1 * k.val = k.val; omega

theorem emb_1 (t : Fin cfg7.N) (k : Fin 32) (q : Fin 32) :
    ((cfg7.win 1).blk t).view.emb (ix2 k q) = ix2 k q := by
  obtain ⟨-, -, e0, e1, -⟩ := idx t
  funext a; apply Fin.ext
  match a with
  | ⟨0, _⟩ => show win7_1.index t (0 : Fin 2) * 32 + 1 * k.val = k.val; omega
  | ⟨1, _⟩ => show win7_1.index t (1 : Fin 2) * 32 + 1 * q.val = q.val; omega

theorem emb_2 (t : Fin cfg7.N) (k : Fin 32) (q : Fin 96) :
    ((cfg7.win 2).blk t).view.emb (ix2 k q) = ix2 k q := by
  obtain ⟨-, -, -, -, e0, e1, -⟩ := idx t
  funext a; apply Fin.ext
  match a with
  | ⟨0, _⟩ => show win7_2.index t (0 : Fin 2) * 32 + 1 * k.val = k.val; omega
  | ⟨1, _⟩ => show win7_2.index t (1 : Fin 2) * 96 + 1 * q.val = q.val; omega

theorem emb_3 (t : Fin cfg7.N) (z : Fin 1) (q : Fin 96) :
    ((cfg7.win 3).blk t).view.emb (ix2 z q) = ix2 z q := by
  obtain ⟨-, -, -, -, -, -, e0, e1, -⟩ := idx t
  funext a; apply Fin.ext
  match a with
  | ⟨0, _⟩ => show win7_3.index t (0 : Fin 2) * 1 + 1 * z.val = z.val; omega
  | ⟨1, _⟩ => show win7_3.index t (1 : Fin 2) * 96 + 1 * q.val = q.val; omega

theorem emb_4 (t : Fin cfg7.N) (p : Fin 2000) (q : Fin 32) :
    ((cfg7.win 4).blk t).view.emb (ix2 p q) = ix2 (row t p) q := by
  obtain ⟨-, -, -, -, -, -, -, -, e0, e1, -⟩ := idx t
  funext a; apply Fin.ext
  match a with
  | ⟨0, _⟩ => show win7_4.index t (0 : Fin 2) * 2000 + 1 * p.val = t.val * 2000 + p.val; omega
  | ⟨1, _⟩ => show win7_4.index t (1 : Fin 2) * 32 + 1 * q.val = q.val; omega

theorem emb_5 (t : Fin cfg7.N) (p : Fin 2000) (q : Fin 96) :
    ((cfg7.win 5).blk t).view.emb (ix2 p q) = ix2 (row t p) q := by
  obtain ⟨-, -, -, -, -, -, -, -, -, -, e0, e1⟩ := idx t
  funext a; apply Fin.ext
  match a with
  | ⟨0, _⟩ => show win7_5.index t (0 : Fin 2) * 2000 + 1 * p.val = t.val * 2000 + p.val; omega
  | ⟨1, _⟩ => show win7_5.index t (1 : Fin 2) * 96 + 1 * q.val = q.val; omega

/-- What point `t` writes back to the message array is block `t` of the reference's message product of the arrays found at
    entry. -/
theorem flushed_4 (c : Dev nD) (t : Fin cfg7.N) :
    (dat7 V c).flushed 4 t
      = ((cfg7.win 4).blk t).view.read (Elt Ideal) (rMsg (aH V c) (aC V c)) := by
  show (cfg7.win 4).cut (grid7.coords t) ((dat7 V c).after 4 t) = _
  rw [after7_4]
  unfold out7_4
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 32), j = ix2 p q := ⟨j 0, j 1, eq_ix2 j⟩
  refine (pay_msg _ _ p q).trans ?_
  show _ = rMsg (aH V c) (aC V c) (((cfg7.win 4).blk t).view.emb (ix2 p q))
  rw [emb_4 t p q, rMsg_apply]
  refine Finset.sum_congr rfl fun k _ => ?_
  show aH V c (((cfg7.win 0).blk t).view.emb (ix2 p k)) * aC V c (((cfg7.win 1).blk t).view.emb (ix2 k q)) = _
  rw [emb_0 t p k, emb_1 t k q]

/-- What point `t` writes back to the gate array is block `t` of the reference's gate pre-activation of the arrays found at
    entry. -/
theorem flushed_5 (c : Dev nD) (t : Fin cfg7.N) :
    (dat7 V c).flushed 5 t
      = ((cfg7.win 5).blk t).view.read (Elt Ideal) (rGate (aH V c) (aW V c) (aB V c)) := by
  show (cfg7.win 5).cut (grid7.coords t) ((dat7 V c).after 5 t) = _
  rw [after7_5]
  unfold out7_5
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 96), j = ix2 p q := ⟨j 0, j 1, eq_ix2 j⟩
  refine (pay_gate _ _ _ p q).trans ?_
  show _ = rGate (aH V c) (aW V c) (aB V c) (((cfg7.win 5).blk t).view.emb (ix2 p q))
  rw [emb_5 t p q, rGate_apply]
  refine congrArg₂ (· + ·) (Finset.sum_congr rfl fun k _ => ?_) ?_
  · show aH V c (((cfg7.win 0).blk t).view.emb (ix2 p k)) * aW V c (((cfg7.win 2).blk t).view.emb (ix2 k q)) = _
    rw [emb_0 t p k, emb_2 t k q]
  · show aB V c (((cfg7.win 3).blk t).view.emb (ix2 (0 : Fin 1) q)) = _
    rw [emb_3 t 0 q]

/-- Every element of a 100000-row array is in the block of the point that holds its row. -/
theorem cover_4 (i : S100000x32.Idx) :
    ∃ t : Fin cfg7.N, (cfg7.win 4).flush t = true ∧ i ∈ ((cfg7.win 4).blk t).view.set := by
  have hi0 : (i 0).val < 100000 := (i 0).isLt
  have hi1 : (i 1).val < 32 := (i 1).isLt
  let t : Fin cfg7.N := ⟨(i 0).val / 2000, by show (i 0).val / 2000 < 50; omega⟩
  refine ⟨t, flush7_4 t, ?_⟩
  obtain ⟨-, -, -, -, -, -, -, -, e0, e1, -⟩ := idx t
  show i ∈ ((View.whole main_v73_0).slice (win7_4.rect t)).set
  rw [View.set_slice_whole, Rect.mem_set_unit]
  intro a
  match a with
  | ⟨0, _⟩ => show win7_4.index t (0 : Fin 2) * 2000 ≤ (i 0).val ∧ (i 0).val < win7_4.index t (0 : Fin 2) * 2000 + 2000
              have : t.val = (i 0).val / 2000 := rfl
              omega
  | ⟨1, _⟩ => show win7_4.index t (1 : Fin 2) * 32 ≤ (i 1).val ∧ (i 1).val < win7_4.index t (1 : Fin 2) * 32 + 32; omega

theorem cover_5 (i : S100000x96.Idx) :
    ∃ t : Fin cfg7.N, (cfg7.win 5).flush t = true ∧ i ∈ ((cfg7.win 5).blk t).view.set := by
  have hi0 : (i 0).val < 100000 := (i 0).isLt
  have hi1 : (i 1).val < 96 := (i 1).isLt
  let t : Fin cfg7.N := ⟨(i 0).val / 2000, by show (i 0).val / 2000 < 50; omega⟩
  refine ⟨t, flush7_5 t, ?_⟩
  obtain ⟨-, -, -, -, -, -, -, -, -, -, e0, e1⟩ := idx t
  show i ∈ ((View.whole main_v73_1).slice (win7_5.rect t)).set
  rw [View.set_slice_whole, Rect.mem_set_unit]
  intro a
  match a with
  | ⟨0, _⟩ => show win7_5.index t (0 : Fin 2) * 2000 ≤ (i 0).val ∧ (i 0).val < win7_5.index t (0 : Fin 2) * 2000 + 2000
              have : t.val = (i 0).val / 2000 := rfl
              omega
  | ⟨1, _⟩ => show win7_5.index t (1 : Fin 2) * 96 ≤ (i 1).val ∧ (i 1).val < win7_5.index t (1 : Fin 2) * 96 + 96; omega

/-- The message array after the region: the reference's message product of the state and the matrix found at entry. -/
theorem msg (c : Dev nD) : (dat7 V c).arrAt 4 cfg7.N = rMsg (V c main_v60) (V c main_v72) :=
  (dat7 V c).arrAt_eq_of_cover 4 _ (fun t _ => flushed_4 V c t) cover_4

/-- The state-gate array after the region: the reference's gate pre-activation of the state, the matrix and the bias row
    found at entry. -/
theorem gate (c : Dev nD) : (dat7 V c).arrAt 5 cfg7.N = rGate (V c main_v60) (V c main_v62) (V c main_v67) :=
  (dat7 V c).arrAt_eq_of_cover 5 _ (fun t _ => flushed_5 V c t) cover_5

end Cert.Bridge.Reg7

end
-- ==== Proof.Val8.lean ====
/-
  What the update region leaves in its output array, as a whole-array function of the arrays it finds at entry. The region
  runs fifty grid points; point `t` loads rows `2000·t … 2000·t + 1999` of the aggregate, of the state gate and of the
  state, and the gate matrix and bias row whole, and writes back the same rows of the new state. Element `(p, q)` of a
  block is element `(2000·t + p, q)` of its array. The body forms the aggregate's gate pre-activation at the three columns
  `q`, `q + 32`, `q + 64` of row `p` and applies the gated rule with the loaded state gate at the same columns and the
  loaded state at `(p, q)`; the reference's update of the reference's gate pre-activation reads the same seven numbers at
  row `2000·t + p`. The fifty blocks tile the output array.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg8

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the aggregate, the state gate, the state, the aggregate
    gate's matrix and bias row. -/
abbrev aA (c : Dev nD) : FVec Ideal S100000x32 .f32 := V c main_v83
abbrev aG (c : Dev nD) : FVec Ideal S100000x96 .f32 := V c main_v73_1
abbrev aH (c : Dev nD) : FVec Ideal S100000x32 .f32 := V c main_v60
abbrev aW (c : Dev nD) : FVec Ideal S32x96 .f32 := V c main_v64
abbrev aB (c : Dev nD) : FVec Ideal S1x96 .f32 := V c main_v70

theorem hz : (![0, 0] : Fin 2 → Nat) = fun _ => 0 := funext fun a => by fin_cases a <;> rfl

/-- The printed index maps, decided over the fifty grid points: the aggregate, state-gate, state and output windows sit at
    block row `t`, block column 0; the gate matrix and the bias row at block (0, 0). -/
theorem idx : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Row `p` of point `t`'s block is row `2000·t + p` of the array. -/
def row (t : Fin cfg8.N) (p : Fin 2000) : Fin 100000 :=
  ⟨t.val * 2000 + p.val, by have ht : t.val < 50 := t.isLt; have hp := p.isLt; omega⟩

theorem emb_0 (t : Fin cfg8.N) (p : Fin 2000) (k : Fin 32) :
    ((cfg8.win 0).blk t).view.emb (ix2 p k) = ix2 (row t p) k := by
  obtain ⟨e0, e1, -⟩ := idx t
  funext a; apply Fin.ext
  match a with
  | ⟨0, _⟩ => show win8_0.index t (0 : Fin 2) * 2000 + 1 * p.val = t.val * 2000 + p.val; omega
  | ⟨1, _⟩ => show win8_0.index t (1 : Fin 2) * 32 + 1 * k.val = k.val; omega

theorem emb_1 (t : Fin cfg8.N) (p : Fin 2000) (j : Fin 96) :
    ((cfg8.win 1).blk t).view.emb (ix2 p j) = ix2 (row t p) j := by
  obtain ⟨-, -, e0, e1, -⟩ := idx t
  funext a; apply Fin.ext
  match a with
  | ⟨0, _⟩ => show win8_1.index t (0 : Fin 2) * 2000 + 1 * p.val = t.val * 2000 + p.val; omega
  | ⟨1, _⟩ => show win8_1.index t (1 : Fin 2) * 96 + 1 * j.val = j.val; omega

theorem emb_2 (t : Fin cfg8.N) (p : Fin 2000) (q : Fin 32) :
    ((cfg8.win 2).blk t).view.emb (ix2 p q) = ix2 (row t p) q := by
  obtain ⟨-, -, -, -, e0, e1, -⟩ := idx t
  funext a; apply Fin.ext
  match a with
  | ⟨0, _⟩ => show win8_2.index t (0 : Fin 2) * 2000 + 1 * p.val = t.val * 2000 + p.val; omega
  | ⟨1, _⟩ => show win8_2.index t (1 : Fin 2) * 32 + 1 * q.val = q.val; omega

theorem emb_3 (t : Fin cfg8.N) (k : Fin 32) (j : Fin 96) :
    ((cfg8.win 3).blk t).view.emb (ix2 k j) = ix2 k j := by
  obtain ⟨-, -, -, -, -, -, e0, e1, -⟩ := idx t
  funext a; apply Fin.ext
  match a with
  | ⟨0, _⟩ => show win8_3.index t (0 : Fin 2) * 32 + 1 * k.val = k.val; omega
  | ⟨1, _⟩ => show win8_3.index t (1 : Fin 2) * 96 + 1 * j.val = j.val; omega

theorem emb_4 (t : Fin cfg8.N) (z : Fin 1) (j : Fin 96) :
    ((cfg8.win 4).blk t).view.emb (ix2 z j) = ix2 z j := by
  obtain ⟨-, -, -, -, -, -, -, -, e0, e1, -⟩ := idx t
  funext a; apply Fin.ext
  match a with
  | ⟨0, _⟩ => show win8_4.index t (0 : Fin 2) * 1 + 1 * z.val = z.val; omega
  | ⟨1, _⟩ => show win8_4.index t (1 : Fin 2) * 96 + 1 * j.val = j.val; omega

theorem emb_5 (t : Fin cfg8.N) (p : Fin 2000) (q : Fin 32) :
    ((cfg8.win 5).blk t).view.emb (ix2 p q) = ix2 (row t p) q := by
  obtain ⟨-, -, -, -, -, -, -, -, -, -, e0, e1⟩ := idx t
  funext a; apply Fin.ext
  match a with
  | ⟨0, _⟩ => show win8_5.index t (0 : Fin 2) * 2000 + 1 * p.val = t.val * 2000 + p.val; omega
  | ⟨1, _⟩ => show win8_5.index t (1 : Fin 2) * 32 + 1 * q.val = q.val; omega

/-- The gated rule at equal arguments. -/
theorem gru_congr {a1 a2 a3 a4 a5 a6 a7 b1 b2 b3 b4 b5 b6 b7 : EReal} (h1 : a1 = b1) (h2 : a2 = b2) (h3 : a3 = b3)
    (h4 : a4 = b4) (h5 : a5 = b5) (h6 : a6 = b6) (h7 : a7 = b7) :
    gru a1 a2 a3 a4 a5 a6 a7 = gru b1 b2 b3 b4 b5 b6 b7 := by rw [h1, h2, h3, h4, h5, h6, h7]

/-- The aggregate's gate pre-activation formed from point `t`'s blocks at row `p`, column `j`, is the one formed from the
    arrays at row `2000·t + p`. -/
theorem gate_at (c : Dev nD) (t : Fin cfg8.N) (p : Fin 2000) (j : Fin 96) :
    (∑ k : Fin 32, aA V c (((cfg8.win 0).blk t).view.emb (ix2 p k)) * aW V c (((cfg8.win 3).blk t).view.emb (ix2 k j)))
        + aB V c (((cfg8.win 4).blk t).view.emb (ix2 (0 : Fin 1) j))
      = (∑ k : Fin 32, aA V c (ix2 (row t p) k) * aW V c (ix2 k j)) + aB V c (ix2 (0 : Fin 1) j) := by
  refine congrArg₂ (· + ·) (Finset.sum_congr rfl fun k _ => ?_) ?_
  · rw [emb_0 t p k, emb_3 t k j]
  · rw [emb_4 t 0 j]

/-- What point `t` writes back is block `t` of the reference's update of the arrays found at entry. -/
theorem flushed_5 (c : Dev nD) (t : Fin cfg8.N) :
    (dat8 V c).flushed 5 t
      = ((cfg8.win 5).blk t).view.read (Elt Ideal)
          (rUpd (rGate (aA V c) (aW V c) (aB V c)) (aG V c) (aH V c)) := by
  show (cfg8.win 5).cut (grid8.coords t) ((dat8 V c).after 5 t) = _
  rw [after8_5]
  unfold out8_5
  rw [View.canon_unit_zero hz]
  simp only [View.ld_unit_zero (S := S2000x32) hz, View.ld_unit_zero (S := S2000x96) hz, View.ld_unit_zero (S := S32x96) hz, View.ld_unit_zero (S := S1x96) hz]
  funext j
  obtain ⟨p, q, rfl⟩ : ∃ (p : Fin 2000) (q : Fin 32), j = ix2 p q := ⟨j 0, j 1, eq_ix2 j⟩
  refine (pay_upd _ _ _ _ _ p q).trans ?_
  show _ = rUpd (rGate (aA V c) (aW V c) (aB V c)) (aG V c) (aH V c)
      (((cfg8.win 5).blk t).view.emb (ix2 p q))
  rw [emb_5 t p q, rUpd_apply, rGate_apply, rGate_apply, rGate_apply]
  refine gru_congr (gate_at V c t p (col0 q)) (gate_at V c t p (col1 q)) (gate_at V c t p (col2 q)) ?_ ?_ ?_ ?_
  · show aG V c (((cfg8.win 1).blk t).view.emb (ix2 p (col0 q))) = _
    rw [emb_1 t p (col0 q)]
  · show aG V c (((cfg8.win 1).blk t).view.emb (ix2 p (col1 q))) = _
    rw [emb_1 t p (col1 q)]
  · show aG V c (((cfg8.win 1).blk t).view.emb (ix2 p (col2 q))) = _
    rw [emb_1 t p (col2 q)]
  · show aH V c (((cfg8.win 2).blk t).view.emb (ix2 p q)) = _
    rw [emb_2 t p q]

/-- Every element of the output array is in the block of the point that holds its row. -/
theorem cover_5 (i : S100000x32.Idx) :
    ∃ t : Fin cfg8.N, (cfg8.win 5).flush t = true ∧ i ∈ ((cfg8.win 5).blk t).view.set := by
  have hi0 : (i 0).val < 100000 := (i 0).isLt
  have hi1 : (i 1).val < 32 := (i 1).isLt
  let t : Fin cfg8.N := ⟨(i 0).val / 2000, by show (i 0).val / 2000 < 50; omega⟩
  refine ⟨t, flush8_5 t, ?_⟩
  obtain ⟨-, -, -, -, -, -, -, -, -, -, e0, e1⟩ := idx t
  show i ∈ ((View.whole main_v84).slice (win8_5.rect t)).set
  rw [View.set_slice_whole, Rect.mem_set_unit]
  intro a
  match a with
  | ⟨0, _⟩ => show win8_5.index t (0 : Fin 2) * 2000 ≤ (i 0).val ∧ (i 0).val < win8_5.index t (0 : Fin 2) * 2000 + 2000
              have : t.val = (i 0).val / 2000 := rfl
              omega
  | ⟨1, _⟩ => show win8_5.index t (1 : Fin 2) * 32 ≤ (i 1).val ∧ (i 1).val < win8_5.index t (1 : Fin 2) * 32 + 32; omega

/-- The output array after the region: the reference's update, from the reference's gate pre-activation of the aggregate,
    the state gate and the state found at entry. -/
theorem out (c : Dev nD) :
    (dat8 V c).arrAt 5 cfg8.N = rUpd (rGate (V c main_v83) (V c main_v64) (V c main_v70)) (V c main_v73_1) (V c main_v60) :=
  (dat8 V c).arrAt_eq_of_cover 5 _ (fun t _ => flushed_5 V c t) cover_5

end Cert.Bridge.Reg8

end
-- ==== Proof.ChainR3.lean ====
/-
  Round 3: the contents at the entries and exits of its two regions.
-/
import proofs.«421494_j30356828848478_1_alg».proof.Proof.ChainR2
import proofs.«421494_j30356828848478_1_alg».proof.Proof.Val7
import proofs.«421494_j30356828848478_1_alg».proof.Proof.Val8

set_option maxRecDepth 16384

noncomputable section

namespace Cert.Bridge.Chain

open Idealize.ShloMosaic Idealize.ShloMosaic.TcCoe Idealize.SL.Sem
open Cert.KernelIdeal Cert.KernelIdeal.Gen Cert.Bridge

variable (m : (ℓ : Loc nD τ sig) → Buf (Elt Ideal) ℓ) (ρ : Dev nD → PrngReg)

/-! ## Boundary 15 -/

set_option maxHeartbeats 1000000 in
theorem at15_main_arg4 (c : Dev nD) : W15 m ρ c (Proc.devRef .tc main_arg4) = (args m c).a4 := by
  show StableHlo.after hostOps7 (W14 m ρ c) (Proc.devRef .tc main_arg4) = _
  simp only [hostOps7]
  after_results
  exact at14_main_arg4 m ρ c
set_option maxHeartbeats 1000000 in
theorem at15_main_arg7 (c : Dev nD) : W15 m ρ c (Proc.devRef .tc main_arg7) = (args m c).a7 := by
  show StableHlo.after hostOps7 (W14 m ρ c) (Proc.devRef .tc main_arg7) = _
  simp only [hostOps7]
  after_results
  exact at14_main_arg7 m ρ c
set_option maxHeartbeats 1000000 in
theorem at15_main_arg8 (c : Dev nD) : W15 m ρ c (Proc.devRef .tc main_arg8) = (args m c).a8 := by
  show StableHlo.after hostOps7 (W14 m ρ c) (Proc.devRef .tc main_arg8) = _
  simp only [hostOps7]
  after_results
  exact at14_main_arg8 m ρ c
set_option maxHeartbeats 1000000 in
theorem at15_main_v1 (c : Dev nD) : W15 m ρ c (Proc.devRef .tc main_v1) = K.src (args m c).a1 := by
  show StableHlo.after hostOps7 (W14 m ρ c) (Proc.devRef .tc main_v1) = _
  simp only [hostOps7]
  after_results
  exact at14_main_v1 m ρ c
set_option maxHeartbeats 1000000 in
theorem at15_main_v3 (c : Dev nD) : W15 m ρ c (Proc.devRef .tc main_v3) = K.dst (args m c).a1 := by
  show StableHlo.after hostOps7 (W14 m ρ c) (Proc.devRef .tc main_v3) = _
  simp only [hostOps7]
  after_results
  exact at14_main_v3 m ρ c
set_option maxHeartbeats 1000000 in
theorem at15_main_v7 (c : Dev nD) : W15 m ρ c (Proc.devRef .tc main_v7) = K.gT (args m c).a5 := by
  show StableHlo.after hostOps7 (W14 m ρ c) (Proc.devRef .tc main_v7) = _
  simp only [hostOps7]
  after_results
  exact at14_main_v7 m ρ c
set_option maxHeartbeats 1000000 in
theorem at15_main_v8 (c : Dev nD) : W15 m ρ c (Proc.devRef .tc main_v8) = K.gT (args m c).a6 := by
  show StableHlo.after hostOps7 (W14 m ρ c) (Proc.devRef .tc main_v8) = _
  simp only [hostOps7]
  after_results
  exact at14_main_v8 m ρ c
set_option maxHeartbeats 1000000 in
theorem at15_main_v60 (c : Dev nD) : W15 m ρ c (Proc.devRef .tc main_v60) = kH3 (args m c) := by
  show StableHlo.after hostOps7 (W14 m ρ c) (Proc.devRef .tc main_v60) = _
  simp only [hostOps7]
  after_results
  exact at14_main_v60 m ρ c
set_option maxHeartbeats 1000000 in
theorem at15_main_v62 (c : Dev nD) : W15 m ρ c (Proc.devRef .tc main_v62) = K.gW1 (K.gT (args m c).a6) := by
  show StableHlo.after hostOps7 (W14 m ρ c) (Proc.devRef .tc main_v62) = _
  simp only [hostOps7]
  after_results
  rw [at14_main_v8 m ρ c]
  rfl
set_option maxHeartbeats 1000000 in
theorem at15_main_v64 (c : Dev nD) : W15 m ρ c (Proc.devRef .tc main_v64) = K.gW1 (K.gT (args m c).a5) := by
  show StableHlo.after hostOps7 (W14 m ρ c) (Proc.devRef .tc main_v64) = _
  simp only [hostOps7]
  after_results
  rw [at14_main_v7 m ρ c]
  rfl
set_option maxHeartbeats 1000000 in
theorem at15_main_v67 (c : Dev nD) : W15 m ρ c (Proc.devRef .tc main_v67) = K.gB1 (args m c).a8 := by
  show StableHlo.after hostOps7 (W14 m ρ c) (Proc.devRef .tc main_v67) = _
  simp only [hostOps7]
  after_results
  rw [at14_main_arg8 m ρ c]
  rfl
set_option maxHeartbeats 1000000 in
theorem at15_main_v70 (c : Dev nD) : W15 m ρ c (Proc.devRef .tc main_v70) = K.gB1 (args m c).a7 := by
  show StableHlo.after hostOps7 (W14 m ρ c) (Proc.devRef .tc main_v70) = _
  simp only [hostOps7]
  after_results
  rw [at14_main_arg7 m ρ c]
  rfl
set_option maxHeartbeats 1000000 in
theorem at15_main_v72 (c : Dev nD) : W15 m ρ c (Proc.devRef .tc main_v72) = K.conv10 (args m c).a4 := by
  show StableHlo.after hostOps7 (W14 m ρ c) (Proc.devRef .tc main_v72) = _
  simp only [hostOps7]
  after_results
  rw [at14_main_arg4 m ρ c]
  rfl

/-! ## Boundary 16 -/

theorem at16_main_arg4 (c : Dev nD) : W16 m ρ c (Proc.devRef .tc main_arg4) = (args m c).a4 :=
  (W16_of_ne m ρ c main_arg4 (by decide)).trans (at15_main_arg4 m ρ c)
theorem at16_main_arg7 (c : Dev nD) : W16 m ρ c (Proc.devRef .tc main_arg7) = (args m c).a7 :=
  (W16_of_ne m ρ c main_arg7 (by decide)).trans (at15_main_arg7 m ρ c)
theorem at16_main_arg8 (c : Dev nD) : W16 m ρ c (Proc.devRef .tc main_arg8) = (args m c).a8 :=
  (W16_of_ne m ρ c main_arg8 (by decide)).trans (at15_main_arg8 m ρ c)
theorem at16_main_v1 (c : Dev nD) : W16 m ρ c (Proc.devRef .tc main_v1) = K.src (args m c).a1 :=
  (W16_of_ne m ρ c main_v1 (by decide)).trans (at15_main_v1 m ρ c)
theorem at16_main_v3 (c : Dev nD) : W16 m ρ c (Proc.devRef .tc main_v3) = K.dst (args m c).a1 :=
  (W16_of_ne m ρ c main_v3 (by decide)).trans (at15_main_v3 m ρ c)
theorem at16_main_v7 (c : Dev nD) : W16 m ρ c (Proc.devRef .tc main_v7) = K.gT (args m c).a5 :=
  (W16_of_ne m ρ c main_v7 (by decide)).trans (at15_main_v7 m ρ c)
theorem at16_main_v8 (c : Dev nD) : W16 m ρ c (Proc.devRef .tc main_v8) = K.gT (args m c).a6 :=
  (W16_of_ne m ρ c main_v8 (by decide)).trans (at15_main_v8 m ρ c)
theorem at16_main_v60 (c : Dev nD) : W16 m ρ c (Proc.devRef .tc main_v60) = kH3 (args m c) :=
  (W16_arr m ρ c 0).trans (((dat7 (V15 m ρ) c).arrAt_in 0 rfl _).trans ((A_eq7 (V15 m ρ) c 0).trans (at15_main_v60 m ρ c)))
theorem at16_main_v62 (c : Dev nD) : W16 m ρ c (Proc.devRef .tc main_v62) = K.gW1 (K.gT (args m c).a6) :=
  (W16_arr m ρ c 2).trans (((dat7 (V15 m ρ) c).arrAt_in 2 rfl _).trans ((A_eq7 (V15 m ρ) c 2).trans (at15_main_v62 m ρ c)))
theorem at16_main_v64 (c : Dev nD) : W16 m ρ c (Proc.devRef .tc main_v64) = K.gW1 (K.gT (args m c).a5) :=
  (W16_of_ne m ρ c main_v64 (by decide)).trans (at15_main_v64 m ρ c)
theorem at16_main_v67 (c : Dev nD) : W16 m ρ c (Proc.devRef .tc main_v67) = K.gB1 (args m c).a8 :=
  (W16_arr m ρ c 3).trans (((dat7 (V15 m ρ) c).arrAt_in 3 rfl _).trans ((A_eq7 (V15 m ρ) c 3).trans (at15_main_v67 m ρ c)))
theorem at16_main_v70 (c : Dev nD) : W16 m ρ c (Proc.devRef .tc main_v70) = K.gB1 (args m c).a7 :=
  (W16_of_ne m ρ c main_v70 (by decide)).trans (at15_main_v70 m ρ c)
theorem at16_main_v73_0 (c : Dev nD) : W16 m ρ c (Proc.devRef .tc main_v73_0) = kM3 (args m c) :=
  (W16_arr m ρ c 4).trans ((Reg7.msg (V15 m ρ) c).trans (cg2 rMsg (at15_main_v60 m ρ c) (at15_main_v72 m ρ c)))
theorem at16_main_v73_1 (c : Dev nD) : W16 m ρ c (Proc.devRef .tc main_v73_1) = kG3 (args m c) :=
  (W16_arr m ρ c 5).trans ((Reg7.gate (V15 m ρ) c).trans (cg3 rGate (at15_main_v60 m ρ c) (at15_main_v62 m ρ c) (at15_main_v67 m ρ c)))

/-! ## Boundary 17 -/

set_option maxHeartbeats 1000000 in
theorem at17_main_arg4 (c : Dev nD) : W17 m ρ c (Proc.devRef .tc main_arg4) = (args m c).a4 := by
  show StableHlo.after hostOps8 (W16 m ρ c) (Proc.devRef .tc main_arg4) = _
  simp only [hostOps8]
  after_results
  exact at16_main_arg4 m ρ c
set_option maxHeartbeats 1000000 in
theorem at17_main_arg7 (c : Dev nD) : W17 m ρ c (Proc.devRef .tc main_arg7) = (args m c).a7 := by
  show StableHlo.after hostOps8 (W16 m ρ c) (Proc.devRef .tc main_arg7) = _
  simp only [hostOps8]
  after_results
  exact at16_main_arg7 m ρ c
set_option maxHeartbeats 1000000 in
theorem at17_main_arg8 (c : Dev nD) : W17 m ρ c (Proc.devRef .tc main_arg8) = (args m c).a8 := by
  show StableHlo.after hostOps8 (W16 m ρ c) (Proc.devRef .tc main_arg8) = _
  simp only [hostOps8]
  after_results
  exact at16_main_arg8 m ρ c
set_option maxHeartbeats 1000000 in
theorem at17_main_v1 (c : Dev nD) : W17 m ρ c (Proc.devRef .tc main_v1) = K.src (args m c).a1 := by
  show StableHlo.after hostOps8 (W16 m ρ c) (Proc.devRef .tc main_v1) = _
  simp only [hostOps8]
  after_results
  exact at16_main_v1 m ρ c
set_option maxHeartbeats 1000000 in
theorem at17_main_v3 (c : Dev nD) : W17 m ρ c (Proc.devRef .tc main_v3) = K.dst (args m c).a1 := by
  show StableHlo.after hostOps8 (W16 m ρ c) (Proc.devRef .tc main_v3) = _
  simp only [hostOps8]
  after_results
  exact at16_main_v3 m ρ c
set_option maxHeartbeats 1000000 in
theorem at17_main_v7 (c : Dev nD) : W17 m ρ c (Proc.devRef .tc main_v7) = K.gT (args m c).a5 := by
  show StableHlo.after hostOps8 (W16 m ρ c) (Proc.devRef .tc main_v7) = _
  simp only [hostOps8]
  after_results
  exact at16_main_v7 m ρ c
set_option maxHeartbeats 1000000 in
theorem at17_main_v8 (c : Dev nD) : W17 m ρ c (Proc.devRef .tc main_v8) = K.gT (args m c).a6 := by
  show StableHlo.after hostOps8 (W16 m ρ c) (Proc.devRef .tc main_v8) = _
  simp only [hostOps8]
  after_results
  exact at16_main_v8 m ρ c
set_option maxHeartbeats 1000000 in
theorem at17_main_v60 (c : Dev nD) : W17 m ρ c (Proc.devRef .tc main_v60) = kH3 (args m c) := by
  show StableHlo.after hostOps8 (W16 m ρ c) (Proc.devRef .tc main_v60) = _
  simp only [hostOps8]
  after_results
  exact at16_main_v60 m ρ c
set_option maxHeartbeats 1000000 in
theorem at17_main_v62 (c : Dev nD) : W17 m ρ c (Proc.devRef .tc main_v62) = K.gW1 (K.gT (args m c).a6) := by
  show StableHlo.after hostOps8 (W16 m ρ c) (Proc.devRef .tc main_v62) = _
  simp only [hostOps8]
  after_results
  exact at16_main_v62 m ρ c
set_option maxHeartbeats 1000000 in
theorem at17_main_v64 (c : Dev nD) : W17 m ρ c (Proc.devRef .tc main_v64) = K.gW1 (K.gT (args m c).a5) := by
  show StableHlo.after hostOps8 (W16 m ρ c) (Proc.devRef .tc main_v64) = _
  simp only [hostOps8]
  after_results
  exact at16_main_v64 m ρ c
set_option maxHeartbeats 1000000 in
theorem at17_main_v67 (c : Dev nD) : W17 m ρ c (Proc.devRef .tc main_v67) = K.gB1 (args m c).a8 := by
  show StableHlo.after hostOps8 (W16 m ρ c) (Proc.devRef .tc main_v67) = _
  simp only [hostOps8]
  after_results
  exact at16_main_v67 m ρ c
set_option maxHeartbeats 1000000 in
theorem at17_main_v70 (c : Dev nD) : W17 m ρ c (Proc.devRef .tc main_v70) = K.gB1 (args m c).a7 := by
  show StableHlo.after hostOps8 (W16 m ρ c) (Proc.devRef .tc main_v70) = _
  simp only [hostOps8]
  after_results
  exact at16_main_v70 m ρ c
set_option maxHeartbeats 1000000 in
theorem at17_main_v73_1 (c : Dev nD) : W17 m ρ c (Proc.devRef .tc main_v73_1) = kG3 (args m c) := by
  show StableHlo.after hostOps8 (W16 m ρ c) (Proc.devRef .tc main_v73_1) = _
  simp only [hostOps8]
  after_results
  exact at16_main_v73_1 m ρ c
set_option maxHeartbeats 1000000 in
theorem at17_main_v83 (c : Dev nD) : W17 m ρ c (Proc.devRef .tc main_v83) = kA3 (args m c) := by
  show StableHlo.after hostOps8 (W16 m ρ c) (Proc.devRef .tc main_v83) = _
  simp only [hostOps8]
  after_results
  exact (cg3 K.agg (at16_main_v73_0 m ρ c) (at16_main_v1 m ρ c) (at16_main_v3 m ρ c)).trans (agg_eq _ _ _)

/-! ## Boundary 18 -/

theorem at18_main_arg4 (c : Dev nD) : W18 m ρ c (Proc.devRef .tc main_arg4) = (args m c).a4 :=
  (W18_of_ne m ρ c main_arg4 (by decide)).trans (at17_main_arg4 m ρ c)
theorem at18_main_arg7 (c : Dev nD) : W18 m ρ c (Proc.devRef .tc main_arg7) = (args m c).a7 :=
  (W18_of_ne m ρ c main_arg7 (by decide)).trans (at17_main_arg7 m ρ c)
theorem at18_main_arg8 (c : Dev nD) : W18 m ρ c (Proc.devRef .tc main_arg8) = (args m c).a8 :=
  (W18_of_ne m ρ c main_arg8 (by decide)).trans (at17_main_arg8 m ρ c)
theorem at18_main_v1 (c : Dev nD) : W18 m ρ c (Proc.devRef .tc main_v1) = K.src (args m c).a1 :=
  (W18_of_ne m ρ c main_v1 (by decide)).trans (at17_main_v1 m ρ c)
theorem at18_main_v3 (c : Dev nD) : W18 m ρ c (Proc.devRef .tc main_v3) = K.dst (args m c).a1 :=
  (W18_of_ne m ρ c main_v3 (by decide)).trans (at17_main_v3 m ρ c)
theorem at18_main_v7 (c : Dev nD) : W18 m ρ c (Proc.devRef .tc main_v7) = K.gT (args m c).a5 :=
  (W18_of_ne m ρ c main_v7 (by decide)).trans (at17_main_v7 m ρ c)
theorem at18_main_v8 (c : Dev nD) : W18 m ρ c (Proc.devRef .tc main_v8) = K.gT (args m c).a6 :=
  (W18_of_ne m ρ c main_v8 (by decide)).trans (at17_main_v8 m ρ c)
theorem at18_main_v62 (c : Dev nD) : W18 m ρ c (Proc.devRef .tc main_v62) = K.gW1 (K.gT (args m c).a6) :=
  (W18_of_ne m ρ c main_v62 (by decide)).trans (at17_main_v62 m ρ c)
theorem at18_main_v64 (c : Dev nD) : W18 m ρ c (Proc.devRef .tc main_v64) = K.gW1 (K.gT (args m c).a5) :=
  (W18_arr m ρ c 3).trans (((dat8 (V17 m ρ) c).arrAt_in 3 rfl _).trans ((A_eq8 (V17 m ρ) c 3).trans (at17_main_v64 m ρ c)))
theorem at18_main_v67 (c : Dev nD) : W18 m ρ c (Proc.devRef .tc main_v67) = K.gB1 (args m c).a8 :=
  (W18_of_ne m ρ c main_v67 (by decide)).trans (at17_main_v67 m ρ c)
theorem at18_main_v70 (c : Dev nD) : W18 m ρ c (Proc.devRef .tc main_v70) = K.gB1 (args m c).a7 :=
  (W18_arr m ρ c 4).trans (((dat8 (V17 m ρ) c).arrAt_in 4 rfl _).trans ((A_eq8 (V17 m ρ) c 4).trans (at17_main_v70 m ρ c)))
theorem at18_main_v84 (c : Dev nD) : W18 m ρ c (Proc.devRef .tc main_v84) = kH4 (args m c) :=
  (W18_arr m ρ c 5).trans ((Reg8.out (V17 m ρ) c).trans (cg5 (fun a w b g h => rUpd (rGate a w b) g h) (at17_main_v83 m ρ c) (at17_main_v64 m ρ c) (at17_main_v70 m ρ c) (at17_main_v73_1 m ρ c) (at17_main_v60 m ρ c)))

end Cert.Bridge.Chain

end
-- ==== Proof.Val9.lean ====
/-
  What the message-and-gate region leaves in its two output arrays, as whole-array functions of the arrays it finds at
  entry. The region runs fifty grid points; point `t` loads rows `2000·t … 2000·t + 1999` of the state and the three small
  operands whole, and writes back the same rows of the two outputs. So element `(p, q)` of a block is element
  `(2000·t + p, q)` of its array; the body's value there is a row-by-matrix sum, which is the reference's product at that
  element; and the fifty blocks tile each output array, so the array ends at the reference's whole-array term.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg9

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the state, the round's matrix, the state gate's matrix and
    bias row. -/
abbrev aH (c : Dev nD) : FVec Ideal S100000x32 .f32 := V c main_v84
abbrev aC (c : Dev nD) : FVec Ideal S32x32 .f32 := V c main_v86
abbrev aW (c : Dev nD) : FVec Ideal S32x96 .f32 := V c main_v62
abbrev aB (c : Dev nD) : FVec Ideal S1x96 .f32 := V c main_v67

theorem hz : (![0, 0] : Fin 2 → Nat) = fun _ => 0 := funext fun a => by fin_cases a <;> rfl

/-- The printed index maps, decided over the fifty grid points: the state window and both output windows sit at block row
    `t`, block column 0; the three small operands at block (0, 0). -/
theorem idx : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0
    ∧ win9_5.index t (0 : Fin 2) = t.val ∧ win9_5.index t (1 : Fin 2) = 0 :=
  (by decide +kernel : ∀ t : Fin grid9.N, _)

/-- Row `p` of point `t`'s block is row `2000·t + p` of the array. -/
def row (t : Fin cfg9.N) (p : Fin 2000) : Fin 100000 :=
  ⟨t.val * 2000 + p.val, by have ht : t.val < 50 := t.isLt; have hp := p.isLt; omega⟩

theorem emb_0 (t : Fin cfg9.N) (p : Fin 2000) (k : Fin 32) :
    ((cfg9.win 0).blk t).view.emb (ix2 p k) = ix2 (row t p) k := by
  obtain ⟨e0, e1, -⟩ := idx t
  funext a; apply Fin.ext
  match a with
  | ⟨0, _⟩ => show win9_0.index t (0 : Fin 2) * 2000 + 1 * p.val = t.val * 2000 + p.val; omega
  | ⟨1, _⟩ => show win9_0.index t (1 : Fin 2) * 32 + 1 * k.val = k.val; omega

theorem emb_1 (t : Fin cfg9.N) (k : Fin 32) (q : Fin 32) :
    ((cfg9.win 1).blk t).view.emb (ix2 k q) = ix2 k q := by
  obtain ⟨-, -, e0, e1, -⟩ := idx t
  funext a; apply Fin.ext
  match a with
  | ⟨0, _⟩ => show win9_1.index t (0 : Fin 2) * 32 + 1 * k.val = k.val; omega
  | ⟨1, _⟩ => show win9_1.index t (1 : Fin 2) * 32 + 1 * q.val = q.val; omega

theorem emb_2 (t : Fin cfg9.N) (k : Fin 32) (q : Fin 96) :
    ((cfg9.win 2).blk t).view.emb (ix2 k q) = ix2 k q := by
  obtain ⟨-, -, -, -, e0, e1, -⟩ := idx t
  funext a; apply Fin.ext
  match a with
  | ⟨0, _⟩ => show win9_2.index t (0 : Fin 2) * 32 + 1 * k.val = k.val; omega
  | ⟨1, _⟩ => show win9_2.index t (1 : Fin 2) * 96 + 1 * q.val = q.val; omega

theorem emb_3 (t : Fin cfg9.N) (z : Fin 1) (q : Fin 96) :
    ((cfg9.win 3).blk t).view.emb (ix2 z q) = ix2 z q := by
  obtain ⟨-, -, -, -, -, -, e0, e1, -⟩ := idx t
  funext a; apply Fin.ext
  match a with
  | ⟨0, _⟩ => show win9_3.index t (0 : Fin 2) * 1 + 1 * z.val = z.val; omega
  | ⟨1, _⟩ => show win9_3.index t (1 : Fin 2) * 96 + 1 * q.val = q.val; omega

theorem emb_4 (t : Fin cfg9.N) (p : Fin 2000) (q : Fin 32) :
    ((cfg9.win 4).blk t).view.emb (ix2 p q) = ix2 (row t p) q := by
  obtain ⟨-, -, -, -, -, -, -, -, e0, e1, -⟩ := idx t
  funext a; apply Fin.ext
  match a with
  | ⟨0, _⟩ => show win9_4.index t (0 : Fin 2) * 2000 + 1 * p.val = t.val * 2000 + p.val; omega
  | ⟨1, _⟩ => show win9_4.index t (1 : Fin 2) * 32 + 1 * q.val = q.val; omega

theorem emb_5 (t : Fin cfg9.N) (p : Fin 2000) (q : Fin 96) :
    ((cfg9.win 5).blk t).view.emb (ix2 p q) = ix2 (row t p) q := by
  obtain ⟨-, -, -, -, -, -, -, -, -, -, e0, e1⟩ := idx t
  funext a; apply Fin.ext
  match a with
  | ⟨0, _⟩ => show win9_5.index t (0 : Fin 2) * 2000 + 1 * p.val = t.val * 2000 + p.val; omega
  | ⟨1, _⟩ => show win9_5.index t (1 : Fin 2) * 96 + 1 * q.val = q.val; omega

/-- What point `t` writes back to the message array is block `t` of the reference's message product of the arrays found at
    entry. -/
theorem flushed_4 (c : Dev nD) (t : Fin cfg9.N) :
    (dat9 V c).flushed 4 t
      = ((cfg9.win 4).blk t).view.read (Elt Ideal) (rMsg (aH V c) (aC V c)) := by
  show (cfg9.win 4).cut (grid9.coords t) ((dat9 V c).after 4 t) = _
  rw [after9_4]
  unfold out9_4
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 32), j = ix2 p q := ⟨j 0, j 1, eq_ix2 j⟩
  refine (pay_msg _ _ p q).trans ?_
  show _ = rMsg (aH V c) (aC V c) (((cfg9.win 4).blk t).view.emb (ix2 p q))
  rw [emb_4 t p q, rMsg_apply]
  refine Finset.sum_congr rfl fun k _ => ?_
  show aH V c (((cfg9.win 0).blk t).view.emb (ix2 p k)) * aC V c (((cfg9.win 1).blk t).view.emb (ix2 k q)) = _
  rw [emb_0 t p k, emb_1 t k q]

/-- What point `t` writes back to the gate array is block `t` of the reference's gate pre-activation of the arrays found at
    entry. -/
theorem flushed_5 (c : Dev nD) (t : Fin cfg9.N) :
    (dat9 V c).flushed 5 t
      = ((cfg9.win 5).blk t).view.read (Elt Ideal) (rGate (aH V c) (aW V c) (aB V c)) := by
  show (cfg9.win 5).cut (grid9.coords t) ((dat9 V c).after 5 t) = _
  rw [after9_5]
  unfold out9_5
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 96), j = ix2 p q := ⟨j 0, j 1, eq_ix2 j⟩
  refine (pay_gate _ _ _ p q).trans ?_
  show _ = rGate (aH V c) (aW V c) (aB V c) (((cfg9.win 5).blk t).view.emb (ix2 p q))
  rw [emb_5 t p q, rGate_apply]
  refine congrArg₂ (· + ·) (Finset.sum_congr rfl fun k _ => ?_) ?_
  · show aH V c (((cfg9.win 0).blk t).view.emb (ix2 p k)) * aW V c (((cfg9.win 2).blk t).view.emb (ix2 k q)) = _
    rw [emb_0 t p k, emb_2 t k q]
  · show aB V c (((cfg9.win 3).blk t).view.emb (ix2 (0 : Fin 1) q)) = _
    rw [emb_3 t 0 q]

/-- Every element of a 100000-row array is in the block of the point that holds its row. -/
theorem cover_4 (i : S100000x32.Idx) :
    ∃ t : Fin cfg9.N, (cfg9.win 4).flush t = true ∧ i ∈ ((cfg9.win 4).blk t).view.set := by
  have hi0 : (i 0).val < 100000 := (i 0).isLt
  have hi1 : (i 1).val < 32 := (i 1).isLt
  let t : Fin cfg9.N := ⟨(i 0).val / 2000, by show (i 0).val / 2000 < 50; omega⟩
  refine ⟨t, flush9_4 t, ?_⟩
  obtain ⟨-, -, -, -, -, -, -, -, e0, e1, -⟩ := idx t
  show i ∈ ((View.whole main_v87_0).slice (win9_4.rect t)).set
  rw [View.set_slice_whole, Rect.mem_set_unit]
  intro a
  match a with
  | ⟨0, _⟩ => show win9_4.index t (0 : Fin 2) * 2000 ≤ (i 0).val ∧ (i 0).val < win9_4.index t (0 : Fin 2) * 2000 + 2000
              have : t.val = (i 0).val / 2000 := rfl
              omega
  | ⟨1, _⟩ => show win9_4.index t (1 : Fin 2) * 32 ≤ (i 1).val ∧ (i 1).val < win9_4.index t (1 : Fin 2) * 32 + 32; omega

theorem cover_5 (i : S100000x96.Idx) :
    ∃ t : Fin cfg9.N, (cfg9.win 5).flush t = true ∧ i ∈ ((cfg9.win 5).blk t).view.set := by
  have hi0 : (i 0).val < 100000 := (i 0).isLt
  have hi1 : (i 1).val < 96 := (i 1).isLt
  let t : Fin cfg9.N := ⟨(i 0).val / 2000, by show (i 0).val / 2000 < 50; omega⟩
  refine ⟨t, flush9_5 t, ?_⟩
  obtain ⟨-, -, -, -, -, -, -, -, -, -, e0, e1⟩ := idx t
  show i ∈ ((View.whole main_v87_1).slice (win9_5.rect t)).set
  rw [View.set_slice_whole, Rect.mem_set_unit]
  intro a
  match a with
  | ⟨0, _⟩ => show win9_5.index t (0 : Fin 2) * 2000 ≤ (i 0).val ∧ (i 0).val < win9_5.index t (0 : Fin 2) * 2000 + 2000
              have : t.val = (i 0).val / 2000 := rfl
              omega
  | ⟨1, _⟩ => show win9_5.index t (1 : Fin 2) * 96 ≤ (i 1).val ∧ (i 1).val < win9_5.index t (1 : Fin 2) * 96 + 96; omega

/-- The message array after the region: the reference's message product of the state and the matrix found at entry. -/
theorem msg (c : Dev nD) : (dat9 V c).arrAt 4 cfg9.N = rMsg (V c main_v84) (V c main_v86) :=
  (dat9 V c).arrAt_eq_of_cover 4 _ (fun t _ => flushed_4 V c t) cover_4

/-- The state-gate array after the region: the reference's gate pre-activation of the state, the matrix and the bias row
    found at entry. -/
theorem gate (c : Dev nD) : (dat9 V c).arrAt 5 cfg9.N = rGate (V c main_v84) (V c main_v62) (V c main_v67) :=
  (dat9 V c).arrAt_eq_of_cover 5 _ (fun t _ => flushed_5 V c t) cover_5

end Cert.Bridge.Reg9

end
-- ==== Proof.Val10.lean ====
/-
  What the update region leaves in its output array, as a whole-array function of the arrays it finds at entry. The region
  runs fifty grid points; point `t` loads rows `2000·t … 2000·t + 1999` of the aggregate, of the state gate and of the
  state, and the gate matrix and bias row whole, and writes back the same rows of the new state. Element `(p, q)` of a
  block is element `(2000·t + p, q)` of its array. The body forms the aggregate's gate pre-activation at the three columns
  `q`, `q + 32`, `q + 64` of row `p` and applies the gated rule with the loaded state gate at the same columns and the
  loaded state at `(p, q)`; the reference's update of the reference's gate pre-activation reads the same seven numbers at
  row `2000·t + p`. The fifty blocks tile the output array.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg10

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the aggregate, the state gate, the state, the aggregate
    gate's matrix and bias row. -/
abbrev aA (c : Dev nD) : FVec Ideal S100000x32 .f32 := V c main_v97
abbrev aG (c : Dev nD) : FVec Ideal S100000x96 .f32 := V c main_v87_1
abbrev aH (c : Dev nD) : FVec Ideal S100000x32 .f32 := V c main_v84
abbrev aW (c : Dev nD) : FVec Ideal S32x96 .f32 := V c main_v64
abbrev aB (c : Dev nD) : FVec Ideal S1x96 .f32 := V c main_v70

theorem hz : (![0, 0] : Fin 2 → Nat) = fun _ => 0 := funext fun a => by fin_cases a <;> rfl

/-- The printed index maps, decided over the fifty grid points: the aggregate, state-gate, state and output windows sit at
    block row `t`, block column 0; the gate matrix and the bias row at block (0, 0). -/
theorem idx : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = t.val ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0
    ∧ win10_5.index t (0 : Fin 2) = t.val ∧ win10_5.index t (1 : Fin 2) = 0 :=
  (by decide +kernel : ∀ t : Fin grid10.N, _)

/-- Row `p` of point `t`'s block is row `2000·t + p` of the array. -/
def row (t : Fin cfg10.N) (p : Fin 2000) : Fin 100000 :=
  ⟨t.val * 2000 + p.val, by have ht : t.val < 50 := t.isLt; have hp := p.isLt; omega⟩

theorem emb_0 (t : Fin cfg10.N) (p : Fin 2000) (k : Fin 32) :
    ((cfg10.win 0).blk t).view.emb (ix2 p k) = ix2 (row t p) k := by
  obtain ⟨e0, e1, -⟩ := idx t
  funext a; apply Fin.ext
  match a with
  | ⟨0, _⟩ => show win10_0.index t (0 : Fin 2) * 2000 + 1 * p.val = t.val * 2000 + p.val; omega
  | ⟨1, _⟩ => show win10_0.index t (1 : Fin 2) * 32 + 1 * k.val = k.val; omega

theorem emb_1 (t : Fin cfg10.N) (p : Fin 2000) (j : Fin 96) :
    ((cfg10.win 1).blk t).view.emb (ix2 p j) = ix2 (row t p) j := by
  obtain ⟨-, -, e0, e1, -⟩ := idx t
  funext a; apply Fin.ext
  match a with
  | ⟨0, _⟩ => show win10_1.index t (0 : Fin 2) * 2000 + 1 * p.val = t.val * 2000 + p.val; omega
  | ⟨1, _⟩ => show win10_1.index t (1 : Fin 2) * 96 + 1 * j.val = j.val; omega

theorem emb_2 (t : Fin cfg10.N) (p : Fin 2000) (q : Fin 32) :
    ((cfg10.win 2).blk t).view.emb (ix2 p q) = ix2 (row t p) q := by
  obtain ⟨-, -, -, -, e0, e1, -⟩ := idx t
  funext a; apply Fin.ext
  match a with
  | ⟨0, _⟩ => show win10_2.index t (0 : Fin 2) * 2000 + 1 * p.val = t.val * 2000 + p.val; omega
  | ⟨1, _⟩ => show win10_2.index t (1 : Fin 2) * 32 + 1 * q.val = q.val; omega

theorem emb_3 (t : Fin cfg10.N) (k : Fin 32) (j : Fin 96) :
    ((cfg10.win 3).blk t).view.emb (ix2 k j) = ix2 k j := by
  obtain ⟨-, -, -, -, -, -, e0, e1, -⟩ := idx t
  funext a; apply Fin.ext
  match a with
  | ⟨0, _⟩ => show win10_3.index t (0 : Fin 2) * 32 + 1 * k.val = k.val; omega
  | ⟨1, _⟩ => show win10_3.index t (1 : Fin 2) * 96 + 1 * j.val = j.val; omega

theorem emb_4 (t : Fin cfg10.N) (z : Fin 1) (j : Fin 96) :
    ((cfg10.win 4).blk t).view.emb (ix2 z j) = ix2 z j := by
  obtain ⟨-, -, -, -, -, -, -, -, e0, e1, -⟩ := idx t
  funext a; apply Fin.ext
  match a with
  | ⟨0, _⟩ => show win10_4.index t (0 : Fin 2) * 1 + 1 * z.val = z.val; omega
  | ⟨1, _⟩ => show win10_4.index t (1 : Fin 2) * 96 + 1 * j.val = j.val; omega

theorem emb_5 (t : Fin cfg10.N) (p : Fin 2000) (q : Fin 32) :
    ((cfg10.win 5).blk t).view.emb (ix2 p q) = ix2 (row t p) q := by
  obtain ⟨-, -, -, -, -, -, -, -, -, -, e0, e1⟩ := idx t
  funext a; apply Fin.ext
  match a with
  | ⟨0, _⟩ => show win10_5.index t (0 : Fin 2) * 2000 + 1 * p.val = t.val * 2000 + p.val; omega
  | ⟨1, _⟩ => show win10_5.index t (1 : Fin 2) * 32 + 1 * q.val = q.val; omega

/-- The gated rule at equal arguments. -/
theorem gru_congr {a1 a2 a3 a4 a5 a6 a7 b1 b2 b3 b4 b5 b6 b7 : EReal} (h1 : a1 = b1) (h2 : a2 = b2) (h3 : a3 = b3)
    (h4 : a4 = b4) (h5 : a5 = b5) (h6 : a6 = b6) (h7 : a7 = b7) :
    gru a1 a2 a3 a4 a5 a6 a7 = gru b1 b2 b3 b4 b5 b6 b7 := by rw [h1, h2, h3, h4, h5, h6, h7]

/-- The aggregate's gate pre-activation formed from point `t`'s blocks at row `p`, column `j`, is the one formed from the
    arrays at row `2000·t + p`. -/
theorem gate_at (c : Dev nD) (t : Fin cfg10.N) (p : Fin 2000) (j : Fin 96) :
    (∑ k : Fin 32, aA V c (((cfg10.win 0).blk t).view.emb (ix2 p k)) * aW V c (((cfg10.win 3).blk t).view.emb (ix2 k j)))
        + aB V c (((cfg10.win 4).blk t).view.emb (ix2 (0 : Fin 1) j))
      = (∑ k : Fin 32, aA V c (ix2 (row t p) k) * aW V c (ix2 k j)) + aB V c (ix2 (0 : Fin 1) j) := by
  refine congrArg₂ (· + ·) (Finset.sum_congr rfl fun k _ => ?_) ?_
  · rw [emb_0 t p k, emb_3 t k j]
  · rw [emb_4 t 0 j]

/-- What point `t` writes back is block `t` of the reference's update of the arrays found at entry. -/
theorem flushed_5 (c : Dev nD) (t : Fin cfg10.N) :
    (dat10 V c).flushed 5 t
      = ((cfg10.win 5).blk t).view.read (Elt Ideal)
          (rUpd (rGate (aA V c) (aW V c) (aB V c)) (aG V c) (aH V c)) := by
  show (cfg10.win 5).cut (grid10.coords t) ((dat10 V c).after 5 t) = _
  rw [after10_5]
  unfold out10_5
  rw [View.canon_unit_zero hz]
  simp only [View.ld_unit_zero (S := S2000x32) hz, View.ld_unit_zero (S := S2000x96) hz, View.ld_unit_zero (S := S32x96) hz, View.ld_unit_zero (S := S1x96) hz]
  funext j
  obtain ⟨p, q, rfl⟩ : ∃ (p : Fin 2000) (q : Fin 32), j = ix2 p q := ⟨j 0, j 1, eq_ix2 j⟩
  refine (pay_upd _ _ _ _ _ p q).trans ?_
  show _ = rUpd (rGate (aA V c) (aW V c) (aB V c)) (aG V c) (aH V c)
      (((cfg10.win 5).blk t).view.emb (ix2 p q))
  rw [emb_5 t p q, rUpd_apply, rGate_apply, rGate_apply, rGate_apply]
  refine gru_congr (gate_at V c t p (col0 q)) (gate_at V c t p (col1 q)) (gate_at V c t p (col2 q)) ?_ ?_ ?_ ?_
  · show aG V c (((cfg10.win 1).blk t).view.emb (ix2 p (col0 q))) = _
    rw [emb_1 t p (col0 q)]
  · show aG V c (((cfg10.win 1).blk t).view.emb (ix2 p (col1 q))) = _
    rw [emb_1 t p (col1 q)]
  · show aG V c (((cfg10.win 1).blk t).view.emb (ix2 p (col2 q))) = _
    rw [emb_1 t p (col2 q)]
  · show aH V c (((cfg10.win 2).blk t).view.emb (ix2 p q)) = _
    rw [emb_2 t p q]

/-- Every element of the output array is in the block of the point that holds its row. -/
theorem cover_5 (i : S100000x32.Idx) :
    ∃ t : Fin cfg10.N, (cfg10.win 5).flush t = true ∧ i ∈ ((cfg10.win 5).blk t).view.set := by
  have hi0 : (i 0).val < 100000 := (i 0).isLt
  have hi1 : (i 1).val < 32 := (i 1).isLt
  let t : Fin cfg10.N := ⟨(i 0).val / 2000, by show (i 0).val / 2000 < 50; omega⟩
  refine ⟨t, flush10_5 t, ?_⟩
  obtain ⟨-, -, -, -, -, -, -, -, -, -, e0, e1⟩ := idx t
  show i ∈ ((View.whole main_v98).slice (win10_5.rect t)).set
  rw [View.set_slice_whole, Rect.mem_set_unit]
  intro a
  match a with
  | ⟨0, _⟩ => show win10_5.index t (0 : Fin 2) * 2000 ≤ (i 0).val ∧ (i 0).val < win10_5.index t (0 : Fin 2) * 2000 + 2000
              have : t.val = (i 0).val / 2000 := rfl
              omega
  | ⟨1, _⟩ => show win10_5.index t (1 : Fin 2) * 32 ≤ (i 1).val ∧ (i 1).val < win10_5.index t (1 : Fin 2) * 32 + 32; omega

/-- The output array after the region: the reference's update, from the reference's gate pre-activation of the aggregate,
    the state gate and the state found at entry. -/
theorem out (c : Dev nD) :
    (dat10 V c).arrAt 5 cfg10.N = rUpd (rGate (V c main_v97) (V c main_v64) (V c main_v70)) (V c main_v87_1) (V c main_v84) :=
  (dat10 V c).arrAt_eq_of_cover 5 _ (fun t _ => flushed_5 V c t) cover_5

end Cert.Bridge.Reg10

end
-- ==== Proof.ChainR4.lean ====
/-
  Round 4: the contents at the entries and exits of its two regions.
-/
import proofs.«421494_j30356828848478_1_alg».proof.Proof.ChainR3
import proofs.«421494_j30356828848478_1_alg».proof.Proof.Val9
import proofs.«421494_j30356828848478_1_alg».proof.Proof.Val10

set_option maxRecDepth 16384

noncomputable section

namespace Cert.Bridge.Chain

open Idealize.ShloMosaic Idealize.ShloMosaic.TcCoe Idealize.SL.Sem
open Cert.KernelIdeal Cert.KernelIdeal.Gen Cert.Bridge

variable (m : (ℓ : Loc nD τ sig) → Buf (Elt Ideal) ℓ) (ρ : Dev nD → PrngReg)

/-! ## Boundary 19 -/

set_option maxHeartbeats 1000000 in
theorem at19_main_arg4 (c : Dev nD) : W19 m ρ c (Proc.devRef .tc main_arg4) = (args m c).a4 := by
  show StableHlo.after hostOps9 (W18 m ρ c) (Proc.devRef .tc main_arg4) = _
  simp only [hostOps9]
  after_results
  exact at18_main_arg4 m ρ c
set_option maxHeartbeats 1000000 in
theorem at19_main_arg7 (c : Dev nD) : W19 m ρ c (Proc.devRef .tc main_arg7) = (args m c).a7 := by
  show StableHlo.after hostOps9 (W18 m ρ c) (Proc.devRef .tc main_arg7) = _
  simp only [hostOps9]
  after_results
  exact at18_main_arg7 m ρ c
set_option maxHeartbeats 1000000 in
theorem at19_main_arg8 (c : Dev nD) : W19 m ρ c (Proc.devRef .tc main_arg8) = (args m c).a8 := by
  show StableHlo.after hostOps9 (W18 m ρ c) (Proc.devRef .tc main_arg8) = _
  simp only [hostOps9]
  after_results
  exact at18_main_arg8 m ρ c
set_option maxHeartbeats 1000000 in
theorem at19_main_v1 (c : Dev nD) : W19 m ρ c (Proc.devRef .tc main_v1) = K.src (args m c).a1 := by
  show StableHlo.after hostOps9 (W18 m ρ c) (Proc.devRef .tc main_v1) = _
  simp only [hostOps9]
  after_results
  exact at18_main_v1 m ρ c
set_option maxHeartbeats 1000000 in
theorem at19_main_v3 (c : Dev nD) : W19 m ρ c (Proc.devRef .tc main_v3) = K.dst (args m c).a1 := by
  show StableHlo.after hostOps9 (W18 m ρ c) (Proc.devRef .tc main_v3) = _
  simp only [hostOps9]
  after_results
  exact at18_main_v3 m ρ c
set_option maxHeartbeats 1000000 in
theorem at19_main_v7 (c : Dev nD) : W19 m ρ c (Proc.devRef .tc main_v7) = K.gT (args m c).a5 := by
  show StableHlo.after hostOps9 (W18 m ρ c) (Proc.devRef .tc main_v7) = _
  simp only [hostOps9]
  after_results
  exact at18_main_v7 m ρ c
set_option maxHeartbeats 1000000 in
theorem at19_main_v8 (c : Dev nD) : W19 m ρ c (Proc.devRef .tc main_v8) = K.gT (args m c).a6 := by
  show StableHlo.after hostOps9 (W18 m ρ c) (Proc.devRef .tc main_v8) = _
  simp only [hostOps9]
  after_results
  exact at18_main_v8 m ρ c
set_option maxHeartbeats 1000000 in
theorem at19_main_v62 (c : Dev nD) : W19 m ρ c (Proc.devRef .tc main_v62) = K.gW1 (K.gT (args m c).a6) := by
  show StableHlo.after hostOps9 (W18 m ρ c) (Proc.devRef .tc main_v62) = _
  simp only [hostOps9]
  after_results
  exact at18_main_v62 m ρ c
set_option maxHeartbeats 1000000 in
theorem at19_main_v64 (c : Dev nD) : W19 m ρ c (Proc.devRef .tc main_v64) = K.gW1 (K.gT (args m c).a5) := by
  show StableHlo.after hostOps9 (W18 m ρ c) (Proc.devRef .tc main_v64) = _
  simp only [hostOps9]
  after_results
  exact at18_main_v64 m ρ c
set_option maxHeartbeats 1000000 in
theorem at19_main_v67 (c : Dev nD) : W19 m ρ c (Proc.devRef .tc main_v67) = K.gB1 (args m c).a8 := by
  show StableHlo.after hostOps9 (W18 m ρ c) (Proc.devRef .tc main_v67) = _
  simp only [hostOps9]
  after_results
  exact at18_main_v67 m ρ c
set_option maxHeartbeats 1000000 in
theorem at19_main_v70 (c : Dev nD) : W19 m ρ c (Proc.devRef .tc main_v70) = K.gB1 (args m c).a7 := by
  show StableHlo.after hostOps9 (W18 m ρ c) (Proc.devRef .tc main_v70) = _
  simp only [hostOps9]
  after_results
  exact at18_main_v70 m ρ c
set_option maxHeartbeats 1000000 in
theorem at19_main_v84 (c : Dev nD) : W19 m ρ c (Proc.devRef .tc main_v84) = kH4 (args m c) := by
  show StableHlo.after hostOps9 (W18 m ρ c) (Proc.devRef .tc main_v84) = _
  simp only [hostOps9]
  after_results
  exact at18_main_v84 m ρ c
set_option maxHeartbeats 1000000 in
theorem at19_main_v86 (c : Dev nD) : W19 m ρ c (Proc.devRef .tc main_v86) = K.conv11 (args m c).a4 := by
  show StableHlo.after hostOps9 (W18 m ρ c) (Proc.devRef .tc main_v86) = _
  simp only [hostOps9]
  after_results
  rw [at18_main_arg4 m ρ c]
  rfl

/-! ## Boundary 20 -/

theorem at20_main_arg4 (c : Dev nD) : W20 m ρ c (Proc.devRef .tc main_arg4) = (args m c).a4 :=
  (W20_of_ne m ρ c main_arg4 (by decide)).trans (at19_main_arg4 m ρ c)
theorem at20_main_arg7 (c : Dev nD) : W20 m ρ c (Proc.devRef .tc main_arg7) = (args m c).a7 :=
  (W20_of_ne m ρ c main_arg7 (by decide)).trans (at19_main_arg7 m ρ c)
theorem at20_main_arg8 (c : Dev nD) : W20 m ρ c (Proc.devRef .tc main_arg8) = (args m c).a8 :=
  (W20_of_ne m ρ c main_arg8 (by decide)).trans (at19_main_arg8 m ρ c)
theorem at20_main_v1 (c : Dev nD) : W20 m ρ c (Proc.devRef .tc main_v1) = K.src (args m c).a1 :=
  (W20_of_ne m ρ c main_v1 (by decide)).trans (at19_main_v1 m ρ c)
theorem at20_main_v3 (c : Dev nD) : W20 m ρ c (Proc.devRef .tc main_v3) = K.dst (args m c).a1 :=
  (W20_of_ne m ρ c main_v3 (by decide)).trans (at19_main_v3 m ρ c)
theorem at20_main_v7 (c : Dev nD) : W20 m ρ c (Proc.devRef .tc main_v7) = K.gT (args m c).a5 :=
  (W20_of_ne m ρ c main_v7 (by decide)).trans (at19_main_v7 m ρ c)
theorem at20_main_v8 (c : Dev nD) : W20 m ρ c (Proc.devRef .tc main_v8) = K.gT (args m c).a6 :=
  (W20_of_ne m ρ c main_v8 (by decide)).trans (at19_main_v8 m ρ c)
theorem at20_main_v62 (c : Dev nD) : W20 m ρ c (Proc.devRef .tc main_v62) = K.gW1 (K.gT (args m c).a6) :=
  (W20_arr m ρ c 2).trans (((dat9 (V19 m ρ) c).arrAt_in 2 rfl _).trans ((A_eq9 (V19 m ρ) c 2).trans (at19_main_v62 m ρ c)))
theorem at20_main_v64 (c : Dev nD) : W20 m ρ c (Proc.devRef .tc main_v64) = K.gW1 (K.gT (args m c).a5) :=
  (W20_of_ne m ρ c main_v64 (by decide)).trans (at19_main_v64 m ρ c)
theorem at20_main_v67 (c : Dev nD) : W20 m ρ c (Proc.devRef .tc main_v67) = K.gB1 (args m c).a8 :=
  (W20_arr m ρ c 3).trans (((dat9 (V19 m ρ) c).arrAt_in 3 rfl _).trans ((A_eq9 (V19 m ρ) c 3).trans (at19_main_v67 m ρ c)))
theorem at20_main_v70 (c : Dev nD) : W20 m ρ c (Proc.devRef .tc main_v70) = K.gB1 (args m c).a7 :=
  (W20_of_ne m ρ c main_v70 (by decide)).trans (at19_main_v70 m ρ c)
theorem at20_main_v84 (c : Dev nD) : W20 m ρ c (Proc.devRef .tc main_v84) = kH4 (args m c) :=
  (W20_arr m ρ c 0).trans (((dat9 (V19 m ρ) c).arrAt_in 0 rfl _).trans ((A_eq9 (V19 m ρ) c 0).trans (at19_main_v84 m ρ c)))
theorem at20_main_v87_0 (c : Dev nD) : W20 m ρ c (Proc.devRef .tc main_v87_0) = kM4 (args m c) :=
  (W20_arr m ρ c 4).trans ((Reg9.msg (V19 m ρ) c).trans (cg2 rMsg (at19_main_v84 m ρ c) (at19_main_v86 m ρ c)))
theorem at20_main_v87_1 (c : Dev nD) : W20 m ρ c (Proc.devRef .tc main_v87_1) = kG4 (args m c) :=
  (W20_arr m ρ c 5).trans ((Reg9.gate (V19 m ρ) c).trans (cg3 rGate (at19_main_v84 m ρ c) (at19_main_v62 m ρ c) (at19_main_v67 m ρ c)))

/-! ## Boundary 21 -/

set_option maxHeartbeats 1000000 in
theorem at21_main_arg4 (c : Dev nD) : W21 m ρ c (Proc.devRef .tc main_arg4) = (args m c).a4 := by
  show StableHlo.after hostOps10 (W20 m ρ c) (Proc.devRef .tc main_arg4) = _
  simp only [hostOps10]
  after_results
  exact at20_main_arg4 m ρ c
set_option maxHeartbeats 1000000 in
theorem at21_main_arg7 (c : Dev nD) : W21 m ρ c (Proc.devRef .tc main_arg7) = (args m c).a7 := by
  show StableHlo.after hostOps10 (W20 m ρ c) (Proc.devRef .tc main_arg7) = _
  simp only [hostOps10]
  after_results
  exact at20_main_arg7 m ρ c
set_option maxHeartbeats 1000000 in
theorem at21_main_arg8 (c : Dev nD) : W21 m ρ c (Proc.devRef .tc main_arg8) = (args m c).a8 := by
  show StableHlo.after hostOps10 (W20 m ρ c) (Proc.devRef .tc main_arg8) = _
  simp only [hostOps10]
  after_results
  exact at20_main_arg8 m ρ c
set_option maxHeartbeats 1000000 in
theorem at21_main_v1 (c : Dev nD) : W21 m ρ c (Proc.devRef .tc main_v1) = K.src (args m c).a1 := by
  show StableHlo.after hostOps10 (W20 m ρ c) (Proc.devRef .tc main_v1) = _
  simp only [hostOps10]
  after_results
  exact at20_main_v1 m ρ c
set_option maxHeartbeats 1000000 in
theorem at21_main_v3 (c : Dev nD) : W21 m ρ c (Proc.devRef .tc main_v3) = K.dst (args m c).a1 := by
  show StableHlo.after hostOps10 (W20 m ρ c) (Proc.devRef .tc main_v3) = _
  simp only [hostOps10]
  after_results
  exact at20_main_v3 m ρ c
set_option maxHeartbeats 1000000 in
theorem at21_main_v7 (c : Dev nD) : W21 m ρ c (Proc.devRef .tc main_v7) = K.gT (args m c).a5 := by
  show StableHlo.after hostOps10 (W20 m ρ c) (Proc.devRef .tc main_v7) = _
  simp only [hostOps10]
  after_results
  exact at20_main_v7 m ρ c
set_option maxHeartbeats 1000000 in
theorem at21_main_v8 (c : Dev nD) : W21 m ρ c (Proc.devRef .tc main_v8) = K.gT (args m c).a6 := by
  show StableHlo.after hostOps10 (W20 m ρ c) (Proc.devRef .tc main_v8) = _
  simp only [hostOps10]
  after_results
  exact at20_main_v8 m ρ c
set_option maxHeartbeats 1000000 in
theorem at21_main_v62 (c : Dev nD) : W21 m ρ c (Proc.devRef .tc main_v62) = K.gW1 (K.gT (args m c).a6) := by
  show StableHlo.after hostOps10 (W20 m ρ c) (Proc.devRef .tc main_v62) = _
  simp only [hostOps10]
  after_results
  exact at20_main_v62 m ρ c
set_option maxHeartbeats 1000000 in
theorem at21_main_v64 (c : Dev nD) : W21 m ρ c (Proc.devRef .tc main_v64) = K.gW1 (K.gT (args m c).a5) := by
  show StableHlo.after hostOps10 (W20 m ρ c) (Proc.devRef .tc main_v64) = _
  simp only [hostOps10]
  after_results
  exact at20_main_v64 m ρ c
set_option maxHeartbeats 1000000 in
theorem at21_main_v67 (c : Dev nD) : W21 m ρ c (Proc.devRef .tc main_v67) = K.gB1 (args m c).a8 := by
  show StableHlo.after hostOps10 (W20 m ρ c) (Proc.devRef .tc main_v67) = _
  simp only [hostOps10]
  after_results
  exact at20_main_v67 m ρ c
set_option maxHeartbeats 1000000 in
theorem at21_main_v70 (c : Dev nD) : W21 m ρ c (Proc.devRef .tc main_v70) = K.gB1 (args m c).a7 := by
  show StableHlo.after hostOps10 (W20 m ρ c) (Proc.devRef .tc main_v70) = _
  simp only [hostOps10]
  after_results
  exact at20_main_v70 m ρ c
set_option maxHeartbeats 1000000 in
theorem at21_main_v84 (c : Dev nD) : W21 m ρ c (Proc.devRef .tc main_v84) = kH4 (args m c) := by
  show StableHlo.after hostOps10 (W20 m ρ c) (Proc.devRef .tc main_v84) = _
  simp only [hostOps10]
  after_results
  exact at20_main_v84 m ρ c
set_option maxHeartbeats 1000000 in
theorem at21_main_v87_1 (c : Dev nD) : W21 m ρ c (Proc.devRef .tc main_v87_1) = kG4 (args m c) := by
  show StableHlo.after hostOps10 (W20 m ρ c) (Proc.devRef .tc main_v87_1) = _
  simp only [hostOps10]
  after_results
  exact at20_main_v87_1 m ρ c
set_option maxHeartbeats 1000000 in
theorem at21_main_v97 (c : Dev nD) : W21 m ρ c (Proc.devRef .tc main_v97) = kA4 (args m c) := by
  show StableHlo.after hostOps10 (W20 m ρ c) (Proc.devRef .tc main_v97) = _
  simp only [hostOps10]
  after_results
  exact (cg3 K.agg (at20_main_v87_0 m ρ c) (at20_main_v1 m ρ c) (at20_main_v3 m ρ c)).trans (agg_eq _ _ _)

/-! ## Boundary 22 -/

theorem at22_main_arg4 (c : Dev nD) : W22 m ρ c (Proc.devRef .tc main_arg4) = (args m c).a4 :=
  (W22_of_ne m ρ c main_arg4 (by decide)).trans (at21_main_arg4 m ρ c)
theorem at22_main_arg7 (c : Dev nD) : W22 m ρ c (Proc.devRef .tc main_arg7) = (args m c).a7 :=
  (W22_of_ne m ρ c main_arg7 (by decide)).trans (at21_main_arg7 m ρ c)
theorem at22_main_arg8 (c : Dev nD) : W22 m ρ c (Proc.devRef .tc main_arg8) = (args m c).a8 :=
  (W22_of_ne m ρ c main_arg8 (by decide)).trans (at21_main_arg8 m ρ c)
theorem at22_main_v1 (c : Dev nD) : W22 m ρ c (Proc.devRef .tc main_v1) = K.src (args m c).a1 :=
  (W22_of_ne m ρ c main_v1 (by decide)).trans (at21_main_v1 m ρ c)
theorem at22_main_v3 (c : Dev nD) : W22 m ρ c (Proc.devRef .tc main_v3) = K.dst (args m c).a1 :=
  (W22_of_ne m ρ c main_v3 (by decide)).trans (at21_main_v3 m ρ c)
theorem at22_main_v7 (c : Dev nD) : W22 m ρ c (Proc.devRef .tc main_v7) = K.gT (args m c).a5 :=
  (W22_of_ne m ρ c main_v7 (by decide)).trans (at21_main_v7 m ρ c)
theorem at22_main_v8 (c : Dev nD) : W22 m ρ c (Proc.devRef .tc main_v8) = K.gT (args m c).a6 :=
  (W22_of_ne m ρ c main_v8 (by decide)).trans (at21_main_v8 m ρ c)
theorem at22_main_v62 (c : Dev nD) : W22 m ρ c (Proc.devRef .tc main_v62) = K.gW1 (K.gT (args m c).a6) :=
  (W22_of_ne m ρ c main_v62 (by decide)).trans (at21_main_v62 m ρ c)
theorem at22_main_v64 (c : Dev nD) : W22 m ρ c (Proc.devRef .tc main_v64) = K.gW1 (K.gT (args m c).a5) :=
  (W22_arr m ρ c 3).trans (((dat10 (V21 m ρ) c).arrAt_in 3 rfl _).trans ((A_eq10 (V21 m ρ) c 3).trans (at21_main_v64 m ρ c)))
theorem at22_main_v67 (c : Dev nD) : W22 m ρ c (Proc.devRef .tc main_v67) = K.gB1 (args m c).a8 :=
  (W22_of_ne m ρ c main_v67 (by decide)).trans (at21_main_v67 m ρ c)
theorem at22_main_v70 (c : Dev nD) : W22 m ρ c (Proc.devRef .tc main_v70) = K.gB1 (args m c).a7 :=
  (W22_arr m ρ c 4).trans (((dat10 (V21 m ρ) c).arrAt_in 4 rfl _).trans ((A_eq10 (V21 m ρ) c 4).trans (at21_main_v70 m ρ c)))
theorem at22_main_v98 (c : Dev nD) : W22 m ρ c (Proc.devRef .tc main_v98) = kH5 (args m c) :=
  (W22_arr m ρ c 5).trans ((Reg10.out (V21 m ρ) c).trans (cg5 (fun a w b g h => rUpd (rGate a w b) g h) (at21_main_v97 m ρ c) (at21_main_v64 m ρ c) (at21_main_v70 m ρ c) (at21_main_v87_1 m ρ c) (at21_main_v84 m ρ c)))

end Cert.Bridge.Chain

end
-- ==== Proof.Val11.lean ====
/-
  What the message-and-gate region leaves in its two output arrays, as whole-array functions of the arrays it finds at
  entry. The region runs fifty grid points; point `t` loads rows `2000·t … 2000·t + 1999` of the state and the three small
  operands whole, and writes back the same rows of the two outputs. So element `(p, q)` of a block is element
  `(2000·t + p, q)` of its array; the body's value there is a row-by-matrix sum, which is the reference's product at that
  element; and the fifty blocks tile each output array, so the array ends at the reference's whole-array term.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg11

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the state, the round's matrix, the state gate's matrix and
    bias row. -/
abbrev aH (c : Dev nD) : FVec Ideal S100000x32 .f32 := V c main_v98
abbrev aC (c : Dev nD) : FVec Ideal S32x32 .f32 := V c main_v100
abbrev aW (c : Dev nD) : FVec Ideal S32x96 .f32 := V c main_v62
abbrev aB (c : Dev nD) : FVec Ideal S1x96 .f32 := V c main_v67

theorem hz : (![0, 0] : Fin 2 → Nat) = fun _ => 0 := funext fun a => by fin_cases a <;> rfl

/-- The printed index maps, decided over the fifty grid points: the state window and both output windows sit at block row
    `t`, block column 0; the three small operands at block (0, 0). -/
theorem idx : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = t.val ∧ win11_4.index t (1 : Fin 2) = 0
    ∧ win11_5.index t (0 : Fin 2) = t.val ∧ win11_5.index t (1 : Fin 2) = 0 :=
  (by decide +kernel : ∀ t : Fin grid11.N, _)

/-- Row `p` of point `t`'s block is row `2000·t + p` of the array. -/
def row (t : Fin cfg11.N) (p : Fin 2000) : Fin 100000 :=
  ⟨t.val * 2000 + p.val, by have ht : t.val < 50 := t.isLt; have hp := p.isLt; omega⟩

theorem emb_0 (t : Fin cfg11.N) (p : Fin 2000) (k : Fin 32) :
    ((cfg11.win 0).blk t).view.emb (ix2 p k) = ix2 (row t p) k := by
  obtain ⟨e0, e1, -⟩ := idx t
  funext a; apply Fin.ext
  match a with
  | ⟨0, _⟩ => show win11_0.index t (0 : Fin 2) * 2000 + 1 * p.val = t.val * 2000 + p.val; omega
  | ⟨1, _⟩ => show win11_0.index t (1 : Fin 2) * 32 + 1 * k.val = k.val; omega

theorem emb_1 (t : Fin cfg11.N) (k : Fin 32) (q : Fin 32) :
    ((cfg11.win 1).blk t).view.emb (ix2 k q) = ix2 k q := by
  obtain ⟨-, -, e0, e1, -⟩ := idx t
  funext a; apply Fin.ext
  match a with
  | ⟨0, _⟩ => show win11_1.index t (0 : Fin 2) * 32 + 1 * k.val = k.val; omega
  | ⟨1, _⟩ => show win11_1.index t (1 : Fin 2) * 32 + 1 * q.val = q.val; omega

theorem emb_2 (t : Fin cfg11.N) (k : Fin 32) (q : Fin 96) :
    ((cfg11.win 2).blk t).view.emb (ix2 k q) = ix2 k q := by
  obtain ⟨-, -, -, -, e0, e1, -⟩ := idx t
  funext a; apply Fin.ext
  match a with
  | ⟨0, _⟩ => show win11_2.index t (0 : Fin 2) * 32 + 1 * k.val = k.val; omega
  | ⟨1, _⟩ => show win11_2.index t (1 : Fin 2) * 96 + 1 * q.val = q.val; omega

theorem emb_3 (t : Fin cfg11.N) (z : Fin 1) (q : Fin 96) :
    ((cfg11.win 3).blk t).view.emb (ix2 z q) = ix2 z q := by
  obtain ⟨-, -, -, -, -, -, e0, e1, -⟩ := idx t
  funext a; apply Fin.ext
  match a with
  | ⟨0, _⟩ => show win11_3.index t (0 : Fin 2) * 1 + 1 * z.val = z.val; omega
  | ⟨1, _⟩ => show win11_3.index t (1 : Fin 2) * 96 + 1 * q.val = q.val; omega

theorem emb_4 (t : Fin cfg11.N) (p : Fin 2000) (q : Fin 32) :
    ((cfg11.win 4).blk t).view.emb (ix2 p q) = ix2 (row t p) q := by
  obtain ⟨-, -, -, -, -, -, -, -, e0, e1, -⟩ := idx t
  funext a; apply Fin.ext
  match a with
  | ⟨0, _⟩ => show win11_4.index t (0 : Fin 2) * 2000 + 1 * p.val = t.val * 2000 + p.val; omega
  | ⟨1, _⟩ => show win11_4.index t (1 : Fin 2) * 32 + 1 * q.val = q.val; omega

theorem emb_5 (t : Fin cfg11.N) (p : Fin 2000) (q : Fin 96) :
    ((cfg11.win 5).blk t).view.emb (ix2 p q) = ix2 (row t p) q := by
  obtain ⟨-, -, -, -, -, -, -, -, -, -, e0, e1⟩ := idx t
  funext a; apply Fin.ext
  match a with
  | ⟨0, _⟩ => show win11_5.index t (0 : Fin 2) * 2000 + 1 * p.val = t.val * 2000 + p.val; omega
  | ⟨1, _⟩ => show win11_5.index t (1 : Fin 2) * 96 + 1 * q.val = q.val; omega

/-- What point `t` writes back to the message array is block `t` of the reference's message product of the arrays found at
    entry. -/
theorem flushed_4 (c : Dev nD) (t : Fin cfg11.N) :
    (dat11 V c).flushed 4 t
      = ((cfg11.win 4).blk t).view.read (Elt Ideal) (rMsg (aH V c) (aC V c)) := by
  show (cfg11.win 4).cut (grid11.coords t) ((dat11 V c).after 4 t) = _
  rw [after11_4]
  unfold out11_4
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 32), j = ix2 p q := ⟨j 0, j 1, eq_ix2 j⟩
  refine (pay_msg _ _ p q).trans ?_
  show _ = rMsg (aH V c) (aC V c) (((cfg11.win 4).blk t).view.emb (ix2 p q))
  rw [emb_4 t p q, rMsg_apply]
  refine Finset.sum_congr rfl fun k _ => ?_
  show aH V c (((cfg11.win 0).blk t).view.emb (ix2 p k)) * aC V c (((cfg11.win 1).blk t).view.emb (ix2 k q)) = _
  rw [emb_0 t p k, emb_1 t k q]

/-- What point `t` writes back to the gate array is block `t` of the reference's gate pre-activation of the arrays found at
    entry. -/
theorem flushed_5 (c : Dev nD) (t : Fin cfg11.N) :
    (dat11 V c).flushed 5 t
      = ((cfg11.win 5).blk t).view.read (Elt Ideal) (rGate (aH V c) (aW V c) (aB V c)) := by
  show (cfg11.win 5).cut (grid11.coords t) ((dat11 V c).after 5 t) = _
  rw [after11_5]
  unfold out11_5
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 96), j = ix2 p q := ⟨j 0, j 1, eq_ix2 j⟩
  refine (pay_gate _ _ _ p q).trans ?_
  show _ = rGate (aH V c) (aW V c) (aB V c) (((cfg11.win 5).blk t).view.emb (ix2 p q))
  rw [emb_5 t p q, rGate_apply]
  refine congrArg₂ (· + ·) (Finset.sum_congr rfl fun k _ => ?_) ?_
  · show aH V c (((cfg11.win 0).blk t).view.emb (ix2 p k)) * aW V c (((cfg11.win 2).blk t).view.emb (ix2 k q)) = _
    rw [emb_0 t p k, emb_2 t k q]
  · show aB V c (((cfg11.win 3).blk t).view.emb (ix2 (0 : Fin 1) q)) = _
    rw [emb_3 t 0 q]

/-- Every element of a 100000-row array is in the block of the point that holds its row. -/
theorem cover_4 (i : S100000x32.Idx) :
    ∃ t : Fin cfg11.N, (cfg11.win 4).flush t = true ∧ i ∈ ((cfg11.win 4).blk t).view.set := by
  have hi0 : (i 0).val < 100000 := (i 0).isLt
  have hi1 : (i 1).val < 32 := (i 1).isLt
  let t : Fin cfg11.N := ⟨(i 0).val / 2000, by show (i 0).val / 2000 < 50; omega⟩
  refine ⟨t, flush11_4 t, ?_⟩
  obtain ⟨-, -, -, -, -, -, -, -, e0, e1, -⟩ := idx t
  show i ∈ ((View.whole main_v101_0).slice (win11_4.rect t)).set
  rw [View.set_slice_whole, Rect.mem_set_unit]
  intro a
  match a with
  | ⟨0, _⟩ => show win11_4.index t (0 : Fin 2) * 2000 ≤ (i 0).val ∧ (i 0).val < win11_4.index t (0 : Fin 2) * 2000 + 2000
              have : t.val = (i 0).val / 2000 := rfl
              omega
  | ⟨1, _⟩ => show win11_4.index t (1 : Fin 2) * 32 ≤ (i 1).val ∧ (i 1).val < win11_4.index t (1 : Fin 2) * 32 + 32; omega

theorem cover_5 (i : S100000x96.Idx) :
    ∃ t : Fin cfg11.N, (cfg11.win 5).flush t = true ∧ i ∈ ((cfg11.win 5).blk t).view.set := by
  have hi0 : (i 0).val < 100000 := (i 0).isLt
  have hi1 : (i 1).val < 96 := (i 1).isLt
  let t : Fin cfg11.N := ⟨(i 0).val / 2000, by show (i 0).val / 2000 < 50; omega⟩
  refine ⟨t, flush11_5 t, ?_⟩
  obtain ⟨-, -, -, -, -, -, -, -, -, -, e0, e1⟩ := idx t
  show i ∈ ((View.whole main_v101_1).slice (win11_5.rect t)).set
  rw [View.set_slice_whole, Rect.mem_set_unit]
  intro a
  match a with
  | ⟨0, _⟩ => show win11_5.index t (0 : Fin 2) * 2000 ≤ (i 0).val ∧ (i 0).val < win11_5.index t (0 : Fin 2) * 2000 + 2000
              have : t.val = (i 0).val / 2000 := rfl
              omega
  | ⟨1, _⟩ => show win11_5.index t (1 : Fin 2) * 96 ≤ (i 1).val ∧ (i 1).val < win11_5.index t (1 : Fin 2) * 96 + 96; omega

/-- The message array after the region: the reference's message product of the state and the matrix found at entry. -/
theorem msg (c : Dev nD) : (dat11 V c).arrAt 4 cfg11.N = rMsg (V c main_v98) (V c main_v100) :=
  (dat11 V c).arrAt_eq_of_cover 4 _ (fun t _ => flushed_4 V c t) cover_4

/-- The state-gate array after the region: the reference's gate pre-activation of the state, the matrix and the bias row
    found at entry. -/
theorem gate (c : Dev nD) : (dat11 V c).arrAt 5 cfg11.N = rGate (V c main_v98) (V c main_v62) (V c main_v67) :=
  (dat11 V c).arrAt_eq_of_cover 5 _ (fun t _ => flushed_5 V c t) cover_5

end Cert.Bridge.Reg11

end
-- ==== Proof.Val12.lean ====
/-
  What the update region leaves in its output array, as a whole-array function of the arrays it finds at entry. The region
  runs fifty grid points; point `t` loads rows `2000·t … 2000·t + 1999` of the aggregate, of the state gate and of the
  state, and the gate matrix and bias row whole, and writes back the same rows of the new state. Element `(p, q)` of a
  block is element `(2000·t + p, q)` of its array. The body forms the aggregate's gate pre-activation at the three columns
  `q`, `q + 32`, `q + 64` of row `p` and applies the gated rule with the loaded state gate at the same columns and the
  loaded state at `(p, q)`; the reference's update of the reference's gate pre-activation reads the same seven numbers at
  row `2000·t + p`. The fifty blocks tile the output array.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg12

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the aggregate, the state gate, the state, the aggregate
    gate's matrix and bias row. -/
abbrev aA (c : Dev nD) : FVec Ideal S100000x32 .f32 := V c main_v111
abbrev aG (c : Dev nD) : FVec Ideal S100000x96 .f32 := V c main_v101_1
abbrev aH (c : Dev nD) : FVec Ideal S100000x32 .f32 := V c main_v98
abbrev aW (c : Dev nD) : FVec Ideal S32x96 .f32 := V c main_v64
abbrev aB (c : Dev nD) : FVec Ideal S1x96 .f32 := V c main_v70

theorem hz : (![0, 0] : Fin 2 → Nat) = fun _ => 0 := funext fun a => by fin_cases a <;> rfl

/-- The printed index maps, decided over the fifty grid points: the aggregate, state-gate, state and output windows sit at
    block row `t`, block column 0; the gate matrix and the bias row at block (0, 0). -/
theorem idx : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = 0 ∧ win12_3.index t (1 : Fin 2) = 0
    ∧ win12_4.index t (0 : Fin 2) = 0 ∧ win12_4.index t (1 : Fin 2) = 0
    ∧ win12_5.index t (0 : Fin 2) = t.val ∧ win12_5.index t (1 : Fin 2) = 0 :=
  (by decide +kernel : ∀ t : Fin grid12.N, _)

/-- Row `p` of point `t`'s block is row `2000·t + p` of the array. -/
def row (t : Fin cfg12.N) (p : Fin 2000) : Fin 100000 :=
  ⟨t.val * 2000 + p.val, by have ht : t.val < 50 := t.isLt; have hp := p.isLt; omega⟩

theorem emb_0 (t : Fin cfg12.N) (p : Fin 2000) (k : Fin 32) :
    ((cfg12.win 0).blk t).view.emb (ix2 p k) = ix2 (row t p) k := by
  obtain ⟨e0, e1, -⟩ := idx t
  funext a; apply Fin.ext
  match a with
  | ⟨0, _⟩ => show win12_0.index t (0 : Fin 2) * 2000 + 1 * p.val = t.val * 2000 + p.val; omega
  | ⟨1, _⟩ => show win12_0.index t (1 : Fin 2) * 32 + 1 * k.val = k.val; omega

theorem emb_1 (t : Fin cfg12.N) (p : Fin 2000) (j : Fin 96) :
    ((cfg12.win 1).blk t).view.emb (ix2 p j) = ix2 (row t p) j := by
  obtain ⟨-, -, e0, e1, -⟩ := idx t
  funext a; apply Fin.ext
  match a with
  | ⟨0, _⟩ => show win12_1.index t (0 : Fin 2) * 2000 + 1 * p.val = t.val * 2000 + p.val; omega
  | ⟨1, _⟩ => show win12_1.index t (1 : Fin 2) * 96 + 1 * j.val = j.val; omega

theorem emb_2 (t : Fin cfg12.N) (p : Fin 2000) (q : Fin 32) :
    ((cfg12.win 2).blk t).view.emb (ix2 p q) = ix2 (row t p) q := by
  obtain ⟨-, -, -, -, e0, e1, -⟩ := idx t
  funext a; apply Fin.ext
  match a with
  | ⟨0, _⟩ => show win12_2.index t (0 : Fin 2) * 2000 + 1 * p.val = t.val * 2000 + p.val; omega
  | ⟨1, _⟩ => show win12_2.index t (1 : Fin 2) * 32 + 1 * q.val = q.val; omega

theorem emb_3 (t : Fin cfg12.N) (k : Fin 32) (j : Fin 96) :
    ((cfg12.win 3).blk t).view.emb (ix2 k j) = ix2 k j := by
  obtain ⟨-, -, -, -, -, -, e0, e1, -⟩ := idx t
  funext a; apply Fin.ext
  match a with
  | ⟨0, _⟩ => show win12_3.index t (0 : Fin 2) * 32 + 1 * k.val = k.val; omega
  | ⟨1, _⟩ => show win12_3.index t (1 : Fin 2) * 96 + 1 * j.val = j.val; omega

theorem emb_4 (t : Fin cfg12.N) (z : Fin 1) (j : Fin 96) :
    ((cfg12.win 4).blk t).view.emb (ix2 z j) = ix2 z j := by
  obtain ⟨-, -, -, -, -, -, -, -, e0, e1, -⟩ := idx t
  funext a; apply Fin.ext
  match a with
  | ⟨0, _⟩ => show win12_4.index t (0 : Fin 2) * 1 + 1 * z.val = z.val; omega
  | ⟨1, _⟩ => show win12_4.index t (1 : Fin 2) * 96 + 1 * j.val = j.val; omega

theorem emb_5 (t : Fin cfg12.N) (p : Fin 2000) (q : Fin 32) :
    ((cfg12.win 5).blk t).view.emb (ix2 p q) = ix2 (row t p) q := by
  obtain ⟨-, -, -, -, -, -, -, -, -, -, e0, e1⟩ := idx t
  funext a; apply Fin.ext
  match a with
  | ⟨0, _⟩ => show win12_5.index t (0 : Fin 2) * 2000 + 1 * p.val = t.val * 2000 + p.val; omega
  | ⟨1, _⟩ => show win12_5.index t (1 : Fin 2) * 32 + 1 * q.val = q.val; omega

/-- The gated rule at equal arguments. -/
theorem gru_congr {a1 a2 a3 a4 a5 a6 a7 b1 b2 b3 b4 b5 b6 b7 : EReal} (h1 : a1 = b1) (h2 : a2 = b2) (h3 : a3 = b3)
    (h4 : a4 = b4) (h5 : a5 = b5) (h6 : a6 = b6) (h7 : a7 = b7) :
    gru a1 a2 a3 a4 a5 a6 a7 = gru b1 b2 b3 b4 b5 b6 b7 := by rw [h1, h2, h3, h4, h5, h6, h7]

/-- The aggregate's gate pre-activation formed from point `t`'s blocks at row `p`, column `j`, is the one formed from the
    arrays at row `2000·t + p`. -/
theorem gate_at (c : Dev nD) (t : Fin cfg12.N) (p : Fin 2000) (j : Fin 96) :
    (∑ k : Fin 32, aA V c (((cfg12.win 0).blk t).view.emb (ix2 p k)) * aW V c (((cfg12.win 3).blk t).view.emb (ix2 k j)))
        + aB V c (((cfg12.win 4).blk t).view.emb (ix2 (0 : Fin 1) j))
      = (∑ k : Fin 32, aA V c (ix2 (row t p) k) * aW V c (ix2 k j)) + aB V c (ix2 (0 : Fin 1) j) := by
  refine congrArg₂ (· + ·) (Finset.sum_congr rfl fun k _ => ?_) ?_
  · rw [emb_0 t p k, emb_3 t k j]
  · rw [emb_4 t 0 j]

/-- What point `t` writes back is block `t` of the reference's update of the arrays found at entry. -/
theorem flushed_5 (c : Dev nD) (t : Fin cfg12.N) :
    (dat12 V c).flushed 5 t
      = ((cfg12.win 5).blk t).view.read (Elt Ideal)
          (rUpd (rGate (aA V c) (aW V c) (aB V c)) (aG V c) (aH V c)) := by
  show (cfg12.win 5).cut (grid12.coords t) ((dat12 V c).after 5 t) = _
  rw [after12_5]
  unfold out12_5
  rw [View.canon_unit_zero hz]
  simp only [View.ld_unit_zero (S := S2000x32) hz, View.ld_unit_zero (S := S2000x96) hz, View.ld_unit_zero (S := S32x96) hz, View.ld_unit_zero (S := S1x96) hz]
  funext j
  obtain ⟨p, q, rfl⟩ : ∃ (p : Fin 2000) (q : Fin 32), j = ix2 p q := ⟨j 0, j 1, eq_ix2 j⟩
  refine (pay_upd _ _ _ _ _ p q).trans ?_
  show _ = rUpd (rGate (aA V c) (aW V c) (aB V c)) (aG V c) (aH V c)
      (((cfg12.win 5).blk t).view.emb (ix2 p q))
  rw [emb_5 t p q, rUpd_apply, rGate_apply, rGate_apply, rGate_apply]
  refine gru_congr (gate_at V c t p (col0 q)) (gate_at V c t p (col1 q)) (gate_at V c t p (col2 q)) ?_ ?_ ?_ ?_
  · show aG V c (((cfg12.win 1).blk t).view.emb (ix2 p (col0 q))) = _
    rw [emb_1 t p (col0 q)]
  · show aG V c (((cfg12.win 1).blk t).view.emb (ix2 p (col1 q))) = _
    rw [emb_1 t p (col1 q)]
  · show aG V c (((cfg12.win 1).blk t).view.emb (ix2 p (col2 q))) = _
    rw [emb_1 t p (col2 q)]
  · show aH V c (((cfg12.win 2).blk t).view.emb (ix2 p q)) = _
    rw [emb_2 t p q]

/-- Every element of the output array is in the block of the point that holds its row. -/
theorem cover_5 (i : S100000x32.Idx) :
    ∃ t : Fin cfg12.N, (cfg12.win 5).flush t = true ∧ i ∈ ((cfg12.win 5).blk t).view.set := by
  have hi0 : (i 0).val < 100000 := (i 0).isLt
  have hi1 : (i 1).val < 32 := (i 1).isLt
  let t : Fin cfg12.N := ⟨(i 0).val / 2000, by show (i 0).val / 2000 < 50; omega⟩
  refine ⟨t, flush12_5 t, ?_⟩
  obtain ⟨-, -, -, -, -, -, -, -, -, -, e0, e1⟩ := idx t
  show i ∈ ((View.whole main_v112).slice (win12_5.rect t)).set
  rw [View.set_slice_whole, Rect.mem_set_unit]
  intro a
  match a with
  | ⟨0, _⟩ => show win12_5.index t (0 : Fin 2) * 2000 ≤ (i 0).val ∧ (i 0).val < win12_5.index t (0 : Fin 2) * 2000 + 2000
              have : t.val = (i 0).val / 2000 := rfl
              omega
  | ⟨1, _⟩ => show win12_5.index t (1 : Fin 2) * 32 ≤ (i 1).val ∧ (i 1).val < win12_5.index t (1 : Fin 2) * 32 + 32; omega

/-- The output array after the region: the reference's update, from the reference's gate pre-activation of the aggregate,
    the state gate and the state found at entry. -/
theorem out (c : Dev nD) :
    (dat12 V c).arrAt 5 cfg12.N = rUpd (rGate (V c main_v111) (V c main_v64) (V c main_v70)) (V c main_v101_1) (V c main_v98) :=
  (dat12 V c).arrAt_eq_of_cover 5 _ (fun t _ => flushed_5 V c t) cover_5

end Cert.Bridge.Reg12

end
-- ==== Proof.ChainR5.lean ====
/-
  Round 5: the contents at the entries and exits of its two regions.
-/
import proofs.«421494_j30356828848478_1_alg».proof.Proof.ChainR4
import proofs.«421494_j30356828848478_1_alg».proof.Proof.Val11
import proofs.«421494_j30356828848478_1_alg».proof.Proof.Val12

set_option maxRecDepth 16384

noncomputable section

namespace Cert.Bridge.Chain

open Idealize.ShloMosaic Idealize.ShloMosaic.TcCoe Idealize.SL.Sem
open Cert.KernelIdeal Cert.KernelIdeal.Gen Cert.Bridge

variable (m : (ℓ : Loc nD τ sig) → Buf (Elt Ideal) ℓ) (ρ : Dev nD → PrngReg)

/-! ## Boundary 23 -/

set_option maxHeartbeats 1000000 in
theorem at23_main_arg4 (c : Dev nD) : W23 m ρ c (Proc.devRef .tc main_arg4) = (args m c).a4 := by
  show StableHlo.after hostOps11 (W22 m ρ c) (Proc.devRef .tc main_arg4) = _
  simp only [hostOps11]
  after_results
  exact at22_main_arg4 m ρ c
set_option maxHeartbeats 1000000 in
theorem at23_main_arg7 (c : Dev nD) : W23 m ρ c (Proc.devRef .tc main_arg7) = (args m c).a7 := by
  show StableHlo.after hostOps11 (W22 m ρ c) (Proc.devRef .tc main_arg7) = _
  simp only [hostOps11]
  after_results
  exact at22_main_arg7 m ρ c
set_option maxHeartbeats 1000000 in
theorem at23_main_arg8 (c : Dev nD) : W23 m ρ c (Proc.devRef .tc main_arg8) = (args m c).a8 := by
  show StableHlo.after hostOps11 (W22 m ρ c) (Proc.devRef .tc main_arg8) = _
  simp only [hostOps11]
  after_results
  exact at22_main_arg8 m ρ c
set_option maxHeartbeats 1000000 in
theorem at23_main_v1 (c : Dev nD) : W23 m ρ c (Proc.devRef .tc main_v1) = K.src (args m c).a1 := by
  show StableHlo.after hostOps11 (W22 m ρ c) (Proc.devRef .tc main_v1) = _
  simp only [hostOps11]
  after_results
  exact at22_main_v1 m ρ c
set_option maxHeartbeats 1000000 in
theorem at23_main_v3 (c : Dev nD) : W23 m ρ c (Proc.devRef .tc main_v3) = K.dst (args m c).a1 := by
  show StableHlo.after hostOps11 (W22 m ρ c) (Proc.devRef .tc main_v3) = _
  simp only [hostOps11]
  after_results
  exact at22_main_v3 m ρ c
set_option maxHeartbeats 1000000 in
theorem at23_main_v7 (c : Dev nD) : W23 m ρ c (Proc.devRef .tc main_v7) = K.gT (args m c).a5 := by
  show StableHlo.after hostOps11 (W22 m ρ c) (Proc.devRef .tc main_v7) = _
  simp only [hostOps11]
  after_results
  exact at22_main_v7 m ρ c
set_option maxHeartbeats 1000000 in
theorem at23_main_v8 (c : Dev nD) : W23 m ρ c (Proc.devRef .tc main_v8) = K.gT (args m c).a6 := by
  show StableHlo.after hostOps11 (W22 m ρ c) (Proc.devRef .tc main_v8) = _
  simp only [hostOps11]
  after_results
  exact at22_main_v8 m ρ c
set_option maxHeartbeats 1000000 in
theorem at23_main_v62 (c : Dev nD) : W23 m ρ c (Proc.devRef .tc main_v62) = K.gW1 (K.gT (args m c).a6) := by
  show StableHlo.after hostOps11 (W22 m ρ c) (Proc.devRef .tc main_v62) = _
  simp only [hostOps11]
  after_results
  exact at22_main_v62 m ρ c
set_option maxHeartbeats 1000000 in
theorem at23_main_v64 (c : Dev nD) : W23 m ρ c (Proc.devRef .tc main_v64) = K.gW1 (K.gT (args m c).a5) := by
  show StableHlo.after hostOps11 (W22 m ρ c) (Proc.devRef .tc main_v64) = _
  simp only [hostOps11]
  after_results
  exact at22_main_v64 m ρ c
set_option maxHeartbeats 1000000 in
theorem at23_main_v67 (c : Dev nD) : W23 m ρ c (Proc.devRef .tc main_v67) = K.gB1 (args m c).a8 := by
  show StableHlo.after hostOps11 (W22 m ρ c) (Proc.devRef .tc main_v67) = _
  simp only [hostOps11]
  after_results
  exact at22_main_v67 m ρ c
set_option maxHeartbeats 1000000 in
theorem at23_main_v70 (c : Dev nD) : W23 m ρ c (Proc.devRef .tc main_v70) = K.gB1 (args m c).a7 := by
  show StableHlo.after hostOps11 (W22 m ρ c) (Proc.devRef .tc main_v70) = _
  simp only [hostOps11]
  after_results
  exact at22_main_v70 m ρ c
set_option maxHeartbeats 1000000 in
theorem at23_main_v98 (c : Dev nD) : W23 m ρ c (Proc.devRef .tc main_v98) = kH5 (args m c) := by
  show StableHlo.after hostOps11 (W22 m ρ c) (Proc.devRef .tc main_v98) = _
  simp only [hostOps11]
  after_results
  exact at22_main_v98 m ρ c
set_option maxHeartbeats 1000000 in
theorem at23_main_v100 (c : Dev nD) : W23 m ρ c (Proc.devRef .tc main_v100) = K.conv12 (args m c).a4 := by
  show StableHlo.after hostOps11 (W22 m ρ c) (Proc.devRef .tc main_v100) = _
  simp only [hostOps11]
  after_results
  rw [at22_main_arg4 m ρ c]
  rfl

/-! ## Boundary 24 -/

theorem at24_main_arg4 (c : Dev nD) : W24 m ρ c (Proc.devRef .tc main_arg4) = (args m c).a4 :=
  (W24_of_ne m ρ c main_arg4 (by decide)).trans (at23_main_arg4 m ρ c)
theorem at24_main_arg7 (c : Dev nD) : W24 m ρ c (Proc.devRef .tc main_arg7) = (args m c).a7 :=
  (W24_of_ne m ρ c main_arg7 (by decide)).trans (at23_main_arg7 m ρ c)
theorem at24_main_arg8 (c : Dev nD) : W24 m ρ c (Proc.devRef .tc main_arg8) = (args m c).a8 :=
  (W24_of_ne m ρ c main_arg8 (by decide)).trans (at23_main_arg8 m ρ c)
theorem at24_main_v1 (c : Dev nD) : W24 m ρ c (Proc.devRef .tc main_v1) = K.src (args m c).a1 :=
  (W24_of_ne m ρ c main_v1 (by decide)).trans (at23_main_v1 m ρ c)
theorem at24_main_v3 (c : Dev nD) : W24 m ρ c (Proc.devRef .tc main_v3) = K.dst (args m c).a1 :=
  (W24_of_ne m ρ c main_v3 (by decide)).trans (at23_main_v3 m ρ c)
theorem at24_main_v7 (c : Dev nD) : W24 m ρ c (Proc.devRef .tc main_v7) = K.gT (args m c).a5 :=
  (W24_of_ne m ρ c main_v7 (by decide)).trans (at23_main_v7 m ρ c)
theorem at24_main_v8 (c : Dev nD) : W24 m ρ c (Proc.devRef .tc main_v8) = K.gT (args m c).a6 :=
  (W24_of_ne m ρ c main_v8 (by decide)).trans (at23_main_v8 m ρ c)
theorem at24_main_v64 (c : Dev nD) : W24 m ρ c (Proc.devRef .tc main_v64) = K.gW1 (K.gT (args m c).a5) :=
  (W24_of_ne m ρ c main_v64 (by decide)).trans (at23_main_v64 m ρ c)
theorem at24_main_v70 (c : Dev nD) : W24 m ρ c (Proc.devRef .tc main_v70) = K.gB1 (args m c).a7 :=
  (W24_of_ne m ρ c main_v70 (by decide)).trans (at23_main_v70 m ρ c)
theorem at24_main_v98 (c : Dev nD) : W24 m ρ c (Proc.devRef .tc main_v98) = kH5 (args m c) :=
  (W24_arr m ρ c 0).trans (((dat11 (V23 m ρ) c).arrAt_in 0 rfl _).trans ((A_eq11 (V23 m ρ) c 0).trans (at23_main_v98 m ρ c)))
theorem at24_main_v101_0 (c : Dev nD) : W24 m ρ c (Proc.devRef .tc main_v101_0) = kM5 (args m c) :=
  (W24_arr m ρ c 4).trans ((Reg11.msg (V23 m ρ) c).trans (cg2 rMsg (at23_main_v98 m ρ c) (at23_main_v100 m ρ c)))
theorem at24_main_v101_1 (c : Dev nD) : W24 m ρ c (Proc.devRef .tc main_v101_1) = kG5 (args m c) :=
  (W24_arr m ρ c 5).trans ((Reg11.gate (V23 m ρ) c).trans (cg3 rGate (at23_main_v98 m ρ c) (at23_main_v62 m ρ c) (at23_main_v67 m ρ c)))

/-! ## Boundary 25 -/

set_option maxHeartbeats 1000000 in
theorem at25_main_arg4 (c : Dev nD) : W25 m ρ c (Proc.devRef .tc main_arg4) = (args m c).a4 := by
  show StableHlo.after hostOps12 (W24 m ρ c) (Proc.devRef .tc main_arg4) = _
  simp only [hostOps12]
  after_results
  exact at24_main_arg4 m ρ c
set_option maxHeartbeats 1000000 in
theorem at25_main_arg7 (c : Dev nD) : W25 m ρ c (Proc.devRef .tc main_arg7) = (args m c).a7 := by
  show StableHlo.after hostOps12 (W24 m ρ c) (Proc.devRef .tc main_arg7) = _
  simp only [hostOps12]
  after_results
  exact at24_main_arg7 m ρ c
set_option maxHeartbeats 1000000 in
theorem at25_main_arg8 (c : Dev nD) : W25 m ρ c (Proc.devRef .tc main_arg8) = (args m c).a8 := by
  show StableHlo.after hostOps12 (W24 m ρ c) (Proc.devRef .tc main_arg8) = _
  simp only [hostOps12]
  after_results
  exact at24_main_arg8 m ρ c
set_option maxHeartbeats 1000000 in
theorem at25_main_v1 (c : Dev nD) : W25 m ρ c (Proc.devRef .tc main_v1) = K.src (args m c).a1 := by
  show StableHlo.after hostOps12 (W24 m ρ c) (Proc.devRef .tc main_v1) = _
  simp only [hostOps12]
  after_results
  exact at24_main_v1 m ρ c
set_option maxHeartbeats 1000000 in
theorem at25_main_v3 (c : Dev nD) : W25 m ρ c (Proc.devRef .tc main_v3) = K.dst (args m c).a1 := by
  show StableHlo.after hostOps12 (W24 m ρ c) (Proc.devRef .tc main_v3) = _
  simp only [hostOps12]
  after_results
  exact at24_main_v3 m ρ c
set_option maxHeartbeats 1000000 in
theorem at25_main_v7 (c : Dev nD) : W25 m ρ c (Proc.devRef .tc main_v7) = K.gT (args m c).a5 := by
  show StableHlo.after hostOps12 (W24 m ρ c) (Proc.devRef .tc main_v7) = _
  simp only [hostOps12]
  after_results
  exact at24_main_v7 m ρ c
set_option maxHeartbeats 1000000 in
theorem at25_main_v8 (c : Dev nD) : W25 m ρ c (Proc.devRef .tc main_v8) = K.gT (args m c).a6 := by
  show StableHlo.after hostOps12 (W24 m ρ c) (Proc.devRef .tc main_v8) = _
  simp only [hostOps12]
  after_results
  exact at24_main_v8 m ρ c
set_option maxHeartbeats 1000000 in
theorem at25_main_v64 (c : Dev nD) : W25 m ρ c (Proc.devRef .tc main_v64) = K.gW1 (K.gT (args m c).a5) := by
  show StableHlo.after hostOps12 (W24 m ρ c) (Proc.devRef .tc main_v64) = _
  simp only [hostOps12]
  after_results
  exact at24_main_v64 m ρ c
set_option maxHeartbeats 1000000 in
theorem at25_main_v70 (c : Dev nD) : W25 m ρ c (Proc.devRef .tc main_v70) = K.gB1 (args m c).a7 := by
  show StableHlo.after hostOps12 (W24 m ρ c) (Proc.devRef .tc main_v70) = _
  simp only [hostOps12]
  after_results
  exact at24_main_v70 m ρ c
set_option maxHeartbeats 1000000 in
theorem at25_main_v98 (c : Dev nD) : W25 m ρ c (Proc.devRef .tc main_v98) = kH5 (args m c) := by
  show StableHlo.after hostOps12 (W24 m ρ c) (Proc.devRef .tc main_v98) = _
  simp only [hostOps12]
  after_results
  exact at24_main_v98 m ρ c
set_option maxHeartbeats 1000000 in
theorem at25_main_v101_1 (c : Dev nD) : W25 m ρ c (Proc.devRef .tc main_v101_1) = kG5 (args m c) := by
  show StableHlo.after hostOps12 (W24 m ρ c) (Proc.devRef .tc main_v101_1) = _
  simp only [hostOps12]
  after_results
  exact at24_main_v101_1 m ρ c
set_option maxHeartbeats 1000000 in
theorem at25_main_v111 (c : Dev nD) : W25 m ρ c (Proc.devRef .tc main_v111) = kA5 (args m c) := by
  show StableHlo.after hostOps12 (W24 m ρ c) (Proc.devRef .tc main_v111) = _
  simp only [hostOps12]
  after_results
  exact (cg3 K.agg (at24_main_v101_0 m ρ c) (at24_main_v1 m ρ c) (at24_main_v3 m ρ c)).trans (agg_eq _ _ _)

/-! ## Boundary 26 -/

theorem at26_main_arg4 (c : Dev nD) : W26 m ρ c (Proc.devRef .tc main_arg4) = (args m c).a4 :=
  (W26_of_ne m ρ c main_arg4 (by decide)).trans (at25_main_arg4 m ρ c)
theorem at26_main_arg7 (c : Dev nD) : W26 m ρ c (Proc.devRef .tc main_arg7) = (args m c).a7 :=
  (W26_of_ne m ρ c main_arg7 (by decide)).trans (at25_main_arg7 m ρ c)
theorem at26_main_arg8 (c : Dev nD) : W26 m ρ c (Proc.devRef .tc main_arg8) = (args m c).a8 :=
  (W26_of_ne m ρ c main_arg8 (by decide)).trans (at25_main_arg8 m ρ c)
theorem at26_main_v1 (c : Dev nD) : W26 m ρ c (Proc.devRef .tc main_v1) = K.src (args m c).a1 :=
  (W26_of_ne m ρ c main_v1 (by decide)).trans (at25_main_v1 m ρ c)
theorem at26_main_v3 (c : Dev nD) : W26 m ρ c (Proc.devRef .tc main_v3) = K.dst (args m c).a1 :=
  (W26_of_ne m ρ c main_v3 (by decide)).trans (at25_main_v3 m ρ c)
theorem at26_main_v7 (c : Dev nD) : W26 m ρ c (Proc.devRef .tc main_v7) = K.gT (args m c).a5 :=
  (W26_of_ne m ρ c main_v7 (by decide)).trans (at25_main_v7 m ρ c)
theorem at26_main_v8 (c : Dev nD) : W26 m ρ c (Proc.devRef .tc main_v8) = K.gT (args m c).a6 :=
  (W26_of_ne m ρ c main_v8 (by decide)).trans (at25_main_v8 m ρ c)
theorem at26_main_v112 (c : Dev nD) : W26 m ρ c (Proc.devRef .tc main_v112) = kH6 (args m c) :=
  (W26_arr m ρ c 5).trans ((Reg12.out (V25 m ρ) c).trans (cg5 (fun a w b g h => rUpd (rGate a w b) g h) (at25_main_v111 m ρ c) (at25_main_v64 m ρ c) (at25_main_v70 m ρ c) (at25_main_v101_1 m ρ c) (at25_main_v98 m ρ c)))

end Cert.Bridge.Chain

end
-- ==== Proof.Val13.lean ====
/-
  What the message-and-gate region leaves in its two output arrays, as whole-array functions of the arrays it finds at
  entry. The region runs fifty grid points; point `t` loads rows `2000·t … 2000·t + 1999` of the state and the three small
  operands whole, and writes back the same rows of the two outputs. So element `(p, q)` of a block is element
  `(2000·t + p, q)` of its array; the body's value there is a row-by-matrix sum, which is the reference's product at that
  element; and the fifty blocks tile each output array, so the array ends at the reference's whole-array term.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg13

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the state, the round's matrix, the state gate's matrix and
    bias row. -/
abbrev aH (c : Dev nD) : FVec Ideal S100000x32 .f32 := V c main_v112
abbrev aC (c : Dev nD) : FVec Ideal S32x32 .f32 := V c main_v124
abbrev aW (c : Dev nD) : FVec Ideal S32x96 .f32 := V c main_v114
abbrev aB (c : Dev nD) : FVec Ideal S1x96 .f32 := V c main_v119

theorem hz : (![0, 0] : Fin 2 → Nat) = fun _ => 0 := funext fun a => by fin_cases a <;> rfl

/-- The printed index maps, decided over the fifty grid points: the state window and both output windows sit at block row
    `t`, block column 0; the three small operands at block (0, 0). -/
theorem idx : ∀ t : Fin cfg13.N,
    win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = t.val ∧ win13_4.index t (1 : Fin 2) = 0
    ∧ win13_5.index t (0 : Fin 2) = t.val ∧ win13_5.index t (1 : Fin 2) = 0 :=
  (by decide +kernel : ∀ t : Fin grid13.N, _)

/-- Row `p` of point `t`'s block is row `2000·t + p` of the array. -/
def row (t : Fin cfg13.N) (p : Fin 2000) : Fin 100000 :=
  ⟨t.val * 2000 + p.val, by have ht : t.val < 50 := t.isLt; have hp := p.isLt; omega⟩

theorem emb_0 (t : Fin cfg13.N) (p : Fin 2000) (k : Fin 32) :
    ((cfg13.win 0).blk t).view.emb (ix2 p k) = ix2 (row t p) k := by
  obtain ⟨e0, e1, -⟩ := idx t
  funext a; apply Fin.ext
  match a with
  | ⟨0, _⟩ => show win13_0.index t (0 : Fin 2) * 2000 + 1 * p.val = t.val * 2000 + p.val; omega
  | ⟨1, _⟩ => show win13_0.index t (1 : Fin 2) * 32 + 1 * k.val = k.val; omega

theorem emb_1 (t : Fin cfg13.N) (k : Fin 32) (q : Fin 32) :
    ((cfg13.win 1).blk t).view.emb (ix2 k q) = ix2 k q := by
  obtain ⟨-, -, e0, e1, -⟩ := idx t
  funext a; apply Fin.ext
  match a with
  | ⟨0, _⟩ => show win13_1.index t (0 : Fin 2) * 32 + 1 * k.val = k.val; omega
  | ⟨1, _⟩ => show win13_1.index t (1 : Fin 2) * 32 + 1 * q.val = q.val; omega

theorem emb_2 (t : Fin cfg13.N) (k : Fin 32) (q : Fin 96) :
    ((cfg13.win 2).blk t).view.emb (ix2 k q) = ix2 k q := by
  obtain ⟨-, -, -, -, e0, e1, -⟩ := idx t
  funext a; apply Fin.ext
  match a with
  | ⟨0, _⟩ => show win13_2.index t (0 : Fin 2) * 32 + 1 * k.val = k.val; omega
  | ⟨1, _⟩ => show win13_2.index t (1 : Fin 2) * 96 + 1 * q.val = q.val; omega

theorem emb_3 (t : Fin cfg13.N) (z : Fin 1) (q : Fin 96) :
    ((cfg13.win 3).blk t).view.emb (ix2 z q) = ix2 z q := by
  obtain ⟨-, -, -, -, -, -, e0, e1, -⟩ := idx t
  funext a; apply Fin.ext
  match a with
  | ⟨0, _⟩ => show win13_3.index t (0 : Fin 2) * 1 + 1 * z.val = z.val; omega
  | ⟨1, _⟩ => show win13_3.index t (1 : Fin 2) * 96 + 1 * q.val = q.val; omega

theorem emb_4 (t : Fin cfg13.N) (p : Fin 2000) (q : Fin 32) :
    ((cfg13.win 4).blk t).view.emb (ix2 p q) = ix2 (row t p) q := by
  obtain ⟨-, -, -, -, -, -, -, -, e0, e1, -⟩ := idx t
  funext a; apply Fin.ext
  match a with
  | ⟨0, _⟩ => show win13_4.index t (0 : Fin 2) * 2000 + 1 * p.val = t.val * 2000 + p.val; omega
  | ⟨1, _⟩ => show win13_4.index t (1 : Fin 2) * 32 + 1 * q.val = q.val; omega

theorem emb_5 (t : Fin cfg13.N) (p : Fin 2000) (q : Fin 96) :
    ((cfg13.win 5).blk t).view.emb (ix2 p q) = ix2 (row t p) q := by
  obtain ⟨-, -, -, -, -, -, -, -, -, -, e0, e1⟩ := idx t
  funext a; apply Fin.ext
  match a with
  | ⟨0, _⟩ => show win13_5.index t (0 : Fin 2) * 2000 + 1 * p.val = t.val * 2000 + p.val; omega
  | ⟨1, _⟩ => show win13_5.index t (1 : Fin 2) * 96 + 1 * q.val = q.val; omega

/-- What point `t` writes back to the message array is block `t` of the reference's message product of the arrays found at
    entry. -/
theorem flushed_4 (c : Dev nD) (t : Fin cfg13.N) :
    (dat13 V c).flushed 4 t
      = ((cfg13.win 4).blk t).view.read (Elt Ideal) (rMsg (aH V c) (aC V c)) := by
  show (cfg13.win 4).cut (grid13.coords t) ((dat13 V c).after 4 t) = _
  rw [after13_4]
  unfold out13_4
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 32), j = ix2 p q := ⟨j 0, j 1, eq_ix2 j⟩
  refine (pay_msg _ _ p q).trans ?_
  show _ = rMsg (aH V c) (aC V c) (((cfg13.win 4).blk t).view.emb (ix2 p q))
  rw [emb_4 t p q, rMsg_apply]
  refine Finset.sum_congr rfl fun k _ => ?_
  show aH V c (((cfg13.win 0).blk t).view.emb (ix2 p k)) * aC V c (((cfg13.win 1).blk t).view.emb (ix2 k q)) = _
  rw [emb_0 t p k, emb_1 t k q]

/-- What point `t` writes back to the gate array is block `t` of the reference's gate pre-activation of the arrays found at
    entry. -/
theorem flushed_5 (c : Dev nD) (t : Fin cfg13.N) :
    (dat13 V c).flushed 5 t
      = ((cfg13.win 5).blk t).view.read (Elt Ideal) (rGate (aH V c) (aW V c) (aB V c)) := by
  show (cfg13.win 5).cut (grid13.coords t) ((dat13 V c).after 5 t) = _
  rw [after13_5]
  unfold out13_5
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 96), j = ix2 p q := ⟨j 0, j 1, eq_ix2 j⟩
  refine (pay_gate _ _ _ p q).trans ?_
  show _ = rGate (aH V c) (aW V c) (aB V c) (((cfg13.win 5).blk t).view.emb (ix2 p q))
  rw [emb_5 t p q, rGate_apply]
  refine congrArg₂ (· + ·) (Finset.sum_congr rfl fun k _ => ?_) ?_
  · show aH V c (((cfg13.win 0).blk t).view.emb (ix2 p k)) * aW V c (((cfg13.win 2).blk t).view.emb (ix2 k q)) = _
    rw [emb_0 t p k, emb_2 t k q]
  · show aB V c (((cfg13.win 3).blk t).view.emb (ix2 (0 : Fin 1) q)) = _
    rw [emb_3 t 0 q]

/-- Every element of a 100000-row array is in the block of the point that holds its row. -/
theorem cover_4 (i : S100000x32.Idx) :
    ∃ t : Fin cfg13.N, (cfg13.win 4).flush t = true ∧ i ∈ ((cfg13.win 4).blk t).view.set := by
  have hi0 : (i 0).val < 100000 := (i 0).isLt
  have hi1 : (i 1).val < 32 := (i 1).isLt
  let t : Fin cfg13.N := ⟨(i 0).val / 2000, by show (i 0).val / 2000 < 50; omega⟩
  refine ⟨t, flush13_4 t, ?_⟩
  obtain ⟨-, -, -, -, -, -, -, -, e0, e1, -⟩ := idx t
  show i ∈ ((View.whole main_v125_0).slice (win13_4.rect t)).set
  rw [View.set_slice_whole, Rect.mem_set_unit]
  intro a
  match a with
  | ⟨0, _⟩ => show win13_4.index t (0 : Fin 2) * 2000 ≤ (i 0).val ∧ (i 0).val < win13_4.index t (0 : Fin 2) * 2000 + 2000
              have : t.val = (i 0).val / 2000 := rfl
              omega
  | ⟨1, _⟩ => show win13_4.index t (1 : Fin 2) * 32 ≤ (i 1).val ∧ (i 1).val < win13_4.index t (1 : Fin 2) * 32 + 32; omega

theorem cover_5 (i : S100000x96.Idx) :
    ∃ t : Fin cfg13.N, (cfg13.win 5).flush t = true ∧ i ∈ ((cfg13.win 5).blk t).view.set := by
  have hi0 : (i 0).val < 100000 := (i 0).isLt
  have hi1 : (i 1).val < 96 := (i 1).isLt
  let t : Fin cfg13.N := ⟨(i 0).val / 2000, by show (i 0).val / 2000 < 50; omega⟩
  refine ⟨t, flush13_5 t, ?_⟩
  obtain ⟨-, -, -, -, -, -, -, -, -, -, e0, e1⟩ := idx t
  show i ∈ ((View.whole main_v125_1).slice (win13_5.rect t)).set
  rw [View.set_slice_whole, Rect.mem_set_unit]
  intro a
  match a with
  | ⟨0, _⟩ => show win13_5.index t (0 : Fin 2) * 2000 ≤ (i 0).val ∧ (i 0).val < win13_5.index t (0 : Fin 2) * 2000 + 2000
              have : t.val = (i 0).val / 2000 := rfl
              omega
  | ⟨1, _⟩ => show win13_5.index t (1 : Fin 2) * 96 ≤ (i 1).val ∧ (i 1).val < win13_5.index t (1 : Fin 2) * 96 + 96; omega

/-- The message array after the region: the reference's message product of the state and the matrix found at entry. -/
theorem msg (c : Dev nD) : (dat13 V c).arrAt 4 cfg13.N = rMsg (V c main_v112) (V c main_v124) :=
  (dat13 V c).arrAt_eq_of_cover 4 _ (fun t _ => flushed_4 V c t) cover_4

/-- The state-gate array after the region: the reference's gate pre-activation of the state, the matrix and the bias row
    found at entry. -/
theorem gate (c : Dev nD) : (dat13 V c).arrAt 5 cfg13.N = rGate (V c main_v112) (V c main_v114) (V c main_v119) :=
  (dat13 V c).arrAt_eq_of_cover 5 _ (fun t _ => flushed_5 V c t) cover_5

end Cert.Bridge.Reg13

end
-- ==== Proof.Val14.lean ====
/-
  What the update region leaves in its output array, as a whole-array function of the arrays it finds at entry. The region
  runs fifty grid points; point `t` loads rows `2000·t … 2000·t + 1999` of the aggregate, of the state gate and of the
  state, and the gate matrix and bias row whole, and writes back the same rows of the new state. Element `(p, q)` of a
  block is element `(2000·t + p, q)` of its array. The body forms the aggregate's gate pre-activation at the three columns
  `q`, `q + 32`, `q + 64` of row `p` and applies the gated rule with the loaded state gate at the same columns and the
  loaded state at `(p, q)`; the reference's update of the reference's gate pre-activation reads the same seven numbers at
  row `2000·t + p`. The fifty blocks tile the output array.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg14

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the aggregate, the state gate, the state, the aggregate
    gate's matrix and bias row. -/
abbrev aA (c : Dev nD) : FVec Ideal S100000x32 .f32 := V c main_v135
abbrev aG (c : Dev nD) : FVec Ideal S100000x96 .f32 := V c main_v125_1
abbrev aH (c : Dev nD) : FVec Ideal S100000x32 .f32 := V c main_v112
abbrev aW (c : Dev nD) : FVec Ideal S32x96 .f32 := V c main_v116
abbrev aB (c : Dev nD) : FVec Ideal S1x96 .f32 := V c main_v122

theorem hz : (![0, 0] : Fin 2 → Nat) = fun _ => 0 := funext fun a => by fin_cases a <;> rfl

/-- The printed index maps, decided over the fifty grid points: the aggregate, state-gate, state and output windows sit at
    block row `t`, block column 0; the gate matrix and the bias row at block (0, 0). -/
theorem idx : ∀ t : Fin cfg14.N,
    win14_0.index t (0 : Fin 2) = t.val ∧ win14_0.index t (1 : Fin 2) = 0
    ∧ win14_1.index t (0 : Fin 2) = t.val ∧ win14_1.index t (1 : Fin 2) = 0
    ∧ win14_2.index t (0 : Fin 2) = t.val ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

/-- Row `p` of point `t`'s block is row `2000·t + p` of the array. -/
def row (t : Fin cfg14.N) (p : Fin 2000) : Fin 100000 :=
  ⟨t.val * 2000 + p.val, by have ht : t.val < 50 := t.isLt; have hp := p.isLt; omega⟩

theorem emb_0 (t : Fin cfg14.N) (p : Fin 2000) (k : Fin 32) :
    ((cfg14.win 0).blk t).view.emb (ix2 p k) = ix2 (row t p) k := by
  obtain ⟨e0, e1, -⟩ := idx t
  funext a; apply Fin.ext
  match a with
  | ⟨0, _⟩ => show win14_0.index t (0 : Fin 2) * 2000 + 1 * p.val = t.val * 2000 + p.val; omega
  | ⟨1, _⟩ => show win14_0.index t (1 : Fin 2) * 32 + 1 * k.val = k.val; omega

theorem emb_1 (t : Fin cfg14.N) (p : Fin 2000) (j : Fin 96) :
    ((cfg14.win 1).blk t).view.emb (ix2 p j) = ix2 (row t p) j := by
  obtain ⟨-, -, e0, e1, -⟩ := idx t
  funext a; apply Fin.ext
  match a with
  | ⟨0, _⟩ => show win14_1.index t (0 : Fin 2) * 2000 + 1 * p.val = t.val * 2000 + p.val; omega
  | ⟨1, _⟩ => show win14_1.index t (1 : Fin 2) * 96 + 1 * j.val = j.val; omega

theorem emb_2 (t : Fin cfg14.N) (p : Fin 2000) (q : Fin 32) :
    ((cfg14.win 2).blk t).view.emb (ix2 p q) = ix2 (row t p) q := by
  obtain ⟨-, -, -, -, e0, e1, -⟩ := idx t
  funext a; apply Fin.ext
  match a with
  | ⟨0, _⟩ => show win14_2.index t (0 : Fin 2) * 2000 + 1 * p.val = t.val * 2000 + p.val; omega
  | ⟨1, _⟩ => show win14_2.index t (1 : Fin 2) * 32 + 1 * q.val = q.val; omega

theorem emb_3 (t : Fin cfg14.N) (k : Fin 32) (j : Fin 96) :
    ((cfg14.win 3).blk t).view.emb (ix2 k j) = ix2 k j := by
  obtain ⟨-, -, -, -, -, -, e0, e1, -⟩ := idx t
  funext a; apply Fin.ext
  match a with
  | ⟨0, _⟩ => show win14_3.index t (0 : Fin 2) * 32 + 1 * k.val = k.val; omega
  | ⟨1, _⟩ => show win14_3.index t (1 : Fin 2) * 96 + 1 * j.val = j.val; omega

theorem emb_4 (t : Fin cfg14.N) (z : Fin 1) (j : Fin 96) :
    ((cfg14.win 4).blk t).view.emb (ix2 z j) = ix2 z j := by
  obtain ⟨-, -, -, -, -, -, -, -, e0, e1, -⟩ := idx t
  funext a; apply Fin.ext
  match a with
  | ⟨0, _⟩ => show win14_4.index t (0 : Fin 2) * 1 + 1 * z.val = z.val; omega
  | ⟨1, _⟩ => show win14_4.index t (1 : Fin 2) * 96 + 1 * j.val = j.val; omega

theorem emb_5 (t : Fin cfg14.N) (p : Fin 2000) (q : Fin 32) :
    ((cfg14.win 5).blk t).view.emb (ix2 p q) = ix2 (row t p) q := by
  obtain ⟨-, -, -, -, -, -, -, -, -, -, e0, e1⟩ := idx t
  funext a; apply Fin.ext
  match a with
  | ⟨0, _⟩ => show win14_5.index t (0 : Fin 2) * 2000 + 1 * p.val = t.val * 2000 + p.val; omega
  | ⟨1, _⟩ => show win14_5.index t (1 : Fin 2) * 32 + 1 * q.val = q.val; omega

/-- The gated rule at equal arguments. -/
theorem gru_congr {a1 a2 a3 a4 a5 a6 a7 b1 b2 b3 b4 b5 b6 b7 : EReal} (h1 : a1 = b1) (h2 : a2 = b2) (h3 : a3 = b3)
    (h4 : a4 = b4) (h5 : a5 = b5) (h6 : a6 = b6) (h7 : a7 = b7) :
    gru a1 a2 a3 a4 a5 a6 a7 = gru b1 b2 b3 b4 b5 b6 b7 := by rw [h1, h2, h3, h4, h5, h6, h7]

/-- The aggregate's gate pre-activation formed from point `t`'s blocks at row `p`, column `j`, is the one formed from the
    arrays at row `2000·t + p`. -/
theorem gate_at (c : Dev nD) (t : Fin cfg14.N) (p : Fin 2000) (j : Fin 96) :
    (∑ k : Fin 32, aA V c (((cfg14.win 0).blk t).view.emb (ix2 p k)) * aW V c (((cfg14.win 3).blk t).view.emb (ix2 k j)))
        + aB V c (((cfg14.win 4).blk t).view.emb (ix2 (0 : Fin 1) j))
      = (∑ k : Fin 32, aA V c (ix2 (row t p) k) * aW V c (ix2 k j)) + aB V c (ix2 (0 : Fin 1) j) := by
  refine congrArg₂ (· + ·) (Finset.sum_congr rfl fun k _ => ?_) ?_
  · rw [emb_0 t p k, emb_3 t k j]
  · rw [emb_4 t 0 j]

/-- What point `t` writes back is block `t` of the reference's update of the arrays found at entry. -/
theorem flushed_5 (c : Dev nD) (t : Fin cfg14.N) :
    (dat14 V c).flushed 5 t
      = ((cfg14.win 5).blk t).view.read (Elt Ideal)
          (rUpd (rGate (aA V c) (aW V c) (aB V c)) (aG V c) (aH V c)) := by
  show (cfg14.win 5).cut (grid14.coords t) ((dat14 V c).after 5 t) = _
  rw [after14_5]
  unfold out14_5
  rw [View.canon_unit_zero hz]
  simp only [View.ld_unit_zero (S := S2000x32) hz, View.ld_unit_zero (S := S2000x96) hz, View.ld_unit_zero (S := S32x96) hz, View.ld_unit_zero (S := S1x96) hz]
  funext j
  obtain ⟨p, q, rfl⟩ : ∃ (p : Fin 2000) (q : Fin 32), j = ix2 p q := ⟨j 0, j 1, eq_ix2 j⟩
  refine (pay_upd _ _ _ _ _ p q).trans ?_
  show _ = rUpd (rGate (aA V c) (aW V c) (aB V c)) (aG V c) (aH V c)
      (((cfg14.win 5).blk t).view.emb (ix2 p q))
  rw [emb_5 t p q, rUpd_apply, rGate_apply, rGate_apply, rGate_apply]
  refine gru_congr (gate_at V c t p (col0 q)) (gate_at V c t p (col1 q)) (gate_at V c t p (col2 q)) ?_ ?_ ?_ ?_
  · show aG V c (((cfg14.win 1).blk t).view.emb (ix2 p (col0 q))) = _
    rw [emb_1 t p (col0 q)]
  · show aG V c (((cfg14.win 1).blk t).view.emb (ix2 p (col1 q))) = _
    rw [emb_1 t p (col1 q)]
  · show aG V c (((cfg14.win 1).blk t).view.emb (ix2 p (col2 q))) = _
    rw [emb_1 t p (col2 q)]
  · show aH V c (((cfg14.win 2).blk t).view.emb (ix2 p q)) = _
    rw [emb_2 t p q]

/-- Every element of the output array is in the block of the point that holds its row. -/
theorem cover_5 (i : S100000x32.Idx) :
    ∃ t : Fin cfg14.N, (cfg14.win 5).flush t = true ∧ i ∈ ((cfg14.win 5).blk t).view.set := by
  have hi0 : (i 0).val < 100000 := (i 0).isLt
  have hi1 : (i 1).val < 32 := (i 1).isLt
  let t : Fin cfg14.N := ⟨(i 0).val / 2000, by show (i 0).val / 2000 < 50; omega⟩
  refine ⟨t, flush14_5 t, ?_⟩
  obtain ⟨-, -, -, -, -, -, -, -, -, -, e0, e1⟩ := idx t
  show i ∈ ((View.whole main_v136).slice (win14_5.rect t)).set
  rw [View.set_slice_whole, Rect.mem_set_unit]
  intro a
  match a with
  | ⟨0, _⟩ => show win14_5.index t (0 : Fin 2) * 2000 ≤ (i 0).val ∧ (i 0).val < win14_5.index t (0 : Fin 2) * 2000 + 2000
              have : t.val = (i 0).val / 2000 := rfl
              omega
  | ⟨1, _⟩ => show win14_5.index t (1 : Fin 2) * 32 ≤ (i 1).val ∧ (i 1).val < win14_5.index t (1 : Fin 2) * 32 + 32; omega

/-- The output array after the region: the reference's update, from the reference's gate pre-activation of the aggregate,
    the state gate and the state found at entry. -/
theorem out (c : Dev nD) :
    (dat14 V c).arrAt 5 cfg14.N = rUpd (rGate (V c main_v135) (V c main_v116) (V c main_v122)) (V c main_v125_1) (V c main_v112) :=
  (dat14 V c).arrAt_eq_of_cover 5 _ (fun t _ => flushed_5 V c t) cover_5

end Cert.Bridge.Reg14

end
-- ==== Proof.ChainR6.lean ====
/-
  Round 6: the contents at the entries and exits of its two regions.
-/
import proofs.«421494_j30356828848478_1_alg».proof.Proof.ChainR5
import proofs.«421494_j30356828848478_1_alg».proof.Proof.Val13
import proofs.«421494_j30356828848478_1_alg».proof.Proof.Val14

set_option maxRecDepth 16384

noncomputable section

namespace Cert.Bridge.Chain

open Idealize.ShloMosaic Idealize.ShloMosaic.TcCoe Idealize.SL.Sem
open Cert.KernelIdeal Cert.KernelIdeal.Gen Cert.Bridge

variable (m : (ℓ : Loc nD τ sig) → Buf (Elt Ideal) ℓ) (ρ : Dev nD → PrngReg)

/-! ## Boundary 27 -/

set_option maxHeartbeats 1000000 in
theorem at27_main_arg4 (c : Dev nD) : W27 m ρ c (Proc.devRef .tc main_arg4) = (args m c).a4 := by
  show StableHlo.after hostOps13 (W26 m ρ c) (Proc.devRef .tc main_arg4) = _
  simp only [hostOps13]
  after_results
  exact at26_main_arg4 m ρ c
set_option maxHeartbeats 1000000 in
theorem at27_main_v1 (c : Dev nD) : W27 m ρ c (Proc.devRef .tc main_v1) = K.src (args m c).a1 := by
  show StableHlo.after hostOps13 (W26 m ρ c) (Proc.devRef .tc main_v1) = _
  simp only [hostOps13]
  after_results
  exact at26_main_v1 m ρ c
set_option maxHeartbeats 1000000 in
theorem at27_main_v3 (c : Dev nD) : W27 m ρ c (Proc.devRef .tc main_v3) = K.dst (args m c).a1 := by
  show StableHlo.after hostOps13 (W26 m ρ c) (Proc.devRef .tc main_v3) = _
  simp only [hostOps13]
  after_results
  exact at26_main_v3 m ρ c
set_option maxHeartbeats 1000000 in
theorem at27_main_v112 (c : Dev nD) : W27 m ρ c (Proc.devRef .tc main_v112) = kH6 (args m c) := by
  show StableHlo.after hostOps13 (W26 m ρ c) (Proc.devRef .tc main_v112) = _
  simp only [hostOps13]
  after_results
  exact at26_main_v112 m ρ c
set_option maxHeartbeats 1000000 in
theorem at27_main_v114 (c : Dev nD) : W27 m ρ c (Proc.devRef .tc main_v114) = K.gW2 (K.gT (args m c).a6) := by
  show StableHlo.after hostOps13 (W26 m ρ c) (Proc.devRef .tc main_v114) = _
  simp only [hostOps13]
  after_results
  rw [at26_main_v8 m ρ c]
  rfl
set_option maxHeartbeats 1000000 in
theorem at27_main_v116 (c : Dev nD) : W27 m ρ c (Proc.devRef .tc main_v116) = K.gW2 (K.gT (args m c).a5) := by
  show StableHlo.after hostOps13 (W26 m ρ c) (Proc.devRef .tc main_v116) = _
  simp only [hostOps13]
  after_results
  rw [at26_main_v7 m ρ c]
  rfl
set_option maxHeartbeats 1000000 in
theorem at27_main_v119 (c : Dev nD) : W27 m ρ c (Proc.devRef .tc main_v119) = K.gB2 (args m c).a8 := by
  show StableHlo.after hostOps13 (W26 m ρ c) (Proc.devRef .tc main_v119) = _
  simp only [hostOps13]
  after_results
  rw [at26_main_arg8 m ρ c]
  rfl
set_option maxHeartbeats 1000000 in
theorem at27_main_v122 (c : Dev nD) : W27 m ρ c (Proc.devRef .tc main_v122) = K.gB2 (args m c).a7 := by
  show StableHlo.after hostOps13 (W26 m ρ c) (Proc.devRef .tc main_v122) = _
  simp only [hostOps13]
  after_results
  rw [at26_main_arg7 m ρ c]
  rfl
set_option maxHeartbeats 1000000 in
theorem at27_main_v124 (c : Dev nD) : W27 m ρ c (Proc.devRef .tc main_v124) = K.conv20 (args m c).a4 := by
  show StableHlo.after hostOps13 (W26 m ρ c) (Proc.devRef .tc main_v124) = _
  simp only [hostOps13]
  after_results
  rw [at26_main_arg4 m ρ c]
  rfl

/-! ## Boundary 28 -/

theorem at28_main_arg4 (c : Dev nD) : W28 m ρ c (Proc.devRef .tc main_arg4) = (args m c).a4 :=
  (W28_of_ne m ρ c main_arg4 (by decide)).trans (at27_main_arg4 m ρ c)
theorem at28_main_v1 (c : Dev nD) : W28 m ρ c (Proc.devRef .tc main_v1) = K.src (args m c).a1 :=
  (W28_of_ne m ρ c main_v1 (by decide)).trans (at27_main_v1 m ρ c)
theorem at28_main_v3 (c : Dev nD) : W28 m ρ c (Proc.devRef .tc main_v3) = K.dst (args m c).a1 :=
  (W28_of_ne m ρ c main_v3 (by decide)).trans (at27_main_v3 m ρ c)
theorem at28_main_v112 (c : Dev nD) : W28 m ρ c (Proc.devRef .tc main_v112) = kH6 (args m c) :=
  (W28_arr m ρ c 0).trans (((dat13 (V27 m ρ) c).arrAt_in 0 rfl _).trans ((A_eq13 (V27 m ρ) c 0).trans (at27_main_v112 m ρ c)))
theorem at28_main_v114 (c : Dev nD) : W28 m ρ c (Proc.devRef .tc main_v114) = K.gW2 (K.gT (args m c).a6) :=
  (W28_arr m ρ c 2).trans (((dat13 (V27 m ρ) c).arrAt_in 2 rfl _).trans ((A_eq13 (V27 m ρ) c 2).trans (at27_main_v114 m ρ c)))
theorem at28_main_v116 (c : Dev nD) : W28 m ρ c (Proc.devRef .tc main_v116) = K.gW2 (K.gT (args m c).a5) :=
  (W28_of_ne m ρ c main_v116 (by decide)).trans (at27_main_v116 m ρ c)
theorem at28_main_v119 (c : Dev nD) : W28 m ρ c (Proc.devRef .tc main_v119) = K.gB2 (args m c).a8 :=
  (W28_arr m ρ c 3).trans (((dat13 (V27 m ρ) c).arrAt_in 3 rfl _).trans ((A_eq13 (V27 m ρ) c 3).trans (at27_main_v119 m ρ c)))
theorem at28_main_v122 (c : Dev nD) : W28 m ρ c (Proc.devRef .tc main_v122) = K.gB2 (args m c).a7 :=
  (W28_of_ne m ρ c main_v122 (by decide)).trans (at27_main_v122 m ρ c)
theorem at28_main_v125_0 (c : Dev nD) : W28 m ρ c (Proc.devRef .tc main_v125_0) = kM6 (args m c) :=
  (W28_arr m ρ c 4).trans ((Reg13.msg (V27 m ρ) c).trans (cg2 rMsg (at27_main_v112 m ρ c) (at27_main_v124 m ρ c)))
theorem at28_main_v125_1 (c : Dev nD) : W28 m ρ c (Proc.devRef .tc main_v125_1) = kG6 (args m c) :=
  (W28_arr m ρ c 5).trans ((Reg13.gate (V27 m ρ) c).trans (cg3 rGate (at27_main_v112 m ρ c) (at27_main_v114 m ρ c) (at27_main_v119 m ρ c)))

/-! ## Boundary 29 -/

set_option maxHeartbeats 1000000 in
theorem at29_main_arg4 (c : Dev nD) : W29 m ρ c (Proc.devRef .tc main_arg4) = (args m c).a4 := by
  show StableHlo.after hostOps14 (W28 m ρ c) (Proc.devRef .tc main_arg4) = _
  simp only [hostOps14]
  after_results
  exact at28_main_arg4 m ρ c
set_option maxHeartbeats 1000000 in
theorem at29_main_v1 (c : Dev nD) : W29 m ρ c (Proc.devRef .tc main_v1) = K.src (args m c).a1 := by
  show StableHlo.after hostOps14 (W28 m ρ c) (Proc.devRef .tc main_v1) = _
  simp only [hostOps14]
  after_results
  exact at28_main_v1 m ρ c
set_option maxHeartbeats 1000000 in
theorem at29_main_v3 (c : Dev nD) : W29 m ρ c (Proc.devRef .tc main_v3) = K.dst (args m c).a1 := by
  show StableHlo.after hostOps14 (W28 m ρ c) (Proc.devRef .tc main_v3) = _
  simp only [hostOps14]
  after_results
  exact at28_main_v3 m ρ c
set_option maxHeartbeats 1000000 in
theorem at29_main_v112 (c : Dev nD) : W29 m ρ c (Proc.devRef .tc main_v112) = kH6 (args m c) := by
  show StableHlo.after hostOps14 (W28 m ρ c) (Proc.devRef .tc main_v112) = _
  simp only [hostOps14]
  after_results
  exact at28_main_v112 m ρ c
set_option maxHeartbeats 1000000 in
theorem at29_main_v114 (c : Dev nD) : W29 m ρ c (Proc.devRef .tc main_v114) = K.gW2 (K.gT (args m c).a6) := by
  show StableHlo.after hostOps14 (W28 m ρ c) (Proc.devRef .tc main_v114) = _
  simp only [hostOps14]
  after_results
  exact at28_main_v114 m ρ c
set_option maxHeartbeats 1000000 in
theorem at29_main_v116 (c : Dev nD) : W29 m ρ c (Proc.devRef .tc main_v116) = K.gW2 (K.gT (args m c).a5) := by
  show StableHlo.after hostOps14 (W28 m ρ c) (Proc.devRef .tc main_v116) = _
  simp only [hostOps14]
  after_results
  exact at28_main_v116 m ρ c
set_option maxHeartbeats 1000000 in
theorem at29_main_v119 (c : Dev nD) : W29 m ρ c (Proc.devRef .tc main_v119) = K.gB2 (args m c).a8 := by
  show StableHlo.after hostOps14 (W28 m ρ c) (Proc.devRef .tc main_v119) = _
  simp only [hostOps14]
  after_results
  exact at28_main_v119 m ρ c
set_option maxHeartbeats 1000000 in
theorem at29_main_v122 (c : Dev nD) : W29 m ρ c (Proc.devRef .tc main_v122) = K.gB2 (args m c).a7 := by
  show StableHlo.after hostOps14 (W28 m ρ c) (Proc.devRef .tc main_v122) = _
  simp only [hostOps14]
  after_results
  exact at28_main_v122 m ρ c
set_option maxHeartbeats 1000000 in
theorem at29_main_v125_1 (c : Dev nD) : W29 m ρ c (Proc.devRef .tc main_v125_1) = kG6 (args m c) := by
  show StableHlo.after hostOps14 (W28 m ρ c) (Proc.devRef .tc main_v125_1) = _
  simp only [hostOps14]
  after_results
  exact at28_main_v125_1 m ρ c
set_option maxHeartbeats 1000000 in
theorem at29_main_v135 (c : Dev nD) : W29 m ρ c (Proc.devRef .tc main_v135) = kA6 (args m c) := by
  show StableHlo.after hostOps14 (W28 m ρ c) (Proc.devRef .tc main_v135) = _
  simp only [hostOps14]
  after_results
  exact (cg3 K.agg (at28_main_v125_0 m ρ c) (at28_main_v1 m ρ c) (at28_main_v3 m ρ c)).trans (agg_eq _ _ _)

/-! ## Boundary 30 -/

theorem at30_main_arg4 (c : Dev nD) : W30 m ρ c (Proc.devRef .tc main_arg4) = (args m c).a4 :=
  (W30_of_ne m ρ c main_arg4 (by decide)).trans (at29_main_arg4 m ρ c)
theorem at30_main_v1 (c : Dev nD) : W30 m ρ c (Proc.devRef .tc main_v1) = K.src (args m c).a1 :=
  (W30_of_ne m ρ c main_v1 (by decide)).trans (at29_main_v1 m ρ c)
theorem at30_main_v3 (c : Dev nD) : W30 m ρ c (Proc.devRef .tc main_v3) = K.dst (args m c).a1 :=
  (W30_of_ne m ρ c main_v3 (by decide)).trans (at29_main_v3 m ρ c)
theorem at30_main_v114 (c : Dev nD) : W30 m ρ c (Proc.devRef .tc main_v114) = K.gW2 (K.gT (args m c).a6) :=
  (W30_of_ne m ρ c main_v114 (by decide)).trans (at29_main_v114 m ρ c)
theorem at30_main_v116 (c : Dev nD) : W30 m ρ c (Proc.devRef .tc main_v116) = K.gW2 (K.gT (args m c).a5) :=
  (W30_arr m ρ c 3).trans (((dat14 (V29 m ρ) c).arrAt_in 3 rfl _).trans ((A_eq14 (V29 m ρ) c 3).trans (at29_main_v116 m ρ c)))
theorem at30_main_v119 (c : Dev nD) : W30 m ρ c (Proc.devRef .tc main_v119) = K.gB2 (args m c).a8 :=
  (W30_of_ne m ρ c main_v119 (by decide)).trans (at29_main_v119 m ρ c)
theorem at30_main_v122 (c : Dev nD) : W30 m ρ c (Proc.devRef .tc main_v122) = K.gB2 (args m c).a7 :=
  (W30_arr m ρ c 4).trans (((dat14 (V29 m ρ) c).arrAt_in 4 rfl _).trans ((A_eq14 (V29 m ρ) c 4).trans (at29_main_v122 m ρ c)))
theorem at30_main_v136 (c : Dev nD) : W30 m ρ c (Proc.devRef .tc main_v136) = kH7 (args m c) :=
  (W30_arr m ρ c 5).trans ((Reg14.out (V29 m ρ) c).trans (cg5 (fun a w b g h => rUpd (rGate a w b) g h) (at29_main_v135 m ρ c) (at29_main_v116 m ρ c) (at29_main_v122 m ρ c) (at29_main_v125_1 m ρ c) (at29_main_v112 m ρ c)))

end Cert.Bridge.Chain

end
-- ==== Proof.Val15.lean ====
/-
  What the message-and-gate region leaves in its two output arrays, as whole-array functions of the arrays it finds at
  entry. The region runs fifty grid points; point `t` loads rows `2000·t … 2000·t + 1999` of the state and the three small
  operands whole, and writes back the same rows of the two outputs. So element `(p, q)` of a block is element
  `(2000·t + p, q)` of its array; the body's value there is a row-by-matrix sum, which is the reference's product at that
  element; and the fifty blocks tile each output array, so the array ends at the reference's whole-array term.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg15

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the state, the round's matrix, the state gate's matrix and
    bias row. -/
abbrev aH (c : Dev nD) : FVec Ideal S100000x32 .f32 := V c main_v136
abbrev aC (c : Dev nD) : FVec Ideal S32x32 .f32 := V c main_v138
abbrev aW (c : Dev nD) : FVec Ideal S32x96 .f32 := V c main_v114
abbrev aB (c : Dev nD) : FVec Ideal S1x96 .f32 := V c main_v119

theorem hz : (![0, 0] : Fin 2 → Nat) = fun _ => 0 := funext fun a => by fin_cases a <;> rfl

/-- The printed index maps, decided over the fifty grid points: the state window and both output windows sit at block row
    `t`, block column 0; the three small operands at block (0, 0). -/
theorem idx : ∀ t : Fin cfg15.N,
    win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = t.val ∧ win15_4.index t (1 : Fin 2) = 0
    ∧ win15_5.index t (0 : Fin 2) = t.val ∧ win15_5.index t (1 : Fin 2) = 0 :=
  (by decide +kernel : ∀ t : Fin grid15.N, _)

/-- Row `p` of point `t`'s block is row `2000·t + p` of the array. -/
def row (t : Fin cfg15.N) (p : Fin 2000) : Fin 100000 :=
  ⟨t.val * 2000 + p.val, by have ht : t.val < 50 := t.isLt; have hp := p.isLt; omega⟩

theorem emb_0 (t : Fin cfg15.N) (p : Fin 2000) (k : Fin 32) :
    ((cfg15.win 0).blk t).view.emb (ix2 p k) = ix2 (row t p) k := by
  obtain ⟨e0, e1, -⟩ := idx t
  funext a; apply Fin.ext
  match a with
  | ⟨0, _⟩ => show win15_0.index t (0 : Fin 2) * 2000 + 1 * p.val = t.val * 2000 + p.val; omega
  | ⟨1, _⟩ => show win15_0.index t (1 : Fin 2) * 32 + 1 * k.val = k.val; omega

theorem emb_1 (t : Fin cfg15.N) (k : Fin 32) (q : Fin 32) :
    ((cfg15.win 1).blk t).view.emb (ix2 k q) = ix2 k q := by
  obtain ⟨-, -, e0, e1, -⟩ := idx t
  funext a; apply Fin.ext
  match a with
  | ⟨0, _⟩ => show win15_1.index t (0 : Fin 2) * 32 + 1 * k.val = k.val; omega
  | ⟨1, _⟩ => show win15_1.index t (1 : Fin 2) * 32 + 1 * q.val = q.val; omega

theorem emb_2 (t : Fin cfg15.N) (k : Fin 32) (q : Fin 96) :
    ((cfg15.win 2).blk t).view.emb (ix2 k q) = ix2 k q := by
  obtain ⟨-, -, -, -, e0, e1, -⟩ := idx t
  funext a; apply Fin.ext
  match a with
  | ⟨0, _⟩ => show win15_2.index t (0 : Fin 2) * 32 + 1 * k.val = k.val; omega
  | ⟨1, _⟩ => show win15_2.index t (1 : Fin 2) * 96 + 1 * q.val = q.val; omega

theorem emb_3 (t : Fin cfg15.N) (z : Fin 1) (q : Fin 96) :
    ((cfg15.win 3).blk t).view.emb (ix2 z q) = ix2 z q := by
  obtain ⟨-, -, -, -, -, -, e0, e1, -⟩ := idx t
  funext a; apply Fin.ext
  match a with
  | ⟨0, _⟩ => show win15_3.index t (0 : Fin 2) * 1 + 1 * z.val = z.val; omega
  | ⟨1, _⟩ => show win15_3.index t (1 : Fin 2) * 96 + 1 * q.val = q.val; omega

theorem emb_4 (t : Fin cfg15.N) (p : Fin 2000) (q : Fin 32) :
    ((cfg15.win 4).blk t).view.emb (ix2 p q) = ix2 (row t p) q := by
  obtain ⟨-, -, -, -, -, -, -, -, e0, e1, -⟩ := idx t
  funext a; apply Fin.ext
  match a with
  | ⟨0, _⟩ => show win15_4.index t (0 : Fin 2) * 2000 + 1 * p.val = t.val * 2000 + p.val; omega
  | ⟨1, _⟩ => show win15_4.index t (1 : Fin 2) * 32 + 1 * q.val = q.val; omega

theorem emb_5 (t : Fin cfg15.N) (p : Fin 2000) (q : Fin 96) :
    ((cfg15.win 5).blk t).view.emb (ix2 p q) = ix2 (row t p) q := by
  obtain ⟨-, -, -, -, -, -, -, -, -, -, e0, e1⟩ := idx t
  funext a; apply Fin.ext
  match a with
  | ⟨0, _⟩ => show win15_5.index t (0 : Fin 2) * 2000 + 1 * p.val = t.val * 2000 + p.val; omega
  | ⟨1, _⟩ => show win15_5.index t (1 : Fin 2) * 96 + 1 * q.val = q.val; omega

/-- What point `t` writes back to the message array is block `t` of the reference's message product of the arrays found at
    entry. -/
theorem flushed_4 (c : Dev nD) (t : Fin cfg15.N) :
    (dat15 V c).flushed 4 t
      = ((cfg15.win 4).blk t).view.read (Elt Ideal) (rMsg (aH V c) (aC V c)) := by
  show (cfg15.win 4).cut (grid15.coords t) ((dat15 V c).after 4 t) = _
  rw [after15_4]
  unfold out15_4
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 32), j = ix2 p q := ⟨j 0, j 1, eq_ix2 j⟩
  refine (pay_msg _ _ p q).trans ?_
  show _ = rMsg (aH V c) (aC V c) (((cfg15.win 4).blk t).view.emb (ix2 p q))
  rw [emb_4 t p q, rMsg_apply]
  refine Finset.sum_congr rfl fun k _ => ?_
  show aH V c (((cfg15.win 0).blk t).view.emb (ix2 p k)) * aC V c (((cfg15.win 1).blk t).view.emb (ix2 k q)) = _
  rw [emb_0 t p k, emb_1 t k q]

/-- What point `t` writes back to the gate array is block `t` of the reference's gate pre-activation of the arrays found at
    entry. -/
theorem flushed_5 (c : Dev nD) (t : Fin cfg15.N) :
    (dat15 V c).flushed 5 t
      = ((cfg15.win 5).blk t).view.read (Elt Ideal) (rGate (aH V c) (aW V c) (aB V c)) := by
  show (cfg15.win 5).cut (grid15.coords t) ((dat15 V c).after 5 t) = _
  rw [after15_5]
  unfold out15_5
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 96), j = ix2 p q := ⟨j 0, j 1, eq_ix2 j⟩
  refine (pay_gate _ _ _ p q).trans ?_
  show _ = rGate (aH V c) (aW V c) (aB V c) (((cfg15.win 5).blk t).view.emb (ix2 p q))
  rw [emb_5 t p q, rGate_apply]
  refine congrArg₂ (· + ·) (Finset.sum_congr rfl fun k _ => ?_) ?_
  · show aH V c (((cfg15.win 0).blk t).view.emb (ix2 p k)) * aW V c (((cfg15.win 2).blk t).view.emb (ix2 k q)) = _
    rw [emb_0 t p k, emb_2 t k q]
  · show aB V c (((cfg15.win 3).blk t).view.emb (ix2 (0 : Fin 1) q)) = _
    rw [emb_3 t 0 q]

/-- Every element of a 100000-row array is in the block of the point that holds its row. -/
theorem cover_4 (i : S100000x32.Idx) :
    ∃ t : Fin cfg15.N, (cfg15.win 4).flush t = true ∧ i ∈ ((cfg15.win 4).blk t).view.set := by
  have hi0 : (i 0).val < 100000 := (i 0).isLt
  have hi1 : (i 1).val < 32 := (i 1).isLt
  let t : Fin cfg15.N := ⟨(i 0).val / 2000, by show (i 0).val / 2000 < 50; omega⟩
  refine ⟨t, flush15_4 t, ?_⟩
  obtain ⟨-, -, -, -, -, -, -, -, e0, e1, -⟩ := idx t
  show i ∈ ((View.whole main_v139_0).slice (win15_4.rect t)).set
  rw [View.set_slice_whole, Rect.mem_set_unit]
  intro a
  match a with
  | ⟨0, _⟩ => show win15_4.index t (0 : Fin 2) * 2000 ≤ (i 0).val ∧ (i 0).val < win15_4.index t (0 : Fin 2) * 2000 + 2000
              have : t.val = (i 0).val / 2000 := rfl
              omega
  | ⟨1, _⟩ => show win15_4.index t (1 : Fin 2) * 32 ≤ (i 1).val ∧ (i 1).val < win15_4.index t (1 : Fin 2) * 32 + 32; omega

theorem cover_5 (i : S100000x96.Idx) :
    ∃ t : Fin cfg15.N, (cfg15.win 5).flush t = true ∧ i ∈ ((cfg15.win 5).blk t).view.set := by
  have hi0 : (i 0).val < 100000 := (i 0).isLt
  have hi1 : (i 1).val < 96 := (i 1).isLt
  let t : Fin cfg15.N := ⟨(i 0).val / 2000, by show (i 0).val / 2000 < 50; omega⟩
  refine ⟨t, flush15_5 t, ?_⟩
  obtain ⟨-, -, -, -, -, -, -, -, -, -, e0, e1⟩ := idx t
  show i ∈ ((View.whole main_v139_1).slice (win15_5.rect t)).set
  rw [View.set_slice_whole, Rect.mem_set_unit]
  intro a
  match a with
  | ⟨0, _⟩ => show win15_5.index t (0 : Fin 2) * 2000 ≤ (i 0).val ∧ (i 0).val < win15_5.index t (0 : Fin 2) * 2000 + 2000
              have : t.val = (i 0).val / 2000 := rfl
              omega
  | ⟨1, _⟩ => show win15_5.index t (1 : Fin 2) * 96 ≤ (i 1).val ∧ (i 1).val < win15_5.index t (1 : Fin 2) * 96 + 96; omega

/-- The message array after the region: the reference's message product of the state and the matrix found at entry. -/
theorem msg (c : Dev nD) : (dat15 V c).arrAt 4 cfg15.N = rMsg (V c main_v136) (V c main_v138) :=
  (dat15 V c).arrAt_eq_of_cover 4 _ (fun t _ => flushed_4 V c t) cover_4

/-- The state-gate array after the region: the reference's gate pre-activation of the state, the matrix and the bias row
    found at entry. -/
theorem gate (c : Dev nD) : (dat15 V c).arrAt 5 cfg15.N = rGate (V c main_v136) (V c main_v114) (V c main_v119) :=
  (dat15 V c).arrAt_eq_of_cover 5 _ (fun t _ => flushed_5 V c t) cover_5

end Cert.Bridge.Reg15

end
-- ==== Proof.Val16.lean ====
/-
  What the update region leaves in its output array, as a whole-array function of the arrays it finds at entry. The region
  runs fifty grid points; point `t` loads rows `2000·t … 2000·t + 1999` of the aggregate, of the state gate and of the
  state, and the gate matrix and bias row whole, and writes back the same rows of the new state. Element `(p, q)` of a
  block is element `(2000·t + p, q)` of its array. The body forms the aggregate's gate pre-activation at the three columns
  `q`, `q + 32`, `q + 64` of row `p` and applies the gated rule with the loaded state gate at the same columns and the
  loaded state at `(p, q)`; the reference's update of the reference's gate pre-activation reads the same seven numbers at
  row `2000·t + p`. The fifty blocks tile the output array.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg16

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the aggregate, the state gate, the state, the aggregate
    gate's matrix and bias row. -/
abbrev aA (c : Dev nD) : FVec Ideal S100000x32 .f32 := V c main_v149
abbrev aG (c : Dev nD) : FVec Ideal S100000x96 .f32 := V c main_v139_1
abbrev aH (c : Dev nD) : FVec Ideal S100000x32 .f32 := V c main_v136
abbrev aW (c : Dev nD) : FVec Ideal S32x96 .f32 := V c main_v116
abbrev aB (c : Dev nD) : FVec Ideal S1x96 .f32 := V c main_v122

theorem hz : (![0, 0] : Fin 2 → Nat) = fun _ => 0 := funext fun a => by fin_cases a <;> rfl

/-- The printed index maps, decided over the fifty grid points: the aggregate, state-gate, state and output windows sit at
    block row `t`, block column 0; the gate matrix and the bias row at block (0, 0). -/
theorem idx : ∀ t : Fin cfg16.N,
    win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0
    ∧ win16_3.index t (0 : Fin 2) = 0 ∧ win16_3.index t (1 : Fin 2) = 0
    ∧ win16_4.index t (0 : Fin 2) = 0 ∧ win16_4.index t (1 : Fin 2) = 0
    ∧ win16_5.index t (0 : Fin 2) = t.val ∧ win16_5.index t (1 : Fin 2) = 0 :=
  (by decide +kernel : ∀ t : Fin grid16.N, _)

/-- Row `p` of point `t`'s block is row `2000·t + p` of the array. -/
def row (t : Fin cfg16.N) (p : Fin 2000) : Fin 100000 :=
  ⟨t.val * 2000 + p.val, by have ht : t.val < 50 := t.isLt; have hp := p.isLt; omega⟩

theorem emb_0 (t : Fin cfg16.N) (p : Fin 2000) (k : Fin 32) :
    ((cfg16.win 0).blk t).view.emb (ix2 p k) = ix2 (row t p) k := by
  obtain ⟨e0, e1, -⟩ := idx t
  funext a; apply Fin.ext
  match a with
  | ⟨0, _⟩ => show win16_0.index t (0 : Fin 2) * 2000 + 1 * p.val = t.val * 2000 + p.val; omega
  | ⟨1, _⟩ => show win16_0.index t (1 : Fin 2) * 32 + 1 * k.val = k.val; omega

theorem emb_1 (t : Fin cfg16.N) (p : Fin 2000) (j : Fin 96) :
    ((cfg16.win 1).blk t).view.emb (ix2 p j) = ix2 (row t p) j := by
  obtain ⟨-, -, e0, e1, -⟩ := idx t
  funext a; apply Fin.ext
  match a with
  | ⟨0, _⟩ => show win16_1.index t (0 : Fin 2) * 2000 + 1 * p.val = t.val * 2000 + p.val; omega
  | ⟨1, _⟩ => show win16_1.index t (1 : Fin 2) * 96 + 1 * j.val = j.val; omega

theorem emb_2 (t : Fin cfg16.N) (p : Fin 2000) (q : Fin 32) :
    ((cfg16.win 2).blk t).view.emb (ix2 p q) = ix2 (row t p) q := by
  obtain ⟨-, -, -, -, e0, e1, -⟩ := idx t
  funext a; apply Fin.ext
  match a with
  | ⟨0, _⟩ => show win16_2.index t (0 : Fin 2) * 2000 + 1 * p.val = t.val * 2000 + p.val; omega
  | ⟨1, _⟩ => show win16_2.index t (1 : Fin 2) * 32 + 1 * q.val = q.val; omega

theorem emb_3 (t : Fin cfg16.N) (k : Fin 32) (j : Fin 96) :
    ((cfg16.win 3).blk t).view.emb (ix2 k j) = ix2 k j := by
  obtain ⟨-, -, -, -, -, -, e0, e1, -⟩ := idx t
  funext a; apply Fin.ext
  match a with
  | ⟨0, _⟩ => show win16_3.index t (0 : Fin 2) * 32 + 1 * k.val = k.val; omega
  | ⟨1, _⟩ => show win16_3.index t (1 : Fin 2) * 96 + 1 * j.val = j.val; omega

theorem emb_4 (t : Fin cfg16.N) (z : Fin 1) (j : Fin 96) :
    ((cfg16.win 4).blk t).view.emb (ix2 z j) = ix2 z j := by
  obtain ⟨-, -, -, -, -, -, -, -, e0, e1, -⟩ := idx t
  funext a; apply Fin.ext
  match a with
  | ⟨0, _⟩ => show win16_4.index t (0 : Fin 2) * 1 + 1 * z.val = z.val; omega
  | ⟨1, _⟩ => show win16_4.index t (1 : Fin 2) * 96 + 1 * j.val = j.val; omega

theorem emb_5 (t : Fin cfg16.N) (p : Fin 2000) (q : Fin 32) :
    ((cfg16.win 5).blk t).view.emb (ix2 p q) = ix2 (row t p) q := by
  obtain ⟨-, -, -, -, -, -, -, -, -, -, e0, e1⟩ := idx t
  funext a; apply Fin.ext
  match a with
  | ⟨0, _⟩ => show win16_5.index t (0 : Fin 2) * 2000 + 1 * p.val = t.val * 2000 + p.val; omega
  | ⟨1, _⟩ => show win16_5.index t (1 : Fin 2) * 32 + 1 * q.val = q.val; omega

/-- The gated rule at equal arguments. -/
theorem gru_congr {a1 a2 a3 a4 a5 a6 a7 b1 b2 b3 b4 b5 b6 b7 : EReal} (h1 : a1 = b1) (h2 : a2 = b2) (h3 : a3 = b3)
    (h4 : a4 = b4) (h5 : a5 = b5) (h6 : a6 = b6) (h7 : a7 = b7) :
    gru a1 a2 a3 a4 a5 a6 a7 = gru b1 b2 b3 b4 b5 b6 b7 := by rw [h1, h2, h3, h4, h5, h6, h7]

/-- The aggregate's gate pre-activation formed from point `t`'s blocks at row `p`, column `j`, is the one formed from the
    arrays at row `2000·t + p`. -/
theorem gate_at (c : Dev nD) (t : Fin cfg16.N) (p : Fin 2000) (j : Fin 96) :
    (∑ k : Fin 32, aA V c (((cfg16.win 0).blk t).view.emb (ix2 p k)) * aW V c (((cfg16.win 3).blk t).view.emb (ix2 k j)))
        + aB V c (((cfg16.win 4).blk t).view.emb (ix2 (0 : Fin 1) j))
      = (∑ k : Fin 32, aA V c (ix2 (row t p) k) * aW V c (ix2 k j)) + aB V c (ix2 (0 : Fin 1) j) := by
  refine congrArg₂ (· + ·) (Finset.sum_congr rfl fun k _ => ?_) ?_
  · rw [emb_0 t p k, emb_3 t k j]
  · rw [emb_4 t 0 j]

/-- What point `t` writes back is block `t` of the reference's update of the arrays found at entry. -/
theorem flushed_5 (c : Dev nD) (t : Fin cfg16.N) :
    (dat16 V c).flushed 5 t
      = ((cfg16.win 5).blk t).view.read (Elt Ideal)
          (rUpd (rGate (aA V c) (aW V c) (aB V c)) (aG V c) (aH V c)) := by
  show (cfg16.win 5).cut (grid16.coords t) ((dat16 V c).after 5 t) = _
  rw [after16_5]
  unfold out16_5
  rw [View.canon_unit_zero hz]
  simp only [View.ld_unit_zero (S := S2000x32) hz, View.ld_unit_zero (S := S2000x96) hz, View.ld_unit_zero (S := S32x96) hz, View.ld_unit_zero (S := S1x96) hz]
  funext j
  obtain ⟨p, q, rfl⟩ : ∃ (p : Fin 2000) (q : Fin 32), j = ix2 p q := ⟨j 0, j 1, eq_ix2 j⟩
  refine (pay_upd _ _ _ _ _ p q).trans ?_
  show _ = rUpd (rGate (aA V c) (aW V c) (aB V c)) (aG V c) (aH V c)
      (((cfg16.win 5).blk t).view.emb (ix2 p q))
  rw [emb_5 t p q, rUpd_apply, rGate_apply, rGate_apply, rGate_apply]
  refine gru_congr (gate_at V c t p (col0 q)) (gate_at V c t p (col1 q)) (gate_at V c t p (col2 q)) ?_ ?_ ?_ ?_
  · show aG V c (((cfg16.win 1).blk t).view.emb (ix2 p (col0 q))) = _
    rw [emb_1 t p (col0 q)]
  · show aG V c (((cfg16.win 1).blk t).view.emb (ix2 p (col1 q))) = _
    rw [emb_1 t p (col1 q)]
  · show aG V c (((cfg16.win 1).blk t).view.emb (ix2 p (col2 q))) = _
    rw [emb_1 t p (col2 q)]
  · show aH V c (((cfg16.win 2).blk t).view.emb (ix2 p q)) = _
    rw [emb_2 t p q]

/-- Every element of the output array is in the block of the point that holds its row. -/
theorem cover_5 (i : S100000x32.Idx) :
    ∃ t : Fin cfg16.N, (cfg16.win 5).flush t = true ∧ i ∈ ((cfg16.win 5).blk t).view.set := by
  have hi0 : (i 0).val < 100000 := (i 0).isLt
  have hi1 : (i 1).val < 32 := (i 1).isLt
  let t : Fin cfg16.N := ⟨(i 0).val / 2000, by show (i 0).val / 2000 < 50; omega⟩
  refine ⟨t, flush16_5 t, ?_⟩
  obtain ⟨-, -, -, -, -, -, -, -, -, -, e0, e1⟩ := idx t
  show i ∈ ((View.whole main_v150).slice (win16_5.rect t)).set
  rw [View.set_slice_whole, Rect.mem_set_unit]
  intro a
  match a with
  | ⟨0, _⟩ => show win16_5.index t (0 : Fin 2) * 2000 ≤ (i 0).val ∧ (i 0).val < win16_5.index t (0 : Fin 2) * 2000 + 2000
              have : t.val = (i 0).val / 2000 := rfl
              omega
  | ⟨1, _⟩ => show win16_5.index t (1 : Fin 2) * 32 ≤ (i 1).val ∧ (i 1).val < win16_5.index t (1 : Fin 2) * 32 + 32; omega

/-- The output array after the region: the reference's update, from the reference's gate pre-activation of the aggregate,
    the state gate and the state found at entry. -/
theorem out (c : Dev nD) :
    (dat16 V c).arrAt 5 cfg16.N = rUpd (rGate (V c main_v149) (V c main_v116) (V c main_v122)) (V c main_v139_1) (V c main_v136) :=
  (dat16 V c).arrAt_eq_of_cover 5 _ (fun t _ => flushed_5 V c t) cover_5

end Cert.Bridge.Reg16

end
-- ==== Proof.ChainR7.lean ====
/-
  Round 7: the contents at the entries and exits of its two regions.
-/
import proofs.«421494_j30356828848478_1_alg».proof.Proof.ChainR6
import proofs.«421494_j30356828848478_1_alg».proof.Proof.Val15
import proofs.«421494_j30356828848478_1_alg».proof.Proof.Val16

set_option maxRecDepth 16384

noncomputable section

namespace Cert.Bridge.Chain

open Idealize.ShloMosaic Idealize.ShloMosaic.TcCoe Idealize.SL.Sem
open Cert.KernelIdeal Cert.KernelIdeal.Gen Cert.Bridge

variable (m : (ℓ : Loc nD τ sig) → Buf (Elt Ideal) ℓ) (ρ : Dev nD → PrngReg)

/-! ## Boundary 31 -/

set_option maxHeartbeats 1000000 in
theorem at31_main_arg4 (c : Dev nD) : W31 m ρ c (Proc.devRef .tc main_arg4) = (args m c).a4 := by
  show StableHlo.after hostOps15 (W30 m ρ c) (Proc.devRef .tc main_arg4) = _
  simp only [hostOps15]
  after_results
  exact at30_main_arg4 m ρ c
set_option maxHeartbeats 1000000 in
theorem at31_main_v1 (c : Dev nD) : W31 m ρ c (Proc.devRef .tc main_v1) = K.src (args m c).a1 := by
  show StableHlo.after hostOps15 (W30 m ρ c) (Proc.devRef .tc main_v1) = _
  simp only [hostOps15]
  after_results
  exact at30_main_v1 m ρ c
set_option maxHeartbeats 1000000 in
theorem at31_main_v3 (c : Dev nD) : W31 m ρ c (Proc.devRef .tc main_v3) = K.dst (args m c).a1 := by
  show StableHlo.after hostOps15 (W30 m ρ c) (Proc.devRef .tc main_v3) = _
  simp only [hostOps15]
  after_results
  exact at30_main_v3 m ρ c
set_option maxHeartbeats 1000000 in
theorem at31_main_v114 (c : Dev nD) : W31 m ρ c (Proc.devRef .tc main_v114) = K.gW2 (K.gT (args m c).a6) := by
  show StableHlo.after hostOps15 (W30 m ρ c) (Proc.devRef .tc main_v114) = _
  simp only [hostOps15]
  after_results
  exact at30_main_v114 m ρ c
set_option maxHeartbeats 1000000 in
theorem at31_main_v116 (c : Dev nD) : W31 m ρ c (Proc.devRef .tc main_v116) = K.gW2 (K.gT (args m c).a5) := by
  show StableHlo.after hostOps15 (W30 m ρ c) (Proc.devRef .tc main_v116) = _
  simp only [hostOps15]
  after_results
  exact at30_main_v116 m ρ c
set_option maxHeartbeats 1000000 in
theorem at31_main_v119 (c : Dev nD) : W31 m ρ c (Proc.devRef .tc main_v119) = K.gB2 (args m c).a8 := by
  show StableHlo.after hostOps15 (W30 m ρ c) (Proc.devRef .tc main_v119) = _
  simp only [hostOps15]
  after_results
  exact at30_main_v119 m ρ c
set_option maxHeartbeats 1000000 in
theorem at31_main_v122 (c : Dev nD) : W31 m ρ c (Proc.devRef .tc main_v122) = K.gB2 (args m c).a7 := by
  show StableHlo.after hostOps15 (W30 m ρ c) (Proc.devRef .tc main_v122) = _
  simp only [hostOps15]
  after_results
  exact at30_main_v122 m ρ c
set_option maxHeartbeats 1000000 in
theorem at31_main_v136 (c : Dev nD) : W31 m ρ c (Proc.devRef .tc main_v136) = kH7 (args m c) := by
  show StableHlo.after hostOps15 (W30 m ρ c) (Proc.devRef .tc main_v136) = _
  simp only [hostOps15]
  after_results
  exact at30_main_v136 m ρ c
set_option maxHeartbeats 1000000 in
theorem at31_main_v138 (c : Dev nD) : W31 m ρ c (Proc.devRef .tc main_v138) = K.conv21 (args m c).a4 := by
  show StableHlo.after hostOps15 (W30 m ρ c) (Proc.devRef .tc main_v138) = _
  simp only [hostOps15]
  after_results
  rw [at30_main_arg4 m ρ c]
  rfl

/-! ## Boundary 32 -/

theorem at32_main_arg4 (c : Dev nD) : W32 m ρ c (Proc.devRef .tc main_arg4) = (args m c).a4 :=
  (W32_of_ne m ρ c main_arg4 (by decide)).trans (at31_main_arg4 m ρ c)
theorem at32_main_v1 (c : Dev nD) : W32 m ρ c (Proc.devRef .tc main_v1) = K.src (args m c).a1 :=
  (W32_of_ne m ρ c main_v1 (by decide)).trans (at31_main_v1 m ρ c)
theorem at32_main_v3 (c : Dev nD) : W32 m ρ c (Proc.devRef .tc main_v3) = K.dst (args m c).a1 :=
  (W32_of_ne m ρ c main_v3 (by decide)).trans (at31_main_v3 m ρ c)
theorem at32_main_v114 (c : Dev nD) : W32 m ρ c (Proc.devRef .tc main_v114) = K.gW2 (K.gT (args m c).a6) :=
  (W32_arr m ρ c 2).trans (((dat15 (V31 m ρ) c).arrAt_in 2 rfl _).trans ((A_eq15 (V31 m ρ) c 2).trans (at31_main_v114 m ρ c)))
theorem at32_main_v116 (c : Dev nD) : W32 m ρ c (Proc.devRef .tc main_v116) = K.gW2 (K.gT (args m c).a5) :=
  (W32_of_ne m ρ c main_v116 (by decide)).trans (at31_main_v116 m ρ c)
theorem at32_main_v119 (c : Dev nD) : W32 m ρ c (Proc.devRef .tc main_v119) = K.gB2 (args m c).a8 :=
  (W32_arr m ρ c 3).trans (((dat15 (V31 m ρ) c).arrAt_in 3 rfl _).trans ((A_eq15 (V31 m ρ) c 3).trans (at31_main_v119 m ρ c)))
theorem at32_main_v122 (c : Dev nD) : W32 m ρ c (Proc.devRef .tc main_v122) = K.gB2 (args m c).a7 :=
  (W32_of_ne m ρ c main_v122 (by decide)).trans (at31_main_v122 m ρ c)
theorem at32_main_v136 (c : Dev nD) : W32 m ρ c (Proc.devRef .tc main_v136) = kH7 (args m c) :=
  (W32_arr m ρ c 0).trans (((dat15 (V31 m ρ) c).arrAt_in 0 rfl _).trans ((A_eq15 (V31 m ρ) c 0).trans (at31_main_v136 m ρ c)))
theorem at32_main_v139_0 (c : Dev nD) : W32 m ρ c (Proc.devRef .tc main_v139_0) = kM7 (args m c) :=
  (W32_arr m ρ c 4).trans ((Reg15.msg (V31 m ρ) c).trans (cg2 rMsg (at31_main_v136 m ρ c) (at31_main_v138 m ρ c)))
theorem at32_main_v139_1 (c : Dev nD) : W32 m ρ c (Proc.devRef .tc main_v139_1) = kG7 (args m c) :=
  (W32_arr m ρ c 5).trans ((Reg15.gate (V31 m ρ) c).trans (cg3 rGate (at31_main_v136 m ρ c) (at31_main_v114 m ρ c) (at31_main_v119 m ρ c)))

/-! ## Boundary 33 -/

set_option maxHeartbeats 1000000 in
theorem at33_main_arg4 (c : Dev nD) : W33 m ρ c (Proc.devRef .tc main_arg4) = (args m c).a4 := by
  show StableHlo.after hostOps16 (W32 m ρ c) (Proc.devRef .tc main_arg4) = _
  simp only [hostOps16]
  after_results
  exact at32_main_arg4 m ρ c
set_option maxHeartbeats 1000000 in
theorem at33_main_v1 (c : Dev nD) : W33 m ρ c (Proc.devRef .tc main_v1) = K.src (args m c).a1 := by
  show StableHlo.after hostOps16 (W32 m ρ c) (Proc.devRef .tc main_v1) = _
  simp only [hostOps16]
  after_results
  exact at32_main_v1 m ρ c
set_option maxHeartbeats 1000000 in
theorem at33_main_v3 (c : Dev nD) : W33 m ρ c (Proc.devRef .tc main_v3) = K.dst (args m c).a1 := by
  show StableHlo.after hostOps16 (W32 m ρ c) (Proc.devRef .tc main_v3) = _
  simp only [hostOps16]
  after_results
  exact at32_main_v3 m ρ c
set_option maxHeartbeats 1000000 in
theorem at33_main_v114 (c : Dev nD) : W33 m ρ c (Proc.devRef .tc main_v114) = K.gW2 (K.gT (args m c).a6) := by
  show StableHlo.after hostOps16 (W32 m ρ c) (Proc.devRef .tc main_v114) = _
  simp only [hostOps16]
  after_results
  exact at32_main_v114 m ρ c
set_option maxHeartbeats 1000000 in
theorem at33_main_v116 (c : Dev nD) : W33 m ρ c (Proc.devRef .tc main_v116) = K.gW2 (K.gT (args m c).a5) := by
  show StableHlo.after hostOps16 (W32 m ρ c) (Proc.devRef .tc main_v116) = _
  simp only [hostOps16]
  after_results
  exact at32_main_v116 m ρ c
set_option maxHeartbeats 1000000 in
theorem at33_main_v119 (c : Dev nD) : W33 m ρ c (Proc.devRef .tc main_v119) = K.gB2 (args m c).a8 := by
  show StableHlo.after hostOps16 (W32 m ρ c) (Proc.devRef .tc main_v119) = _
  simp only [hostOps16]
  after_results
  exact at32_main_v119 m ρ c
set_option maxHeartbeats 1000000 in
theorem at33_main_v122 (c : Dev nD) : W33 m ρ c (Proc.devRef .tc main_v122) = K.gB2 (args m c).a7 := by
  show StableHlo.after hostOps16 (W32 m ρ c) (Proc.devRef .tc main_v122) = _
  simp only [hostOps16]
  after_results
  exact at32_main_v122 m ρ c
set_option maxHeartbeats 1000000 in
theorem at33_main_v136 (c : Dev nD) : W33 m ρ c (Proc.devRef .tc main_v136) = kH7 (args m c) := by
  show StableHlo.after hostOps16 (W32 m ρ c) (Proc.devRef .tc main_v136) = _
  simp only [hostOps16]
  after_results
  exact at32_main_v136 m ρ c
set_option maxHeartbeats 1000000 in
theorem at33_main_v139_1 (c : Dev nD) : W33 m ρ c (Proc.devRef .tc main_v139_1) = kG7 (args m c) := by
  show StableHlo.after hostOps16 (W32 m ρ c) (Proc.devRef .tc main_v139_1) = _
  simp only [hostOps16]
  after_results
  exact at32_main_v139_1 m ρ c
set_option maxHeartbeats 1000000 in
theorem at33_main_v149 (c : Dev nD) : W33 m ρ c (Proc.devRef .tc main_v149) = kA7 (args m c) := by
  show StableHlo.after hostOps16 (W32 m ρ c) (Proc.devRef .tc main_v149) = _
  simp only [hostOps16]
  after_results
  exact (cg3 K.agg (at32_main_v139_0 m ρ c) (at32_main_v1 m ρ c) (at32_main_v3 m ρ c)).trans (agg_eq _ _ _)

/-! ## Boundary 34 -/

theorem at34_main_arg4 (c : Dev nD) : W34 m ρ c (Proc.devRef .tc main_arg4) = (args m c).a4 :=
  (W34_of_ne m ρ c main_arg4 (by decide)).trans (at33_main_arg4 m ρ c)
theorem at34_main_v1 (c : Dev nD) : W34 m ρ c (Proc.devRef .tc main_v1) = K.src (args m c).a1 :=
  (W34_of_ne m ρ c main_v1 (by decide)).trans (at33_main_v1 m ρ c)
theorem at34_main_v3 (c : Dev nD) : W34 m ρ c (Proc.devRef .tc main_v3) = K.dst (args m c).a1 :=
  (W34_of_ne m ρ c main_v3 (by decide)).trans (at33_main_v3 m ρ c)
theorem at34_main_v114 (c : Dev nD) : W34 m ρ c (Proc.devRef .tc main_v114) = K.gW2 (K.gT (args m c).a6) :=
  (W34_of_ne m ρ c main_v114 (by decide)).trans (at33_main_v114 m ρ c)
theorem at34_main_v116 (c : Dev nD) : W34 m ρ c (Proc.devRef .tc main_v116) = K.gW2 (K.gT (args m c).a5) :=
  (W34_arr m ρ c 3).trans (((dat16 (V33 m ρ) c).arrAt_in 3 rfl _).trans ((A_eq16 (V33 m ρ) c 3).trans (at33_main_v116 m ρ c)))
theorem at34_main_v119 (c : Dev nD) : W34 m ρ c (Proc.devRef .tc main_v119) = K.gB2 (args m c).a8 :=
  (W34_of_ne m ρ c main_v119 (by decide)).trans (at33_main_v119 m ρ c)
theorem at34_main_v122 (c : Dev nD) : W34 m ρ c (Proc.devRef .tc main_v122) = K.gB2 (args m c).a7 :=
  (W34_arr m ρ c 4).trans (((dat16 (V33 m ρ) c).arrAt_in 4 rfl _).trans ((A_eq16 (V33 m ρ) c 4).trans (at33_main_v122 m ρ c)))
theorem at34_main_v150 (c : Dev nD) : W34 m ρ c (Proc.devRef .tc main_v150) = kH8 (args m c) :=
  (W34_arr m ρ c 5).trans ((Reg16.out (V33 m ρ) c).trans (cg5 (fun a w b g h => rUpd (rGate a w b) g h) (at33_main_v149 m ρ c) (at33_main_v116 m ρ c) (at33_main_v122 m ρ c) (at33_main_v139_1 m ρ c) (at33_main_v136 m ρ c)))

end Cert.Bridge.Chain

end
-- ==== Proof.Val17.lean ====
/-
  What the message-and-gate region leaves in its two output arrays, as whole-array functions of the arrays it finds at
  entry. The region runs fifty grid points; point `t` loads rows `2000·t … 2000·t + 1999` of the state and the three small
  operands whole, and writes back the same rows of the two outputs. So element `(p, q)` of a block is element
  `(2000·t + p, q)` of its array; the body's value there is a row-by-matrix sum, which is the reference's product at that
  element; and the fifty blocks tile each output array, so the array ends at the reference's whole-array term.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg17

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the state, the round's matrix, the state gate's matrix and
    bias row. -/
abbrev aH (c : Dev nD) : FVec Ideal S100000x32 .f32 := V c main_v150
abbrev aC (c : Dev nD) : FVec Ideal S32x32 .f32 := V c main_v152
abbrev aW (c : Dev nD) : FVec Ideal S32x96 .f32 := V c main_v114
abbrev aB (c : Dev nD) : FVec Ideal S1x96 .f32 := V c main_v119

theorem hz : (![0, 0] : Fin 2 → Nat) = fun _ => 0 := funext fun a => by fin_cases a <;> rfl

/-- The printed index maps, decided over the fifty grid points: the state window and both output windows sit at block row
    `t`, block column 0; the three small operands at block (0, 0). -/
theorem idx : ∀ t : Fin cfg17.N,
    win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = 0 ∧ win17_3.index t (1 : Fin 2) = 0
    ∧ win17_4.index t (0 : Fin 2) = t.val ∧ win17_4.index t (1 : Fin 2) = 0
    ∧ win17_5.index t (0 : Fin 2) = t.val ∧ win17_5.index t (1 : Fin 2) = 0 :=
  (by decide +kernel : ∀ t : Fin grid17.N, _)

/-- Row `p` of point `t`'s block is row `2000·t + p` of the array. -/
def row (t : Fin cfg17.N) (p : Fin 2000) : Fin 100000 :=
  ⟨t.val * 2000 + p.val, by have ht : t.val < 50 := t.isLt; have hp := p.isLt; omega⟩

theorem emb_0 (t : Fin cfg17.N) (p : Fin 2000) (k : Fin 32) :
    ((cfg17.win 0).blk t).view.emb (ix2 p k) = ix2 (row t p) k := by
  obtain ⟨e0, e1, -⟩ := idx t
  funext a; apply Fin.ext
  match a with
  | ⟨0, _⟩ => show win17_0.index t (0 : Fin 2) * 2000 + 1 * p.val = t.val * 2000 + p.val; omega
  | ⟨1, _⟩ => show win17_0.index t (1 : Fin 2) * 32 + 1 * k.val = k.val; omega

theorem emb_1 (t : Fin cfg17.N) (k : Fin 32) (q : Fin 32) :
    ((cfg17.win 1).blk t).view.emb (ix2 k q) = ix2 k q := by
  obtain ⟨-, -, e0, e1, -⟩ := idx t
  funext a; apply Fin.ext
  match a with
  | ⟨0, _⟩ => show win17_1.index t (0 : Fin 2) * 32 + 1 * k.val = k.val; omega
  | ⟨1, _⟩ => show win17_1.index t (1 : Fin 2) * 32 + 1 * q.val = q.val; omega

theorem emb_2 (t : Fin cfg17.N) (k : Fin 32) (q : Fin 96) :
    ((cfg17.win 2).blk t).view.emb (ix2 k q) = ix2 k q := by
  obtain ⟨-, -, -, -, e0, e1, -⟩ := idx t
  funext a; apply Fin.ext
  match a with
  | ⟨0, _⟩ => show win17_2.index t (0 : Fin 2) * 32 + 1 * k.val = k.val; omega
  | ⟨1, _⟩ => show win17_2.index t (1 : Fin 2) * 96 + 1 * q.val = q.val; omega

theorem emb_3 (t : Fin cfg17.N) (z : Fin 1) (q : Fin 96) :
    ((cfg17.win 3).blk t).view.emb (ix2 z q) = ix2 z q := by
  obtain ⟨-, -, -, -, -, -, e0, e1, -⟩ := idx t
  funext a; apply Fin.ext
  match a with
  | ⟨0, _⟩ => show win17_3.index t (0 : Fin 2) * 1 + 1 * z.val = z.val; omega
  | ⟨1, _⟩ => show win17_3.index t (1 : Fin 2) * 96 + 1 * q.val = q.val; omega

theorem emb_4 (t : Fin cfg17.N) (p : Fin 2000) (q : Fin 32) :
    ((cfg17.win 4).blk t).view.emb (ix2 p q) = ix2 (row t p) q := by
  obtain ⟨-, -, -, -, -, -, -, -, e0, e1, -⟩ := idx t
  funext a; apply Fin.ext
  match a with
  | ⟨0, _⟩ => show win17_4.index t (0 : Fin 2) * 2000 + 1 * p.val = t.val * 2000 + p.val; omega
  | ⟨1, _⟩ => show win17_4.index t (1 : Fin 2) * 32 + 1 * q.val = q.val; omega

theorem emb_5 (t : Fin cfg17.N) (p : Fin 2000) (q : Fin 96) :
    ((cfg17.win 5).blk t).view.emb (ix2 p q) = ix2 (row t p) q := by
  obtain ⟨-, -, -, -, -, -, -, -, -, -, e0, e1⟩ := idx t
  funext a; apply Fin.ext
  match a with
  | ⟨0, _⟩ => show win17_5.index t (0 : Fin 2) * 2000 + 1 * p.val = t.val * 2000 + p.val; omega
  | ⟨1, _⟩ => show win17_5.index t (1 : Fin 2) * 96 + 1 * q.val = q.val; omega

/-- What point `t` writes back to the message array is block `t` of the reference's message product of the arrays found at
    entry. -/
theorem flushed_4 (c : Dev nD) (t : Fin cfg17.N) :
    (dat17 V c).flushed 4 t
      = ((cfg17.win 4).blk t).view.read (Elt Ideal) (rMsg (aH V c) (aC V c)) := by
  show (cfg17.win 4).cut (grid17.coords t) ((dat17 V c).after 4 t) = _
  rw [after17_4]
  unfold out17_4
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 32), j = ix2 p q := ⟨j 0, j 1, eq_ix2 j⟩
  refine (pay_msg _ _ p q).trans ?_
  show _ = rMsg (aH V c) (aC V c) (((cfg17.win 4).blk t).view.emb (ix2 p q))
  rw [emb_4 t p q, rMsg_apply]
  refine Finset.sum_congr rfl fun k _ => ?_
  show aH V c (((cfg17.win 0).blk t).view.emb (ix2 p k)) * aC V c (((cfg17.win 1).blk t).view.emb (ix2 k q)) = _
  rw [emb_0 t p k, emb_1 t k q]

/-- What point `t` writes back to the gate array is block `t` of the reference's gate pre-activation of the arrays found at
    entry. -/
theorem flushed_5 (c : Dev nD) (t : Fin cfg17.N) :
    (dat17 V c).flushed 5 t
      = ((cfg17.win 5).blk t).view.read (Elt Ideal) (rGate (aH V c) (aW V c) (aB V c)) := by
  show (cfg17.win 5).cut (grid17.coords t) ((dat17 V c).after 5 t) = _
  rw [after17_5]
  unfold out17_5
  rw [View.canon_unit_zero hz]
  simp only [View.ld_unit_zero (S := S2000x32) hz, View.ld_unit_zero (S := S32x32) hz, View.ld_unit_zero (S := S32x96) hz, View.ld_unit_zero (S := S1x96) hz, View.ld_unit_zero (S := S2000x96) hz]
  funext j
  obtain ⟨p, q, rfl⟩ : ∃ (p : Fin 2000) (q : Fin 96), j = ix2 p q := ⟨j 0, j 1, eq_ix2 j⟩
  refine (pay_gate _ _ _ p q).trans ?_
  show _ = rGate (aH V c) (aW V c) (aB V c) (((cfg17.win 5).blk t).view.emb (ix2 p q))
  rw [emb_5 t p q, rGate_apply]
  refine congrArg₂ (· + ·) (Finset.sum_congr rfl fun k _ => ?_) ?_
  · show aH V c (((cfg17.win 0).blk t).view.emb (ix2 p k)) * aW V c (((cfg17.win 2).blk t).view.emb (ix2 k q)) = _
    rw [emb_0 t p k, emb_2 t k q]
  · show aB V c (((cfg17.win 3).blk t).view.emb (ix2 (0 : Fin 1) q)) = _
    rw [emb_3 t 0 q]

/-- Every element of a 100000-row array is in the block of the point that holds its row. -/
theorem cover_4 (i : S100000x32.Idx) :
    ∃ t : Fin cfg17.N, (cfg17.win 4).flush t = true ∧ i ∈ ((cfg17.win 4).blk t).view.set := by
  have hi0 : (i 0).val < 100000 := (i 0).isLt
  have hi1 : (i 1).val < 32 := (i 1).isLt
  let t : Fin cfg17.N := ⟨(i 0).val / 2000, by show (i 0).val / 2000 < 50; omega⟩
  refine ⟨t, flush17_4 t, ?_⟩
  obtain ⟨-, -, -, -, -, -, -, -, e0, e1, -⟩ := idx t
  show i ∈ ((View.whole main_v153_0).slice (win17_4.rect t)).set
  rw [View.set_slice_whole, Rect.mem_set_unit]
  intro a
  match a with
  | ⟨0, _⟩ => show win17_4.index t (0 : Fin 2) * 2000 ≤ (i 0).val ∧ (i 0).val < win17_4.index t (0 : Fin 2) * 2000 + 2000
              have : t.val = (i 0).val / 2000 := rfl
              omega
  | ⟨1, _⟩ => show win17_4.index t (1 : Fin 2) * 32 ≤ (i 1).val ∧ (i 1).val < win17_4.index t (1 : Fin 2) * 32 + 32; omega

theorem cover_5 (i : S100000x96.Idx) :
    ∃ t : Fin cfg17.N, (cfg17.win 5).flush t = true ∧ i ∈ ((cfg17.win 5).blk t).view.set := by
  have hi0 : (i 0).val < 100000 := (i 0).isLt
  have hi1 : (i 1).val < 96 := (i 1).isLt
  let t : Fin cfg17.N := ⟨(i 0).val / 2000, by show (i 0).val / 2000 < 50; omega⟩
  refine ⟨t, flush17_5 t, ?_⟩
  obtain ⟨-, -, -, -, -, -, -, -, -, -, e0, e1⟩ := idx t
  show i ∈ ((View.whole main_v153_1).slice (win17_5.rect t)).set
  rw [View.set_slice_whole, Rect.mem_set_unit]
  intro a
  match a with
  | ⟨0, _⟩ => show win17_5.index t (0 : Fin 2) * 2000 ≤ (i 0).val ∧ (i 0).val < win17_5.index t (0 : Fin 2) * 2000 + 2000
              have : t.val = (i 0).val / 2000 := rfl
              omega
  | ⟨1, _⟩ => show win17_5.index t (1 : Fin 2) * 96 ≤ (i 1).val ∧ (i 1).val < win17_5.index t (1 : Fin 2) * 96 + 96; omega

/-- The message array after the region: the reference's message product of the state and the matrix found at entry. -/
theorem msg (c : Dev nD) : (dat17 V c).arrAt 4 cfg17.N = rMsg (V c main_v150) (V c main_v152) :=
  (dat17 V c).arrAt_eq_of_cover 4 _ (fun t _ => flushed_4 V c t) cover_4

/-- The state-gate array after the region: the reference's gate pre-activation of the state, the matrix and the bias row
    found at entry. -/
theorem gate (c : Dev nD) : (dat17 V c).arrAt 5 cfg17.N = rGate (V c main_v150) (V c main_v114) (V c main_v119) :=
  (dat17 V c).arrAt_eq_of_cover 5 _ (fun t _ => flushed_5 V c t) cover_5

end Cert.Bridge.Reg17

end
-- ==== Proof.Val18.lean ====
/-
  What the update region leaves in its output array, as a whole-array function of the arrays it finds at entry. The region
  runs fifty grid points; point `t` loads rows `2000·t … 2000·t + 1999` of the aggregate, of the state gate and of the
  state, and the gate matrix and bias row whole, and writes back the same rows of the new state. Element `(p, q)` of a
  block is element `(2000·t + p, q)` of its array. The body forms the aggregate's gate pre-activation at the three columns
  `q`, `q + 32`, `q + 64` of row `p` and applies the gated rule with the loaded state gate at the same columns and the
  loaded state at `(p, q)`; the reference's update of the reference's gate pre-activation reads the same seven numbers at
  row `2000·t + p`. The fifty blocks tile the output array.
-/
import proofs.«421494_j30356828848478_1_alg».proof.Proof.Gen.KernelIdeal.Frame
import proofs.«421494_j30356828848478_1_alg».proof.Proof.PayApply
import proofs.«421494_j30356828848478_1_alg».proof.Proof.Gen.ReferenceIdeal
import Idealize.ShloMosaic.Lib.Pipeline.Value

set_option maxRecDepth 16384

noncomputable section

open scoped BigOperators

namespace Cert.Bridge.Reg18

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.Bridge

variable (V : (c : Dev nD) → (b : Ref sig .tc) → Buf (Elt Ideal) ((c : Thread nD τ).loc b))

/-- The arrays the region finds at entry, at their literal types: the aggregate, the state gate, the state, the aggregate
    gate's matrix and bias row. -/
abbrev aA (c : Dev nD) : FVec Ideal S100000x32 .f32 := V c main_v163
abbrev aG (c : Dev nD) : FVec Ideal S100000x96 .f32 := V c main_v153_1
abbrev aH (c : Dev nD) : FVec Ideal S100000x32 .f32 := V c main_v150
abbrev aW (c : Dev nD) : FVec Ideal S32x96 .f32 := V c main_v116
abbrev aB (c : Dev nD) : FVec Ideal S1x96 .f32 := V c main_v122

theorem hz : (![0, 0] : Fin 2 → Nat) = fun _ => 0 := funext fun a => by fin_cases a <;> rfl

/-- The printed index maps, decided over the fifty grid points: the aggregate, state-gate, state and output windows sit at
    block row `t`, block column 0; the gate matrix and the bias row at block (0, 0). -/
theorem idx : ∀ t : Fin cfg18.N,
    win18_0.index t (0 : Fin 2) = t.val ∧ win18_0.index t (1 : Fin 2) = 0
    ∧ win18_1.index t (0 : Fin 2) = t.val ∧ win18_1.index t (1 : Fin 2) = 0
    ∧ win18_2.index t (0 : Fin 2) = t.val ∧ win18_2.index t (1 : Fin 2) = 0
    ∧ win18_3.index t (0 : Fin 2) = 0 ∧ win18_3.index t (1 : Fin 2) = 0
    ∧ win18_4.index t (0 : Fin 2) = 0 ∧ win18_4.index t (1 : Fin 2) = 0
    ∧ win18_5.index t (0 : Fin 2) = t.val ∧ win18_5.index t (1 : Fin 2) = 0 :=
  (by decide +kernel : ∀ t : Fin grid18.N, _)

/-- Row `p` of point `t`'s block is row `2000·t + p` of the array. -/
def row (t : Fin cfg18.N) (p : Fin 2000) : Fin 100000 :=
  ⟨t.val * 2000 + p.val, by have ht : t.val < 50 := t.isLt; have hp := p.isLt; omega⟩

theorem emb_0 (t : Fin cfg18.N) (p : Fin 2000) (k : Fin 32) :
    ((cfg18.win 0).blk t).view.emb (ix2 p k) = ix2 (row t p) k := by
  obtain ⟨e0, e1, -⟩ := idx t
  funext a; apply Fin.ext
  match a with
  | ⟨0, _⟩ => show win18_0.index t (0 : Fin 2) * 2000 + 1 * p.val = t.val * 2000 + p.val; omega
  | ⟨1, _⟩ => show win18_0.index t (1 : Fin 2) * 32 + 1 * k.val = k.val; omega

theorem emb_1 (t : Fin cfg18.N) (p : Fin 2000) (j : Fin 96) :
    ((cfg18.win 1).blk t).view.emb (ix2 p j) = ix2 (row t p) j := by
  obtain ⟨-, -, e0, e1, -⟩ := idx t
  funext a; apply Fin.ext
  match a with
  | ⟨0, _⟩ => show win18_1.index t (0 : Fin 2) * 2000 + 1 * p.val = t.val * 2000 + p.val; omega
  | ⟨1, _⟩ => show win18_1.index t (1 : Fin 2) * 96 + 1 * j.val = j.val; omega

theorem emb_2 (t : Fin cfg18.N) (p : Fin 2000) (q : Fin 32) :
    ((cfg18.win 2).blk t).view.emb (ix2 p q) = ix2 (row t p) q := by
  obtain ⟨-, -, -, -, e0, e1, -⟩ := idx t
  funext a; apply Fin.ext
  match a with
  | ⟨0, _⟩ => show win18_2.index t (0 : Fin 2) * 2000 + 1 * p.val = t.val * 2000 + p.val; omega
  | ⟨1, _⟩ => show win18_2.index t (1 : Fin 2) * 32 + 1 * q.val = q.val; omega

theorem emb_3 (t : Fin cfg18.N) (k : Fin 32) (j : Fin 96) :
    ((cfg18.win 3).blk t).view.emb (ix2 k j) = ix2 k j := by
  obtain ⟨-, -, -, -, -, -, e0, e1, -⟩ := idx t
  funext a; apply Fin.ext
  match a with
  | ⟨0, _⟩ => show win18_3.index t (0 : Fin 2) * 32 + 1 * k.val = k.val; omega
  | ⟨1, _⟩ => show win18_3.index t (1 : Fin 2) * 96 + 1 * j.val = j.val; omega

theorem emb_4 (t : Fin cfg18.N) (z : Fin 1) (j : Fin 96) :
    ((cfg18.win 4).blk t).view.emb (ix2 z j) = ix2 z j := by
  obtain ⟨-, -, -, -, -, -, -, -, e0, e1, -⟩ := idx t
  funext a; apply Fin.ext
  match a with
  | ⟨0, _⟩ => show win18_4.index t (0 : Fin 2) * 1 + 1 * z.val = z.val; omega
  | ⟨1, _⟩ => show win18_4.index t (1 : Fin 2) * 96 + 1 * j.val = j.val; omega

theorem emb_5 (t : Fin cfg18.N) (p : Fin 2000) (q : Fin 32) :
    ((cfg18.win 5).blk t).view.emb (ix2 p q) = ix2 (row t p) q := by
  obtain ⟨-, -, -, -, -, -, -, -, -, -, e0, e1⟩ := idx t
  funext a; apply Fin.ext
  match a with
  | ⟨0, _⟩ => show win18_5.index t (0 : Fin 2) * 2000 + 1 * p.val = t.val * 2000 + p.val; omega
  | ⟨1, _⟩ => show win18_5.index t (1 : Fin 2) * 32 + 1 * q.val = q.val; omega

/-- The gated rule at equal arguments. -/
theorem gru_congr {a1 a2 a3 a4 a5 a6 a7 b1 b2 b3 b4 b5 b6 b7 : EReal} (h1 : a1 = b1) (h2 : a2 = b2) (h3 : a3 = b3)
    (h4 : a4 = b4) (h5 : a5 = b5) (h6 : a6 = b6) (h7 : a7 = b7) :
    gru a1 a2 a3 a4 a5 a6 a7 = gru b1 b2 b3 b4 b5 b6 b7 := by rw [h1, h2, h3, h4, h5, h6, h7]

/-- The aggregate's gate pre-activation formed from point `t`'s blocks at row `p`, column `j`, is the one formed from the
    arrays at row `2000·t + p`. -/
theorem gate_at (c : Dev nD) (t : Fin cfg18.N) (p : Fin 2000) (j : Fin 96) :
    (∑ k : Fin 32, aA V c (((cfg18.win 0).blk t).view.emb (ix2 p k)) * aW V c (((cfg18.win 3).blk t).view.emb (ix2 k j)))
        + aB V c (((cfg18.win 4).blk t).view.emb (ix2 (0 : Fin 1) j))
      = (∑ k : Fin 32, aA V c (ix2 (row t p) k) * aW V c (ix2 k j)) + aB V c (ix2 (0 : Fin 1) j) := by
  refine congrArg₂ (· + ·) (Finset.sum_congr rfl fun k _ => ?_) ?_
  · rw [emb_0 t p k, emb_3 t k j]
  · rw [emb_4 t 0 j]

/-- What point `t` writes back is block `t` of the reference's update of the arrays found at entry. -/
theorem flushed_5 (c : Dev nD) (t : Fin cfg18.N) :
    (dat18 V c).flushed 5 t
      = ((cfg18.win 5).blk t).view.read (Elt Ideal)
          (rUpd (rGate (aA V c) (aW V c) (aB V c)) (aG V c) (aH V c)) := by
  show (cfg18.win 5).cut (grid18.coords t) ((dat18 V c).after 5 t) = _
  rw [after18_5]
  unfold out18_5
  rw [View.canon_unit_zero hz]
  simp only [View.ld_unit_zero (S := S2000x32) hz, View.ld_unit_zero (S := S2000x96) hz, View.ld_unit_zero (S := S32x96) hz, View.ld_unit_zero (S := S1x96) hz]
  funext j
  obtain ⟨p, q, rfl⟩ : ∃ (p : Fin 2000) (q : Fin 32), j = ix2 p q := ⟨j 0, j 1, eq_ix2 j⟩
  refine (pay_upd _ _ _ _ _ p q).trans ?_
  show _ = rUpd (rGate (aA V c) (aW V c) (aB V c)) (aG V c) (aH V c)
      (((cfg18.win 5).blk t).view.emb (ix2 p q))
  rw [emb_5 t p q, rUpd_apply, rGate_apply, rGate_apply, rGate_apply]
  refine gru_congr (gate_at V c t p (col0 q)) (gate_at V c t p (col1 q)) (gate_at V c t p (col2 q)) ?_ ?_ ?_ ?_
  · show aG V c (((cfg18.win 1).blk t).view.emb (ix2 p (col0 q))) = _
    rw [emb_1 t p (col0 q)]
  · show aG V c (((cfg18.win 1).blk t).view.emb (ix2 p (col1 q))) = _
    rw [emb_1 t p (col1 q)]
  · show aG V c (((cfg18.win 1).blk t).view.emb (ix2 p (col2 q))) = _
    rw [emb_1 t p (col2 q)]
  · show aH V c (((cfg18.win 2).blk t).view.emb (ix2 p q)) = _
    rw [emb_2 t p q]

/-- Every element of the output array is in the block of the point that holds its row. -/
theorem cover_5 (i : S100000x32.Idx) :
    ∃ t : Fin cfg18.N, (cfg18.win 5).flush t = true ∧ i ∈ ((cfg18.win 5).blk t).view.set := by
  have hi0 : (i 0).val < 100000 := (i 0).isLt
  have hi1 : (i 1).val < 32 := (i 1).isLt
  let t : Fin cfg18.N := ⟨(i 0).val / 2000, by show (i 0).val / 2000 < 50; omega⟩
  refine ⟨t, flush18_5 t, ?_⟩
  obtain ⟨-, -, -, -, -, -, -, -, -, -, e0, e1⟩ := idx t
  show i ∈ ((View.whole main_v164).slice (win18_5.rect t)).set
  rw [View.set_slice_whole, Rect.mem_set_unit]
  intro a
  match a with
  | ⟨0, _⟩ => show win18_5.index t (0 : Fin 2) * 2000 ≤ (i 0).val ∧ (i 0).val < win18_5.index t (0 : Fin 2) * 2000 + 2000
              have : t.val = (i 0).val / 2000 := rfl
              omega
  | ⟨1, _⟩ => show win18_5.index t (1 : Fin 2) * 32 ≤ (i 1).val ∧ (i 1).val < win18_5.index t (1 : Fin 2) * 32 + 32; omega

/-- The output array after the region: the reference's update, from the reference's gate pre-activation of the aggregate,
    the state gate and the state found at entry. -/
theorem out (c : Dev nD) :
    (dat18 V c).arrAt 5 cfg18.N = rUpd (rGate (V c main_v163) (V c main_v116) (V c main_v122)) (V c main_v153_1) (V c main_v150) :=
  (dat18 V c).arrAt_eq_of_cover 5 _ (fun t _ => flushed_5 V c t) cover_5

end Cert.Bridge.Reg18

end
-- ==== Proof.ChainR8.lean ====
/-
  Round 8: the contents at the entries and exits of its two regions.
-/
import proofs.«421494_j30356828848478_1_alg».proof.Proof.ChainR7
import proofs.«421494_j30356828848478_1_alg».proof.Proof.Val17
import proofs.«421494_j30356828848478_1_alg».proof.Proof.Val18

set_option maxRecDepth 16384

noncomputable section

namespace Cert.Bridge.Chain

open Idealize.ShloMosaic Idealize.ShloMosaic.TcCoe Idealize.SL.Sem
open Cert.KernelIdeal Cert.KernelIdeal.Gen Cert.Bridge

variable (m : (ℓ : Loc nD τ sig) → Buf (Elt Ideal) ℓ) (ρ : Dev nD → PrngReg)

/-! ## Boundary 35 -/

set_option maxHeartbeats 1000000 in
theorem at35_main_v1 (c : Dev nD) : W35 m ρ c (Proc.devRef .tc main_v1) = K.src (args m c).a1 := by
  show StableHlo.after hostOps17 (W34 m ρ c) (Proc.devRef .tc main_v1) = _
  simp only [hostOps17]
  after_results
  exact at34_main_v1 m ρ c
set_option maxHeartbeats 1000000 in
theorem at35_main_v3 (c : Dev nD) : W35 m ρ c (Proc.devRef .tc main_v3) = K.dst (args m c).a1 := by
  show StableHlo.after hostOps17 (W34 m ρ c) (Proc.devRef .tc main_v3) = _
  simp only [hostOps17]
  after_results
  exact at34_main_v3 m ρ c
set_option maxHeartbeats 1000000 in
theorem at35_main_v114 (c : Dev nD) : W35 m ρ c (Proc.devRef .tc main_v114) = K.gW2 (K.gT (args m c).a6) := by
  show StableHlo.after hostOps17 (W34 m ρ c) (Proc.devRef .tc main_v114) = _
  simp only [hostOps17]
  after_results
  exact at34_main_v114 m ρ c
set_option maxHeartbeats 1000000 in
theorem at35_main_v116 (c : Dev nD) : W35 m ρ c (Proc.devRef .tc main_v116) = K.gW2 (K.gT (args m c).a5) := by
  show StableHlo.after hostOps17 (W34 m ρ c) (Proc.devRef .tc main_v116) = _
  simp only [hostOps17]
  after_results
  exact at34_main_v116 m ρ c
set_option maxHeartbeats 1000000 in
theorem at35_main_v119 (c : Dev nD) : W35 m ρ c (Proc.devRef .tc main_v119) = K.gB2 (args m c).a8 := by
  show StableHlo.after hostOps17 (W34 m ρ c) (Proc.devRef .tc main_v119) = _
  simp only [hostOps17]
  after_results
  exact at34_main_v119 m ρ c
set_option maxHeartbeats 1000000 in
theorem at35_main_v122 (c : Dev nD) : W35 m ρ c (Proc.devRef .tc main_v122) = K.gB2 (args m c).a7 := by
  show StableHlo.after hostOps17 (W34 m ρ c) (Proc.devRef .tc main_v122) = _
  simp only [hostOps17]
  after_results
  exact at34_main_v122 m ρ c
set_option maxHeartbeats 1000000 in
theorem at35_main_v150 (c : Dev nD) : W35 m ρ c (Proc.devRef .tc main_v150) = kH8 (args m c) := by
  show StableHlo.after hostOps17 (W34 m ρ c) (Proc.devRef .tc main_v150) = _
  simp only [hostOps17]
  after_results
  exact at34_main_v150 m ρ c
set_option maxHeartbeats 1000000 in
theorem at35_main_v152 (c : Dev nD) : W35 m ρ c (Proc.devRef .tc main_v152) = K.conv22 (args m c).a4 := by
  show StableHlo.after hostOps17 (W34 m ρ c) (Proc.devRef .tc main_v152) = _
  simp only [hostOps17]
  after_results
  rw [at34_main_arg4 m ρ c]
  rfl

/-! ## Boundary 36 -/

theorem at36_main_v1 (c : Dev nD) : W36 m ρ c (Proc.devRef .tc main_v1) = K.src (args m c).a1 :=
  (W36_of_ne m ρ c main_v1 (by decide)).trans (at35_main_v1 m ρ c)
theorem at36_main_v3 (c : Dev nD) : W36 m ρ c (Proc.devRef .tc main_v3) = K.dst (args m c).a1 :=
  (W36_of_ne m ρ c main_v3 (by decide)).trans (at35_main_v3 m ρ c)
theorem at36_main_v116 (c : Dev nD) : W36 m ρ c (Proc.devRef .tc main_v116) = K.gW2 (K.gT (args m c).a5) :=
  (W36_of_ne m ρ c main_v116 (by decide)).trans (at35_main_v116 m ρ c)
theorem at36_main_v122 (c : Dev nD) : W36 m ρ c (Proc.devRef .tc main_v122) = K.gB2 (args m c).a7 :=
  (W36_of_ne m ρ c main_v122 (by decide)).trans (at35_main_v122 m ρ c)
theorem at36_main_v150 (c : Dev nD) : W36 m ρ c (Proc.devRef .tc main_v150) = kH8 (args m c) :=
  (W36_arr m ρ c 0).trans (((dat17 (V35 m ρ) c).arrAt_in 0 rfl _).trans ((A_eq17 (V35 m ρ) c 0).trans (at35_main_v150 m ρ c)))
theorem at36_main_v153_0 (c : Dev nD) : W36 m ρ c (Proc.devRef .tc main_v153_0) = kM8 (args m c) :=
  (W36_arr m ρ c 4).trans ((Reg17.msg (V35 m ρ) c).trans (cg2 rMsg (at35_main_v150 m ρ c) (at35_main_v152 m ρ c)))
theorem at36_main_v153_1 (c : Dev nD) : W36 m ρ c (Proc.devRef .tc main_v153_1) = kG8 (args m c) :=
  (W36_arr m ρ c 5).trans ((Reg17.gate (V35 m ρ) c).trans (cg3 rGate (at35_main_v150 m ρ c) (at35_main_v114 m ρ c) (at35_main_v119 m ρ c)))

/-! ## Boundary 37 -/

set_option maxHeartbeats 1000000 in
theorem at37_main_v116 (c : Dev nD) : W37 m ρ c (Proc.devRef .tc main_v116) = K.gW2 (K.gT (args m c).a5) := by
  show StableHlo.after hostOps18 (W36 m ρ c) (Proc.devRef .tc main_v116) = _
  simp only [hostOps18]
  after_results
  exact at36_main_v116 m ρ c
set_option maxHeartbeats 1000000 in
theorem at37_main_v122 (c : Dev nD) : W37 m ρ c (Proc.devRef .tc main_v122) = K.gB2 (args m c).a7 := by
  show StableHlo.after hostOps18 (W36 m ρ c) (Proc.devRef .tc main_v122) = _
  simp only [hostOps18]
  after_results
  exact at36_main_v122 m ρ c
set_option maxHeartbeats 1000000 in
theorem at37_main_v150 (c : Dev nD) : W37 m ρ c (Proc.devRef .tc main_v150) = kH8 (args m c) := by
  show StableHlo.after hostOps18 (W36 m ρ c) (Proc.devRef .tc main_v150) = _
  simp only [hostOps18]
  after_results
  exact at36_main_v150 m ρ c
set_option maxHeartbeats 1000000 in
theorem at37_main_v153_1 (c : Dev nD) : W37 m ρ c (Proc.devRef .tc main_v153_1) = kG8 (args m c) := by
  show StableHlo.after hostOps18 (W36 m ρ c) (Proc.devRef .tc main_v153_1) = _
  simp only [hostOps18]
  after_results
  exact at36_main_v153_1 m ρ c
set_option maxHeartbeats 1000000 in
theorem at37_main_v163 (c : Dev nD) : W37 m ρ c (Proc.devRef .tc main_v163) = kA8 (args m c) := by
  show StableHlo.after hostOps18 (W36 m ρ c) (Proc.devRef .tc main_v163) = _
  simp only [hostOps18]
  after_results
  exact (cg3 K.agg (at36_main_v153_0 m ρ c) (at36_main_v1 m ρ c) (at36_main_v3 m ρ c)).trans (agg_eq _ _ _)

/-! ## Boundary 38 -/

theorem at38_main_v164 (c : Dev nD) : W38 m ρ c (Proc.devRef .tc main_v164) = kH9 (args m c) :=
  (W38_arr m ρ c 5).trans ((Reg18.out (V37 m ρ) c).trans (cg5 (fun a w b g h => rUpd (rGate a w b) g h) (at37_main_v163 m ρ c) (at37_main_v116 m ρ c) (at37_main_v122 m ρ c) (at37_main_v153_1 m ρ c) (at37_main_v150 m ρ c)))

end Cert.Bridge.Chain

end
-- ==== Proof.RChain.lean ====
/-
  The state after each round with the small operands spelled as the reference spells them (`rH k`), and that it is the
  state of the kernel-side chain (`kH k`): round by round, each small operand of one spelling is the same array as that of
  the other, and a round is the same function of the state and its operands.
-/
import proofs.«421494_j30356828848478_1_alg».proof.Proof.KChain

noncomputable section

namespace Cert.Bridge

open Idealize.ShloMosaic

variable [Cert.KernelIdeal.Facts₀] [Cert.ReferenceIdeal.Facts₀]

/-- The first layer, the reference's spelling of its operands. -/
def rH0 (A : Args) : FVec Ideal Cert.ReferenceIdeal.S100000x32 .f32 := rLin A.a0 (R.linW A.a2) (R.linB A.a3)
/-- The state after round 0 (layer 0, step 0), the reference's spelling of its operands. -/
def rH1 (A : Args) : FVec Ideal Cert.ReferenceIdeal.S100000x32 .f32 :=
  rRound (rH0 A) (R.conv00 A.a4) (R.gW0 A.a5) (R.gW0 A.a6) (R.gB0 A.a7) (R.gB0 A.a8) (R.src A.a1) (R.dst A.a1)
/-- The state after round 1 (layer 0, step 1), the reference's spelling of its operands. -/
def rH2 (A : Args) : FVec Ideal Cert.ReferenceIdeal.S100000x32 .f32 :=
  rRound (rH1 A) (R.conv01 A.a4) (R.gW0 A.a5) (R.gW0 A.a6) (R.gB0 A.a7) (R.gB0 A.a8) (R.src A.a1) (R.dst A.a1)
/-- The state after round 2 (layer 0, step 2), the reference's spelling of its operands. -/
def rH3 (A : Args) : FVec Ideal Cert.ReferenceIdeal.S100000x32 .f32 :=
  rRound (rH2 A) (R.conv02 A.a4) (R.gW0 A.a5) (R.gW0 A.a6) (R.gB0 A.a7) (R.gB0 A.a8) (R.src A.a1) (R.dst A.a1)
/-- The state after round 3 (layer 1, step 0), the reference's spelling of its operands. -/
def rH4 (A : Args) : FVec Ideal Cert.ReferenceIdeal.S100000x32 .f32 :=
  rRound (rH3 A) (R.conv10 A.a4) (R.gW1 A.a5) (R.gW1 A.a6) (R.gB1 A.a7) (R.gB1 A.a8) (R.src A.a1) (R.dst A.a1)
/-- The state after round 4 (layer 1, step 1), the reference's spelling of its operands. -/
def rH5 (A : Args) : FVec Ideal Cert.ReferenceIdeal.S100000x32 .f32 :=
  rRound (rH4 A) (R.conv11 A.a4) (R.gW1 A.a5) (R.gW1 A.a6) (R.gB1 A.a7) (R.gB1 A.a8) (R.src A.a1) (R.dst A.a1)
/-- The state after round 5 (layer 1, step 2), the reference's spelling of its operands. -/
def rH6 (A : Args) : FVec Ideal Cert.ReferenceIdeal.S100000x32 .f32 :=
  rRound (rH5 A) (R.conv12 A.a4) (R.gW1 A.a5) (R.gW1 A.a6) (R.gB1 A.a7) (R.gB1 A.a8) (R.src A.a1) (R.dst A.a1)
/-- The state after round 6 (layer 2, step 0), the reference's spelling of its operands. -/
def rH7 (A : Args) : FVec Ideal Cert.ReferenceIdeal.S100000x32 .f32 :=
  rRound (rH6 A) (R.conv20 A.a4) (R.gW2 A.a5) (R.gW2 A.a6) (R.gB2 A.a7) (R.gB2 A.a8) (R.src A.a1) (R.dst A.a1)
/-- The state after round 7 (layer 2, step 1), the reference's spelling of its operands. -/
def rH8 (A : Args) : FVec Ideal Cert.ReferenceIdeal.S100000x32 .f32 :=
  rRound (rH7 A) (R.conv21 A.a4) (R.gW2 A.a5) (R.gW2 A.a6) (R.gB2 A.a7) (R.gB2 A.a8) (R.src A.a1) (R.dst A.a1)
/-- The state after round 8 (layer 2, step 2), the reference's spelling of its operands. -/
def rH9 (A : Args) : FVec Ideal Cert.ReferenceIdeal.S100000x32 .f32 :=
  rRound (rH8 A) (R.conv22 A.a4) (R.gW2 A.a5) (R.gW2 A.a6) (R.gB2 A.a7) (R.gB2 A.a8) (R.src A.a1) (R.dst A.a1)

theorem kH0_eq_rH0 (A : Args) : kH0 A = rH0 A := by
  unfold kH0 rH0
  rw [linW_eq, linB_eq]
theorem kH1_eq_rH1 (A : Args) : kH1 A = rH1 A := by
  rw [kH1_eq, kH0_eq_rH0]
  unfold rH1
  rw [conv00_eq, gW0_eq, gW0_eq, gB0_eq, gB0_eq, src_eq, dst_eq]
theorem kH2_eq_rH2 (A : Args) : kH2 A = rH2 A := by
  rw [kH2_eq, kH1_eq_rH1]
  unfold rH2
  rw [conv01_eq, gW0_eq, gW0_eq, gB0_eq, gB0_eq, src_eq, dst_eq]
theorem kH3_eq_rH3 (A : Args) : kH3 A = rH3 A := by
  rw [kH3_eq, kH2_eq_rH2]
  unfold rH3
  rw [conv02_eq, gW0_eq, gW0_eq, gB0_eq, gB0_eq, src_eq, dst_eq]
theorem kH4_eq_rH4 (A : Args) : kH4 A = rH4 A := by
  rw [kH4_eq, kH3_eq_rH3]
  unfold rH4
  rw [conv10_eq, gW1_eq, gW1_eq, gB1_eq, gB1_eq, src_eq, dst_eq]
theorem kH5_eq_rH5 (A : Args) : kH5 A = rH5 A := by
  rw [kH5_eq, kH4_eq_rH4]
  unfold rH5
  rw [conv11_eq, gW1_eq, gW1_eq, gB1_eq, gB1_eq, src_eq, dst_eq]
theorem kH6_eq_rH6 (A : Args) : kH6 A = rH6 A := by
  rw [kH6_eq, kH5_eq_rH5]
  unfold rH6
  rw [conv12_eq, gW1_eq, gW1_eq, gB1_eq, gB1_eq, src_eq, dst_eq]
theorem kH7_eq_rH7 (A : Args) : kH7 A = rH7 A := by
  rw [kH7_eq, kH6_eq_rH6]
  unfold rH7
  rw [conv20_eq, gW2_eq, gW2_eq, gB2_eq, gB2_eq, src_eq, dst_eq]
theorem kH8_eq_rH8 (A : Args) : kH8 A = rH8 A := by
  rw [kH8_eq, kH7_eq_rH7]
  unfold rH8
  rw [conv21_eq, gW2_eq, gW2_eq, gB2_eq, gB2_eq, src_eq, dst_eq]
theorem kH9_eq_rH9 (A : Args) : kH9 A = rH9 A := by
  rw [kH9_eq, kH8_eq_rH8]
  unfold rH9
  rw [conv22_eq, gW2_eq, gW2_eq, gB2_eq, gB2_eq, src_eq, dst_eq]

end Cert.Bridge

end
-- ==== Proof.RefRun.lean ====
/-
  The reference's run, read back. The generated run states each result as a composition of the host operations over named
  intermediate terms (the two index rows, the state after each round, and within a round the two gate pre-activations and
  the update gate). Unfolding those names round by round, the state after round `k` is `rH k` of the argument arrays — the
  first layer, then nine times one round of the network with the reference's spelling of the round's operands — and the
  result array is `rH9`.
-/
import proofs.«421494_j30356828848478_1_alg».proof.Proof.Gen.ReferenceIdeal.Run
import proofs.«421494_j30356828848478_1_alg».proof.Proof.Gen.KernelIdeal
import proofs.«421494_j30356828848478_1_alg».proof.Proof.RChain

set_option maxRecDepth 16384

noncomputable section

namespace Cert.Bridge

open Idealize.ShloMosaic Idealize.ShloMosaic.TcCoe Idealize.SL.Sem Idealize.ShloMosaic.StableHlo
open Cert.ReferenceIdeal Cert.ReferenceIdeal.Gen Cert.ReferenceIdeal.Value

/-- The nine argument arrays a launch valuation of the reference holds. -/
def rargs (V0 : Valuation τ sig (Elt Ideal)) : Args :=
  ⟨V0 (Proc.devRef .tc main_arg0), V0 (Proc.devRef .tc main_arg1), V0 (Proc.devRef .tc main_arg2),
   V0 (Proc.devRef .tc main_arg3), V0 (Proc.devRef .tc main_arg4), V0 (Proc.devRef .tc main_arg5),
   V0 (Proc.devRef .tc main_arg6), V0 (Proc.devRef .tc main_arg7), V0 (Proc.devRef .tc main_arg8)⟩

/-- The source row of the edge list, as the run names it. -/
theorem res_src (V0 : Valuation τ sig (Elt Ideal)) : res_main_v1 (F := Ideal) V0 = R.src (rargs V0).a1 := rfl

/-- The target row of the edge list, as the run names it. -/
theorem res_dst (V0 : Valuation τ sig (Elt Ideal)) : res_main_v3 (F := Ideal) V0 = R.dst (rargs V0).a1 := rfl

/-- The state after the first layer, as the run names it. -/
theorem res_h0 (V0 : Valuation τ sig (Elt Ideal)) : res_main_v8 (F := Ideal) V0 = rH0 (rargs V0) := rfl

/-- The state after round 0, as the run names it. -/
theorem res_h1 (V0 : Valuation τ sig (Elt Ideal)) : res_main_v67 (F := Ideal) V0 = rH1 (rargs V0) := by
  unfold res_main_v67 res_main_v59 res_main_v30 res_main_v39
  rw [res_src, res_dst, res_h0]
  rfl

/-- The state after round 1, as the run names it. -/
theorem res_h2 (V0 : Valuation τ sig (Elt Ideal)) : res_main_v126 (F := Ideal) V0 = rH2 (rargs V0) := by
  unfold res_main_v126 res_main_v118 res_main_v89 res_main_v98
  rw [res_src, res_dst, res_h1]
  rfl

/-- The state after round 2, as the run names it. -/
theorem res_h3 (V0 : Valuation τ sig (Elt Ideal)) : res_main_v185 (F := Ideal) V0 = rH3 (rargs V0) := by
  unfold res_main_v185 res_main_v177 res_main_v148 res_main_v157
  rw [res_src, res_dst, res_h2]
  rfl

/-- The state after round 3, as the run names it. -/
theorem res_h4 (V0 : Valuation τ sig (Elt Ideal)) : res_main_v244 (F := Ideal) V0 = rH4 (rargs V0) := by
  unfold res_main_v244 res_main_v236 res_main_v207 res_main_v216
  rw [res_src, res_dst, res_h3]
  rfl

/-- The state after round 4, as the run names it. -/
theorem res_h5 (V0 : Valuation τ sig (Elt Ideal)) : res_main_v303 (F := Ideal) V0 = rH5 (rargs V0) := by
  unfold res_main_v303 res_main_v295 res_main_v266 res_main_v275
  rw [res_src, res_dst, res_h4]
  rfl

/-- The state after round 5, as the run names it. -/
theorem res_h6 (V0 : Valuation τ sig (Elt Ideal)) : res_main_v362 (F := Ideal) V0 = rH6 (rargs V0) := by
  unfold res_main_v362 res_main_v354 res_main_v325 res_main_v334
  rw [res_src, res_dst, res_h5]
  rfl

/-- The state after round 6, as the run names it. -/
theorem res_h7 (V0 : Valuation τ sig (Elt Ideal)) : res_main_v421 (F := Ideal) V0 = rH7 (rargs V0) := by
  unfold res_main_v421 res_main_v413 res_main_v384 res_main_v393
  rw [res_src, res_dst, res_h6]
  rfl

/-- The state after round 7, as the run names it. -/
theorem res_h8 (V0 : Valuation τ sig (Elt Ideal)) : res_main_v480 (F := Ideal) V0 = rH8 (rargs V0) := by
  unfold res_main_v480 res_main_v472 res_main_v443 res_main_v452
  rw [res_src, res_dst, res_h7]
  rfl

/-- The reference's run with its result read as the state after the ninth round. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v539) = rH9 (rargs (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run (defs (F := Ideal)) _ _).mono (fun r h c => ⟨(h c).1.trans ?_, (h c).2⟩)
    (Cert.ReferenceIdeal.Value.run (F := Ideal) m ρ)
  unfold res_main_v531 res_main_v502 res_main_v511
  rw [res_src, res_dst, res_h8]
  rfl

end Cert.Bridge

end
-- ==== Proof.lean ====
/-
  The kernel program and the reference compute the same gated graph network, over the extended reals.

  Both start from the affine map `h₀ = x · Wᵀ + b` and apply nine rounds (three layers of three steps). A round forms the
  messages `h · C` (a 32 × 32 matrix per round), gathers one message row per edge at the edge's source node and sums the
  gathered rows into the edge's target node, forms the two gate pre-activations `gi = agg · W_ihᵀ + b_ih` and
  `gh = h · W_hhᵀ + b_hh`, and updates `h' = (1 - z) · n + z · h` with `r = σ(gi_r + gh_r)`, `z = σ(gi_z + gh_z)`,
  `n = tanh(gi_n + r · gh_n)`.

  The kernel program computes the affine map, the pair (messages, state gate) and the update in row blocks of 2000 on the
  device, 19 regions in all, with the gather and the sum over edges on the host between them. Each region's output array
  is the reference's whole-array term of the arrays the region finds at entry: a block element is a row-by-matrix sum, the
  same sum the host's product is at that element; rounding an operand to a shorter format is the identity on the extended
  reals; the kernel's logistic function is the expression `1 / (1 + e^(-t))` the reference spells out; and the blocks tile the
  arrays. Following the contents of every buffer still needed from the launch through the 38 boundaries of the program
  gives the result array as nine rounds of the reference's network on the first layer, with the small operands in the
  kernel program's spelling (a stack of gate weights transposed once and then sliced; a bias row flattened and reshaped).
  The reference's run gives the same nine rounds with its own spelling (a slice transposed; a bias row placed along an
  axis), and the two spellings are the same arrays. No law of arithmetic that needs finiteness is used: every sum and product
  appears in the same order on both sides.

  The three frames: the two kernel programs' by their generated frames; the reference's is its run with the result dropped.
  The idealization changed no operation, so `preserves` has nothing to state.
-/
import proofs.«421494_j30356828848478_1_alg».proof.Defs
import proofs.«421494_j30356828848478_1_alg».proof.Proof.Gen.Kernel
import proofs.«421494_j30356828848478_1_alg».proof.Proof.Gen.Kernel.Frame
import proofs.«421494_j30356828848478_1_alg».proof.Proof.Gen.KernelIdeal
import proofs.«421494_j30356828848478_1_alg».proof.Proof.Gen.KernelIdeal.Frame
import proofs.«421494_j30356828848478_1_alg».proof.Proof.Gen.ReferenceIdeal
import proofs.«421494_j30356828848478_1_alg».proof.Proof.Gen.Pre_finite_inputs
import proofs.«421494_j30356828848478_1_alg».proof.Proof.KRun
import proofs.«421494_j30356828848478_1_alg».proof.Proof.ChainR8
import proofs.«421494_j30356828848478_1_alg».proof.Proof.RefRun
import Idealize.ShloMosaic.Adequacy
import Idealize.ShloMosaic.Init

noncomputable section

namespace Cert.Proof

open Idealize.ShloMosaic Idealize.SL.Sem Cert.Bridge

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.Bridge.ref_run m ρ)

/-- From memories that agree on the nine arguments, the two programs' argument tuples are the same. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.Bridge.rargs (StableHlo.launchContents m' c) = Cert.Bridge.Chain.args m c := by
  show Cert.Bridge.Args.mk _ _ _ _ _ _ _ _ _ = Cert.Bridge.Args.mk _ _ _ _ _ _ _ _ _
  congr 1

/-- Both programs end with the result at the state after nine rounds of the network on the first layer. -/
theorem algebraic : Cert.algebraic_KernelIdeal_ReferenceIdeal := by
  intro m ρ m' ρ' _ hagree
  refine ⟨fun c => Cert.Bridge.kH9 (Cert.Bridge.Chain.args m c), ?_, ?_⟩
  · exact (θ_run Cert.KernelIdeal.defs _ _).mono
      (fun r h c => ⟨(h c).1.trans (Cert.Bridge.Chain.at38_main_v164 m ρ c), (h c).2⟩)
      (Cert.KernelIdeal.Gen.run_named m ρ)
  · refine (θ_run Cert.ReferenceIdeal.defs _ _).mono (fun r h c => ⟨(h c).1.trans ?_, (h c).2⟩)
      (Cert.Bridge.ref_run m' ρ')
    obtain ⟨h0, h1, h2, h3, h4, h5, h6, h7, h8⟩ := hagree c
    exact (congrArg Cert.Bridge.rH9 (args_eq m m' c h0 h1 h2 h3 h4 h5 h6 h7 h8)).trans
      (Cert.Bridge.kH9_eq_rH9 (Cert.Bridge.Chain.args m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
